-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x128 : Shape := ⟨2, ![262144, 128]⟩
abbrev S524288x128 : Shape := ⟨2, ![524288, 128]⟩
abbrev S524288x2 : Shape := ⟨2, ![524288, 2]⟩
abbrev S_ : Shape := ⟨0, ![]⟩

class Facts : Prop where
  bcast_S_S262144x128 : S_.BroadcastsInDim S262144x128 (![] : Fin 0 → Fin S262144x128.rank)
  reducesTo_S262144x128_S_d0_1 : S262144x128.ReducesTo [0, 1] S_
  h_S_ : 0 < S_.numel
  bcast_S_S524288x128 : S_.BroadcastsInDim S524288x128 (![] : Fin 0 → Fin S524288x128.rank)
  reducesTo_S524288x128_S_d0_1 : S524288x128.ReducesTo [0, 1] S_
  bcast_S_S524288x2 : S_.BroadcastsInDim S524288x2 (![] : Fin 0 → Fin S524288x2.rank)
  reducesTo_S524288x2_S_d0_1 : S524288x2.ReducesTo [0, 1] S_

variable [Facts]

def fn {F : FTy → Type} [FloatOps F] (main_arg0 : FVec F S262144x128 .f32) (main_arg1 : FVec F S524288x128 .f32) (main_arg2 : IVec S524288x2 32) : IVec S_ 1 :=
  let main_v0 : FVec F S262144x128 .f32 := Host.absf main_arg0
  let main_cst : FVec F S_ .f32 := constant S_ .f32 0x7F800000#32
  let main_v1 : FVec F S262144x128 .f32 := broadcastInDim S262144x128 ![] bcast_S_S262144x128 main_cst
  let main_v2 : IVec S262144x128 1 := cmpf .olt main_v0 main_v1
  let main_c : IVec S_ 1 := constantI S_ 1 1#1
  let main_v3 : IVec S_ 1 := (fun x v => Host.reduce IntOp.andi x v reducesTo_S262144x128_S_d0_1 h_S_) main_v2 main_c
  let main_v4 : FVec F S524288x128 .f32 := Host.absf main_arg1
  let main_cst_0 : FVec F S_ .f32 := constant S_ .f32 0x7F800000#32
  let main_v5 : FVec F S524288x128 .f32 := broadcastInDim S524288x128 ![] bcast_S_S524288x128 main_cst_0
  let main_v6 : IVec S524288x128 1 := cmpf .olt main_v4 main_v5
  let main_c_1 : IVec S_ 1 := constantI S_ 1 1#1
  let main_v7 : IVec S_ 1 := (fun x v => Host.reduce IntOp.andi x v reducesTo_S524288x128_S_d0_1 h_S_) main_v6 main_c_1
  let main_v8 : IVec S_ 1 := andi main_v3 main_v7
  let main_c_2 : IVec S_ 32 := constantI S_ 32 0#32
  let main_v9 : IVec S524288x2 32 := broadcastInDim S524288x2 ![] bcast_S_S524288x2 main_c_2
  let main_v10 : IVec S524288x2 1 := cmpi .sge main_arg2 main_v9
  let main_c_3 : IVec S_ 32 := constantI S_ 32 262144#32
  let main_v11 : IVec S524288x2 32 := broadcastInDim S524288x2 ![] bcast_S_S524288x2 main_c_3
  let main_v12 : IVec S524288x2 1 := cmpi .slt main_arg2 main_v11
  let main_v13 : IVec S524288x2 1 := andi main_v10 main_v12
  let main_c_4 : IVec S_ 1 := constantI S_ 1 1#1
  let main_v14 : IVec S_ 1 := (fun x v => Host.reduce IntOp.andi x v reducesTo_S524288x2_S_d0_1 h_S_) main_v13 main_c_4
  let main_v15 : IVec S_ 1 := andi main_v8 main_v14
  main_v15
-- ==== Kernel.lean ====
abbrev S262144x128 : Shape := ⟨2, ![262144, 128]⟩
abbrev S524288x128 : Shape := ⟨2, ![524288, 128]⟩
abbrev S524288x2 : Shape := ⟨2, ![524288, 2]⟩
abbrev S524288x1 : Shape := ⟨2, ![524288, 1]⟩
abbrev S524288 : Shape := ⟨1, ![524288]⟩
abbrev S524288x384 : Shape := ⟨2, ![524288, 384]⟩
abbrev S128 : Shape := ⟨1, ![128]⟩
abbrev S128x128 : Shape := ⟨2, ![128, 128]⟩
abbrev S128x384 : Shape := ⟨2, ![128, 384]⟩
abbrev S16 : Shape := ⟨1, ![16]⟩
abbrev S1 : Shape := ⟨1, ![1]⟩
abbrev S_ : Shape := ⟨0, ![]⟩
abbrev S1x128 : Shape := ⟨2, ![1, 128]⟩

abbrev nBuf : Space → Nat
  | .hbm => 8
  | .vmem => 6
  | .smem => 4
  | _ => 0

abbrev bufTy : (tb : Table) → Fin (tcTables nBuf tb) → BufTy
  | .hbm, ⟨0, _⟩ => ⟨S262144x128, .f32⟩
  | .hbm, ⟨1, _⟩ => ⟨S524288x128, .f32⟩
  | .hbm, ⟨2, _⟩ => ⟨S524288x2, .i32⟩
  | .hbm, ⟨3, _⟩ => ⟨S524288x1, .i32⟩
  | .hbm, ⟨4, _⟩ => ⟨S524288, .i32⟩
  | .hbm, ⟨5, _⟩ => ⟨S524288x1, .i32⟩
  | .hbm, ⟨6, _⟩ => ⟨S524288, .i32⟩
  | .hbm, ⟨7, _⟩ => ⟨S524288x384, .f32⟩
  | .local _ .vmem, ⟨0, _⟩ => ⟨S128x128, .f32⟩
  | .local _ .vmem, ⟨1, _⟩ => ⟨S128x128, .f32⟩
  | .local _ .vmem, ⟨2, _⟩ => ⟨S128x384, .f32⟩
  | .local _ .vmem, ⟨3, _⟩ => ⟨S128x384, .f32⟩
  | .local _ .vmem, ⟨4, _⟩ => ⟨S128x128, .f32⟩
  | .local _ .vmem, ⟨5, _⟩ => ⟨S128x128, .f32⟩
  | .local _ .smem, ⟨0, _⟩ => ⟨S128, .i32⟩
  | .local _ .smem, ⟨1, _⟩ => ⟨S128, .i32⟩
  | .local _ .smem, ⟨2, _⟩ => ⟨S128, .i32⟩
  | .local _ .smem, ⟨3, _⟩ => ⟨S128, .i32⟩
  | _, _ => ⟨S262144x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨0, _⟩ => true
  | .smem, ⟨1, _⟩ => true
  | .smem, ⟨2, _⟩ => true
  | .smem, ⟨3, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg2_0 : Ref sig .tc := ⟨.vmem, 0, rfl⟩
abbrev cc0_stg2_1 : Ref sig .tc := ⟨.vmem, 1, rfl⟩
abbrev cc0_stg3_0 : Ref sig .tc := ⟨.vmem, 2, rfl⟩
abbrev cc0_stg3_1 : Ref sig .tc := ⟨.vmem, 3, rfl⟩
abbrev cc0_scratch0 : Ref sig .tc := ⟨.vmem, 4, rfl⟩
abbrev cc0_scratch1 : Ref sig .tc := ⟨.vmem, 5, rfl⟩
abbrev cc0_stg0_0 : Ref sig .tc := ⟨.smem, 0, rfl⟩
abbrev cc0_stg0_1 : Ref sig .tc := ⟨.smem, 1, rfl⟩
abbrev cc0_stg1_0 : Ref sig .tc := ⟨.smem, 2, rfl⟩
abbrev cc0_stg1_1 : Ref sig .tc := ⟨.smem, 3, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![4096], ![false]⟩

def k0_off1 (v0 : BitVec 32) : Fin 2 → Nat :=
  let c0_i32_3 : BitVec 32 := 0#32
  ![v0.toNat, 0]

def k0_off2 (v1 : BitVec 32) : Fin 2 → Nat :=
  let c0_i32_7 : BitVec 32 := 0#32
  ![v1.toNat, 0]

def k0_off3 (v14 : BitVec 32) : Fin 2 → Nat :=
  let c0_i32_11 : BitVec 32 := 0#32
  ![v14.toNat, 0]

def k0_off4 (v15 : BitVec 32) : Fin 2 → Nat :=
  let c0_i32_15 : BitVec 32 := 0#32
  ![v15.toNat, 0]

def k0_off5 (v28 : BitVec 32) : Fin 2 → Nat :=
  let c0_i32_19 : BitVec 32 := 0#32
  ![v28.toNat, 0]

def k0_off6 (v29 : BitVec 32) : Fin 2 → Nat :=
  let c0_i32_23 : BitVec 32 := 0#32
  ![v29.toNat, 0]

def k0_off7 (v42 : BitVec 32) : Fin 2 → Nat :=
  let c0_i32_27 : BitVec 32 := 0#32
  ![v42.toNat, 0]

def k0_off8 (v43 : BitVec 32) : Fin 2 → Nat :=
  let c0_i32_31 : BitVec 32 := 0#32
  ![v43.toNat, 0]

def k0_off9 (v56 : BitVec 32) : Fin 2 → Nat :=
  let c0_i32_35 : BitVec 32 := 0#32
  ![v56.toNat, 0]

def k0_off10 (v57 : BitVec 32) : Fin 2 → Nat :=
  let c0_i32_39 : BitVec 32 := 0#32
  ![v57.toNat, 0]

def k0_off11 (v70 : BitVec 32) : Fin 2 → Nat :=
  let c0_i32_43 : BitVec 32 := 0#32
  ![v70.toNat, 0]

def k0_off12 (v71 : BitVec 32) : Fin 2 → Nat :=
  let c0_i32_47 : BitVec 32 := 0#32
  ![v71.toNat, 0]

def k0_off13 (v84 : BitVec 32) : Fin 2 → Nat :=
  let c0_i32_51 : BitVec 32 := 0#32
  ![v84.toNat, 0]

def k0_off14 (v85 : BitVec 32) : Fin 2 → Nat :=
  let c0_i32_55 : BitVec 32 := 0#32
  ![v85.toNat, 0]

def k0_off15 (v98 : BitVec 32) : Fin 2 → Nat :=
  let c0_i32_59 : BitVec 32 := 0#32
  ![v98.toNat, 0]

def k0_off16 (v99 : BitVec 32) : Fin 2 → Nat :=
  let c0_i32_63 : BitVec 32 := 0#32
  ![v99.toNat, 0]

def k0_off17 (v112 : BitVec 32) : Fin 2 → Nat :=
  let c0_i32_67 : BitVec 32 := 0#32
  ![v112.toNat, 0]

def k0_off18 (v113 : BitVec 32) : Fin 2 → Nat :=
  let c0_i32_71 : BitVec 32 := 0#32
  ![v113.toNat, 0]

def k0_off19 (v126 : BitVec 32) : Fin 2 → Nat :=
  let c0_i32_75 : BitVec 32 := 0#32
  ![v126.toNat, 0]

def k0_off20 (v127 : BitVec 32) : Fin 2 → Nat :=
  let c0_i32_79 : BitVec 32 := 0#32
  ![v127.toNat, 0]

def k0_off21 (v140 : BitVec 32) : Fin 2 → Nat :=
  let c0_i32_83 : BitVec 32 := 0#32
  ![v140.toNat, 0]

def k0_off22 (v141 : BitVec 32) : Fin 2 → Nat :=
  let c0_i32_87 : BitVec 32 := 0#32
  ![v141.toNat, 0]

def k0_off23 (v154 : BitVec 32) : Fin 2 → Nat :=
  let c0_i32_91 : BitVec 32 := 0#32
  ![v154.toNat, 0]

def k0_off24 (v155 : BitVec 32) : Fin 2 → Nat :=
  let c0_i32_95 : BitVec 32 := 0#32
  ![v155.toNat, 0]

def k0_off25 (v168 : BitVec 32) : Fin 2 → Nat :=
  let c0_i32_99 : BitVec 32 := 0#32
  ![v168.toNat, 0]

def k0_off26 (v169 : BitVec 32) : Fin 2 → Nat :=
  let c0_i32_103 : BitVec 32 := 0#32
  ![v169.toNat, 0]

def k0_off27 (v182 : BitVec 32) : Fin 2 → Nat :=
  let c0_i32_107 : BitVec 32 := 0#32
  ![v182.toNat, 0]

def k0_off28 (v183 : BitVec 32) : Fin 2 → Nat :=
  let c0_i32_111 : BitVec 32 := 0#32
  ![v183.toNat, 0]

def k0_off29 (v196 : BitVec 32) : Fin 2 → Nat :=
  let c0_i32_115 : BitVec 32 := 0#32
  ![v196.toNat, 0]

def k0_off30 (v197 : BitVec 32) : Fin 2 → Nat :=
  let c0_i32_119 : BitVec 32 := 0#32
  ![v197.toNat, 0]

def k0_off31 (v210 : BitVec 32) : Fin 2 → Nat :=
  let c0_i32_123 : BitVec 32 := 0#32
  ![v210.toNat, 0]

def k0_off32 (v211 : BitVec 32) : Fin 2 → Nat :=
  let c0_i32_127 : BitVec 32 := 0#32
  ![v211.toNat, 0]

def k0_chk32 (v211 : BitVec 32) : Prop :=
  (∀ a, (k0_off32 v211) a + S1x128.size a ≤ S262144x128.size a)
instance k0_chk32.dec : ∀ (v211 : BitVec 32), Decidable (k0_chk32 v211) := fun v211 => decidable_of_iff' _ (Iff.of_eq (k0_chk32.eq_1 v211))
theorem k0_off32_inb : ∀ (v211 : BitVec 32) (k0_hw32 : k0_chk32 v211), ∀ a, (k0_off32 v211) a + S1x128.size a ≤ S262144x128.size a := fun v211 k0_hw32 => k0_hw32

def k0_off33 (v0 : BitVec 32) : Fin 2 → Nat :=
  let c0_i32_131 : BitVec 32 := 0#32
  ![v0.toNat, 0]

def k0_chk1 (v0 : BitVec 32) : Prop :=
  (∀ a, (k0_off1 v0) a + S1x128.size a ≤ S262144x128.size a) ∧
  (∀ a, (k0_off33 v0) a + S1x128.size a ≤ S262144x128.size a)
instance k0_chk1.dec : ∀ (v0 : BitVec 32), Decidable (k0_chk1 v0) := fun v0 => decidable_of_iff' _ (Iff.of_eq (k0_chk1.eq_1 v0))
theorem k0_off1_inb : ∀ (v0 : BitVec 32) (k0_hw1 : k0_chk1 v0), ∀ a, (k0_off1 v0) a + S1x128.size a ≤ S262144x128.size a := fun v0 k0_hw1 => k0_hw1.1
theorem k0_off33_inb : ∀ (v0 : BitVec 32) (k0_hw1 : k0_chk1 v0), ∀ a, (k0_off33 v0) a + S1x128.size a ≤ S262144x128.size a := fun v0 k0_hw1 => k0_hw1.2

def k0_off34 (v1 : BitVec 32) : Fin 2 → Nat :=
  let c0_i32_135 : BitVec 32 := 0#32
  ![v1.toNat, 0]

def k0_chk2 (v1 : BitVec 32) : Prop :=
  (∀ a, (k0_off2 v1) a + S1x128.size a ≤ S262144x128.size a) ∧
  (∀ a, (k0_off34 v1) a + S1x128.size a ≤ S262144x128.size a)
instance k0_chk2.dec : ∀ (v1 : BitVec 32), Decidable (k0_chk2 v1) := fun v1 => decidable_of_iff' _ (Iff.of_eq (k0_chk2.eq_1 v1))
theorem k0_off2_inb : ∀ (v1 : BitVec 32) (k0_hw2 : k0_chk2 v1), ∀ a, (k0_off2 v1) a + S1x128.size a ≤ S262144x128.size a := fun v1 k0_hw2 => k0_hw2.1
theorem k0_off34_inb : ∀ (v1 : BitVec 32) (k0_hw2 : k0_chk2 v1), ∀ a, (k0_off34 v1) a + S1x128.size a ≤ S262144x128.size a := fun v1 k0_hw2 => k0_hw2.2

def k0_off35 (v14 : BitVec 32) : Fin 2 → Nat :=
  let c0_i32_139 : BitVec 32 := 0#32
  ![v14.toNat, 0]

def k0_chk3 (v14 : BitVec 32) : Prop :=
  (∀ a, (k0_off3 v14) a + S1x128.size a ≤ S262144x128.size a) ∧
  (∀ a, (k0_off35 v14) a + S1x128.size a ≤ S262144x128.size a)
instance k0_chk3.dec : ∀ (v14 : BitVec 32), Decidable (k0_chk3 v14) := fun v14 => decidable_of_iff' _ (Iff.of_eq (k0_chk3.eq_1 v14))
theorem k0_off3_inb : ∀ (v14 : BitVec 32) (k0_hw3 : k0_chk3 v14), ∀ a, (k0_off3 v14) a + S1x128.size a ≤ S262144x128.size a := fun v14 k0_hw3 => k0_hw3.1
theorem k0_off35_inb : ∀ (v14 : BitVec 32) (k0_hw3 : k0_chk3 v14), ∀ a, (k0_off35 v14) a + S1x128.size a ≤ S262144x128.size a := fun v14 k0_hw3 => k0_hw3.2

def k0_off36 (v15 : BitVec 32) : Fin 2 → Nat :=
  let c0_i32_143 : BitVec 32 := 0#32
  ![v15.toNat, 0]

def k0_chk4 (v15 : BitVec 32) : Prop :=
  (∀ a, (k0_off4 v15) a + S1x128.size a ≤ S262144x128.size a) ∧
  (∀ a, (k0_off36 v15) a + S1x128.size a ≤ S262144x128.size a)
instance k0_chk4.dec : ∀ (v15 : BitVec 32), Decidable (k0_chk4 v15) := fun v15 => decidable_of_iff' _ (Iff.of_eq (k0_chk4.eq_1 v15))
theorem k0_off4_inb : ∀ (v15 : BitVec 32) (k0_hw4 : k0_chk4 v15), ∀ a, (k0_off4 v15) a + S1x128.size a ≤ S262144x128.size a := fun v15 k0_hw4 => k0_hw4.1
theorem k0_off36_inb : ∀ (v15 : BitVec 32) (k0_hw4 : k0_chk4 v15), ∀ a, (k0_off36 v15) a + S1x128.size a ≤ S262144x128.size a := fun v15 k0_hw4 => k0_hw4.2

def k0_off37 (v28 : BitVec 32) : Fin 2 → Nat :=
  let c0_i32_147 : BitVec 32 := 0#32
  ![v28.toNat, 0]

def k0_chk5 (v28 : BitVec 32) : Prop :=
  (∀ a, (k0_off5 v28) a + S1x128.size a ≤ S262144x128.size a) ∧
  (∀ a, (k0_off37 v28) a + S1x128.size a ≤ S262144x128.size a)
instance k0_chk5.dec : ∀ (v28 : BitVec 32), Decidable (k0_chk5 v28) := fun v28 => decidable_of_iff' _ (Iff.of_eq (k0_chk5.eq_1 v28))
theorem k0_off5_inb : ∀ (v28 : BitVec 32) (k0_hw5 : k0_chk5 v28), ∀ a, (k0_off5 v28) a + S1x128.size a ≤ S262144x128.size a := fun v28 k0_hw5 => k0_hw5.1
theorem k0_off37_inb : ∀ (v28 : BitVec 32) (k0_hw5 : k0_chk5 v28), ∀ a, (k0_off37 v28) a + S1x128.size a ≤ S262144x128.size a := fun v28 k0_hw5 => k0_hw5.2

def k0_off38 (v29 : BitVec 32) : Fin 2 → Nat :=
  let c0_i32_151 : BitVec 32 := 0#32
  ![v29.toNat, 0]

def k0_chk6 (v29 : BitVec 32) : Prop :=
  (∀ a, (k0_off6 v29) a + S1x128.size a ≤ S262144x128.size a) ∧
  (∀ a, (k0_off38 v29) a + S1x128.size a ≤ S262144x128.size a)
instance k0_chk6.dec : ∀ (v29 : BitVec 32), Decidable (k0_chk6 v29) := fun v29 => decidable_of_iff' _ (Iff.of_eq (k0_chk6.eq_1 v29))
theorem k0_off6_inb : ∀ (v29 : BitVec 32) (k0_hw6 : k0_chk6 v29), ∀ a, (k0_off6 v29) a + S1x128.size a ≤ S262144x128.size a := fun v29 k0_hw6 => k0_hw6.1
theorem k0_off38_inb : ∀ (v29 : BitVec 32) (k0_hw6 : k0_chk6 v29), ∀ a, (k0_off38 v29) a + S1x128.size a ≤ S262144x128.size a := fun v29 k0_hw6 => k0_hw6.2

def k0_off39 (v42 : BitVec 32) : Fin 2 → Nat :=
  let c0_i32_155 : BitVec 32 := 0#32
  ![v42.toNat, 0]

def k0_chk7 (v42 : BitVec 32) : Prop :=
  (∀ a, (k0_off7 v42) a + S1x128.size a ≤ S262144x128.size a) ∧
  (∀ a, (k0_off39 v42) a + S1x128.size a ≤ S262144x128.size a)
instance k0_chk7.dec : ∀ (v42 : BitVec 32), Decidable (k0_chk7 v42) := fun v42 => decidable_of_iff' _ (Iff.of_eq (k0_chk7.eq_1 v42))
theorem k0_off7_inb : ∀ (v42 : BitVec 32) (k0_hw7 : k0_chk7 v42), ∀ a, (k0_off7 v42) a + S1x128.size a ≤ S262144x128.size a := fun v42 k0_hw7 => k0_hw7.1
theorem k0_off39_inb : ∀ (v42 : BitVec 32) (k0_hw7 : k0_chk7 v42), ∀ a, (k0_off39 v42) a + S1x128.size a ≤ S262144x128.size a := fun v42 k0_hw7 => k0_hw7.2

def k0_off40 (v43 : BitVec 32) : Fin 2 → Nat :=
  let c0_i32_159 : BitVec 32 := 0#32
  ![v43.toNat, 0]

def k0_chk8 (v43 : BitVec 32) : Prop :=
  (∀ a, (k0_off8 v43) a + S1x128.size a ≤ S262144x128.size a) ∧
  (∀ a, (k0_off40 v43) a + S1x128.size a ≤ S262144x128.size a)
instance k0_chk8.dec : ∀ (v43 : BitVec 32), Decidable (k0_chk8 v43) := fun v43 => decidable_of_iff' _ (Iff.of_eq (k0_chk8.eq_1 v43))
theorem k0_off8_inb : ∀ (v43 : BitVec 32) (k0_hw8 : k0_chk8 v43), ∀ a, (k0_off8 v43) a + S1x128.size a ≤ S262144x128.size a := fun v43 k0_hw8 => k0_hw8.1
theorem k0_off40_inb : ∀ (v43 : BitVec 32) (k0_hw8 : k0_chk8 v43), ∀ a, (k0_off40 v43) a + S1x128.size a ≤ S262144x128.size a := fun v43 k0_hw8 => k0_hw8.2

def k0_off41 (v56 : BitVec 32) : Fin 2 → Nat :=
  let c0_i32_163 : BitVec 32 := 0#32
  ![v56.toNat, 0]

def k0_chk9 (v56 : BitVec 32) : Prop :=
  (∀ a, (k0_off9 v56) a + S1x128.size a ≤ S262144x128.size a) ∧
  (∀ a, (k0_off41 v56) a + S1x128.size a ≤ S262144x128.size a)
instance k0_chk9.dec : ∀ (v56 : BitVec 32), Decidable (k0_chk9 v56) := fun v56 => decidable_of_iff' _ (Iff.of_eq (k0_chk9.eq_1 v56))
theorem k0_off9_inb : ∀ (v56 : BitVec 32) (k0_hw9 : k0_chk9 v56), ∀ a, (k0_off9 v56) a + S1x128.size a ≤ S262144x128.size a := fun v56 k0_hw9 => k0_hw9.1
theorem k0_off41_inb : ∀ (v56 : BitVec 32) (k0_hw9 : k0_chk9 v56), ∀ a, (k0_off41 v56) a + S1x128.size a ≤ S262144x128.size a := fun v56 k0_hw9 => k0_hw9.2

def k0_off42 (v57 : BitVec 32) : Fin 2 → Nat :=
  let c0_i32_167 : BitVec 32 := 0#32
  ![v57.toNat, 0]

def k0_chk10 (v57 : BitVec 32) : Prop :=
  (∀ a, (k0_off10 v57) a + S1x128.size a ≤ S262144x128.size a) ∧
  (∀ a, (k0_off42 v57) a + S1x128.size a ≤ S262144x128.size a)
instance k0_chk10.dec : ∀ (v57 : BitVec 32), Decidable (k0_chk10 v57) := fun v57 => decidable_of_iff' _ (Iff.of_eq (k0_chk10.eq_1 v57))
theorem k0_off10_inb : ∀ (v57 : BitVec 32) (k0_hw10 : k0_chk10 v57), ∀ a, (k0_off10 v57) a + S1x128.size a ≤ S262144x128.size a := fun v57 k0_hw10 => k0_hw10.1
theorem k0_off42_inb : ∀ (v57 : BitVec 32) (k0_hw10 : k0_chk10 v57), ∀ a, (k0_off42 v57) a + S1x128.size a ≤ S262144x128.size a := fun v57 k0_hw10 => k0_hw10.2

def k0_off43 (v70 : BitVec 32) : Fin 2 → Nat :=
  let c0_i32_171 : BitVec 32 := 0#32
  ![v70.toNat, 0]

def k0_chk11 (v70 : BitVec 32) : Prop :=
  (∀ a, (k0_off11 v70) a + S1x128.size a ≤ S262144x128.size a) ∧
  (∀ a, (k0_off43 v70) a + S1x128.size a ≤ S262144x128.size a)
instance k0_chk11.dec : ∀ (v70 : BitVec 32), Decidable (k0_chk11 v70) := fun v70 => decidable_of_iff' _ (Iff.of_eq (k0_chk11.eq_1 v70))
theorem k0_off11_inb : ∀ (v70 : BitVec 32) (k0_hw11 : k0_chk11 v70), ∀ a, (k0_off11 v70) a + S1x128.size a ≤ S262144x128.size a := fun v70 k0_hw11 => k0_hw11.1
theorem k0_off43_inb : ∀ (v70 : BitVec 32) (k0_hw11 : k0_chk11 v70), ∀ a, (k0_off43 v70) a + S1x128.size a ≤ S262144x128.size a := fun v70 k0_hw11 => k0_hw11.2

def k0_off44 (v71 : BitVec 32) : Fin 2 → Nat :=
  let c0_i32_175 : BitVec 32 := 0#32
  ![v71.toNat, 0]

def k0_chk12 (v71 : BitVec 32) : Prop :=
  (∀ a, (k0_off12 v71) a + S1x128.size a ≤ S262144x128.size a) ∧
  (∀ a, (k0_off44 v71) a + S1x128.size a ≤ S262144x128.size a)
instance k0_chk12.dec : ∀ (v71 : BitVec 32), Decidable (k0_chk12 v71) := fun v71 => decidable_of_iff' _ (Iff.of_eq (k0_chk12.eq_1 v71))
theorem k0_off12_inb : ∀ (v71 : BitVec 32) (k0_hw12 : k0_chk12 v71), ∀ a, (k0_off12 v71) a + S1x128.size a ≤ S262144x128.size a := fun v71 k0_hw12 => k0_hw12.1
theorem k0_off44_inb : ∀ (v71 : BitVec 32) (k0_hw12 : k0_chk12 v71), ∀ a, (k0_off44 v71) a + S1x128.size a ≤ S262144x128.size a := fun v71 k0_hw12 => k0_hw12.2

def k0_off45 (v84 : BitVec 32) : Fin 2 → Nat :=
  let c0_i32_179 : BitVec 32 := 0#32
  ![v84.toNat, 0]

def k0_chk13 (v84 : BitVec 32) : Prop :=
  (∀ a, (k0_off13 v84) a + S1x128.size a ≤ S262144x128.size a) ∧
  (∀ a, (k0_off45 v84) a + S1x128.size a ≤ S262144x128.size a)
instance k0_chk13.dec : ∀ (v84 : BitVec 32), Decidable (k0_chk13 v84) := fun v84 => decidable_of_iff' _ (Iff.of_eq (k0_chk13.eq_1 v84))
theorem k0_off13_inb : ∀ (v84 : BitVec 32) (k0_hw13 : k0_chk13 v84), ∀ a, (k0_off13 v84) a + S1x128.size a ≤ S262144x128.size a := fun v84 k0_hw13 => k0_hw13.1
theorem k0_off45_inb : ∀ (v84 : BitVec 32) (k0_hw13 : k0_chk13 v84), ∀ a, (k0_off45 v84) a + S1x128.size a ≤ S262144x128.size a := fun v84 k0_hw13 => k0_hw13.2

def k0_off46 (v85 : BitVec 32) : Fin 2 → Nat :=
  let c0_i32_183 : BitVec 32 := 0#32
  ![v85.toNat, 0]

def k0_chk14 (v85 : BitVec 32) : Prop :=
  (∀ a, (k0_off14 v85) a + S1x128.size a ≤ S262144x128.size a) ∧
  (∀ a, (k0_off46 v85) a + S1x128.size a ≤ S262144x128.size a)
instance k0_chk14.dec : ∀ (v85 : BitVec 32), Decidable (k0_chk14 v85) := fun v85 => decidable_of_iff' _ (Iff.of_eq (k0_chk14.eq_1 v85))
theorem k0_off14_inb : ∀ (v85 : BitVec 32) (k0_hw14 : k0_chk14 v85), ∀ a, (k0_off14 v85) a + S1x128.size a ≤ S262144x128.size a := fun v85 k0_hw14 => k0_hw14.1
theorem k0_off46_inb : ∀ (v85 : BitVec 32) (k0_hw14 : k0_chk14 v85), ∀ a, (k0_off46 v85) a + S1x128.size a ≤ S262144x128.size a := fun v85 k0_hw14 => k0_hw14.2

def k0_off47 (v98 : BitVec 32) : Fin 2 → Nat :=
  let c0_i32_187 : BitVec 32 := 0#32
  ![v98.toNat, 0]

def k0_chk15 (v98 : BitVec 32) : Prop :=
  (∀ a, (k0_off15 v98) a + S1x128.size a ≤ S262144x128.size a) ∧
  (∀ a, (k0_off47 v98) a + S1x128.size a ≤ S262144x128.size a)
instance k0_chk15.dec : ∀ (v98 : BitVec 32), Decidable (k0_chk15 v98) := fun v98 => decidable_of_iff' _ (Iff.of_eq (k0_chk15.eq_1 v98))
theorem k0_off15_inb : ∀ (v98 : BitVec 32) (k0_hw15 : k0_chk15 v98), ∀ a, (k0_off15 v98) a + S1x128.size a ≤ S262144x128.size a := fun v98 k0_hw15 => k0_hw15.1
theorem k0_off47_inb : ∀ (v98 : BitVec 32) (k0_hw15 : k0_chk15 v98), ∀ a, (k0_off47 v98) a + S1x128.size a ≤ S262144x128.size a := fun v98 k0_hw15 => k0_hw15.2

def k0_off48 (v99 : BitVec 32) : Fin 2 → Nat :=
  let c0_i32_191 : BitVec 32 := 0#32
  ![v99.toNat, 0]

def k0_chk16 (v99 : BitVec 32) : Prop :=
  (∀ a, (k0_off16 v99) a + S1x128.size a ≤ S262144x128.size a) ∧
  (∀ a, (k0_off48 v99) a + S1x128.size a ≤ S262144x128.size a)
instance k0_chk16.dec : ∀ (v99 : BitVec 32), Decidable (k0_chk16 v99) := fun v99 => decidable_of_iff' _ (Iff.of_eq (k0_chk16.eq_1 v99))
theorem k0_off16_inb : ∀ (v99 : BitVec 32) (k0_hw16 : k0_chk16 v99), ∀ a, (k0_off16 v99) a + S1x128.size a ≤ S262144x128.size a := fun v99 k0_hw16 => k0_hw16.1
theorem k0_off48_inb : ∀ (v99 : BitVec 32) (k0_hw16 : k0_chk16 v99), ∀ a, (k0_off48 v99) a + S1x128.size a ≤ S262144x128.size a := fun v99 k0_hw16 => k0_hw16.2

def k0_off49 (v112 : BitVec 32) : Fin 2 → Nat :=
  let c0_i32_195 : BitVec 32 := 0#32
  ![v112.toNat, 0]

def k0_chk17 (v112 : BitVec 32) : Prop :=
  (∀ a, (k0_off17 v112) a + S1x128.size a ≤ S262144x128.size a) ∧
  (∀ a, (k0_off49 v112) a + S1x128.size a ≤ S262144x128.size a)
instance k0_chk17.dec : ∀ (v112 : BitVec 32), Decidable (k0_chk17 v112) := fun v112 => decidable_of_iff' _ (Iff.of_eq (k0_chk17.eq_1 v112))
theorem k0_off17_inb : ∀ (v112 : BitVec 32) (k0_hw17 : k0_chk17 v112), ∀ a, (k0_off17 v112) a + S1x128.size a ≤ S262144x128.size a := fun v112 k0_hw17 => k0_hw17.1
theorem k0_off49_inb : ∀ (v112 : BitVec 32) (k0_hw17 : k0_chk17 v112), ∀ a, (k0_off49 v112) a + S1x128.size a ≤ S262144x128.size a := fun v112 k0_hw17 => k0_hw17.2

def k0_off50 (v113 : BitVec 32) : Fin 2 → Nat :=
  let c0_i32_199 : BitVec 32 := 0#32
  ![v113.toNat, 0]

def k0_chk18 (v113 : BitVec 32) : Prop :=
  (∀ a, (k0_off18 v113) a + S1x128.size a ≤ S262144x128.size a) ∧
  (∀ a, (k0_off50 v113) a + S1x128.size a ≤ S262144x128.size a)
instance k0_chk18.dec : ∀ (v113 : BitVec 32), Decidable (k0_chk18 v113) := fun v113 => decidable_of_iff' _ (Iff.of_eq (k0_chk18.eq_1 v113))
theorem k0_off18_inb : ∀ (v113 : BitVec 32) (k0_hw18 : k0_chk18 v113), ∀ a, (k0_off18 v113) a + S1x128.size a ≤ S262144x128.size a := fun v113 k0_hw18 => k0_hw18.1
theorem k0_off50_inb : ∀ (v113 : BitVec 32) (k0_hw18 : k0_chk18 v113), ∀ a, (k0_off50 v113) a + S1x128.size a ≤ S262144x128.size a := fun v113 k0_hw18 => k0_hw18.2

def k0_off51 (v126 : BitVec 32) : Fin 2 → Nat :=
  let c0_i32_203 : BitVec 32 := 0#32
  ![v126.toNat, 0]

def k0_chk19 (v126 : BitVec 32) : Prop :=
  (∀ a, (k0_off19 v126) a + S1x128.size a ≤ S262144x128.size a) ∧
  (∀ a, (k0_off51 v126) a + S1x128.size a ≤ S262144x128.size a)
instance k0_chk19.dec : ∀ (v126 : BitVec 32), Decidable (k0_chk19 v126) := fun v126 => decidable_of_iff' _ (Iff.of_eq (k0_chk19.eq_1 v126))
theorem k0_off19_inb : ∀ (v126 : BitVec 32) (k0_hw19 : k0_chk19 v126), ∀ a, (k0_off19 v126) a + S1x128.size a ≤ S262144x128.size a := fun v126 k0_hw19 => k0_hw19.1
theorem k0_off51_inb : ∀ (v126 : BitVec 32) (k0_hw19 : k0_chk19 v126), ∀ a, (k0_off51 v126) a + S1x128.size a ≤ S262144x128.size a := fun v126 k0_hw19 => k0_hw19.2

def k0_off52 (v127 : BitVec 32) : Fin 2 → Nat :=
  let c0_i32_207 : BitVec 32 := 0#32
  ![v127.toNat, 0]

def k0_chk20 (v127 : BitVec 32) : Prop :=
  (∀ a, (k0_off20 v127) a + S1x128.size a ≤ S262144x128.size a) ∧
  (∀ a, (k0_off52 v127) a + S1x128.size a ≤ S262144x128.size a)
instance k0_chk20.dec : ∀ (v127 : BitVec 32), Decidable (k0_chk20 v127) := fun v127 => decidable_of_iff' _ (Iff.of_eq (k0_chk20.eq_1 v127))
theorem k0_off20_inb : ∀ (v127 : BitVec 32) (k0_hw20 : k0_chk20 v127), ∀ a, (k0_off20 v127) a + S1x128.size a ≤ S262144x128.size a := fun v127 k0_hw20 => k0_hw20.1
theorem k0_off52_inb : ∀ (v127 : BitVec 32) (k0_hw20 : k0_chk20 v127), ∀ a, (k0_off52 v127) a + S1x128.size a ≤ S262144x128.size a := fun v127 k0_hw20 => k0_hw20.2

def k0_off53 (v140 : BitVec 32) : Fin 2 → Nat :=
  let c0_i32_211 : BitVec 32 := 0#32
  ![v140.toNat, 0]

def k0_chk21 (v140 : BitVec 32) : Prop :=
  (∀ a, (k0_off21 v140) a + S1x128.size a ≤ S262144x128.size a) ∧
  (∀ a, (k0_off53 v140) a + S1x128.size a ≤ S262144x128.size a)
instance k0_chk21.dec : ∀ (v140 : BitVec 32), Decidable (k0_chk21 v140) := fun v140 => decidable_of_iff' _ (Iff.of_eq (k0_chk21.eq_1 v140))
theorem k0_off21_inb : ∀ (v140 : BitVec 32) (k0_hw21 : k0_chk21 v140), ∀ a, (k0_off21 v140) a + S1x128.size a ≤ S262144x128.size a := fun v140 k0_hw21 => k0_hw21.1
theorem k0_off53_inb : ∀ (v140 : BitVec 32) (k0_hw21 : k0_chk21 v140), ∀ a, (k0_off53 v140) a + S1x128.size a ≤ S262144x128.size a := fun v140 k0_hw21 => k0_hw21.2

def k0_off54 (v141 : BitVec 32) : Fin 2 → Nat :=
  let c0_i32_215 : BitVec 32 := 0#32
  ![v141.toNat, 0]

def k0_chk22 (v141 : BitVec 32) : Prop :=
  (∀ a, (k0_off22 v141) a + S1x128.size a ≤ S262144x128.size a) ∧
  (∀ a, (k0_off54 v141) a + S1x128.size a ≤ S262144x128.size a)
instance k0_chk22.dec : ∀ (v141 : BitVec 32), Decidable (k0_chk22 v141) := fun v141 => decidable_of_iff' _ (Iff.of_eq (k0_chk22.eq_1 v141))
theorem k0_off22_inb : ∀ (v141 : BitVec 32) (k0_hw22 : k0_chk22 v141), ∀ a, (k0_off22 v141) a + S1x128.size a ≤ S262144x128.size a := fun v141 k0_hw22 => k0_hw22.1
theorem k0_off54_inb : ∀ (v141 : BitVec 32) (k0_hw22 : k0_chk22 v141), ∀ a, (k0_off54 v141) a + S1x128.size a ≤ S262144x128.size a := fun v141 k0_hw22 => k0_hw22.2

def k0_off55 (v154 : BitVec 32) : Fin 2 → Nat :=
  let c0_i32_219 : BitVec 32 := 0#32
  ![v154.toNat, 0]

def k0_chk23 (v154 : BitVec 32) : Prop :=
  (∀ a, (k0_off23 v154) a + S1x128.size a ≤ S262144x128.size a) ∧
  (∀ a, (k0_off55 v154) a + S1x128.size a ≤ S262144x128.size a)
instance k0_chk23.dec : ∀ (v154 : BitVec 32), Decidable (k0_chk23 v154) := fun v154 => decidable_of_iff' _ (Iff.of_eq (k0_chk23.eq_1 v154))
theorem k0_off23_inb : ∀ (v154 : BitVec 32) (k0_hw23 : k0_chk23 v154), ∀ a, (k0_off23 v154) a + S1x128.size a ≤ S262144x128.size a := fun v154 k0_hw23 => k0_hw23.1
theorem k0_off55_inb : ∀ (v154 : BitVec 32) (k0_hw23 : k0_chk23 v154), ∀ a, (k0_off55 v154) a + S1x128.size a ≤ S262144x128.size a := fun v154 k0_hw23 => k0_hw23.2

def k0_off56 (v155 : BitVec 32) : Fin 2 → Nat :=
  let c0_i32_223 : BitVec 32 := 0#32
  ![v155.toNat, 0]

def k0_chk24 (v155 : BitVec 32) : Prop :=
  (∀ a, (k0_off24 v155) a + S1x128.size a ≤ S262144x128.size a) ∧
  (∀ a, (k0_off56 v155) a + S1x128.size a ≤ S262144x128.size a)
instance k0_chk24.dec : ∀ (v155 : BitVec 32), Decidable (k0_chk24 v155) := fun v155 => decidable_of_iff' _ (Iff.of_eq (k0_chk24.eq_1 v155))
theorem k0_off24_inb : ∀ (v155 : BitVec 32) (k0_hw24 : k0_chk24 v155), ∀ a, (k0_off24 v155) a + S1x128.size a ≤ S262144x128.size a := fun v155 k0_hw24 => k0_hw24.1
theorem k0_off56_inb : ∀ (v155 : BitVec 32) (k0_hw24 : k0_chk24 v155), ∀ a, (k0_off56 v155) a + S1x128.size a ≤ S262144x128.size a := fun v155 k0_hw24 => k0_hw24.2

def k0_off57 (v168 : BitVec 32) : Fin 2 → Nat :=
  let c0_i32_227 : BitVec 32 := 0#32
  ![v168.toNat, 0]

def k0_chk25 (v168 : BitVec 32) : Prop :=
  (∀ a, (k0_off25 v168) a + S1x128.size a ≤ S262144x128.size a) ∧
  (∀ a, (k0_off57 v168) a + S1x128.size a ≤ S262144x128.size a)
instance k0_chk25.dec : ∀ (v168 : BitVec 32), Decidable (k0_chk25 v168) := fun v168 => decidable_of_iff' _ (Iff.of_eq (k0_chk25.eq_1 v168))
theorem k0_off25_inb : ∀ (v168 : BitVec 32) (k0_hw25 : k0_chk25 v168), ∀ a, (k0_off25 v168) a + S1x128.size a ≤ S262144x128.size a := fun v168 k0_hw25 => k0_hw25.1
theorem k0_off57_inb : ∀ (v168 : BitVec 32) (k0_hw25 : k0_chk25 v168), ∀ a, (k0_off57 v168) a + S1x128.size a ≤ S262144x128.size a := fun v168 k0_hw25 => k0_hw25.2

def k0_off58 (v169 : BitVec 32) : Fin 2 → Nat :=
  let c0_i32_231 : BitVec 32 := 0#32
  ![v169.toNat, 0]

def k0_chk26 (v169 : BitVec 32) : Prop :=
  (∀ a, (k0_off26 v169) a + S1x128.size a ≤ S262144x128.size a) ∧
  (∀ a, (k0_off58 v169) a + S1x128.size a ≤ S262144x128.size a)
instance k0_chk26.dec : ∀ (v169 : BitVec 32), Decidable (k0_chk26 v169) := fun v169 => decidable_of_iff' _ (Iff.of_eq (k0_chk26.eq_1 v169))
theorem k0_off26_inb : ∀ (v169 : BitVec 32) (k0_hw26 : k0_chk26 v169), ∀ a, (k0_off26 v169) a + S1x128.size a ≤ S262144x128.size a := fun v169 k0_hw26 => k0_hw26.1
theorem k0_off58_inb : ∀ (v169 : BitVec 32) (k0_hw26 : k0_chk26 v169), ∀ a, (k0_off58 v169) a + S1x128.size a ≤ S262144x128.size a := fun v169 k0_hw26 => k0_hw26.2

def k0_off59 (v182 : BitVec 32) : Fin 2 → Nat :=
  let c0_i32_235 : BitVec 32 := 0#32
  ![v182.toNat, 0]

def k0_chk27 (v182 : BitVec 32) : Prop :=
  (∀ a, (k0_off27 v182) a + S1x128.size a ≤ S262144x128.size a) ∧
  (∀ a, (k0_off59 v182) a + S1x128.size a ≤ S262144x128.size a)
instance k0_chk27.dec : ∀ (v182 : BitVec 32), Decidable (k0_chk27 v182) := fun v182 => decidable_of_iff' _ (Iff.of_eq (k0_chk27.eq_1 v182))
theorem k0_off27_inb : ∀ (v182 : BitVec 32) (k0_hw27 : k0_chk27 v182), ∀ a, (k0_off27 v182) a + S1x128.size a ≤ S262144x128.size a := fun v182 k0_hw27 => k0_hw27.1
theorem k0_off59_inb : ∀ (v182 : BitVec 32) (k0_hw27 : k0_chk27 v182), ∀ a, (k0_off59 v182) a + S1x128.size a ≤ S262144x128.size a := fun v182 k0_hw27 => k0_hw27.2

def k0_off60 (v183 : BitVec 32) : Fin 2 → Nat :=
  let c0_i32_239 : BitVec 32 := 0#32
  ![v183.toNat, 0]

def k0_chk28 (v183 : BitVec 32) : Prop :=
  (∀ a, (k0_off28 v183) a + S1x128.size a ≤ S262144x128.size a) ∧
  (∀ a, (k0_off60 v183) a + S1x128.size a ≤ S262144x128.size a)
instance k0_chk28.dec : ∀ (v183 : BitVec 32), Decidable (k0_chk28 v183) := fun v183 => decidable_of_iff' _ (Iff.of_eq (k0_chk28.eq_1 v183))
theorem k0_off28_inb : ∀ (v183 : BitVec 32) (k0_hw28 : k0_chk28 v183), ∀ a, (k0_off28 v183) a + S1x128.size a ≤ S262144x128.size a := fun v183 k0_hw28 => k0_hw28.1
theorem k0_off60_inb : ∀ (v183 : BitVec 32) (k0_hw28 : k0_chk28 v183), ∀ a, (k0_off60 v183) a + S1x128.size a ≤ S262144x128.size a := fun v183 k0_hw28 => k0_hw28.2

def k0_off61 (v196 : BitVec 32) : Fin 2 → Nat :=
  let c0_i32_243 : BitVec 32 := 0#32
  ![v196.toNat, 0]

def k0_chk29 (v196 : BitVec 32) : Prop :=
  (∀ a, (k0_off29 v196) a + S1x128.size a ≤ S262144x128.size a) ∧
  (∀ a, (k0_off61 v196) a + S1x128.size a ≤ S262144x128.size a)
instance k0_chk29.dec : ∀ (v196 : BitVec 32), Decidable (k0_chk29 v196) := fun v196 => decidable_of_iff' _ (Iff.of_eq (k0_chk29.eq_1 v196))
theorem k0_off29_inb : ∀ (v196 : BitVec 32) (k0_hw29 : k0_chk29 v196), ∀ a, (k0_off29 v196) a + S1x128.size a ≤ S262144x128.size a := fun v196 k0_hw29 => k0_hw29.1
theorem k0_off61_inb : ∀ (v196 : BitVec 32) (k0_hw29 : k0_chk29 v196), ∀ a, (k0_off61 v196) a + S1x128.size a ≤ S262144x128.size a := fun v196 k0_hw29 => k0_hw29.2

def k0_off62 (v197 : BitVec 32) : Fin 2 → Nat :=
  let c0_i32_247 : BitVec 32 := 0#32
  ![v197.toNat, 0]

def k0_chk30 (v197 : BitVec 32) : Prop :=
  (∀ a, (k0_off30 v197) a + S1x128.size a ≤ S262144x128.size a) ∧
  (∀ a, (k0_off62 v197) a + S1x128.size a ≤ S262144x128.size a)
instance k0_chk30.dec : ∀ (v197 : BitVec 32), Decidable (k0_chk30 v197) := fun v197 => decidable_of_iff' _ (Iff.of_eq (k0_chk30.eq_1 v197))
theorem k0_off30_inb : ∀ (v197 : BitVec 32) (k0_hw30 : k0_chk30 v197), ∀ a, (k0_off30 v197) a + S1x128.size a ≤ S262144x128.size a := fun v197 k0_hw30 => k0_hw30.1
theorem k0_off62_inb : ∀ (v197 : BitVec 32) (k0_hw30 : k0_chk30 v197), ∀ a, (k0_off62 v197) a + S1x128.size a ≤ S262144x128.size a := fun v197 k0_hw30 => k0_hw30.2

def k0_off63 (v210 : BitVec 32) : Fin 2 → Nat :=
  let c0_i32_251 : BitVec 32 := 0#32
  ![v210.toNat, 0]

def k0_chk31 (v210 : BitVec 32) : Prop :=
  (∀ a, (k0_off31 v210) a + S1x128.size a ≤ S262144x128.size a) ∧
  (∀ a, (k0_off63 v210) a + S1x128.size a ≤ S262144x128.size a)
instance k0_chk31.dec : ∀ (v210 : BitVec 32), Decidable (k0_chk31 v210) := fun v210 => decidable_of_iff' _ (Iff.of_eq (k0_chk31.eq_1 v210))
theorem k0_off31_inb : ∀ (v210 : BitVec 32) (k0_hw31 : k0_chk31 v210), ∀ a, (k0_off31 v210) a + S1x128.size a ≤ S262144x128.size a := fun v210 k0_hw31 => k0_hw31.1
theorem k0_off63_inb : ∀ (v210 : BitVec 32) (k0_hw31 : k0_chk31 v210), ∀ a, (k0_off63 v210) a + S1x128.size a ≤ S262144x128.size a := fun v210 k0_hw31 => k0_hw31.2

def k0_off64 (v416 : BitVec 32) : Fin 2 → Nat :=
  let c0_i32_259 : BitVec 32 := 0#32
  ![v416.toNat, 0]

def k0_off65 (v417 : BitVec 32) : Fin 2 → Nat :=
  let c0_i32_263 : BitVec 32 := 0#32
  ![v417.toNat, 0]

def k0_off66 (v430 : BitVec 32) : Fin 2 → Nat :=
  let c0_i32_267 : BitVec 32 := 0#32
  ![v430.toNat, 0]

def k0_off67 (v431 : BitVec 32) : Fin 2 → Nat :=
  let c0_i32_271 : BitVec 32 := 0#32
  ![v431.toNat, 0]

def k0_off68 (v444 : BitVec 32) : Fin 2 → Nat :=
  let c0_i32_275 : BitVec 32 := 0#32
  ![v444.toNat, 0]

def k0_off69 (v445 : BitVec 32) : Fin 2 → Nat :=
  let c0_i32_279 : BitVec 32 := 0#32
  ![v445.toNat, 0]

def k0_off70 (v458 : BitVec 32) : Fin 2 → Nat :=
  let c0_i32_283 : BitVec 32 := 0#32
  ![v458.toNat, 0]

def k0_off71 (v459 : BitVec 32) : Fin 2 → Nat :=
  let c0_i32_287 : BitVec 32 := 0#32
  ![v459.toNat, 0]

def k0_off72 (v472 : BitVec 32) : Fin 2 → Nat :=
  let c0_i32_291 : BitVec 32 := 0#32
  ![v472.toNat, 0]

def k0_off73 (v473 : BitVec 32) : Fin 2 → Nat :=
  let c0_i32_295 : BitVec 32 := 0#32
  ![v473.toNat, 0]

def k0_off74 (v486 : BitVec 32) : Fin 2 → Nat :=
  let c0_i32_299 : BitVec 32 := 0#32
  ![v486.toNat, 0]

def k0_off75 (v487 : BitVec 32) : Fin 2 → Nat :=
  let c0_i32_303 : BitVec 32 := 0#32
  ![v487.toNat, 0]

def k0_off76 (v500 : BitVec 32) : Fin 2 → Nat :=
  let c0_i32_307 : BitVec 32 := 0#32
  ![v500.toNat, 0]

def k0_off77 (v501 : BitVec 32) : Fin 2 → Nat :=
  let c0_i32_311 : BitVec 32 := 0#32
  ![v501.toNat, 0]

def k0_off78 (v514 : BitVec 32) : Fin 2 → Nat :=
  let c0_i32_315 : BitVec 32 := 0#32
  ![v514.toNat, 0]

def k0_off79 (v515 : BitVec 32) : Fin 2 → Nat :=
  let c0_i32_319 : BitVec 32 := 0#32
  ![v515.toNat, 0]

def k0_off80 (v528 : BitVec 32) : Fin 2 → Nat :=
  let c0_i32_323 : BitVec 32 := 0#32
  ![v528.toNat, 0]

def k0_off81 (v529 : BitVec 32) : Fin 2 → Nat :=
  let c0_i32_327 : BitVec 32 := 0#32
  ![v529.toNat, 0]

def k0_off82 (v542 : BitVec 32) : Fin 2 → Nat :=
  let c0_i32_331 : BitVec 32 := 0#32
  ![v542.toNat, 0]

def k0_off83 (v543 : BitVec 32) : Fin 2 → Nat :=
  let c0_i32_335 : BitVec 32 := 0#32
  ![v543.toNat, 0]

def k0_off84 (v556 : BitVec 32) : Fin 2 → Nat :=
  let c0_i32_339 : BitVec 32 := 0#32
  ![v556.toNat, 0]

def k0_off85 (v557 : BitVec 32) : Fin 2 → Nat :=
  let c0_i32_343 : BitVec 32 := 0#32
  ![v557.toNat, 0]

def k0_off86 (v570 : BitVec 32) : Fin 2 → Nat :=
  let c0_i32_347 : BitVec 32 := 0#32
  ![v570.toNat, 0]

def k0_off87 (v571 : BitVec 32) : Fin 2 → Nat :=
  let c0_i32_351 : BitVec 32 := 0#32
  ![v571.toNat, 0]

def k0_off88 (v584 : BitVec 32) : Fin 2 → Nat :=
  let c0_i32_355 : BitVec 32 := 0#32
  ![v584.toNat, 0]

def k0_off89 (v585 : BitVec 32) : Fin 2 → Nat :=
  let c0_i32_359 : BitVec 32 := 0#32
  ![v585.toNat, 0]

def k0_off90 (v598 : BitVec 32) : Fin 2 → Nat :=
  let c0_i32_363 : BitVec 32 := 0#32
  ![v598.toNat, 0]

def k0_off91 (v599 : BitVec 32) : Fin 2 → Nat :=
  let c0_i32_367 : BitVec 32 := 0#32
  ![v599.toNat, 0]

def k0_off92 (v612 : BitVec 32) : Fin 2 → Nat :=
  let c0_i32_371 : BitVec 32 := 0#32
  ![v612.toNat, 0]

def k0_off93 (v613 : BitVec 32) : Fin 2 → Nat :=
  let c0_i32_375 : BitVec 32 := 0#32
  ![v613.toNat, 0]

def k0_off94 (v626 : BitVec 32) : Fin 2 → Nat :=
  let c0_i32_379 : BitVec 32 := 0#32
  ![v626.toNat, 0]

def k0_off95 (v627 : BitVec 32) : Fin 2 → Nat :=
  let c0_i32_383 : BitVec 32 := 0#32
  ![v627.toNat, 0]

def k0_chk64 (v627 : BitVec 32) : Prop :=
  (∀ a, (k0_off95 v627) a + S1x128.size a ≤ S262144x128.size a)
instance k0_chk64.dec : ∀ (v627 : BitVec 32), Decidable (k0_chk64 v627) := fun v627 => decidable_of_iff' _ (Iff.of_eq (k0_chk64.eq_1 v627))
theorem k0_off95_inb : ∀ (v627 : BitVec 32) (k0_hw64 : k0_chk64 v627), ∀ a, (k0_off95 v627) a + S1x128.size a ≤ S262144x128.size a := fun v627 k0_hw64 => k0_hw64

def k0_off96 (v416 : BitVec 32) : Fin 2 → Nat :=
  let c0_i32_387 : BitVec 32 := 0#32
  ![v416.toNat, 0]

def k0_chk33 (v416 : BitVec 32) : Prop :=
  (∀ a, (k0_off64 v416) a + S1x128.size a ≤ S262144x128.size a) ∧
  (∀ a, (k0_off96 v416) a + S1x128.size a ≤ S262144x128.size a)
instance k0_chk33.dec : ∀ (v416 : BitVec 32), Decidable (k0_chk33 v416) := fun v416 => decidable_of_iff' _ (Iff.of_eq (k0_chk33.eq_1 v416))
theorem k0_off64_inb : ∀ (v416 : BitVec 32) (k0_hw33 : k0_chk33 v416), ∀ a, (k0_off64 v416) a + S1x128.size a ≤ S262144x128.size a := fun v416 k0_hw33 => k0_hw33.1
theorem k0_off96_inb : ∀ (v416 : BitVec 32) (k0_hw33 : k0_chk33 v416), ∀ a, (k0_off96 v416) a + S1x128.size a ≤ S262144x128.size a := fun v416 k0_hw33 => k0_hw33.2

def k0_off97 (v417 : BitVec 32) : Fin 2 → Nat :=
  let c0_i32_391 : BitVec 32 := 0#32
  ![v417.toNat, 0]

def k0_chk34 (v417 : BitVec 32) : Prop :=
  (∀ a, (k0_off65 v417) a + S1x128.size a ≤ S262144x128.size a) ∧
  (∀ a, (k0_off97 v417) a + S1x128.size a ≤ S262144x128.size a)
instance k0_chk34.dec : ∀ (v417 : BitVec 32), Decidable (k0_chk34 v417) := fun v417 => decidable_of_iff' _ (Iff.of_eq (k0_chk34.eq_1 v417))
theorem k0_off65_inb : ∀ (v417 : BitVec 32) (k0_hw34 : k0_chk34 v417), ∀ a, (k0_off65 v417) a + S1x128.size a ≤ S262144x128.size a := fun v417 k0_hw34 => k0_hw34.1
theorem k0_off97_inb : ∀ (v417 : BitVec 32) (k0_hw34 : k0_chk34 v417), ∀ a, (k0_off97 v417) a + S1x128.size a ≤ S262144x128.size a := fun v417 k0_hw34 => k0_hw34.2

def k0_off98 (v430 : BitVec 32) : Fin 2 → Nat :=
  let c0_i32_395 : BitVec 32 := 0#32
  ![v430.toNat, 0]

def k0_chk35 (v430 : BitVec 32) : Prop :=
  (∀ a, (k0_off66 v430) a + S1x128.size a ≤ S262144x128.size a) ∧
  (∀ a, (k0_off98 v430) a + S1x128.size a ≤ S262144x128.size a)
instance k0_chk35.dec : ∀ (v430 : BitVec 32), Decidable (k0_chk35 v430) := fun v430 => decidable_of_iff' _ (Iff.of_eq (k0_chk35.eq_1 v430))
theorem k0_off66_inb : ∀ (v430 : BitVec 32) (k0_hw35 : k0_chk35 v430), ∀ a, (k0_off66 v430) a + S1x128.size a ≤ S262144x128.size a := fun v430 k0_hw35 => k0_hw35.1
theorem k0_off98_inb : ∀ (v430 : BitVec 32) (k0_hw35 : k0_chk35 v430), ∀ a, (k0_off98 v430) a + S1x128.size a ≤ S262144x128.size a := fun v430 k0_hw35 => k0_hw35.2

def k0_off99 (v431 : BitVec 32) : Fin 2 → Nat :=
  let c0_i32_399 : BitVec 32 := 0#32
  ![v431.toNat, 0]

def k0_chk36 (v431 : BitVec 32) : Prop :=
  (∀ a, (k0_off67 v431) a + S1x128.size a ≤ S262144x128.size a) ∧
  (∀ a, (k0_off99 v431) a + S1x128.size a ≤ S262144x128.size a)
instance k0_chk36.dec : ∀ (v431 : BitVec 32), Decidable (k0_chk36 v431) := fun v431 => decidable_of_iff' _ (Iff.of_eq (k0_chk36.eq_1 v431))
theorem k0_off67_inb : ∀ (v431 : BitVec 32) (k0_hw36 : k0_chk36 v431), ∀ a, (k0_off67 v431) a + S1x128.size a ≤ S262144x128.size a := fun v431 k0_hw36 => k0_hw36.1
theorem k0_off99_inb : ∀ (v431 : BitVec 32) (k0_hw36 : k0_chk36 v431), ∀ a, (k0_off99 v431) a + S1x128.size a ≤ S262144x128.size a := fun v431 k0_hw36 => k0_hw36.2

def k0_off100 (v444 : BitVec 32) : Fin 2 → Nat :=
  let c0_i32_403 : BitVec 32 := 0#32
  ![v444.toNat, 0]

def k0_chk37 (v444 : BitVec 32) : Prop :=
  (∀ a, (k0_off68 v444) a + S1x128.size a ≤ S262144x128.size a) ∧
  (∀ a, (k0_off100 v444) a + S1x128.size a ≤ S262144x128.size a)
instance k0_chk37.dec : ∀ (v444 : BitVec 32), Decidable (k0_chk37 v444) := fun v444 => decidable_of_iff' _ (Iff.of_eq (k0_chk37.eq_1 v444))
theorem k0_off68_inb : ∀ (v444 : BitVec 32) (k0_hw37 : k0_chk37 v444), ∀ a, (k0_off68 v444) a + S1x128.size a ≤ S262144x128.size a := fun v444 k0_hw37 => k0_hw37.1
theorem k0_off100_inb : ∀ (v444 : BitVec 32) (k0_hw37 : k0_chk37 v444), ∀ a, (k0_off100 v444) a + S1x128.size a ≤ S262144x128.size a := fun v444 k0_hw37 => k0_hw37.2

def k0_off101 (v445 : BitVec 32) : Fin 2 → Nat :=
  let c0_i32_407 : BitVec 32 := 0#32
  ![v445.toNat, 0]

def k0_chk38 (v445 : BitVec 32) : Prop :=
  (∀ a, (k0_off69 v445) a + S1x128.size a ≤ S262144x128.size a) ∧
  (∀ a, (k0_off101 v445) a + S1x128.size a ≤ S262144x128.size a)
instance k0_chk38.dec : ∀ (v445 : BitVec 32), Decidable (k0_chk38 v445) := fun v445 => decidable_of_iff' _ (Iff.of_eq (k0_chk38.eq_1 v445))
theorem k0_off69_inb : ∀ (v445 : BitVec 32) (k0_hw38 : k0_chk38 v445), ∀ a, (k0_off69 v445) a + S1x128.size a ≤ S262144x128.size a := fun v445 k0_hw38 => k0_hw38.1
theorem k0_off101_inb : ∀ (v445 : BitVec 32) (k0_hw38 : k0_chk38 v445), ∀ a, (k0_off101 v445) a + S1x128.size a ≤ S262144x128.size a := fun v445 k0_hw38 => k0_hw38.2

def k0_off102 (v458 : BitVec 32) : Fin 2 → Nat :=
  let c0_i32_411 : BitVec 32 := 0#32
  ![v458.toNat, 0]

def k0_chk39 (v458 : BitVec 32) : Prop :=
  (∀ a, (k0_off70 v458) a + S1x128.size a ≤ S262144x128.size a) ∧
  (∀ a, (k0_off102 v458) a + S1x128.size a ≤ S262144x128.size a)
instance k0_chk39.dec : ∀ (v458 : BitVec 32), Decidable (k0_chk39 v458) := fun v458 => decidable_of_iff' _ (Iff.of_eq (k0_chk39.eq_1 v458))
theorem k0_off70_inb : ∀ (v458 : BitVec 32) (k0_hw39 : k0_chk39 v458), ∀ a, (k0_off70 v458) a + S1x128.size a ≤ S262144x128.size a := fun v458 k0_hw39 => k0_hw39.1
theorem k0_off102_inb : ∀ (v458 : BitVec 32) (k0_hw39 : k0_chk39 v458), ∀ a, (k0_off102 v458) a + S1x128.size a ≤ S262144x128.size a := fun v458 k0_hw39 => k0_hw39.2

def k0_off103 (v459 : BitVec 32) : Fin 2 → Nat :=
  let c0_i32_415 : BitVec 32 := 0#32
  ![v459.toNat, 0]

def k0_chk40 (v459 : BitVec 32) : Prop :=
  (∀ a, (k0_off71 v459) a + S1x128.size a ≤ S262144x128.size a) ∧
  (∀ a, (k0_off103 v459) a + S1x128.size a ≤ S262144x128.size a)
instance k0_chk40.dec : ∀ (v459 : BitVec 32), Decidable (k0_chk40 v459) := fun v459 => decidable_of_iff' _ (Iff.of_eq (k0_chk40.eq_1 v459))
theorem k0_off71_inb : ∀ (v459 : BitVec 32) (k0_hw40 : k0_chk40 v459), ∀ a, (k0_off71 v459) a + S1x128.size a ≤ S262144x128.size a := fun v459 k0_hw40 => k0_hw40.1
theorem k0_off103_inb : ∀ (v459 : BitVec 32) (k0_hw40 : k0_chk40 v459), ∀ a, (k0_off103 v459) a + S1x128.size a ≤ S262144x128.size a := fun v459 k0_hw40 => k0_hw40.2

def k0_off104 (v472 : BitVec 32) : Fin 2 → Nat :=
  let c0_i32_419 : BitVec 32 := 0#32
  ![v472.toNat, 0]

def k0_chk41 (v472 : BitVec 32) : Prop :=
  (∀ a, (k0_off72 v472) a + S1x128.size a ≤ S262144x128.size a) ∧
  (∀ a, (k0_off104 v472) a + S1x128.size a ≤ S262144x128.size a)
instance k0_chk41.dec : ∀ (v472 : BitVec 32), Decidable (k0_chk41 v472) := fun v472 => decidable_of_iff' _ (Iff.of_eq (k0_chk41.eq_1 v472))
theorem k0_off72_inb : ∀ (v472 : BitVec 32) (k0_hw41 : k0_chk41 v472), ∀ a, (k0_off72 v472) a + S1x128.size a ≤ S262144x128.size a := fun v472 k0_hw41 => k0_hw41.1
theorem k0_off104_inb : ∀ (v472 : BitVec 32) (k0_hw41 : k0_chk41 v472), ∀ a, (k0_off104 v472) a + S1x128.size a ≤ S262144x128.size a := fun v472 k0_hw41 => k0_hw41.2

def k0_off105 (v473 : BitVec 32) : Fin 2 → Nat :=
  let c0_i32_423 : BitVec 32 := 0#32
  ![v473.toNat, 0]

def k0_chk42 (v473 : BitVec 32) : Prop :=
  (∀ a, (k0_off73 v473) a + S1x128.size a ≤ S262144x128.size a) ∧
  (∀ a, (k0_off105 v473) a + S1x128.size a ≤ S262144x128.size a)
instance k0_chk42.dec : ∀ (v473 : BitVec 32), Decidable (k0_chk42 v473) := fun v473 => decidable_of_iff' _ (Iff.of_eq (k0_chk42.eq_1 v473))
theorem k0_off73_inb : ∀ (v473 : BitVec 32) (k0_hw42 : k0_chk42 v473), ∀ a, (k0_off73 v473) a + S1x128.size a ≤ S262144x128.size a := fun v473 k0_hw42 => k0_hw42.1
theorem k0_off105_inb : ∀ (v473 : BitVec 32) (k0_hw42 : k0_chk42 v473), ∀ a, (k0_off105 v473) a + S1x128.size a ≤ S262144x128.size a := fun v473 k0_hw42 => k0_hw42.2

def k0_off106 (v486 : BitVec 32) : Fin 2 → Nat :=
  let c0_i32_427 : BitVec 32 := 0#32
  ![v486.toNat, 0]

def k0_chk43 (v486 : BitVec 32) : Prop :=
  (∀ a, (k0_off74 v486) a + S1x128.size a ≤ S262144x128.size a) ∧
  (∀ a, (k0_off106 v486) a + S1x128.size a ≤ S262144x128.size a)
instance k0_chk43.dec : ∀ (v486 : BitVec 32), Decidable (k0_chk43 v486) := fun v486 => decidable_of_iff' _ (Iff.of_eq (k0_chk43.eq_1 v486))
theorem k0_off74_inb : ∀ (v486 : BitVec 32) (k0_hw43 : k0_chk43 v486), ∀ a, (k0_off74 v486) a + S1x128.size a ≤ S262144x128.size a := fun v486 k0_hw43 => k0_hw43.1
theorem k0_off106_inb : ∀ (v486 : BitVec 32) (k0_hw43 : k0_chk43 v486), ∀ a, (k0_off106 v486) a + S1x128.size a ≤ S262144x128.size a := fun v486 k0_hw43 => k0_hw43.2

def k0_off107 (v487 : BitVec 32) : Fin 2 → Nat :=
  let c0_i32_431 : BitVec 32 := 0#32
  ![v487.toNat, 0]

def k0_chk44 (v487 : BitVec 32) : Prop :=
  (∀ a, (k0_off75 v487) a + S1x128.size a ≤ S262144x128.size a) ∧
  (∀ a, (k0_off107 v487) a + S1x128.size a ≤ S262144x128.size a)
instance k0_chk44.dec : ∀ (v487 : BitVec 32), Decidable (k0_chk44 v487) := fun v487 => decidable_of_iff' _ (Iff.of_eq (k0_chk44.eq_1 v487))
theorem k0_off75_inb : ∀ (v487 : BitVec 32) (k0_hw44 : k0_chk44 v487), ∀ a, (k0_off75 v487) a + S1x128.size a ≤ S262144x128.size a := fun v487 k0_hw44 => k0_hw44.1
theorem k0_off107_inb : ∀ (v487 : BitVec 32) (k0_hw44 : k0_chk44 v487), ∀ a, (k0_off107 v487) a + S1x128.size a ≤ S262144x128.size a := fun v487 k0_hw44 => k0_hw44.2

def k0_off108 (v500 : BitVec 32) : Fin 2 → Nat :=
  let c0_i32_435 : BitVec 32 := 0#32
  ![v500.toNat, 0]

def k0_chk45 (v500 : BitVec 32) : Prop :=
  (∀ a, (k0_off76 v500) a + S1x128.size a ≤ S262144x128.size a) ∧
  (∀ a, (k0_off108 v500) a + S1x128.size a ≤ S262144x128.size a)
instance k0_chk45.dec : ∀ (v500 : BitVec 32), Decidable (k0_chk45 v500) := fun v500 => decidable_of_iff' _ (Iff.of_eq (k0_chk45.eq_1 v500))
theorem k0_off76_inb : ∀ (v500 : BitVec 32) (k0_hw45 : k0_chk45 v500), ∀ a, (k0_off76 v500) a + S1x128.size a ≤ S262144x128.size a := fun v500 k0_hw45 => k0_hw45.1
theorem k0_off108_inb : ∀ (v500 : BitVec 32) (k0_hw45 : k0_chk45 v500), ∀ a, (k0_off108 v500) a + S1x128.size a ≤ S262144x128.size a := fun v500 k0_hw45 => k0_hw45.2

def k0_off109 (v501 : BitVec 32) : Fin 2 → Nat :=
  let c0_i32_439 : BitVec 32 := 0#32
  ![v501.toNat, 0]

def k0_chk46 (v501 : BitVec 32) : Prop :=
  (∀ a, (k0_off77 v501) a + S1x128.size a ≤ S262144x128.size a) ∧
  (∀ a, (k0_off109 v501) a + S1x128.size a ≤ S262144x128.size a)
instance k0_chk46.dec : ∀ (v501 : BitVec 32), Decidable (k0_chk46 v501) := fun v501 => decidable_of_iff' _ (Iff.of_eq (k0_chk46.eq_1 v501))
theorem k0_off77_inb : ∀ (v501 : BitVec 32) (k0_hw46 : k0_chk46 v501), ∀ a, (k0_off77 v501) a + S1x128.size a ≤ S262144x128.size a := fun v501 k0_hw46 => k0_hw46.1
theorem k0_off109_inb : ∀ (v501 : BitVec 32) (k0_hw46 : k0_chk46 v501), ∀ a, (k0_off109 v501) a + S1x128.size a ≤ S262144x128.size a := fun v501 k0_hw46 => k0_hw46.2

def k0_off110 (v514 : BitVec 32) : Fin 2 → Nat :=
  let c0_i32_443 : BitVec 32 := 0#32
  ![v514.toNat, 0]

def k0_chk47 (v514 : BitVec 32) : Prop :=
  (∀ a, (k0_off78 v514) a + S1x128.size a ≤ S262144x128.size a) ∧
  (∀ a, (k0_off110 v514) a + S1x128.size a ≤ S262144x128.size a)
instance k0_chk47.dec : ∀ (v514 : BitVec 32), Decidable (k0_chk47 v514) := fun v514 => decidable_of_iff' _ (Iff.of_eq (k0_chk47.eq_1 v514))
theorem k0_off78_inb : ∀ (v514 : BitVec 32) (k0_hw47 : k0_chk47 v514), ∀ a, (k0_off78 v514) a + S1x128.size a ≤ S262144x128.size a := fun v514 k0_hw47 => k0_hw47.1
theorem k0_off110_inb : ∀ (v514 : BitVec 32) (k0_hw47 : k0_chk47 v514), ∀ a, (k0_off110 v514) a + S1x128.size a ≤ S262144x128.size a := fun v514 k0_hw47 => k0_hw47.2

def k0_off111 (v515 : BitVec 32) : Fin 2 → Nat :=
  let c0_i32_447 : BitVec 32 := 0#32
  ![v515.toNat, 0]

def k0_chk48 (v515 : BitVec 32) : Prop :=
  (∀ a, (k0_off79 v515) a + S1x128.size a ≤ S262144x128.size a) ∧
  (∀ a, (k0_off111 v515) a + S1x128.size a ≤ S262144x128.size a)
instance k0_chk48.dec : ∀ (v515 : BitVec 32), Decidable (k0_chk48 v515) := fun v515 => decidable_of_iff' _ (Iff.of_eq (k0_chk48.eq_1 v515))
theorem k0_off79_inb : ∀ (v515 : BitVec 32) (k0_hw48 : k0_chk48 v515), ∀ a, (k0_off79 v515) a + S1x128.size a ≤ S262144x128.size a := fun v515 k0_hw48 => k0_hw48.1
theorem k0_off111_inb : ∀ (v515 : BitVec 32) (k0_hw48 : k0_chk48 v515), ∀ a, (k0_off111 v515) a + S1x128.size a ≤ S262144x128.size a := fun v515 k0_hw48 => k0_hw48.2

def k0_off112 (v528 : BitVec 32) : Fin 2 → Nat :=
  let c0_i32_451 : BitVec 32 := 0#32
  ![v528.toNat, 0]

def k0_chk49 (v528 : BitVec 32) : Prop :=
  (∀ a, (k0_off80 v528) a + S1x128.size a ≤ S262144x128.size a) ∧
  (∀ a, (k0_off112 v528) a + S1x128.size a ≤ S262144x128.size a)
instance k0_chk49.dec : ∀ (v528 : BitVec 32), Decidable (k0_chk49 v528) := fun v528 => decidable_of_iff' _ (Iff.of_eq (k0_chk49.eq_1 v528))
theorem k0_off80_inb : ∀ (v528 : BitVec 32) (k0_hw49 : k0_chk49 v528), ∀ a, (k0_off80 v528) a + S1x128.size a ≤ S262144x128.size a := fun v528 k0_hw49 => k0_hw49.1
theorem k0_off112_inb : ∀ (v528 : BitVec 32) (k0_hw49 : k0_chk49 v528), ∀ a, (k0_off112 v528) a + S1x128.size a ≤ S262144x128.size a := fun v528 k0_hw49 => k0_hw49.2

def k0_off113 (v529 : BitVec 32) : Fin 2 → Nat :=
  let c0_i32_455 : BitVec 32 := 0#32
  ![v529.toNat, 0]

def k0_chk50 (v529 : BitVec 32) : Prop :=
  (∀ a, (k0_off81 v529) a + S1x128.size a ≤ S262144x128.size a) ∧
  (∀ a, (k0_off113 v529) a + S1x128.size a ≤ S262144x128.size a)
instance k0_chk50.dec : ∀ (v529 : BitVec 32), Decidable (k0_chk50 v529) := fun v529 => decidable_of_iff' _ (Iff.of_eq (k0_chk50.eq_1 v529))
theorem k0_off81_inb : ∀ (v529 : BitVec 32) (k0_hw50 : k0_chk50 v529), ∀ a, (k0_off81 v529) a + S1x128.size a ≤ S262144x128.size a := fun v529 k0_hw50 => k0_hw50.1
theorem k0_off113_inb : ∀ (v529 : BitVec 32) (k0_hw50 : k0_chk50 v529), ∀ a, (k0_off113 v529) a + S1x128.size a ≤ S262144x128.size a := fun v529 k0_hw50 => k0_hw50.2

def k0_off114 (v542 : BitVec 32) : Fin 2 → Nat :=
  let c0_i32_459 : BitVec 32 := 0#32
  ![v542.toNat, 0]

def k0_chk51 (v542 : BitVec 32) : Prop :=
  (∀ a, (k0_off82 v542) a + S1x128.size a ≤ S262144x128.size a) ∧
  (∀ a, (k0_off114 v542) a + S1x128.size a ≤ S262144x128.size a)
instance k0_chk51.dec : ∀ (v542 : BitVec 32), Decidable (k0_chk51 v542) := fun v542 => decidable_of_iff' _ (Iff.of_eq (k0_chk51.eq_1 v542))
theorem k0_off82_inb : ∀ (v542 : BitVec 32) (k0_hw51 : k0_chk51 v542), ∀ a, (k0_off82 v542) a + S1x128.size a ≤ S262144x128.size a := fun v542 k0_hw51 => k0_hw51.1
theorem k0_off114_inb : ∀ (v542 : BitVec 32) (k0_hw51 : k0_chk51 v542), ∀ a, (k0_off114 v542) a + S1x128.size a ≤ S262144x128.size a := fun v542 k0_hw51 => k0_hw51.2

def k0_off115 (v543 : BitVec 32) : Fin 2 → Nat :=
  let c0_i32_463 : BitVec 32 := 0#32
  ![v543.toNat, 0]

def k0_chk52 (v543 : BitVec 32) : Prop :=
  (∀ a, (k0_off83 v543) a + S1x128.size a ≤ S262144x128.size a) ∧
  (∀ a, (k0_off115 v543) a + S1x128.size a ≤ S262144x128.size a)
instance k0_chk52.dec : ∀ (v543 : BitVec 32), Decidable (k0_chk52 v543) := fun v543 => decidable_of_iff' _ (Iff.of_eq (k0_chk52.eq_1 v543))
theorem k0_off83_inb : ∀ (v543 : BitVec 32) (k0_hw52 : k0_chk52 v543), ∀ a, (k0_off83 v543) a + S1x128.size a ≤ S262144x128.size a := fun v543 k0_hw52 => k0_hw52.1
theorem k0_off115_inb : ∀ (v543 : BitVec 32) (k0_hw52 : k0_chk52 v543), ∀ a, (k0_off115 v543) a + S1x128.size a ≤ S262144x128.size a := fun v543 k0_hw52 => k0_hw52.2

def k0_off116 (v556 : BitVec 32) : Fin 2 → Nat :=
  let c0_i32_467 : BitVec 32 := 0#32
  ![v556.toNat, 0]

def k0_chk53 (v556 : BitVec 32) : Prop :=
  (∀ a, (k0_off84 v556) a + S1x128.size a ≤ S262144x128.size a) ∧
  (∀ a, (k0_off116 v556) a + S1x128.size a ≤ S262144x128.size a)
instance k0_chk53.dec : ∀ (v556 : BitVec 32), Decidable (k0_chk53 v556) := fun v556 => decidable_of_iff' _ (Iff.of_eq (k0_chk53.eq_1 v556))
theorem k0_off84_inb : ∀ (v556 : BitVec 32) (k0_hw53 : k0_chk53 v556), ∀ a, (k0_off84 v556) a + S1x128.size a ≤ S262144x128.size a := fun v556 k0_hw53 => k0_hw53.1
theorem k0_off116_inb : ∀ (v556 : BitVec 32) (k0_hw53 : k0_chk53 v556), ∀ a, (k0_off116 v556) a + S1x128.size a ≤ S262144x128.size a := fun v556 k0_hw53 => k0_hw53.2

def k0_off117 (v557 : BitVec 32) : Fin 2 → Nat :=
  let c0_i32_471 : BitVec 32 := 0#32
  ![v557.toNat, 0]

def k0_chk54 (v557 : BitVec 32) : Prop :=
  (∀ a, (k0_off85 v557) a + S1x128.size a ≤ S262144x128.size a) ∧
  (∀ a, (k0_off117 v557) a + S1x128.size a ≤ S262144x128.size a)
instance k0_chk54.dec : ∀ (v557 : BitVec 32), Decidable (k0_chk54 v557) := fun v557 => decidable_of_iff' _ (Iff.of_eq (k0_chk54.eq_1 v557))
theorem k0_off85_inb : ∀ (v557 : BitVec 32) (k0_hw54 : k0_chk54 v557), ∀ a, (k0_off85 v557) a + S1x128.size a ≤ S262144x128.size a := fun v557 k0_hw54 => k0_hw54.1
theorem k0_off117_inb : ∀ (v557 : BitVec 32) (k0_hw54 : k0_chk54 v557), ∀ a, (k0_off117 v557) a + S1x128.size a ≤ S262144x128.size a := fun v557 k0_hw54 => k0_hw54.2

def k0_off118 (v570 : BitVec 32) : Fin 2 → Nat :=
  let c0_i32_475 : BitVec 32 := 0#32
  ![v570.toNat, 0]

def k0_chk55 (v570 : BitVec 32) : Prop :=
  (∀ a, (k0_off86 v570) a + S1x128.size a ≤ S262144x128.size a) ∧
  (∀ a, (k0_off118 v570) a + S1x128.size a ≤ S262144x128.size a)
instance k0_chk55.dec : ∀ (v570 : BitVec 32), Decidable (k0_chk55 v570) := fun v570 => decidable_of_iff' _ (Iff.of_eq (k0_chk55.eq_1 v570))
theorem k0_off86_inb : ∀ (v570 : BitVec 32) (k0_hw55 : k0_chk55 v570), ∀ a, (k0_off86 v570) a + S1x128.size a ≤ S262144x128.size a := fun v570 k0_hw55 => k0_hw55.1
theorem k0_off118_inb : ∀ (v570 : BitVec 32) (k0_hw55 : k0_chk55 v570), ∀ a, (k0_off118 v570) a + S1x128.size a ≤ S262144x128.size a := fun v570 k0_hw55 => k0_hw55.2

def k0_off119 (v571 : BitVec 32) : Fin 2 → Nat :=
  let c0_i32_479 : BitVec 32 := 0#32
  ![v571.toNat, 0]

def k0_chk56 (v571 : BitVec 32) : Prop :=
  (∀ a, (k0_off87 v571) a + S1x128.size a ≤ S262144x128.size a) ∧
  (∀ a, (k0_off119 v571) a + S1x128.size a ≤ S262144x128.size a)
instance k0_chk56.dec : ∀ (v571 : BitVec 32), Decidable (k0_chk56 v571) := fun v571 => decidable_of_iff' _ (Iff.of_eq (k0_chk56.eq_1 v571))
theorem k0_off87_inb : ∀ (v571 : BitVec 32) (k0_hw56 : k0_chk56 v571), ∀ a, (k0_off87 v571) a + S1x128.size a ≤ S262144x128.size a := fun v571 k0_hw56 => k0_hw56.1
theorem k0_off119_inb : ∀ (v571 : BitVec 32) (k0_hw56 : k0_chk56 v571), ∀ a, (k0_off119 v571) a + S1x128.size a ≤ S262144x128.size a := fun v571 k0_hw56 => k0_hw56.2

def k0_off120 (v584 : BitVec 32) : Fin 2 → Nat :=
  let c0_i32_483 : BitVec 32 := 0#32
  ![v584.toNat, 0]

def k0_chk57 (v584 : BitVec 32) : Prop :=
  (∀ a, (k0_off88 v584) a + S1x128.size a ≤ S262144x128.size a) ∧
  (∀ a, (k0_off120 v584) a + S1x128.size a ≤ S262144x128.size a)
instance k0_chk57.dec : ∀ (v584 : BitVec 32), Decidable (k0_chk57 v584) := fun v584 => decidable_of_iff' _ (Iff.of_eq (k0_chk57.eq_1 v584))
theorem k0_off88_inb : ∀ (v584 : BitVec 32) (k0_hw57 : k0_chk57 v584), ∀ a, (k0_off88 v584) a + S1x128.size a ≤ S262144x128.size a := fun v584 k0_hw57 => k0_hw57.1
theorem k0_off120_inb : ∀ (v584 : BitVec 32) (k0_hw57 : k0_chk57 v584), ∀ a, (k0_off120 v584) a + S1x128.size a ≤ S262144x128.size a := fun v584 k0_hw57 => k0_hw57.2

def k0_off121 (v585 : BitVec 32) : Fin 2 → Nat :=
  let c0_i32_487 : BitVec 32 := 0#32
  ![v585.toNat, 0]

def k0_chk58 (v585 : BitVec 32) : Prop :=
  (∀ a, (k0_off89 v585) a + S1x128.size a ≤ S262144x128.size a) ∧
  (∀ a, (k0_off121 v585) a + S1x128.size a ≤ S262144x128.size a)
instance k0_chk58.dec : ∀ (v585 : BitVec 32), Decidable (k0_chk58 v585) := fun v585 => decidable_of_iff' _ (Iff.of_eq (k0_chk58.eq_1 v585))
theorem k0_off89_inb : ∀ (v585 : BitVec 32) (k0_hw58 : k0_chk58 v585), ∀ a, (k0_off89 v585) a + S1x128.size a ≤ S262144x128.size a := fun v585 k0_hw58 => k0_hw58.1
theorem k0_off121_inb : ∀ (v585 : BitVec 32) (k0_hw58 : k0_chk58 v585), ∀ a, (k0_off121 v585) a + S1x128.size a ≤ S262144x128.size a := fun v585 k0_hw58 => k0_hw58.2

def k0_off122 (v598 : BitVec 32) : Fin 2 → Nat :=
  let c0_i32_491 : BitVec 32 := 0#32
  ![v598.toNat, 0]

def k0_chk59 (v598 : BitVec 32) : Prop :=
  (∀ a, (k0_off90 v598) a + S1x128.size a ≤ S262144x128.size a) ∧
  (∀ a, (k0_off122 v598) a + S1x128.size a ≤ S262144x128.size a)
instance k0_chk59.dec : ∀ (v598 : BitVec 32), Decidable (k0_chk59 v598) := fun v598 => decidable_of_iff' _ (Iff.of_eq (k0_chk59.eq_1 v598))
theorem k0_off90_inb : ∀ (v598 : BitVec 32) (k0_hw59 : k0_chk59 v598), ∀ a, (k0_off90 v598) a + S1x128.size a ≤ S262144x128.size a := fun v598 k0_hw59 => k0_hw59.1
theorem k0_off122_inb : ∀ (v598 : BitVec 32) (k0_hw59 : k0_chk59 v598), ∀ a, (k0_off122 v598) a + S1x128.size a ≤ S262144x128.size a := fun v598 k0_hw59 => k0_hw59.2

def k0_off123 (v599 : BitVec 32) : Fin 2 → Nat :=
  let c0_i32_495 : BitVec 32 := 0#32
  ![v599.toNat, 0]

def k0_chk60 (v599 : BitVec 32) : Prop :=
  (∀ a, (k0_off91 v599) a + S1x128.size a ≤ S262144x128.size a) ∧
  (∀ a, (k0_off123 v599) a + S1x128.size a ≤ S262144x128.size a)
instance k0_chk60.dec : ∀ (v599 : BitVec 32), Decidable (k0_chk60 v599) := fun v599 => decidable_of_iff' _ (Iff.of_eq (k0_chk60.eq_1 v599))
theorem k0_off91_inb : ∀ (v599 : BitVec 32) (k0_hw60 : k0_chk60 v599), ∀ a, (k0_off91 v599) a + S1x128.size a ≤ S262144x128.size a := fun v599 k0_hw60 => k0_hw60.1
theorem k0_off123_inb : ∀ (v599 : BitVec 32) (k0_hw60 : k0_chk60 v599), ∀ a, (k0_off123 v599) a + S1x128.size a ≤ S262144x128.size a := fun v599 k0_hw60 => k0_hw60.2

def k0_off124 (v612 : BitVec 32) : Fin 2 → Nat :=
  let c0_i32_499 : BitVec 32 := 0#32
  ![v612.toNat, 0]

def k0_chk61 (v612 : BitVec 32) : Prop :=
  (∀ a, (k0_off92 v612) a + S1x128.size a ≤ S262144x128.size a) ∧
  (∀ a, (k0_off124 v612) a + S1x128.size a ≤ S262144x128.size a)
instance k0_chk61.dec : ∀ (v612 : BitVec 32), Decidable (k0_chk61 v612) := fun v612 => decidable_of_iff' _ (Iff.of_eq (k0_chk61.eq_1 v612))
theorem k0_off92_inb : ∀ (v612 : BitVec 32) (k0_hw61 : k0_chk61 v612), ∀ a, (k0_off92 v612) a + S1x128.size a ≤ S262144x128.size a := fun v612 k0_hw61 => k0_hw61.1
theorem k0_off124_inb : ∀ (v612 : BitVec 32) (k0_hw61 : k0_chk61 v612), ∀ a, (k0_off124 v612) a + S1x128.size a ≤ S262144x128.size a := fun v612 k0_hw61 => k0_hw61.2

def k0_off125 (v613 : BitVec 32) : Fin 2 → Nat :=
  let c0_i32_503 : BitVec 32 := 0#32
  ![v613.toNat, 0]

def k0_chk62 (v613 : BitVec 32) : Prop :=
  (∀ a, (k0_off93 v613) a + S1x128.size a ≤ S262144x128.size a) ∧
  (∀ a, (k0_off125 v613) a + S1x128.size a ≤ S262144x128.size a)
instance k0_chk62.dec : ∀ (v613 : BitVec 32), Decidable (k0_chk62 v613) := fun v613 => decidable_of_iff' _ (Iff.of_eq (k0_chk62.eq_1 v613))
theorem k0_off93_inb : ∀ (v613 : BitVec 32) (k0_hw62 : k0_chk62 v613), ∀ a, (k0_off93 v613) a + S1x128.size a ≤ S262144x128.size a := fun v613 k0_hw62 => k0_hw62.1
theorem k0_off125_inb : ∀ (v613 : BitVec 32) (k0_hw62 : k0_chk62 v613), ∀ a, (k0_off125 v613) a + S1x128.size a ≤ S262144x128.size a := fun v613 k0_hw62 => k0_hw62.2

def k0_off126 (v626 : BitVec 32) : Fin 2 → Nat :=
  let c0_i32_507 : BitVec 32 := 0#32
  ![v626.toNat, 0]

def k0_chk63 (v626 : BitVec 32) : Prop :=
  (∀ a, (k0_off94 v626) a + S1x128.size a ≤ S262144x128.size a) ∧
  (∀ a, (k0_off126 v626) a + S1x128.size a ≤ S262144x128.size a)
instance k0_chk63.dec : ∀ (v626 : BitVec 32), Decidable (k0_chk63 v626) := fun v626 => decidable_of_iff' _ (Iff.of_eq (k0_chk63.eq_1 v626))
theorem k0_off94_inb : ∀ (v626 : BitVec 32) (k0_hw63 : k0_chk63 v626), ∀ a, (k0_off94 v626) a + S1x128.size a ≤ S262144x128.size a := fun v626 k0_hw63 => k0_hw63.1
theorem k0_off126_inb : ∀ (v626 : BitVec 32) (k0_hw63 : k0_chk63 v626), ∀ a, (k0_off126 v626) a + S1x128.size a ≤ S262144x128.size a := fun v626 k0_hw63 => k0_hw63.2

def k0_off127 (v832 : BitVec 32) : Fin 2 → Nat :=
  let c0_i32_515 : BitVec 32 := 0#32
  ![v832.toNat, 0]

def k0_off128 (v833 : BitVec 32) : Fin 2 → Nat :=
  let c0_i32_519 : BitVec 32 := 0#32
  ![v833.toNat, 0]

def k0_off129 (v846 : BitVec 32) : Fin 2 → Nat :=
  let c0_i32_523 : BitVec 32 := 0#32
  ![v846.toNat, 0]

def k0_off130 (v847 : BitVec 32) : Fin 2 → Nat :=
  let c0_i32_527 : BitVec 32 := 0#32
  ![v847.toNat, 0]

def k0_off131 (v860 : BitVec 32) : Fin 2 → Nat :=
  let c0_i32_531 : BitVec 32 := 0#32
  ![v860.toNat, 0]

def k0_off132 (v861 : BitVec 32) : Fin 2 → Nat :=
  let c0_i32_535 : BitVec 32 := 0#32
  ![v861.toNat, 0]

def k0_off133 (v874 : BitVec 32) : Fin 2 → Nat :=
  let c0_i32_539 : BitVec 32 := 0#32
  ![v874.toNat, 0]

def k0_off134 (v875 : BitVec 32) : Fin 2 → Nat :=
  let c0_i32_543 : BitVec 32 := 0#32
  ![v875.toNat, 0]

def k0_off135 (v888 : BitVec 32) : Fin 2 → Nat :=
  let c0_i32_547 : BitVec 32 := 0#32
  ![v888.toNat, 0]

def k0_off136 (v889 : BitVec 32) : Fin 2 → Nat :=
  let c0_i32_551 : BitVec 32 := 0#32
  ![v889.toNat, 0]

def k0_off137 (v902 : BitVec 32) : Fin 2 → Nat :=
  let c0_i32_555 : BitVec 32 := 0#32
  ![v902.toNat, 0]

def k0_off138 (v903 : BitVec 32) : Fin 2 → Nat :=
  let c0_i32_559 : BitVec 32 := 0#32
  ![v903.toNat, 0]

def k0_off139 (v916 : BitVec 32) : Fin 2 → Nat :=
  let c0_i32_563 : BitVec 32 := 0#32
  ![v916.toNat, 0]

def k0_off140 (v917 : BitVec 32) : Fin 2 → Nat :=
  let c0_i32_567 : BitVec 32 := 0#32
  ![v917.toNat, 0]

def k0_off141 (v930 : BitVec 32) : Fin 2 → Nat :=
  let c0_i32_571 : BitVec 32 := 0#32
  ![v930.toNat, 0]

def k0_off142 (v931 : BitVec 32) : Fin 2 → Nat :=
  let c0_i32_575 : BitVec 32 := 0#32
  ![v931.toNat, 0]

def k0_off143 (v944 : BitVec 32) : Fin 2 → Nat :=
  let c0_i32_579 : BitVec 32 := 0#32
  ![v944.toNat, 0]

def k0_off144 (v945 : BitVec 32) : Fin 2 → Nat :=
  let c0_i32_583 : BitVec 32 := 0#32
  ![v945.toNat, 0]

def k0_off145 (v958 : BitVec 32) : Fin 2 → Nat :=
  let c0_i32_587 : BitVec 32 := 0#32
  ![v958.toNat, 0]

def k0_off146 (v959 : BitVec 32) : Fin 2 → Nat :=
  let c0_i32_591 : BitVec 32 := 0#32
  ![v959.toNat, 0]

def k0_off147 (v972 : BitVec 32) : Fin 2 → Nat :=
  let c0_i32_595 : BitVec 32 := 0#32
  ![v972.toNat, 0]

def k0_off148 (v973 : BitVec 32) : Fin 2 → Nat :=
  let c0_i32_599 : BitVec 32 := 0#32
  ![v973.toNat, 0]

def k0_off149 (v986 : BitVec 32) : Fin 2 → Nat :=
  let c0_i32_603 : BitVec 32 := 0#32
  ![v986.toNat, 0]

def k0_off150 (v987 : BitVec 32) : Fin 2 → Nat :=
  let c0_i32_607 : BitVec 32 := 0#32
  ![v987.toNat, 0]

def k0_off151 (v1000 : BitVec 32) : Fin 2 → Nat :=
  let c0_i32_611 : BitVec 32 := 0#32
  ![v1000.toNat, 0]

def k0_off152 (v1001 : BitVec 32) : Fin 2 → Nat :=
  let c0_i32_615 : BitVec 32 := 0#32
  ![v1001.toNat, 0]

def k0_off153 (v1014 : BitVec 32) : Fin 2 → Nat :=
  let c0_i32_619 : BitVec 32 := 0#32
  ![v1014.toNat, 0]

def k0_off154 (v1015 : BitVec 32) : Fin 2 → Nat :=
  let c0_i32_623 : BitVec 32 := 0#32
  ![v1015.toNat, 0]

def k0_off155 (v1028 : BitVec 32) : Fin 2 → Nat :=
  let c0_i32_627 : BitVec 32 := 0#32
  ![v1028.toNat, 0]

def k0_off156 (v1029 : BitVec 32) : Fin 2 → Nat :=
  let c0_i32_631 : BitVec 32 := 0#32
  ![v1029.toNat, 0]

def k0_off157 (v1042 : BitVec 32) : Fin 2 → Nat :=
  let c0_i32_635 : BitVec 32 := 0#32
  ![v1042.toNat, 0]

def k0_off158 (v1043 : BitVec 32) : Fin 2 → Nat :=
  let c0_i32_639 : BitVec 32 := 0#32
  ![v1043.toNat, 0]

def k0_chk96 (v1043 : BitVec 32) : Prop :=
  (∀ a, (k0_off158 v1043) a + S1x128.size a ≤ S262144x128.size a)
instance k0_chk96.dec : ∀ (v1043 : BitVec 32), Decidable (k0_chk96 v1043) := fun v1043 => decidable_of_iff' _ (Iff.of_eq (k0_chk96.eq_1 v1043))
theorem k0_off158_inb : ∀ (v1043 : BitVec 32) (k0_hw96 : k0_chk96 v1043), ∀ a, (k0_off158 v1043) a + S1x128.size a ≤ S262144x128.size a := fun v1043 k0_hw96 => k0_hw96

def k0_off159 (v832 : BitVec 32) : Fin 2 → Nat :=
  let c0_i32_643 : BitVec 32 := 0#32
  ![v832.toNat, 0]

def k0_chk65 (v832 : BitVec 32) : Prop :=
  (∀ a, (k0_off127 v832) a + S1x128.size a ≤ S262144x128.size a) ∧
  (∀ a, (k0_off159 v832) a + S1x128.size a ≤ S262144x128.size a)
instance k0_chk65.dec : ∀ (v832 : BitVec 32), Decidable (k0_chk65 v832) := fun v832 => decidable_of_iff' _ (Iff.of_eq (k0_chk65.eq_1 v832))
theorem k0_off127_inb : ∀ (v832 : BitVec 32) (k0_hw65 : k0_chk65 v832), ∀ a, (k0_off127 v832) a + S1x128.size a ≤ S262144x128.size a := fun v832 k0_hw65 => k0_hw65.1
theorem k0_off159_inb : ∀ (v832 : BitVec 32) (k0_hw65 : k0_chk65 v832), ∀ a, (k0_off159 v832) a + S1x128.size a ≤ S262144x128.size a := fun v832 k0_hw65 => k0_hw65.2

def k0_off160 (v833 : BitVec 32) : Fin 2 → Nat :=
  let c0_i32_647 : BitVec 32 := 0#32
  ![v833.toNat, 0]

def k0_chk66 (v833 : BitVec 32) : Prop :=
  (∀ a, (k0_off128 v833) a + S1x128.size a ≤ S262144x128.size a) ∧
  (∀ a, (k0_off160 v833) a + S1x128.size a ≤ S262144x128.size a)
instance k0_chk66.dec : ∀ (v833 : BitVec 32), Decidable (k0_chk66 v833) := fun v833 => decidable_of_iff' _ (Iff.of_eq (k0_chk66.eq_1 v833))
theorem k0_off128_inb : ∀ (v833 : BitVec 32) (k0_hw66 : k0_chk66 v833), ∀ a, (k0_off128 v833) a + S1x128.size a ≤ S262144x128.size a := fun v833 k0_hw66 => k0_hw66.1
theorem k0_off160_inb : ∀ (v833 : BitVec 32) (k0_hw66 : k0_chk66 v833), ∀ a, (k0_off160 v833) a + S1x128.size a ≤ S262144x128.size a := fun v833 k0_hw66 => k0_hw66.2

def k0_off161 (v846 : BitVec 32) : Fin 2 → Nat :=
  let c0_i32_651 : BitVec 32 := 0#32
  ![v846.toNat, 0]

def k0_chk67 (v846 : BitVec 32) : Prop :=
  (∀ a, (k0_off129 v846) a + S1x128.size a ≤ S262144x128.size a) ∧
  (∀ a, (k0_off161 v846) a + S1x128.size a ≤ S262144x128.size a)
instance k0_chk67.dec : ∀ (v846 : BitVec 32), Decidable (k0_chk67 v846) := fun v846 => decidable_of_iff' _ (Iff.of_eq (k0_chk67.eq_1 v846))
theorem k0_off129_inb : ∀ (v846 : BitVec 32) (k0_hw67 : k0_chk67 v846), ∀ a, (k0_off129 v846) a + S1x128.size a ≤ S262144x128.size a := fun v846 k0_hw67 => k0_hw67.1
theorem k0_off161_inb : ∀ (v846 : BitVec 32) (k0_hw67 : k0_chk67 v846), ∀ a, (k0_off161 v846) a + S1x128.size a ≤ S262144x128.size a := fun v846 k0_hw67 => k0_hw67.2

def k0_off162 (v847 : BitVec 32) : Fin 2 → Nat :=
  let c0_i32_655 : BitVec 32 := 0#32
  ![v847.toNat, 0]

def k0_chk68 (v847 : BitVec 32) : Prop :=
  (∀ a, (k0_off130 v847) a + S1x128.size a ≤ S262144x128.size a) ∧
  (∀ a, (k0_off162 v847) a + S1x128.size a ≤ S262144x128.size a)
instance k0_chk68.dec : ∀ (v847 : BitVec 32), Decidable (k0_chk68 v847) := fun v847 => decidable_of_iff' _ (Iff.of_eq (k0_chk68.eq_1 v847))
theorem k0_off130_inb : ∀ (v847 : BitVec 32) (k0_hw68 : k0_chk68 v847), ∀ a, (k0_off130 v847) a + S1x128.size a ≤ S262144x128.size a := fun v847 k0_hw68 => k0_hw68.1
theorem k0_off162_inb : ∀ (v847 : BitVec 32) (k0_hw68 : k0_chk68 v847), ∀ a, (k0_off162 v847) a + S1x128.size a ≤ S262144x128.size a := fun v847 k0_hw68 => k0_hw68.2

def k0_off163 (v860 : BitVec 32) : Fin 2 → Nat :=
  let c0_i32_659 : BitVec 32 := 0#32
  ![v860.toNat, 0]

def k0_chk69 (v860 : BitVec 32) : Prop :=
  (∀ a, (k0_off131 v860) a + S1x128.size a ≤ S262144x128.size a) ∧
  (∀ a, (k0_off163 v860) a + S1x128.size a ≤ S262144x128.size a)
instance k0_chk69.dec : ∀ (v860 : BitVec 32), Decidable (k0_chk69 v860) := fun v860 => decidable_of_iff' _ (Iff.of_eq (k0_chk69.eq_1 v860))
theorem k0_off131_inb : ∀ (v860 : BitVec 32) (k0_hw69 : k0_chk69 v860), ∀ a, (k0_off131 v860) a + S1x128.size a ≤ S262144x128.size a := fun v860 k0_hw69 => k0_hw69.1
theorem k0_off163_inb : ∀ (v860 : BitVec 32) (k0_hw69 : k0_chk69 v860), ∀ a, (k0_off163 v860) a + S1x128.size a ≤ S262144x128.size a := fun v860 k0_hw69 => k0_hw69.2

def k0_off164 (v861 : BitVec 32) : Fin 2 → Nat :=
  let c0_i32_663 : BitVec 32 := 0#32
  ![v861.toNat, 0]

def k0_chk70 (v861 : BitVec 32) : Prop :=
  (∀ a, (k0_off132 v861) a + S1x128.size a ≤ S262144x128.size a) ∧
  (∀ a, (k0_off164 v861) a + S1x128.size a ≤ S262144x128.size a)
instance k0_chk70.dec : ∀ (v861 : BitVec 32), Decidable (k0_chk70 v861) := fun v861 => decidable_of_iff' _ (Iff.of_eq (k0_chk70.eq_1 v861))
theorem k0_off132_inb : ∀ (v861 : BitVec 32) (k0_hw70 : k0_chk70 v861), ∀ a, (k0_off132 v861) a + S1x128.size a ≤ S262144x128.size a := fun v861 k0_hw70 => k0_hw70.1
theorem k0_off164_inb : ∀ (v861 : BitVec 32) (k0_hw70 : k0_chk70 v861), ∀ a, (k0_off164 v861) a + S1x128.size a ≤ S262144x128.size a := fun v861 k0_hw70 => k0_hw70.2

def k0_off165 (v874 : BitVec 32) : Fin 2 → Nat :=
  let c0_i32_667 : BitVec 32 := 0#32
  ![v874.toNat, 0]

def k0_chk71 (v874 : BitVec 32) : Prop :=
  (∀ a, (k0_off133 v874) a + S1x128.size a ≤ S262144x128.size a) ∧
  (∀ a, (k0_off165 v874) a + S1x128.size a ≤ S262144x128.size a)
instance k0_chk71.dec : ∀ (v874 : BitVec 32), Decidable (k0_chk71 v874) := fun v874 => decidable_of_iff' _ (Iff.of_eq (k0_chk71.eq_1 v874))
theorem k0_off133_inb : ∀ (v874 : BitVec 32) (k0_hw71 : k0_chk71 v874), ∀ a, (k0_off133 v874) a + S1x128.size a ≤ S262144x128.size a := fun v874 k0_hw71 => k0_hw71.1
theorem k0_off165_inb : ∀ (v874 : BitVec 32) (k0_hw71 : k0_chk71 v874), ∀ a, (k0_off165 v874) a + S1x128.size a ≤ S262144x128.size a := fun v874 k0_hw71 => k0_hw71.2

def k0_off166 (v875 : BitVec 32) : Fin 2 → Nat :=
  let c0_i32_671 : BitVec 32 := 0#32
  ![v875.toNat, 0]

def k0_chk72 (v875 : BitVec 32) : Prop :=
  (∀ a, (k0_off134 v875) a + S1x128.size a ≤ S262144x128.size a) ∧
  (∀ a, (k0_off166 v875) a + S1x128.size a ≤ S262144x128.size a)
instance k0_chk72.dec : ∀ (v875 : BitVec 32), Decidable (k0_chk72 v875) := fun v875 => decidable_of_iff' _ (Iff.of_eq (k0_chk72.eq_1 v875))
theorem k0_off134_inb : ∀ (v875 : BitVec 32) (k0_hw72 : k0_chk72 v875), ∀ a, (k0_off134 v875) a + S1x128.size a ≤ S262144x128.size a := fun v875 k0_hw72 => k0_hw72.1
theorem k0_off166_inb : ∀ (v875 : BitVec 32) (k0_hw72 : k0_chk72 v875), ∀ a, (k0_off166 v875) a + S1x128.size a ≤ S262144x128.size a := fun v875 k0_hw72 => k0_hw72.2

def k0_off167 (v888 : BitVec 32) : Fin 2 → Nat :=
  let c0_i32_675 : BitVec 32 := 0#32
  ![v888.toNat, 0]

def k0_chk73 (v888 : BitVec 32) : Prop :=
  (∀ a, (k0_off135 v888) a + S1x128.size a ≤ S262144x128.size a) ∧
  (∀ a, (k0_off167 v888) a + S1x128.size a ≤ S262144x128.size a)
instance k0_chk73.dec : ∀ (v888 : BitVec 32), Decidable (k0_chk73 v888) := fun v888 => decidable_of_iff' _ (Iff.of_eq (k0_chk73.eq_1 v888))
theorem k0_off135_inb : ∀ (v888 : BitVec 32) (k0_hw73 : k0_chk73 v888), ∀ a, (k0_off135 v888) a + S1x128.size a ≤ S262144x128.size a := fun v888 k0_hw73 => k0_hw73.1
theorem k0_off167_inb : ∀ (v888 : BitVec 32) (k0_hw73 : k0_chk73 v888), ∀ a, (k0_off167 v888) a + S1x128.size a ≤ S262144x128.size a := fun v888 k0_hw73 => k0_hw73.2

def k0_off168 (v889 : BitVec 32) : Fin 2 → Nat :=
  let c0_i32_679 : BitVec 32 := 0#32
  ![v889.toNat, 0]

def k0_chk74 (v889 : BitVec 32) : Prop :=
  (∀ a, (k0_off136 v889) a + S1x128.size a ≤ S262144x128.size a) ∧
  (∀ a, (k0_off168 v889) a + S1x128.size a ≤ S262144x128.size a)
instance k0_chk74.dec : ∀ (v889 : BitVec 32), Decidable (k0_chk74 v889) := fun v889 => decidable_of_iff' _ (Iff.of_eq (k0_chk74.eq_1 v889))
theorem k0_off136_inb : ∀ (v889 : BitVec 32) (k0_hw74 : k0_chk74 v889), ∀ a, (k0_off136 v889) a + S1x128.size a ≤ S262144x128.size a := fun v889 k0_hw74 => k0_hw74.1
theorem k0_off168_inb : ∀ (v889 : BitVec 32) (k0_hw74 : k0_chk74 v889), ∀ a, (k0_off168 v889) a + S1x128.size a ≤ S262144x128.size a := fun v889 k0_hw74 => k0_hw74.2

def k0_off169 (v902 : BitVec 32) : Fin 2 → Nat :=
  let c0_i32_683 : BitVec 32 := 0#32
  ![v902.toNat, 0]

def k0_chk75 (v902 : BitVec 32) : Prop :=
  (∀ a, (k0_off137 v902) a + S1x128.size a ≤ S262144x128.size a) ∧
  (∀ a, (k0_off169 v902) a + S1x128.size a ≤ S262144x128.size a)
instance k0_chk75.dec : ∀ (v902 : BitVec 32), Decidable (k0_chk75 v902) := fun v902 => decidable_of_iff' _ (Iff.of_eq (k0_chk75.eq_1 v902))
theorem k0_off137_inb : ∀ (v902 : BitVec 32) (k0_hw75 : k0_chk75 v902), ∀ a, (k0_off137 v902) a + S1x128.size a ≤ S262144x128.size a := fun v902 k0_hw75 => k0_hw75.1
theorem k0_off169_inb : ∀ (v902 : BitVec 32) (k0_hw75 : k0_chk75 v902), ∀ a, (k0_off169 v902) a + S1x128.size a ≤ S262144x128.size a := fun v902 k0_hw75 => k0_hw75.2

def k0_off170 (v903 : BitVec 32) : Fin 2 → Nat :=
  let c0_i32_687 : BitVec 32 := 0#32
  ![v903.toNat, 0]

def k0_chk76 (v903 : BitVec 32) : Prop :=
  (∀ a, (k0_off138 v903) a + S1x128.size a ≤ S262144x128.size a) ∧
  (∀ a, (k0_off170 v903) a + S1x128.size a ≤ S262144x128.size a)
instance k0_chk76.dec : ∀ (v903 : BitVec 32), Decidable (k0_chk76 v903) := fun v903 => decidable_of_iff' _ (Iff.of_eq (k0_chk76.eq_1 v903))
theorem k0_off138_inb : ∀ (v903 : BitVec 32) (k0_hw76 : k0_chk76 v903), ∀ a, (k0_off138 v903) a + S1x128.size a ≤ S262144x128.size a := fun v903 k0_hw76 => k0_hw76.1
theorem k0_off170_inb : ∀ (v903 : BitVec 32) (k0_hw76 : k0_chk76 v903), ∀ a, (k0_off170 v903) a + S1x128.size a ≤ S262144x128.size a := fun v903 k0_hw76 => k0_hw76.2

def k0_off171 (v916 : BitVec 32) : Fin 2 → Nat :=
  let c0_i32_691 : BitVec 32 := 0#32
  ![v916.toNat, 0]

def k0_chk77 (v916 : BitVec 32) : Prop :=
  (∀ a, (k0_off139 v916) a + S1x128.size a ≤ S262144x128.size a) ∧
  (∀ a, (k0_off171 v916) a + S1x128.size a ≤ S262144x128.size a)
instance k0_chk77.dec : ∀ (v916 : BitVec 32), Decidable (k0_chk77 v916) := fun v916 => decidable_of_iff' _ (Iff.of_eq (k0_chk77.eq_1 v916))
theorem k0_off139_inb : ∀ (v916 : BitVec 32) (k0_hw77 : k0_chk77 v916), ∀ a, (k0_off139 v916) a + S1x128.size a ≤ S262144x128.size a := fun v916 k0_hw77 => k0_hw77.1
theorem k0_off171_inb : ∀ (v916 : BitVec 32) (k0_hw77 : k0_chk77 v916), ∀ a, (k0_off171 v916) a + S1x128.size a ≤ S262144x128.size a := fun v916 k0_hw77 => k0_hw77.2

def k0_off172 (v917 : BitVec 32) : Fin 2 → Nat :=
  let c0_i32_695 : BitVec 32 := 0#32
  ![v917.toNat, 0]

def k0_chk78 (v917 : BitVec 32) : Prop :=
  (∀ a, (k0_off140 v917) a + S1x128.size a ≤ S262144x128.size a) ∧
  (∀ a, (k0_off172 v917) a + S1x128.size a ≤ S262144x128.size a)
instance k0_chk78.dec : ∀ (v917 : BitVec 32), Decidable (k0_chk78 v917) := fun v917 => decidable_of_iff' _ (Iff.of_eq (k0_chk78.eq_1 v917))
theorem k0_off140_inb : ∀ (v917 : BitVec 32) (k0_hw78 : k0_chk78 v917), ∀ a, (k0_off140 v917) a + S1x128.size a ≤ S262144x128.size a := fun v917 k0_hw78 => k0_hw78.1
theorem k0_off172_inb : ∀ (v917 : BitVec 32) (k0_hw78 : k0_chk78 v917), ∀ a, (k0_off172 v917) a + S1x128.size a ≤ S262144x128.size a := fun v917 k0_hw78 => k0_hw78.2

def k0_off173 (v930 : BitVec 32) : Fin 2 → Nat :=
  let c0_i32_699 : BitVec 32 := 0#32
  ![v930.toNat, 0]

def k0_chk79 (v930 : BitVec 32) : Prop :=
  (∀ a, (k0_off141 v930) a + S1x128.size a ≤ S262144x128.size a) ∧
  (∀ a, (k0_off173 v930) a + S1x128.size a ≤ S262144x128.size a)
instance k0_chk79.dec : ∀ (v930 : BitVec 32), Decidable (k0_chk79 v930) := fun v930 => decidable_of_iff' _ (Iff.of_eq (k0_chk79.eq_1 v930))
theorem k0_off141_inb : ∀ (v930 : BitVec 32) (k0_hw79 : k0_chk79 v930), ∀ a, (k0_off141 v930) a + S1x128.size a ≤ S262144x128.size a := fun v930 k0_hw79 => k0_hw79.1
theorem k0_off173_inb : ∀ (v930 : BitVec 32) (k0_hw79 : k0_chk79 v930), ∀ a, (k0_off173 v930) a + S1x128.size a ≤ S262144x128.size a := fun v930 k0_hw79 => k0_hw79.2

def k0_off174 (v931 : BitVec 32) : Fin 2 → Nat :=
  let c0_i32_703 : BitVec 32 := 0#32
  ![v931.toNat, 0]

def k0_chk80 (v931 : BitVec 32) : Prop :=
  (∀ a, (k0_off142 v931) a + S1x128.size a ≤ S262144x128.size a) ∧
  (∀ a, (k0_off174 v931) a + S1x128.size a ≤ S262144x128.size a)
instance k0_chk80.dec : ∀ (v931 : BitVec 32), Decidable (k0_chk80 v931) := fun v931 => decidable_of_iff' _ (Iff.of_eq (k0_chk80.eq_1 v931))
theorem k0_off142_inb : ∀ (v931 : BitVec 32) (k0_hw80 : k0_chk80 v931), ∀ a, (k0_off142 v931) a + S1x128.size a ≤ S262144x128.size a := fun v931 k0_hw80 => k0_hw80.1
theorem k0_off174_inb : ∀ (v931 : BitVec 32) (k0_hw80 : k0_chk80 v931), ∀ a, (k0_off174 v931) a + S1x128.size a ≤ S262144x128.size a := fun v931 k0_hw80 => k0_hw80.2

def k0_off175 (v944 : BitVec 32) : Fin 2 → Nat :=
  let c0_i32_707 : BitVec 32 := 0#32
  ![v944.toNat, 0]

def k0_chk81 (v944 : BitVec 32) : Prop :=
  (∀ a, (k0_off143 v944) a + S1x128.size a ≤ S262144x128.size a) ∧
  (∀ a, (k0_off175 v944) a + S1x128.size a ≤ S262144x128.size a)
instance k0_chk81.dec : ∀ (v944 : BitVec 32), Decidable (k0_chk81 v944) := fun v944 => decidable_of_iff' _ (Iff.of_eq (k0_chk81.eq_1 v944))
theorem k0_off143_inb : ∀ (v944 : BitVec 32) (k0_hw81 : k0_chk81 v944), ∀ a, (k0_off143 v944) a + S1x128.size a ≤ S262144x128.size a := fun v944 k0_hw81 => k0_hw81.1
theorem k0_off175_inb : ∀ (v944 : BitVec 32) (k0_hw81 : k0_chk81 v944), ∀ a, (k0_off175 v944) a + S1x128.size a ≤ S262144x128.size a := fun v944 k0_hw81 => k0_hw81.2

def k0_off176 (v945 : BitVec 32) : Fin 2 → Nat :=
  let c0_i32_711 : BitVec 32 := 0#32
  ![v945.toNat, 0]

def k0_chk82 (v945 : BitVec 32) : Prop :=
  (∀ a, (k0_off144 v945) a + S1x128.size a ≤ S262144x128.size a) ∧
  (∀ a, (k0_off176 v945) a + S1x128.size a ≤ S262144x128.size a)
instance k0_chk82.dec : ∀ (v945 : BitVec 32), Decidable (k0_chk82 v945) := fun v945 => decidable_of_iff' _ (Iff.of_eq (k0_chk82.eq_1 v945))
theorem k0_off144_inb : ∀ (v945 : BitVec 32) (k0_hw82 : k0_chk82 v945), ∀ a, (k0_off144 v945) a + S1x128.size a ≤ S262144x128.size a := fun v945 k0_hw82 => k0_hw82.1
theorem k0_off176_inb : ∀ (v945 : BitVec 32) (k0_hw82 : k0_chk82 v945), ∀ a, (k0_off176 v945) a + S1x128.size a ≤ S262144x128.size a := fun v945 k0_hw82 => k0_hw82.2

def k0_off177 (v958 : BitVec 32) : Fin 2 → Nat :=
  let c0_i32_715 : BitVec 32 := 0#32
  ![v958.toNat, 0]

def k0_chk83 (v958 : BitVec 32) : Prop :=
  (∀ a, (k0_off145 v958) a + S1x128.size a ≤ S262144x128.size a) ∧
  (∀ a, (k0_off177 v958) a + S1x128.size a ≤ S262144x128.size a)
instance k0_chk83.dec : ∀ (v958 : BitVec 32), Decidable (k0_chk83 v958) := fun v958 => decidable_of_iff' _ (Iff.of_eq (k0_chk83.eq_1 v958))
theorem k0_off145_inb : ∀ (v958 : BitVec 32) (k0_hw83 : k0_chk83 v958), ∀ a, (k0_off145 v958) a + S1x128.size a ≤ S262144x128.size a := fun v958 k0_hw83 => k0_hw83.1
theorem k0_off177_inb : ∀ (v958 : BitVec 32) (k0_hw83 : k0_chk83 v958), ∀ a, (k0_off177 v958) a + S1x128.size a ≤ S262144x128.size a := fun v958 k0_hw83 => k0_hw83.2

def k0_off178 (v959 : BitVec 32) : Fin 2 → Nat :=
  let c0_i32_719 : BitVec 32 := 0#32
  ![v959.toNat, 0]

def k0_chk84 (v959 : BitVec 32) : Prop :=
  (∀ a, (k0_off146 v959) a + S1x128.size a ≤ S262144x128.size a) ∧
  (∀ a, (k0_off178 v959) a + S1x128.size a ≤ S262144x128.size a)
instance k0_chk84.dec : ∀ (v959 : BitVec 32), Decidable (k0_chk84 v959) := fun v959 => decidable_of_iff' _ (Iff.of_eq (k0_chk84.eq_1 v959))
theorem k0_off146_inb : ∀ (v959 : BitVec 32) (k0_hw84 : k0_chk84 v959), ∀ a, (k0_off146 v959) a + S1x128.size a ≤ S262144x128.size a := fun v959 k0_hw84 => k0_hw84.1
theorem k0_off178_inb : ∀ (v959 : BitVec 32) (k0_hw84 : k0_chk84 v959), ∀ a, (k0_off178 v959) a + S1x128.size a ≤ S262144x128.size a := fun v959 k0_hw84 => k0_hw84.2

def k0_off179 (v972 : BitVec 32) : Fin 2 → Nat :=
  let c0_i32_723 : BitVec 32 := 0#32
  ![v972.toNat, 0]

def k0_chk85 (v972 : BitVec 32) : Prop :=
  (∀ a, (k0_off147 v972) a + S1x128.size a ≤ S262144x128.size a) ∧
  (∀ a, (k0_off179 v972) a + S1x128.size a ≤ S262144x128.size a)
instance k0_chk85.dec : ∀ (v972 : BitVec 32), Decidable (k0_chk85 v972) := fun v972 => decidable_of_iff' _ (Iff.of_eq (k0_chk85.eq_1 v972))
theorem k0_off147_inb : ∀ (v972 : BitVec 32) (k0_hw85 : k0_chk85 v972), ∀ a, (k0_off147 v972) a + S1x128.size a ≤ S262144x128.size a := fun v972 k0_hw85 => k0_hw85.1
theorem k0_off179_inb : ∀ (v972 : BitVec 32) (k0_hw85 : k0_chk85 v972), ∀ a, (k0_off179 v972) a + S1x128.size a ≤ S262144x128.size a := fun v972 k0_hw85 => k0_hw85.2

def k0_off180 (v973 : BitVec 32) : Fin 2 → Nat :=
  let c0_i32_727 : BitVec 32 := 0#32
  ![v973.toNat, 0]

def k0_chk86 (v973 : BitVec 32) : Prop :=
  (∀ a, (k0_off148 v973) a + S1x128.size a ≤ S262144x128.size a) ∧
  (∀ a, (k0_off180 v973) a + S1x128.size a ≤ S262144x128.size a)
instance k0_chk86.dec : ∀ (v973 : BitVec 32), Decidable (k0_chk86 v973) := fun v973 => decidable_of_iff' _ (Iff.of_eq (k0_chk86.eq_1 v973))
theorem k0_off148_inb : ∀ (v973 : BitVec 32) (k0_hw86 : k0_chk86 v973), ∀ a, (k0_off148 v973) a + S1x128.size a ≤ S262144x128.size a := fun v973 k0_hw86 => k0_hw86.1
theorem k0_off180_inb : ∀ (v973 : BitVec 32) (k0_hw86 : k0_chk86 v973), ∀ a, (k0_off180 v973) a + S1x128.size a ≤ S262144x128.size a := fun v973 k0_hw86 => k0_hw86.2

def k0_off181 (v986 : BitVec 32) : Fin 2 → Nat :=
  let c0_i32_731 : BitVec 32 := 0#32
  ![v986.toNat, 0]

def k0_chk87 (v986 : BitVec 32) : Prop :=
  (∀ a, (k0_off149 v986) a + S1x128.size a ≤ S262144x128.size a) ∧
  (∀ a, (k0_off181 v986) a + S1x128.size a ≤ S262144x128.size a)
instance k0_chk87.dec : ∀ (v986 : BitVec 32), Decidable (k0_chk87 v986) := fun v986 => decidable_of_iff' _ (Iff.of_eq (k0_chk87.eq_1 v986))
theorem k0_off149_inb : ∀ (v986 : BitVec 32) (k0_hw87 : k0_chk87 v986), ∀ a, (k0_off149 v986) a + S1x128.size a ≤ S262144x128.size a := fun v986 k0_hw87 => k0_hw87.1
theorem k0_off181_inb : ∀ (v986 : BitVec 32) (k0_hw87 : k0_chk87 v986), ∀ a, (k0_off181 v986) a + S1x128.size a ≤ S262144x128.size a := fun v986 k0_hw87 => k0_hw87.2

def k0_off182 (v987 : BitVec 32) : Fin 2 → Nat :=
  let c0_i32_735 : BitVec 32 := 0#32
  ![v987.toNat, 0]

def k0_chk88 (v987 : BitVec 32) : Prop :=
  (∀ a, (k0_off150 v987) a + S1x128.size a ≤ S262144x128.size a) ∧
  (∀ a, (k0_off182 v987) a + S1x128.size a ≤ S262144x128.size a)
instance k0_chk88.dec : ∀ (v987 : BitVec 32), Decidable (k0_chk88 v987) := fun v987 => decidable_of_iff' _ (Iff.of_eq (k0_chk88.eq_1 v987))
theorem k0_off150_inb : ∀ (v987 : BitVec 32) (k0_hw88 : k0_chk88 v987), ∀ a, (k0_off150 v987) a + S1x128.size a ≤ S262144x128.size a := fun v987 k0_hw88 => k0_hw88.1
theorem k0_off182_inb : ∀ (v987 : BitVec 32) (k0_hw88 : k0_chk88 v987), ∀ a, (k0_off182 v987) a + S1x128.size a ≤ S262144x128.size a := fun v987 k0_hw88 => k0_hw88.2

def k0_off183 (v1000 : BitVec 32) : Fin 2 → Nat :=
  let c0_i32_739 : BitVec 32 := 0#32
  ![v1000.toNat, 0]

def k0_chk89 (v1000 : BitVec 32) : Prop :=
  (∀ a, (k0_off151 v1000) a + S1x128.size a ≤ S262144x128.size a) ∧
  (∀ a, (k0_off183 v1000) a + S1x128.size a ≤ S262144x128.size a)
instance k0_chk89.dec : ∀ (v1000 : BitVec 32), Decidable (k0_chk89 v1000) := fun v1000 => decidable_of_iff' _ (Iff.of_eq (k0_chk89.eq_1 v1000))
theorem k0_off151_inb : ∀ (v1000 : BitVec 32) (k0_hw89 : k0_chk89 v1000), ∀ a, (k0_off151 v1000) a + S1x128.size a ≤ S262144x128.size a := fun v1000 k0_hw89 => k0_hw89.1
theorem k0_off183_inb : ∀ (v1000 : BitVec 32) (k0_hw89 : k0_chk89 v1000), ∀ a, (k0_off183 v1000) a + S1x128.size a ≤ S262144x128.size a := fun v1000 k0_hw89 => k0_hw89.2

def k0_off184 (v1001 : BitVec 32) : Fin 2 → Nat :=
  let c0_i32_743 : BitVec 32 := 0#32
  ![v1001.toNat, 0]

def k0_chk90 (v1001 : BitVec 32) : Prop :=
  (∀ a, (k0_off152 v1001) a + S1x128.size a ≤ S262144x128.size a) ∧
  (∀ a, (k0_off184 v1001) a + S1x128.size a ≤ S262144x128.size a)
instance k0_chk90.dec : ∀ (v1001 : BitVec 32), Decidable (k0_chk90 v1001) := fun v1001 => decidable_of_iff' _ (Iff.of_eq (k0_chk90.eq_1 v1001))
theorem k0_off152_inb : ∀ (v1001 : BitVec 32) (k0_hw90 : k0_chk90 v1001), ∀ a, (k0_off152 v1001) a + S1x128.size a ≤ S262144x128.size a := fun v1001 k0_hw90 => k0_hw90.1
theorem k0_off184_inb : ∀ (v1001 : BitVec 32) (k0_hw90 : k0_chk90 v1001), ∀ a, (k0_off184 v1001) a + S1x128.size a ≤ S262144x128.size a := fun v1001 k0_hw90 => k0_hw90.2

def k0_off185 (v1014 : BitVec 32) : Fin 2 → Nat :=
  let c0_i32_747 : BitVec 32 := 0#32
  ![v1014.toNat, 0]

def k0_chk91 (v1014 : BitVec 32) : Prop :=
  (∀ a, (k0_off153 v1014) a + S1x128.size a ≤ S262144x128.size a) ∧
  (∀ a, (k0_off185 v1014) a + S1x128.size a ≤ S262144x128.size a)
instance k0_chk91.dec : ∀ (v1014 : BitVec 32), Decidable (k0_chk91 v1014) := fun v1014 => decidable_of_iff' _ (Iff.of_eq (k0_chk91.eq_1 v1014))
theorem k0_off153_inb : ∀ (v1014 : BitVec 32) (k0_hw91 : k0_chk91 v1014), ∀ a, (k0_off153 v1014) a + S1x128.size a ≤ S262144x128.size a := fun v1014 k0_hw91 => k0_hw91.1
theorem k0_off185_inb : ∀ (v1014 : BitVec 32) (k0_hw91 : k0_chk91 v1014), ∀ a, (k0_off185 v1014) a + S1x128.size a ≤ S262144x128.size a := fun v1014 k0_hw91 => k0_hw91.2

def k0_off186 (v1015 : BitVec 32) : Fin 2 → Nat :=
  let c0_i32_751 : BitVec 32 := 0#32
  ![v1015.toNat, 0]

def k0_chk92 (v1015 : BitVec 32) : Prop :=
  (∀ a, (k0_off154 v1015) a + S1x128.size a ≤ S262144x128.size a) ∧
  (∀ a, (k0_off186 v1015) a + S1x128.size a ≤ S262144x128.size a)
instance k0_chk92.dec : ∀ (v1015 : BitVec 32), Decidable (k0_chk92 v1015) := fun v1015 => decidable_of_iff' _ (Iff.of_eq (k0_chk92.eq_1 v1015))
theorem k0_off154_inb : ∀ (v1015 : BitVec 32) (k0_hw92 : k0_chk92 v1015), ∀ a, (k0_off154 v1015) a + S1x128.size a ≤ S262144x128.size a := fun v1015 k0_hw92 => k0_hw92.1
theorem k0_off186_inb : ∀ (v1015 : BitVec 32) (k0_hw92 : k0_chk92 v1015), ∀ a, (k0_off186 v1015) a + S1x128.size a ≤ S262144x128.size a := fun v1015 k0_hw92 => k0_hw92.2

def k0_off187 (v1028 : BitVec 32) : Fin 2 → Nat :=
  let c0_i32_755 : BitVec 32 := 0#32
  ![v1028.toNat, 0]

def k0_chk93 (v1028 : BitVec 32) : Prop :=
  (∀ a, (k0_off155 v1028) a + S1x128.size a ≤ S262144x128.size a) ∧
  (∀ a, (k0_off187 v1028) a + S1x128.size a ≤ S262144x128.size a)
instance k0_chk93.dec : ∀ (v1028 : BitVec 32), Decidable (k0_chk93 v1028) := fun v1028 => decidable_of_iff' _ (Iff.of_eq (k0_chk93.eq_1 v1028))
theorem k0_off155_inb : ∀ (v1028 : BitVec 32) (k0_hw93 : k0_chk93 v1028), ∀ a, (k0_off155 v1028) a + S1x128.size a ≤ S262144x128.size a := fun v1028 k0_hw93 => k0_hw93.1
theorem k0_off187_inb : ∀ (v1028 : BitVec 32) (k0_hw93 : k0_chk93 v1028), ∀ a, (k0_off187 v1028) a + S1x128.size a ≤ S262144x128.size a := fun v1028 k0_hw93 => k0_hw93.2

def k0_off188 (v1029 : BitVec 32) : Fin 2 → Nat :=
  let c0_i32_759 : BitVec 32 := 0#32
  ![v1029.toNat, 0]

def k0_chk94 (v1029 : BitVec 32) : Prop :=
  (∀ a, (k0_off156 v1029) a + S1x128.size a ≤ S262144x128.size a) ∧
  (∀ a, (k0_off188 v1029) a + S1x128.size a ≤ S262144x128.size a)
instance k0_chk94.dec : ∀ (v1029 : BitVec 32), Decidable (k0_chk94 v1029) := fun v1029 => decidable_of_iff' _ (Iff.of_eq (k0_chk94.eq_1 v1029))
theorem k0_off156_inb : ∀ (v1029 : BitVec 32) (k0_hw94 : k0_chk94 v1029), ∀ a, (k0_off156 v1029) a + S1x128.size a ≤ S262144x128.size a := fun v1029 k0_hw94 => k0_hw94.1
theorem k0_off188_inb : ∀ (v1029 : BitVec 32) (k0_hw94 : k0_chk94 v1029), ∀ a, (k0_off188 v1029) a + S1x128.size a ≤ S262144x128.size a := fun v1029 k0_hw94 => k0_hw94.2

def k0_off189 (v1042 : BitVec 32) : Fin 2 → Nat :=
  let c0_i32_763 : BitVec 32 := 0#32
  ![v1042.toNat, 0]

def k0_chk95 (v1042 : BitVec 32) : Prop :=
  (∀ a, (k0_off157 v1042) a + S1x128.size a ≤ S262144x128.size a) ∧
  (∀ a, (k0_off189 v1042) a + S1x128.size a ≤ S262144x128.size a)
instance k0_chk95.dec : ∀ (v1042 : BitVec 32), Decidable (k0_chk95 v1042) := fun v1042 => decidable_of_iff' _ (Iff.of_eq (k0_chk95.eq_1 v1042))
theorem k0_off157_inb : ∀ (v1042 : BitVec 32) (k0_hw95 : k0_chk95 v1042), ∀ a, (k0_off157 v1042) a + S1x128.size a ≤ S262144x128.size a := fun v1042 k0_hw95 => k0_hw95.1
theorem k0_off189_inb : ∀ (v1042 : BitVec 32) (k0_hw95 : k0_chk95 v1042), ∀ a, (k0_off189 v1042) a + S1x128.size a ≤ S262144x128.size a := fun v1042 k0_hw95 => k0_hw95.2

def k0_off190 (v1248 : BitVec 32) : Fin 2 → Nat :=
  let c0_i32_771 : BitVec 32 := 0#32
  ![v1248.toNat, 0]

def k0_off191 (v1249 : BitVec 32) : Fin 2 → Nat :=
  let c0_i32_775 : BitVec 32 := 0#32
  ![v1249.toNat, 0]

def k0_off192 (v1262 : BitVec 32) : Fin 2 → Nat :=
  let c0_i32_779 : BitVec 32 := 0#32
  ![v1262.toNat, 0]

def k0_off193 (v1263 : BitVec 32) : Fin 2 → Nat :=
  let c0_i32_783 : BitVec 32 := 0#32
  ![v1263.toNat, 0]

def k0_off194 (v1276 : BitVec 32) : Fin 2 → Nat :=
  let c0_i32_787 : BitVec 32 := 0#32
  ![v1276.toNat, 0]

def k0_off195 (v1277 : BitVec 32) : Fin 2 → Nat :=
  let c0_i32_791 : BitVec 32 := 0#32
  ![v1277.toNat, 0]

def k0_off196 (v1290 : BitVec 32) : Fin 2 → Nat :=
  let c0_i32_795 : BitVec 32 := 0#32
  ![v1290.toNat, 0]

def k0_off197 (v1291 : BitVec 32) : Fin 2 → Nat :=
  let c0_i32_799 : BitVec 32 := 0#32
  ![v1291.toNat, 0]

def k0_off198 (v1304 : BitVec 32) : Fin 2 → Nat :=
  let c0_i32_803 : BitVec 32 := 0#32
  ![v1304.toNat, 0]

def k0_off199 (v1305 : BitVec 32) : Fin 2 → Nat :=
  let c0_i32_807 : BitVec 32 := 0#32
  ![v1305.toNat, 0]

def k0_off200 (v1318 : BitVec 32) : Fin 2 → Nat :=
  let c0_i32_811 : BitVec 32 := 0#32
  ![v1318.toNat, 0]

def k0_off201 (v1319 : BitVec 32) : Fin 2 → Nat :=
  let c0_i32_815 : BitVec 32 := 0#32
  ![v1319.toNat, 0]

def k0_off202 (v1332 : BitVec 32) : Fin 2 → Nat :=
  let c0_i32_819 : BitVec 32 := 0#32
  ![v1332.toNat, 0]

def k0_off203 (v1333 : BitVec 32) : Fin 2 → Nat :=
  let c0_i32_823 : BitVec 32 := 0#32
  ![v1333.toNat, 0]

def k0_off204 (v1346 : BitVec 32) : Fin 2 → Nat :=
  let c0_i32_827 : BitVec 32 := 0#32
  ![v1346.toNat, 0]

def k0_off205 (v1347 : BitVec 32) : Fin 2 → Nat :=
  let c0_i32_831 : BitVec 32 := 0#32
  ![v1347.toNat, 0]

def k0_off206 (v1360 : BitVec 32) : Fin 2 → Nat :=
  let c0_i32_835 : BitVec 32 := 0#32
  ![v1360.toNat, 0]

def k0_off207 (v1361 : BitVec 32) : Fin 2 → Nat :=
  let c0_i32_839 : BitVec 32 := 0#32
  ![v1361.toNat, 0]

def k0_off208 (v1374 : BitVec 32) : Fin 2 → Nat :=
  let c0_i32_843 : BitVec 32 := 0#32
  ![v1374.toNat, 0]

def k0_off209 (v1375 : BitVec 32) : Fin 2 → Nat :=
  let c0_i32_847 : BitVec 32 := 0#32
  ![v1375.toNat, 0]

def k0_off210 (v1388 : BitVec 32) : Fin 2 → Nat :=
  let c0_i32_851 : BitVec 32 := 0#32
  ![v1388.toNat, 0]

def k0_off211 (v1389 : BitVec 32) : Fin 2 → Nat :=
  let c0_i32_855 : BitVec 32 := 0#32
  ![v1389.toNat, 0]

def k0_off212 (v1402 : BitVec 32) : Fin 2 → Nat :=
  let c0_i32_859 : BitVec 32 := 0#32
  ![v1402.toNat, 0]

def k0_off213 (v1403 : BitVec 32) : Fin 2 → Nat :=
  let c0_i32_863 : BitVec 32 := 0#32
  ![v1403.toNat, 0]

def k0_off214 (v1416 : BitVec 32) : Fin 2 → Nat :=
  let c0_i32_867 : BitVec 32 := 0#32
  ![v1416.toNat, 0]

def k0_off215 (v1417 : BitVec 32) : Fin 2 → Nat :=
  let c0_i32_871 : BitVec 32 := 0#32
  ![v1417.toNat, 0]

def k0_off216 (v1430 : BitVec 32) : Fin 2 → Nat :=
  let c0_i32_875 : BitVec 32 := 0#32
  ![v1430.toNat, 0]

def k0_off217 (v1431 : BitVec 32) : Fin 2 → Nat :=
  let c0_i32_879 : BitVec 32 := 0#32
  ![v1431.toNat, 0]

def k0_off218 (v1444 : BitVec 32) : Fin 2 → Nat :=
  let c0_i32_883 : BitVec 32 := 0#32
  ![v1444.toNat, 0]

def k0_off219 (v1445 : BitVec 32) : Fin 2 → Nat :=
  let c0_i32_887 : BitVec 32 := 0#32
  ![v1445.toNat, 0]

def k0_off220 (v1458 : BitVec 32) : Fin 2 → Nat :=
  let c0_i32_891 : BitVec 32 := 0#32
  ![v1458.toNat, 0]

def k0_off221 (v1459 : BitVec 32) : Fin 2 → Nat :=
  let c0_i32_895 : BitVec 32 := 0#32
  ![v1459.toNat, 0]

def k0_chk128 (v1459 : BitVec 32) : Prop :=
  (∀ a, (k0_off221 v1459) a + S1x128.size a ≤ S262144x128.size a)
instance k0_chk128.dec : ∀ (v1459 : BitVec 32), Decidable (k0_chk128 v1459) := fun v1459 => decidable_of_iff' _ (Iff.of_eq (k0_chk128.eq_1 v1459))
theorem k0_off221_inb : ∀ (v1459 : BitVec 32) (k0_hw128 : k0_chk128 v1459), ∀ a, (k0_off221 v1459) a + S1x128.size a ≤ S262144x128.size a := fun v1459 k0_hw128 => k0_hw128

def k0_off222 (v1248 : BitVec 32) : Fin 2 → Nat :=
  let c0_i32_899 : BitVec 32 := 0#32
  ![v1248.toNat, 0]

def k0_chk97 (v1248 : BitVec 32) : Prop :=
  (∀ a, (k0_off190 v1248) a + S1x128.size a ≤ S262144x128.size a) ∧
  (∀ a, (k0_off222 v1248) a + S1x128.size a ≤ S262144x128.size a)
instance k0_chk97.dec : ∀ (v1248 : BitVec 32), Decidable (k0_chk97 v1248) := fun v1248 => decidable_of_iff' _ (Iff.of_eq (k0_chk97.eq_1 v1248))
theorem k0_off190_inb : ∀ (v1248 : BitVec 32) (k0_hw97 : k0_chk97 v1248), ∀ a, (k0_off190 v1248) a + S1x128.size a ≤ S262144x128.size a := fun v1248 k0_hw97 => k0_hw97.1
theorem k0_off222_inb : ∀ (v1248 : BitVec 32) (k0_hw97 : k0_chk97 v1248), ∀ a, (k0_off222 v1248) a + S1x128.size a ≤ S262144x128.size a := fun v1248 k0_hw97 => k0_hw97.2

def k0_off223 (v1249 : BitVec 32) : Fin 2 → Nat :=
  let c0_i32_903 : BitVec 32 := 0#32
  ![v1249.toNat, 0]

def k0_chk98 (v1249 : BitVec 32) : Prop :=
  (∀ a, (k0_off191 v1249) a + S1x128.size a ≤ S262144x128.size a) ∧
  (∀ a, (k0_off223 v1249) a + S1x128.size a ≤ S262144x128.size a)
instance k0_chk98.dec : ∀ (v1249 : BitVec 32), Decidable (k0_chk98 v1249) := fun v1249 => decidable_of_iff' _ (Iff.of_eq (k0_chk98.eq_1 v1249))
theorem k0_off191_inb : ∀ (v1249 : BitVec 32) (k0_hw98 : k0_chk98 v1249), ∀ a, (k0_off191 v1249) a + S1x128.size a ≤ S262144x128.size a := fun v1249 k0_hw98 => k0_hw98.1
theorem k0_off223_inb : ∀ (v1249 : BitVec 32) (k0_hw98 : k0_chk98 v1249), ∀ a, (k0_off223 v1249) a + S1x128.size a ≤ S262144x128.size a := fun v1249 k0_hw98 => k0_hw98.2

def k0_off224 (v1262 : BitVec 32) : Fin 2 → Nat :=
  let c0_i32_907 : BitVec 32 := 0#32
  ![v1262.toNat, 0]

def k0_chk99 (v1262 : BitVec 32) : Prop :=
  (∀ a, (k0_off192 v1262) a + S1x128.size a ≤ S262144x128.size a) ∧
  (∀ a, (k0_off224 v1262) a + S1x128.size a ≤ S262144x128.size a)
instance k0_chk99.dec : ∀ (v1262 : BitVec 32), Decidable (k0_chk99 v1262) := fun v1262 => decidable_of_iff' _ (Iff.of_eq (k0_chk99.eq_1 v1262))
theorem k0_off192_inb : ∀ (v1262 : BitVec 32) (k0_hw99 : k0_chk99 v1262), ∀ a, (k0_off192 v1262) a + S1x128.size a ≤ S262144x128.size a := fun v1262 k0_hw99 => k0_hw99.1
theorem k0_off224_inb : ∀ (v1262 : BitVec 32) (k0_hw99 : k0_chk99 v1262), ∀ a, (k0_off224 v1262) a + S1x128.size a ≤ S262144x128.size a := fun v1262 k0_hw99 => k0_hw99.2

def k0_off225 (v1263 : BitVec 32) : Fin 2 → Nat :=
  let c0_i32_911 : BitVec 32 := 0#32
  ![v1263.toNat, 0]

def k0_chk100 (v1263 : BitVec 32) : Prop :=
  (∀ a, (k0_off193 v1263) a + S1x128.size a ≤ S262144x128.size a) ∧
  (∀ a, (k0_off225 v1263) a + S1x128.size a ≤ S262144x128.size a)
instance k0_chk100.dec : ∀ (v1263 : BitVec 32), Decidable (k0_chk100 v1263) := fun v1263 => decidable_of_iff' _ (Iff.of_eq (k0_chk100.eq_1 v1263))
theorem k0_off193_inb : ∀ (v1263 : BitVec 32) (k0_hw100 : k0_chk100 v1263), ∀ a, (k0_off193 v1263) a + S1x128.size a ≤ S262144x128.size a := fun v1263 k0_hw100 => k0_hw100.1
theorem k0_off225_inb : ∀ (v1263 : BitVec 32) (k0_hw100 : k0_chk100 v1263), ∀ a, (k0_off225 v1263) a + S1x128.size a ≤ S262144x128.size a := fun v1263 k0_hw100 => k0_hw100.2

def k0_off226 (v1276 : BitVec 32) : Fin 2 → Nat :=
  let c0_i32_915 : BitVec 32 := 0#32
  ![v1276.toNat, 0]

def k0_chk101 (v1276 : BitVec 32) : Prop :=
  (∀ a, (k0_off194 v1276) a + S1x128.size a ≤ S262144x128.size a) ∧
  (∀ a, (k0_off226 v1276) a + S1x128.size a ≤ S262144x128.size a)
instance k0_chk101.dec : ∀ (v1276 : BitVec 32), Decidable (k0_chk101 v1276) := fun v1276 => decidable_of_iff' _ (Iff.of_eq (k0_chk101.eq_1 v1276))
theorem k0_off194_inb : ∀ (v1276 : BitVec 32) (k0_hw101 : k0_chk101 v1276), ∀ a, (k0_off194 v1276) a + S1x128.size a ≤ S262144x128.size a := fun v1276 k0_hw101 => k0_hw101.1
theorem k0_off226_inb : ∀ (v1276 : BitVec 32) (k0_hw101 : k0_chk101 v1276), ∀ a, (k0_off226 v1276) a + S1x128.size a ≤ S262144x128.size a := fun v1276 k0_hw101 => k0_hw101.2

def k0_off227 (v1277 : BitVec 32) : Fin 2 → Nat :=
  let c0_i32_919 : BitVec 32 := 0#32
  ![v1277.toNat, 0]

def k0_chk102 (v1277 : BitVec 32) : Prop :=
  (∀ a, (k0_off195 v1277) a + S1x128.size a ≤ S262144x128.size a) ∧
  (∀ a, (k0_off227 v1277) a + S1x128.size a ≤ S262144x128.size a)
instance k0_chk102.dec : ∀ (v1277 : BitVec 32), Decidable (k0_chk102 v1277) := fun v1277 => decidable_of_iff' _ (Iff.of_eq (k0_chk102.eq_1 v1277))
theorem k0_off195_inb : ∀ (v1277 : BitVec 32) (k0_hw102 : k0_chk102 v1277), ∀ a, (k0_off195 v1277) a + S1x128.size a ≤ S262144x128.size a := fun v1277 k0_hw102 => k0_hw102.1
theorem k0_off227_inb : ∀ (v1277 : BitVec 32) (k0_hw102 : k0_chk102 v1277), ∀ a, (k0_off227 v1277) a + S1x128.size a ≤ S262144x128.size a := fun v1277 k0_hw102 => k0_hw102.2

def k0_off228 (v1290 : BitVec 32) : Fin 2 → Nat :=
  let c0_i32_923 : BitVec 32 := 0#32
  ![v1290.toNat, 0]

def k0_chk103 (v1290 : BitVec 32) : Prop :=
  (∀ a, (k0_off196 v1290) a + S1x128.size a ≤ S262144x128.size a) ∧
  (∀ a, (k0_off228 v1290) a + S1x128.size a ≤ S262144x128.size a)
instance k0_chk103.dec : ∀ (v1290 : BitVec 32), Decidable (k0_chk103 v1290) := fun v1290 => decidable_of_iff' _ (Iff.of_eq (k0_chk103.eq_1 v1290))
theorem k0_off196_inb : ∀ (v1290 : BitVec 32) (k0_hw103 : k0_chk103 v1290), ∀ a, (k0_off196 v1290) a + S1x128.size a ≤ S262144x128.size a := fun v1290 k0_hw103 => k0_hw103.1
theorem k0_off228_inb : ∀ (v1290 : BitVec 32) (k0_hw103 : k0_chk103 v1290), ∀ a, (k0_off228 v1290) a + S1x128.size a ≤ S262144x128.size a := fun v1290 k0_hw103 => k0_hw103.2

def k0_off229 (v1291 : BitVec 32) : Fin 2 → Nat :=
  let c0_i32_927 : BitVec 32 := 0#32
  ![v1291.toNat, 0]

def k0_chk104 (v1291 : BitVec 32) : Prop :=
  (∀ a, (k0_off197 v1291) a + S1x128.size a ≤ S262144x128.size a) ∧
  (∀ a, (k0_off229 v1291) a + S1x128.size a ≤ S262144x128.size a)
instance k0_chk104.dec : ∀ (v1291 : BitVec 32), Decidable (k0_chk104 v1291) := fun v1291 => decidable_of_iff' _ (Iff.of_eq (k0_chk104.eq_1 v1291))
theorem k0_off197_inb : ∀ (v1291 : BitVec 32) (k0_hw104 : k0_chk104 v1291), ∀ a, (k0_off197 v1291) a + S1x128.size a ≤ S262144x128.size a := fun v1291 k0_hw104 => k0_hw104.1
theorem k0_off229_inb : ∀ (v1291 : BitVec 32) (k0_hw104 : k0_chk104 v1291), ∀ a, (k0_off229 v1291) a + S1x128.size a ≤ S262144x128.size a := fun v1291 k0_hw104 => k0_hw104.2

def k0_off230 (v1304 : BitVec 32) : Fin 2 → Nat :=
  let c0_i32_931 : BitVec 32 := 0#32
  ![v1304.toNat, 0]

def k0_chk105 (v1304 : BitVec 32) : Prop :=
  (∀ a, (k0_off198 v1304) a + S1x128.size a ≤ S262144x128.size a) ∧
  (∀ a, (k0_off230 v1304) a + S1x128.size a ≤ S262144x128.size a)
instance k0_chk105.dec : ∀ (v1304 : BitVec 32), Decidable (k0_chk105 v1304) := fun v1304 => decidable_of_iff' _ (Iff.of_eq (k0_chk105.eq_1 v1304))
theorem k0_off198_inb : ∀ (v1304 : BitVec 32) (k0_hw105 : k0_chk105 v1304), ∀ a, (k0_off198 v1304) a + S1x128.size a ≤ S262144x128.size a := fun v1304 k0_hw105 => k0_hw105.1
theorem k0_off230_inb : ∀ (v1304 : BitVec 32) (k0_hw105 : k0_chk105 v1304), ∀ a, (k0_off230 v1304) a + S1x128.size a ≤ S262144x128.size a := fun v1304 k0_hw105 => k0_hw105.2

def k0_off231 (v1305 : BitVec 32) : Fin 2 → Nat :=
  let c0_i32_935 : BitVec 32 := 0#32
  ![v1305.toNat, 0]

def k0_chk106 (v1305 : BitVec 32) : Prop :=
  (∀ a, (k0_off199 v1305) a + S1x128.size a ≤ S262144x128.size a) ∧
  (∀ a, (k0_off231 v1305) a + S1x128.size a ≤ S262144x128.size a)
instance k0_chk106.dec : ∀ (v1305 : BitVec 32), Decidable (k0_chk106 v1305) := fun v1305 => decidable_of_iff' _ (Iff.of_eq (k0_chk106.eq_1 v1305))
theorem k0_off199_inb : ∀ (v1305 : BitVec 32) (k0_hw106 : k0_chk106 v1305), ∀ a, (k0_off199 v1305) a + S1x128.size a ≤ S262144x128.size a := fun v1305 k0_hw106 => k0_hw106.1
theorem k0_off231_inb : ∀ (v1305 : BitVec 32) (k0_hw106 : k0_chk106 v1305), ∀ a, (k0_off231 v1305) a + S1x128.size a ≤ S262144x128.size a := fun v1305 k0_hw106 => k0_hw106.2

def k0_off232 (v1318 : BitVec 32) : Fin 2 → Nat :=
  let c0_i32_939 : BitVec 32 := 0#32
  ![v1318.toNat, 0]

def k0_chk107 (v1318 : BitVec 32) : Prop :=
  (∀ a, (k0_off200 v1318) a + S1x128.size a ≤ S262144x128.size a) ∧
  (∀ a, (k0_off232 v1318) a + S1x128.size a ≤ S262144x128.size a)
instance k0_chk107.dec : ∀ (v1318 : BitVec 32), Decidable (k0_chk107 v1318) := fun v1318 => decidable_of_iff' _ (Iff.of_eq (k0_chk107.eq_1 v1318))
theorem k0_off200_inb : ∀ (v1318 : BitVec 32) (k0_hw107 : k0_chk107 v1318), ∀ a, (k0_off200 v1318) a + S1x128.size a ≤ S262144x128.size a := fun v1318 k0_hw107 => k0_hw107.1
theorem k0_off232_inb : ∀ (v1318 : BitVec 32) (k0_hw107 : k0_chk107 v1318), ∀ a, (k0_off232 v1318) a + S1x128.size a ≤ S262144x128.size a := fun v1318 k0_hw107 => k0_hw107.2

def k0_off233 (v1319 : BitVec 32) : Fin 2 → Nat :=
  let c0_i32_943 : BitVec 32 := 0#32
  ![v1319.toNat, 0]

def k0_chk108 (v1319 : BitVec 32) : Prop :=
  (∀ a, (k0_off201 v1319) a + S1x128.size a ≤ S262144x128.size a) ∧
  (∀ a, (k0_off233 v1319) a + S1x128.size a ≤ S262144x128.size a)
instance k0_chk108.dec : ∀ (v1319 : BitVec 32), Decidable (k0_chk108 v1319) := fun v1319 => decidable_of_iff' _ (Iff.of_eq (k0_chk108.eq_1 v1319))
theorem k0_off201_inb : ∀ (v1319 : BitVec 32) (k0_hw108 : k0_chk108 v1319), ∀ a, (k0_off201 v1319) a + S1x128.size a ≤ S262144x128.size a := fun v1319 k0_hw108 => k0_hw108.1
theorem k0_off233_inb : ∀ (v1319 : BitVec 32) (k0_hw108 : k0_chk108 v1319), ∀ a, (k0_off233 v1319) a + S1x128.size a ≤ S262144x128.size a := fun v1319 k0_hw108 => k0_hw108.2

def k0_off234 (v1332 : BitVec 32) : Fin 2 → Nat :=
  let c0_i32_947 : BitVec 32 := 0#32
  ![v1332.toNat, 0]

def k0_chk109 (v1332 : BitVec 32) : Prop :=
  (∀ a, (k0_off202 v1332) a + S1x128.size a ≤ S262144x128.size a) ∧
  (∀ a, (k0_off234 v1332) a + S1x128.size a ≤ S262144x128.size a)
instance k0_chk109.dec : ∀ (v1332 : BitVec 32), Decidable (k0_chk109 v1332) := fun v1332 => decidable_of_iff' _ (Iff.of_eq (k0_chk109.eq_1 v1332))
theorem k0_off202_inb : ∀ (v1332 : BitVec 32) (k0_hw109 : k0_chk109 v1332), ∀ a, (k0_off202 v1332) a + S1x128.size a ≤ S262144x128.size a := fun v1332 k0_hw109 => k0_hw109.1
theorem k0_off234_inb : ∀ (v1332 : BitVec 32) (k0_hw109 : k0_chk109 v1332), ∀ a, (k0_off234 v1332) a + S1x128.size a ≤ S262144x128.size a := fun v1332 k0_hw109 => k0_hw109.2

def k0_off235 (v1333 : BitVec 32) : Fin 2 → Nat :=
  let c0_i32_951 : BitVec 32 := 0#32
  ![v1333.toNat, 0]

def k0_chk110 (v1333 : BitVec 32) : Prop :=
  (∀ a, (k0_off203 v1333) a + S1x128.size a ≤ S262144x128.size a) ∧
  (∀ a, (k0_off235 v1333) a + S1x128.size a ≤ S262144x128.size a)
instance k0_chk110.dec : ∀ (v1333 : BitVec 32), Decidable (k0_chk110 v1333) := fun v1333 => decidable_of_iff' _ (Iff.of_eq (k0_chk110.eq_1 v1333))
theorem k0_off203_inb : ∀ (v1333 : BitVec 32) (k0_hw110 : k0_chk110 v1333), ∀ a, (k0_off203 v1333) a + S1x128.size a ≤ S262144x128.size a := fun v1333 k0_hw110 => k0_hw110.1
theorem k0_off235_inb : ∀ (v1333 : BitVec 32) (k0_hw110 : k0_chk110 v1333), ∀ a, (k0_off235 v1333) a + S1x128.size a ≤ S262144x128.size a := fun v1333 k0_hw110 => k0_hw110.2

def k0_off236 (v1346 : BitVec 32) : Fin 2 → Nat :=
  let c0_i32_955 : BitVec 32 := 0#32
  ![v1346.toNat, 0]

def k0_chk111 (v1346 : BitVec 32) : Prop :=
  (∀ a, (k0_off204 v1346) a + S1x128.size a ≤ S262144x128.size a) ∧
  (∀ a, (k0_off236 v1346) a + S1x128.size a ≤ S262144x128.size a)
instance k0_chk111.dec : ∀ (v1346 : BitVec 32), Decidable (k0_chk111 v1346) := fun v1346 => decidable_of_iff' _ (Iff.of_eq (k0_chk111.eq_1 v1346))
theorem k0_off204_inb : ∀ (v1346 : BitVec 32) (k0_hw111 : k0_chk111 v1346), ∀ a, (k0_off204 v1346) a + S1x128.size a ≤ S262144x128.size a := fun v1346 k0_hw111 => k0_hw111.1
theorem k0_off236_inb : ∀ (v1346 : BitVec 32) (k0_hw111 : k0_chk111 v1346), ∀ a, (k0_off236 v1346) a + S1x128.size a ≤ S262144x128.size a := fun v1346 k0_hw111 => k0_hw111.2

def k0_off237 (v1347 : BitVec 32) : Fin 2 → Nat :=
  let c0_i32_959 : BitVec 32 := 0#32
  ![v1347.toNat, 0]

def k0_chk112 (v1347 : BitVec 32) : Prop :=
  (∀ a, (k0_off205 v1347) a + S1x128.size a ≤ S262144x128.size a) ∧
  (∀ a, (k0_off237 v1347) a + S1x128.size a ≤ S262144x128.size a)
instance k0_chk112.dec : ∀ (v1347 : BitVec 32), Decidable (k0_chk112 v1347) := fun v1347 => decidable_of_iff' _ (Iff.of_eq (k0_chk112.eq_1 v1347))
theorem k0_off205_inb : ∀ (v1347 : BitVec 32) (k0_hw112 : k0_chk112 v1347), ∀ a, (k0_off205 v1347) a + S1x128.size a ≤ S262144x128.size a := fun v1347 k0_hw112 => k0_hw112.1
theorem k0_off237_inb : ∀ (v1347 : BitVec 32) (k0_hw112 : k0_chk112 v1347), ∀ a, (k0_off237 v1347) a + S1x128.size a ≤ S262144x128.size a := fun v1347 k0_hw112 => k0_hw112.2

def k0_off238 (v1360 : BitVec 32) : Fin 2 → Nat :=
  let c0_i32_963 : BitVec 32 := 0#32
  ![v1360.toNat, 0]

def k0_chk113 (v1360 : BitVec 32) : Prop :=
  (∀ a, (k0_off206 v1360) a + S1x128.size a ≤ S262144x128.size a) ∧
  (∀ a, (k0_off238 v1360) a + S1x128.size a ≤ S262144x128.size a)
instance k0_chk113.dec : ∀ (v1360 : BitVec 32), Decidable (k0_chk113 v1360) := fun v1360 => decidable_of_iff' _ (Iff.of_eq (k0_chk113.eq_1 v1360))
theorem k0_off206_inb : ∀ (v1360 : BitVec 32) (k0_hw113 : k0_chk113 v1360), ∀ a, (k0_off206 v1360) a + S1x128.size a ≤ S262144x128.size a := fun v1360 k0_hw113 => k0_hw113.1
theorem k0_off238_inb : ∀ (v1360 : BitVec 32) (k0_hw113 : k0_chk113 v1360), ∀ a, (k0_off238 v1360) a + S1x128.size a ≤ S262144x128.size a := fun v1360 k0_hw113 => k0_hw113.2

def k0_off239 (v1361 : BitVec 32) : Fin 2 → Nat :=
  let c0_i32_967 : BitVec 32 := 0#32
  ![v1361.toNat, 0]

def k0_chk114 (v1361 : BitVec 32) : Prop :=
  (∀ a, (k0_off207 v1361) a + S1x128.size a ≤ S262144x128.size a) ∧
  (∀ a, (k0_off239 v1361) a + S1x128.size a ≤ S262144x128.size a)
instance k0_chk114.dec : ∀ (v1361 : BitVec 32), Decidable (k0_chk114 v1361) := fun v1361 => decidable_of_iff' _ (Iff.of_eq (k0_chk114.eq_1 v1361))
theorem k0_off207_inb : ∀ (v1361 : BitVec 32) (k0_hw114 : k0_chk114 v1361), ∀ a, (k0_off207 v1361) a + S1x128.size a ≤ S262144x128.size a := fun v1361 k0_hw114 => k0_hw114.1
theorem k0_off239_inb : ∀ (v1361 : BitVec 32) (k0_hw114 : k0_chk114 v1361), ∀ a, (k0_off239 v1361) a + S1x128.size a ≤ S262144x128.size a := fun v1361 k0_hw114 => k0_hw114.2

def k0_off240 (v1374 : BitVec 32) : Fin 2 → Nat :=
  let c0_i32_971 : BitVec 32 := 0#32
  ![v1374.toNat, 0]

def k0_chk115 (v1374 : BitVec 32) : Prop :=
  (∀ a, (k0_off208 v1374) a + S1x128.size a ≤ S262144x128.size a) ∧
  (∀ a, (k0_off240 v1374) a + S1x128.size a ≤ S262144x128.size a)
instance k0_chk115.dec : ∀ (v1374 : BitVec 32), Decidable (k0_chk115 v1374) := fun v1374 => decidable_of_iff' _ (Iff.of_eq (k0_chk115.eq_1 v1374))
theorem k0_off208_inb : ∀ (v1374 : BitVec 32) (k0_hw115 : k0_chk115 v1374), ∀ a, (k0_off208 v1374) a + S1x128.size a ≤ S262144x128.size a := fun v1374 k0_hw115 => k0_hw115.1
theorem k0_off240_inb : ∀ (v1374 : BitVec 32) (k0_hw115 : k0_chk115 v1374), ∀ a, (k0_off240 v1374) a + S1x128.size a ≤ S262144x128.size a := fun v1374 k0_hw115 => k0_hw115.2

def k0_off241 (v1375 : BitVec 32) : Fin 2 → Nat :=
  let c0_i32_975 : BitVec 32 := 0#32
  ![v1375.toNat, 0]

def k0_chk116 (v1375 : BitVec 32) : Prop :=
  (∀ a, (k0_off209 v1375) a + S1x128.size a ≤ S262144x128.size a) ∧
  (∀ a, (k0_off241 v1375) a + S1x128.size a ≤ S262144x128.size a)
instance k0_chk116.dec : ∀ (v1375 : BitVec 32), Decidable (k0_chk116 v1375) := fun v1375 => decidable_of_iff' _ (Iff.of_eq (k0_chk116.eq_1 v1375))
theorem k0_off209_inb : ∀ (v1375 : BitVec 32) (k0_hw116 : k0_chk116 v1375), ∀ a, (k0_off209 v1375) a + S1x128.size a ≤ S262144x128.size a := fun v1375 k0_hw116 => k0_hw116.1
theorem k0_off241_inb : ∀ (v1375 : BitVec 32) (k0_hw116 : k0_chk116 v1375), ∀ a, (k0_off241 v1375) a + S1x128.size a ≤ S262144x128.size a := fun v1375 k0_hw116 => k0_hw116.2

def k0_off242 (v1388 : BitVec 32) : Fin 2 → Nat :=
  let c0_i32_979 : BitVec 32 := 0#32
  ![v1388.toNat, 0]

def k0_chk117 (v1388 : BitVec 32) : Prop :=
  (∀ a, (k0_off210 v1388) a + S1x128.size a ≤ S262144x128.size a) ∧
  (∀ a, (k0_off242 v1388) a + S1x128.size a ≤ S262144x128.size a)
instance k0_chk117.dec : ∀ (v1388 : BitVec 32), Decidable (k0_chk117 v1388) := fun v1388 => decidable_of_iff' _ (Iff.of_eq (k0_chk117.eq_1 v1388))
theorem k0_off210_inb : ∀ (v1388 : BitVec 32) (k0_hw117 : k0_chk117 v1388), ∀ a, (k0_off210 v1388) a + S1x128.size a ≤ S262144x128.size a := fun v1388 k0_hw117 => k0_hw117.1
theorem k0_off242_inb : ∀ (v1388 : BitVec 32) (k0_hw117 : k0_chk117 v1388), ∀ a, (k0_off242 v1388) a + S1x128.size a ≤ S262144x128.size a := fun v1388 k0_hw117 => k0_hw117.2

def k0_off243 (v1389 : BitVec 32) : Fin 2 → Nat :=
  let c0_i32_983 : BitVec 32 := 0#32
  ![v1389.toNat, 0]

def k0_chk118 (v1389 : BitVec 32) : Prop :=
  (∀ a, (k0_off211 v1389) a + S1x128.size a ≤ S262144x128.size a) ∧
  (∀ a, (k0_off243 v1389) a + S1x128.size a ≤ S262144x128.size a)
instance k0_chk118.dec : ∀ (v1389 : BitVec 32), Decidable (k0_chk118 v1389) := fun v1389 => decidable_of_iff' _ (Iff.of_eq (k0_chk118.eq_1 v1389))
theorem k0_off211_inb : ∀ (v1389 : BitVec 32) (k0_hw118 : k0_chk118 v1389), ∀ a, (k0_off211 v1389) a + S1x128.size a ≤ S262144x128.size a := fun v1389 k0_hw118 => k0_hw118.1
theorem k0_off243_inb : ∀ (v1389 : BitVec 32) (k0_hw118 : k0_chk118 v1389), ∀ a, (k0_off243 v1389) a + S1x128.size a ≤ S262144x128.size a := fun v1389 k0_hw118 => k0_hw118.2

def k0_off244 (v1402 : BitVec 32) : Fin 2 → Nat :=
  let c0_i32_987 : BitVec 32 := 0#32
  ![v1402.toNat, 0]

def k0_chk119 (v1402 : BitVec 32) : Prop :=
  (∀ a, (k0_off212 v1402) a + S1x128.size a ≤ S262144x128.size a) ∧
  (∀ a, (k0_off244 v1402) a + S1x128.size a ≤ S262144x128.size a)
instance k0_chk119.dec : ∀ (v1402 : BitVec 32), Decidable (k0_chk119 v1402) := fun v1402 => decidable_of_iff' _ (Iff.of_eq (k0_chk119.eq_1 v1402))
theorem k0_off212_inb : ∀ (v1402 : BitVec 32) (k0_hw119 : k0_chk119 v1402), ∀ a, (k0_off212 v1402) a + S1x128.size a ≤ S262144x128.size a := fun v1402 k0_hw119 => k0_hw119.1
theorem k0_off244_inb : ∀ (v1402 : BitVec 32) (k0_hw119 : k0_chk119 v1402), ∀ a, (k0_off244 v1402) a + S1x128.size a ≤ S262144x128.size a := fun v1402 k0_hw119 => k0_hw119.2

def k0_off245 (v1403 : BitVec 32) : Fin 2 → Nat :=
  let c0_i32_991 : BitVec 32 := 0#32
  ![v1403.toNat, 0]

def k0_chk120 (v1403 : BitVec 32) : Prop :=
  (∀ a, (k0_off213 v1403) a + S1x128.size a ≤ S262144x128.size a) ∧
  (∀ a, (k0_off245 v1403) a + S1x128.size a ≤ S262144x128.size a)
instance k0_chk120.dec : ∀ (v1403 : BitVec 32), Decidable (k0_chk120 v1403) := fun v1403 => decidable_of_iff' _ (Iff.of_eq (k0_chk120.eq_1 v1403))
theorem k0_off213_inb : ∀ (v1403 : BitVec 32) (k0_hw120 : k0_chk120 v1403), ∀ a, (k0_off213 v1403) a + S1x128.size a ≤ S262144x128.size a := fun v1403 k0_hw120 => k0_hw120.1
theorem k0_off245_inb : ∀ (v1403 : BitVec 32) (k0_hw120 : k0_chk120 v1403), ∀ a, (k0_off245 v1403) a + S1x128.size a ≤ S262144x128.size a := fun v1403 k0_hw120 => k0_hw120.2

def k0_off246 (v1416 : BitVec 32) : Fin 2 → Nat :=
  let c0_i32_995 : BitVec 32 := 0#32
  ![v1416.toNat, 0]

def k0_chk121 (v1416 : BitVec 32) : Prop :=
  (∀ a, (k0_off214 v1416) a + S1x128.size a ≤ S262144x128.size a) ∧
  (∀ a, (k0_off246 v1416) a + S1x128.size a ≤ S262144x128.size a)
instance k0_chk121.dec : ∀ (v1416 : BitVec 32), Decidable (k0_chk121 v1416) := fun v1416 => decidable_of_iff' _ (Iff.of_eq (k0_chk121.eq_1 v1416))
theorem k0_off214_inb : ∀ (v1416 : BitVec 32) (k0_hw121 : k0_chk121 v1416), ∀ a, (k0_off214 v1416) a + S1x128.size a ≤ S262144x128.size a := fun v1416 k0_hw121 => k0_hw121.1
theorem k0_off246_inb : ∀ (v1416 : BitVec 32) (k0_hw121 : k0_chk121 v1416), ∀ a, (k0_off246 v1416) a + S1x128.size a ≤ S262144x128.size a := fun v1416 k0_hw121 => k0_hw121.2

def k0_off247 (v1417 : BitVec 32) : Fin 2 → Nat :=
  let c0_i32_999 : BitVec 32 := 0#32
  ![v1417.toNat, 0]

def k0_chk122 (v1417 : BitVec 32) : Prop :=
  (∀ a, (k0_off215 v1417) a + S1x128.size a ≤ S262144x128.size a) ∧
  (∀ a, (k0_off247 v1417) a + S1x128.size a ≤ S262144x128.size a)
instance k0_chk122.dec : ∀ (v1417 : BitVec 32), Decidable (k0_chk122 v1417) := fun v1417 => decidable_of_iff' _ (Iff.of_eq (k0_chk122.eq_1 v1417))
theorem k0_off215_inb : ∀ (v1417 : BitVec 32) (k0_hw122 : k0_chk122 v1417), ∀ a, (k0_off215 v1417) a + S1x128.size a ≤ S262144x128.size a := fun v1417 k0_hw122 => k0_hw122.1
theorem k0_off247_inb : ∀ (v1417 : BitVec 32) (k0_hw122 : k0_chk122 v1417), ∀ a, (k0_off247 v1417) a + S1x128.size a ≤ S262144x128.size a := fun v1417 k0_hw122 => k0_hw122.2

def k0_off248 (v1430 : BitVec 32) : Fin 2 → Nat :=
  let c0_i32_1003 : BitVec 32 := 0#32
  ![v1430.toNat, 0]

def k0_chk123 (v1430 : BitVec 32) : Prop :=
  (∀ a, (k0_off216 v1430) a + S1x128.size a ≤ S262144x128.size a) ∧
  (∀ a, (k0_off248 v1430) a + S1x128.size a ≤ S262144x128.size a)
instance k0_chk123.dec : ∀ (v1430 : BitVec 32), Decidable (k0_chk123 v1430) := fun v1430 => decidable_of_iff' _ (Iff.of_eq (k0_chk123.eq_1 v1430))
theorem k0_off216_inb : ∀ (v1430 : BitVec 32) (k0_hw123 : k0_chk123 v1430), ∀ a, (k0_off216 v1430) a + S1x128.size a ≤ S262144x128.size a := fun v1430 k0_hw123 => k0_hw123.1
theorem k0_off248_inb : ∀ (v1430 : BitVec 32) (k0_hw123 : k0_chk123 v1430), ∀ a, (k0_off248 v1430) a + S1x128.size a ≤ S262144x128.size a := fun v1430 k0_hw123 => k0_hw123.2

def k0_off249 (v1431 : BitVec 32) : Fin 2 → Nat :=
  let c0_i32_1007 : BitVec 32 := 0#32
  ![v1431.toNat, 0]

def k0_chk124 (v1431 : BitVec 32) : Prop :=
  (∀ a, (k0_off217 v1431) a + S1x128.size a ≤ S262144x128.size a) ∧
  (∀ a, (k0_off249 v1431) a + S1x128.size a ≤ S262144x128.size a)
instance k0_chk124.dec : ∀ (v1431 : BitVec 32), Decidable (k0_chk124 v1431) := fun v1431 => decidable_of_iff' _ (Iff.of_eq (k0_chk124.eq_1 v1431))
theorem k0_off217_inb : ∀ (v1431 : BitVec 32) (k0_hw124 : k0_chk124 v1431), ∀ a, (k0_off217 v1431) a + S1x128.size a ≤ S262144x128.size a := fun v1431 k0_hw124 => k0_hw124.1
theorem k0_off249_inb : ∀ (v1431 : BitVec 32) (k0_hw124 : k0_chk124 v1431), ∀ a, (k0_off249 v1431) a + S1x128.size a ≤ S262144x128.size a := fun v1431 k0_hw124 => k0_hw124.2

def k0_off250 (v1444 : BitVec 32) : Fin 2 → Nat :=
  let c0_i32_1011 : BitVec 32 := 0#32
  ![v1444.toNat, 0]

def k0_chk125 (v1444 : BitVec 32) : Prop :=
  (∀ a, (k0_off218 v1444) a + S1x128.size a ≤ S262144x128.size a) ∧
  (∀ a, (k0_off250 v1444) a + S1x128.size a ≤ S262144x128.size a)
instance k0_chk125.dec : ∀ (v1444 : BitVec 32), Decidable (k0_chk125 v1444) := fun v1444 => decidable_of_iff' _ (Iff.of_eq (k0_chk125.eq_1 v1444))
theorem k0_off218_inb : ∀ (v1444 : BitVec 32) (k0_hw125 : k0_chk125 v1444), ∀ a, (k0_off218 v1444) a + S1x128.size a ≤ S262144x128.size a := fun v1444 k0_hw125 => k0_hw125.1
theorem k0_off250_inb : ∀ (v1444 : BitVec 32) (k0_hw125 : k0_chk125 v1444), ∀ a, (k0_off250 v1444) a + S1x128.size a ≤ S262144x128.size a := fun v1444 k0_hw125 => k0_hw125.2

def k0_off251 (v1445 : BitVec 32) : Fin 2 → Nat :=
  let c0_i32_1015 : BitVec 32 := 0#32
  ![v1445.toNat, 0]

def k0_chk126 (v1445 : BitVec 32) : Prop :=
  (∀ a, (k0_off219 v1445) a + S1x128.size a ≤ S262144x128.size a) ∧
  (∀ a, (k0_off251 v1445) a + S1x128.size a ≤ S262144x128.size a)
instance k0_chk126.dec : ∀ (v1445 : BitVec 32), Decidable (k0_chk126 v1445) := fun v1445 => decidable_of_iff' _ (Iff.of_eq (k0_chk126.eq_1 v1445))
theorem k0_off219_inb : ∀ (v1445 : BitVec 32) (k0_hw126 : k0_chk126 v1445), ∀ a, (k0_off219 v1445) a + S1x128.size a ≤ S262144x128.size a := fun v1445 k0_hw126 => k0_hw126.1
theorem k0_off251_inb : ∀ (v1445 : BitVec 32) (k0_hw126 : k0_chk126 v1445), ∀ a, (k0_off251 v1445) a + S1x128.size a ≤ S262144x128.size a := fun v1445 k0_hw126 => k0_hw126.2

def k0_off252 (v1458 : BitVec 32) : Fin 2 → Nat :=
  let c0_i32_1019 : BitVec 32 := 0#32
  ![v1458.toNat, 0]

def k0_chk127 (v1458 : BitVec 32) : Prop :=
  (∀ a, (k0_off220 v1458) a + S1x128.size a ≤ S262144x128.size a) ∧
  (∀ a, (k0_off252 v1458) a + S1x128.size a ≤ S262144x128.size a)
instance k0_chk127.dec : ∀ (v1458 : BitVec 32), Decidable (k0_chk127 v1458) := fun v1458 => decidable_of_iff' _ (Iff.of_eq (k0_chk127.eq_1 v1458))
theorem k0_off220_inb : ∀ (v1458 : BitVec 32) (k0_hw127 : k0_chk127 v1458), ∀ a, (k0_off220 v1458) a + S1x128.size a ≤ S262144x128.size a := fun v1458 k0_hw127 => k0_hw127.1
theorem k0_off252_inb : ∀ (v1458 : BitVec 32) (k0_hw127 : k0_chk127 v1458), ∀ a, (k0_off252 v1458) a + S1x128.size a ≤ S262144x128.size a := fun v1458 k0_hw127 => k0_hw127.2

def k0_off253 (v1664 : BitVec 32) : Fin 2 → Nat :=
  let c0_i32_1027 : BitVec 32 := 0#32
  ![v1664.toNat, 0]

def k0_off254 (v1665 : BitVec 32) : Fin 2 → Nat :=
  let c0_i32_1031 : BitVec 32 := 0#32
  ![v1665.toNat, 0]

def k0_off255 (v1678 : BitVec 32) : Fin 2 → Nat :=
  let c0_i32_1035 : BitVec 32 := 0#32
  ![v1678.toNat, 0]

def k0_off256 (v1679 : BitVec 32) : Fin 2 → Nat :=
  let c0_i32_1039 : BitVec 32 := 0#32
  ![v1679.toNat, 0]

def k0_off257 (v1692 : BitVec 32) : Fin 2 → Nat :=
  let c0_i32_1043 : BitVec 32 := 0#32
  ![v1692.toNat, 0]

def k0_off258 (v1693 : BitVec 32) : Fin 2 → Nat :=
  let c0_i32_1047 : BitVec 32 := 0#32
  ![v1693.toNat, 0]

def k0_off259 (v1706 : BitVec 32) : Fin 2 → Nat :=
  let c0_i32_1051 : BitVec 32 := 0#32
  ![v1706.toNat, 0]

def k0_off260 (v1707 : BitVec 32) : Fin 2 → Nat :=
  let c0_i32_1055 : BitVec 32 := 0#32
  ![v1707.toNat, 0]

def k0_off261 (v1720 : BitVec 32) : Fin 2 → Nat :=
  let c0_i32_1059 : BitVec 32 := 0#32
  ![v1720.toNat, 0]

def k0_off262 (v1721 : BitVec 32) : Fin 2 → Nat :=
  let c0_i32_1063 : BitVec 32 := 0#32
  ![v1721.toNat, 0]

def k0_off263 (v1734 : BitVec 32) : Fin 2 → Nat :=
  let c0_i32_1067 : BitVec 32 := 0#32
  ![v1734.toNat, 0]

def k0_off264 (v1735 : BitVec 32) : Fin 2 → Nat :=
  let c0_i32_1071 : BitVec 32 := 0#32
  ![v1735.toNat, 0]

def k0_off265 (v1748 : BitVec 32) : Fin 2 → Nat :=
  let c0_i32_1075 : BitVec 32 := 0#32
  ![v1748.toNat, 0]

def k0_off266 (v1749 : BitVec 32) : Fin 2 → Nat :=
  let c0_i32_1079 : BitVec 32 := 0#32
  ![v1749.toNat, 0]

def k0_off267 (v1762 : BitVec 32) : Fin 2 → Nat :=
  let c0_i32_1083 : BitVec 32 := 0#32
  ![v1762.toNat, 0]

def k0_off268 (v1763 : BitVec 32) : Fin 2 → Nat :=
  let c0_i32_1087 : BitVec 32 := 0#32
  ![v1763.toNat, 0]

def k0_off269 (v1776 : BitVec 32) : Fin 2 → Nat :=
  let c0_i32_1091 : BitVec 32 := 0#32
  ![v1776.toNat, 0]

def k0_off270 (v1777 : BitVec 32) : Fin 2 → Nat :=
  let c0_i32_1095 : BitVec 32 := 0#32
  ![v1777.toNat, 0]

def k0_off271 (v1790 : BitVec 32) : Fin 2 → Nat :=
  let c0_i32_1099 : BitVec 32 := 0#32
  ![v1790.toNat, 0]

def k0_off272 (v1791 : BitVec 32) : Fin 2 → Nat :=
  let c0_i32_1103 : BitVec 32 := 0#32
  ![v1791.toNat, 0]

def k0_off273 (v1804 : BitVec 32) : Fin 2 → Nat :=
  let c0_i32_1107 : BitVec 32 := 0#32
  ![v1804.toNat, 0]

def k0_off274 (v1805 : BitVec 32) : Fin 2 → Nat :=
  let c0_i32_1111 : BitVec 32 := 0#32
  ![v1805.toNat, 0]

def k0_off275 (v1818 : BitVec 32) : Fin 2 → Nat :=
  let c0_i32_1115 : BitVec 32 := 0#32
  ![v1818.toNat, 0]

def k0_off276 (v1819 : BitVec 32) : Fin 2 → Nat :=
  let c0_i32_1119 : BitVec 32 := 0#32
  ![v1819.toNat, 0]

def k0_off277 (v1832 : BitVec 32) : Fin 2 → Nat :=
  let c0_i32_1123 : BitVec 32 := 0#32
  ![v1832.toNat, 0]

def k0_off278 (v1833 : BitVec 32) : Fin 2 → Nat :=
  let c0_i32_1127 : BitVec 32 := 0#32
  ![v1833.toNat, 0]

def k0_off279 (v1846 : BitVec 32) : Fin 2 → Nat :=
  let c0_i32_1131 : BitVec 32 := 0#32
  ![v1846.toNat, 0]

def k0_off280 (v1847 : BitVec 32) : Fin 2 → Nat :=
  let c0_i32_1135 : BitVec 32 := 0#32
  ![v1847.toNat, 0]

def k0_off281 (v1860 : BitVec 32) : Fin 2 → Nat :=
  let c0_i32_1139 : BitVec 32 := 0#32
  ![v1860.toNat, 0]

def k0_off282 (v1861 : BitVec 32) : Fin 2 → Nat :=
  let c0_i32_1143 : BitVec 32 := 0#32
  ![v1861.toNat, 0]

def k0_off283 (v1874 : BitVec 32) : Fin 2 → Nat :=
  let c0_i32_1147 : BitVec 32 := 0#32
  ![v1874.toNat, 0]

def k0_off284 (v1875 : BitVec 32) : Fin 2 → Nat :=
  let c0_i32_1151 : BitVec 32 := 0#32
  ![v1875.toNat, 0]

def k0_chk160 (v1875 : BitVec 32) : Prop :=
  (∀ a, (k0_off284 v1875) a + S1x128.size a ≤ S262144x128.size a)
instance k0_chk160.dec : ∀ (v1875 : BitVec 32), Decidable (k0_chk160 v1875) := fun v1875 => decidable_of_iff' _ (Iff.of_eq (k0_chk160.eq_1 v1875))
theorem k0_off284_inb : ∀ (v1875 : BitVec 32) (k0_hw160 : k0_chk160 v1875), ∀ a, (k0_off284 v1875) a + S1x128.size a ≤ S262144x128.size a := fun v1875 k0_hw160 => k0_hw160

def k0_off285 (v1664 : BitVec 32) : Fin 2 → Nat :=
  let c0_i32_1155 : BitVec 32 := 0#32
  ![v1664.toNat, 0]

def k0_chk129 (v1664 : BitVec 32) : Prop :=
  (∀ a, (k0_off253 v1664) a + S1x128.size a ≤ S262144x128.size a) ∧
  (∀ a, (k0_off285 v1664) a + S1x128.size a ≤ S262144x128.size a)
instance k0_chk129.dec : ∀ (v1664 : BitVec 32), Decidable (k0_chk129 v1664) := fun v1664 => decidable_of_iff' _ (Iff.of_eq (k0_chk129.eq_1 v1664))
theorem k0_off253_inb : ∀ (v1664 : BitVec 32) (k0_hw129 : k0_chk129 v1664), ∀ a, (k0_off253 v1664) a + S1x128.size a ≤ S262144x128.size a := fun v1664 k0_hw129 => k0_hw129.1
theorem k0_off285_inb : ∀ (v1664 : BitVec 32) (k0_hw129 : k0_chk129 v1664), ∀ a, (k0_off285 v1664) a + S1x128.size a ≤ S262144x128.size a := fun v1664 k0_hw129 => k0_hw129.2

def k0_off286 (v1665 : BitVec 32) : Fin 2 → Nat :=
  let c0_i32_1159 : BitVec 32 := 0#32
  ![v1665.toNat, 0]

def k0_chk130 (v1665 : BitVec 32) : Prop :=
  (∀ a, (k0_off254 v1665) a + S1x128.size a ≤ S262144x128.size a) ∧
  (∀ a, (k0_off286 v1665) a + S1x128.size a ≤ S262144x128.size a)
instance k0_chk130.dec : ∀ (v1665 : BitVec 32), Decidable (k0_chk130 v1665) := fun v1665 => decidable_of_iff' _ (Iff.of_eq (k0_chk130.eq_1 v1665))
theorem k0_off254_inb : ∀ (v1665 : BitVec 32) (k0_hw130 : k0_chk130 v1665), ∀ a, (k0_off254 v1665) a + S1x128.size a ≤ S262144x128.size a := fun v1665 k0_hw130 => k0_hw130.1
theorem k0_off286_inb : ∀ (v1665 : BitVec 32) (k0_hw130 : k0_chk130 v1665), ∀ a, (k0_off286 v1665) a + S1x128.size a ≤ S262144x128.size a := fun v1665 k0_hw130 => k0_hw130.2

def k0_off287 (v1678 : BitVec 32) : Fin 2 → Nat :=
  let c0_i32_1163 : BitVec 32 := 0#32
  ![v1678.toNat, 0]

def k0_chk131 (v1678 : BitVec 32) : Prop :=
  (∀ a, (k0_off255 v1678) a + S1x128.size a ≤ S262144x128.size a) ∧
  (∀ a, (k0_off287 v1678) a + S1x128.size a ≤ S262144x128.size a)
instance k0_chk131.dec : ∀ (v1678 : BitVec 32), Decidable (k0_chk131 v1678) := fun v1678 => decidable_of_iff' _ (Iff.of_eq (k0_chk131.eq_1 v1678))
theorem k0_off255_inb : ∀ (v1678 : BitVec 32) (k0_hw131 : k0_chk131 v1678), ∀ a, (k0_off255 v1678) a + S1x128.size a ≤ S262144x128.size a := fun v1678 k0_hw131 => k0_hw131.1
theorem k0_off287_inb : ∀ (v1678 : BitVec 32) (k0_hw131 : k0_chk131 v1678), ∀ a, (k0_off287 v1678) a + S1x128.size a ≤ S262144x128.size a := fun v1678 k0_hw131 => k0_hw131.2

def k0_off288 (v1679 : BitVec 32) : Fin 2 → Nat :=
  let c0_i32_1167 : BitVec 32 := 0#32
  ![v1679.toNat, 0]

def k0_chk132 (v1679 : BitVec 32) : Prop :=
  (∀ a, (k0_off256 v1679) a + S1x128.size a ≤ S262144x128.size a) ∧
  (∀ a, (k0_off288 v1679) a + S1x128.size a ≤ S262144x128.size a)
instance k0_chk132.dec : ∀ (v1679 : BitVec 32), Decidable (k0_chk132 v1679) := fun v1679 => decidable_of_iff' _ (Iff.of_eq (k0_chk132.eq_1 v1679))
theorem k0_off256_inb : ∀ (v1679 : BitVec 32) (k0_hw132 : k0_chk132 v1679), ∀ a, (k0_off256 v1679) a + S1x128.size a ≤ S262144x128.size a := fun v1679 k0_hw132 => k0_hw132.1
theorem k0_off288_inb : ∀ (v1679 : BitVec 32) (k0_hw132 : k0_chk132 v1679), ∀ a, (k0_off288 v1679) a + S1x128.size a ≤ S262144x128.size a := fun v1679 k0_hw132 => k0_hw132.2

def k0_off289 (v1692 : BitVec 32) : Fin 2 → Nat :=
  let c0_i32_1171 : BitVec 32 := 0#32
  ![v1692.toNat, 0]

def k0_chk133 (v1692 : BitVec 32) : Prop :=
  (∀ a, (k0_off257 v1692) a + S1x128.size a ≤ S262144x128.size a) ∧
  (∀ a, (k0_off289 v1692) a + S1x128.size a ≤ S262144x128.size a)
instance k0_chk133.dec : ∀ (v1692 : BitVec 32), Decidable (k0_chk133 v1692) := fun v1692 => decidable_of_iff' _ (Iff.of_eq (k0_chk133.eq_1 v1692))
theorem k0_off257_inb : ∀ (v1692 : BitVec 32) (k0_hw133 : k0_chk133 v1692), ∀ a, (k0_off257 v1692) a + S1x128.size a ≤ S262144x128.size a := fun v1692 k0_hw133 => k0_hw133.1
theorem k0_off289_inb : ∀ (v1692 : BitVec 32) (k0_hw133 : k0_chk133 v1692), ∀ a, (k0_off289 v1692) a + S1x128.size a ≤ S262144x128.size a := fun v1692 k0_hw133 => k0_hw133.2

def k0_off290 (v1693 : BitVec 32) : Fin 2 → Nat :=
  let c0_i32_1175 : BitVec 32 := 0#32
  ![v1693.toNat, 0]

def k0_chk134 (v1693 : BitVec 32) : Prop :=
  (∀ a, (k0_off258 v1693) a + S1x128.size a ≤ S262144x128.size a) ∧
  (∀ a, (k0_off290 v1693) a + S1x128.size a ≤ S262144x128.size a)
instance k0_chk134.dec : ∀ (v1693 : BitVec 32), Decidable (k0_chk134 v1693) := fun v1693 => decidable_of_iff' _ (Iff.of_eq (k0_chk134.eq_1 v1693))
theorem k0_off258_inb : ∀ (v1693 : BitVec 32) (k0_hw134 : k0_chk134 v1693), ∀ a, (k0_off258 v1693) a + S1x128.size a ≤ S262144x128.size a := fun v1693 k0_hw134 => k0_hw134.1
theorem k0_off290_inb : ∀ (v1693 : BitVec 32) (k0_hw134 : k0_chk134 v1693), ∀ a, (k0_off290 v1693) a + S1x128.size a ≤ S262144x128.size a := fun v1693 k0_hw134 => k0_hw134.2

def k0_off291 (v1706 : BitVec 32) : Fin 2 → Nat :=
  let c0_i32_1179 : BitVec 32 := 0#32
  ![v1706.toNat, 0]

def k0_chk135 (v1706 : BitVec 32) : Prop :=
  (∀ a, (k0_off259 v1706) a + S1x128.size a ≤ S262144x128.size a) ∧
  (∀ a, (k0_off291 v1706) a + S1x128.size a ≤ S262144x128.size a)
instance k0_chk135.dec : ∀ (v1706 : BitVec 32), Decidable (k0_chk135 v1706) := fun v1706 => decidable_of_iff' _ (Iff.of_eq (k0_chk135.eq_1 v1706))
theorem k0_off259_inb : ∀ (v1706 : BitVec 32) (k0_hw135 : k0_chk135 v1706), ∀ a, (k0_off259 v1706) a + S1x128.size a ≤ S262144x128.size a := fun v1706 k0_hw135 => k0_hw135.1
theorem k0_off291_inb : ∀ (v1706 : BitVec 32) (k0_hw135 : k0_chk135 v1706), ∀ a, (k0_off291 v1706) a + S1x128.size a ≤ S262144x128.size a := fun v1706 k0_hw135 => k0_hw135.2

def k0_off292 (v1707 : BitVec 32) : Fin 2 → Nat :=
  let c0_i32_1183 : BitVec 32 := 0#32
  ![v1707.toNat, 0]

def k0_chk136 (v1707 : BitVec 32) : Prop :=
  (∀ a, (k0_off260 v1707) a + S1x128.size a ≤ S262144x128.size a) ∧
  (∀ a, (k0_off292 v1707) a + S1x128.size a ≤ S262144x128.size a)
instance k0_chk136.dec : ∀ (v1707 : BitVec 32), Decidable (k0_chk136 v1707) := fun v1707 => decidable_of_iff' _ (Iff.of_eq (k0_chk136.eq_1 v1707))
theorem k0_off260_inb : ∀ (v1707 : BitVec 32) (k0_hw136 : k0_chk136 v1707), ∀ a, (k0_off260 v1707) a + S1x128.size a ≤ S262144x128.size a := fun v1707 k0_hw136 => k0_hw136.1
theorem k0_off292_inb : ∀ (v1707 : BitVec 32) (k0_hw136 : k0_chk136 v1707), ∀ a, (k0_off292 v1707) a + S1x128.size a ≤ S262144x128.size a := fun v1707 k0_hw136 => k0_hw136.2

def k0_off293 (v1720 : BitVec 32) : Fin 2 → Nat :=
  let c0_i32_1187 : BitVec 32 := 0#32
  ![v1720.toNat, 0]

def k0_chk137 (v1720 : BitVec 32) : Prop :=
  (∀ a, (k0_off261 v1720) a + S1x128.size a ≤ S262144x128.size a) ∧
  (∀ a, (k0_off293 v1720) a + S1x128.size a ≤ S262144x128.size a)
instance k0_chk137.dec : ∀ (v1720 : BitVec 32), Decidable (k0_chk137 v1720) := fun v1720 => decidable_of_iff' _ (Iff.of_eq (k0_chk137.eq_1 v1720))
theorem k0_off261_inb : ∀ (v1720 : BitVec 32) (k0_hw137 : k0_chk137 v1720), ∀ a, (k0_off261 v1720) a + S1x128.size a ≤ S262144x128.size a := fun v1720 k0_hw137 => k0_hw137.1
theorem k0_off293_inb : ∀ (v1720 : BitVec 32) (k0_hw137 : k0_chk137 v1720), ∀ a, (k0_off293 v1720) a + S1x128.size a ≤ S262144x128.size a := fun v1720 k0_hw137 => k0_hw137.2

def k0_off294 (v1721 : BitVec 32) : Fin 2 → Nat :=
  let c0_i32_1191 : BitVec 32 := 0#32
  ![v1721.toNat, 0]

def k0_chk138 (v1721 : BitVec 32) : Prop :=
  (∀ a, (k0_off262 v1721) a + S1x128.size a ≤ S262144x128.size a) ∧
  (∀ a, (k0_off294 v1721) a + S1x128.size a ≤ S262144x128.size a)
instance k0_chk138.dec : ∀ (v1721 : BitVec 32), Decidable (k0_chk138 v1721) := fun v1721 => decidable_of_iff' _ (Iff.of_eq (k0_chk138.eq_1 v1721))
theorem k0_off262_inb : ∀ (v1721 : BitVec 32) (k0_hw138 : k0_chk138 v1721), ∀ a, (k0_off262 v1721) a + S1x128.size a ≤ S262144x128.size a := fun v1721 k0_hw138 => k0_hw138.1
theorem k0_off294_inb : ∀ (v1721 : BitVec 32) (k0_hw138 : k0_chk138 v1721), ∀ a, (k0_off294 v1721) a + S1x128.size a ≤ S262144x128.size a := fun v1721 k0_hw138 => k0_hw138.2

def k0_off295 (v1734 : BitVec 32) : Fin 2 → Nat :=
  let c0_i32_1195 : BitVec 32 := 0#32
  ![v1734.toNat, 0]

def k0_chk139 (v1734 : BitVec 32) : Prop :=
  (∀ a, (k0_off263 v1734) a + S1x128.size a ≤ S262144x128.size a) ∧
  (∀ a, (k0_off295 v1734) a + S1x128.size a ≤ S262144x128.size a)
instance k0_chk139.dec : ∀ (v1734 : BitVec 32), Decidable (k0_chk139 v1734) := fun v1734 => decidable_of_iff' _ (Iff.of_eq (k0_chk139.eq_1 v1734))
theorem k0_off263_inb : ∀ (v1734 : BitVec 32) (k0_hw139 : k0_chk139 v1734), ∀ a, (k0_off263 v1734) a + S1x128.size a ≤ S262144x128.size a := fun v1734 k0_hw139 => k0_hw139.1
theorem k0_off295_inb : ∀ (v1734 : BitVec 32) (k0_hw139 : k0_chk139 v1734), ∀ a, (k0_off295 v1734) a + S1x128.size a ≤ S262144x128.size a := fun v1734 k0_hw139 => k0_hw139.2

def k0_off296 (v1735 : BitVec 32) : Fin 2 → Nat :=
  let c0_i32_1199 : BitVec 32 := 0#32
  ![v1735.toNat, 0]

def k0_chk140 (v1735 : BitVec 32) : Prop :=
  (∀ a, (k0_off264 v1735) a + S1x128.size a ≤ S262144x128.size a) ∧
  (∀ a, (k0_off296 v1735) a + S1x128.size a ≤ S262144x128.size a)
instance k0_chk140.dec : ∀ (v1735 : BitVec 32), Decidable (k0_chk140 v1735) := fun v1735 => decidable_of_iff' _ (Iff.of_eq (k0_chk140.eq_1 v1735))
theorem k0_off264_inb : ∀ (v1735 : BitVec 32) (k0_hw140 : k0_chk140 v1735), ∀ a, (k0_off264 v1735) a + S1x128.size a ≤ S262144x128.size a := fun v1735 k0_hw140 => k0_hw140.1
theorem k0_off296_inb : ∀ (v1735 : BitVec 32) (k0_hw140 : k0_chk140 v1735), ∀ a, (k0_off296 v1735) a + S1x128.size a ≤ S262144x128.size a := fun v1735 k0_hw140 => k0_hw140.2

def k0_off297 (v1748 : BitVec 32) : Fin 2 → Nat :=
  let c0_i32_1203 : BitVec 32 := 0#32
  ![v1748.toNat, 0]

def k0_chk141 (v1748 : BitVec 32) : Prop :=
  (∀ a, (k0_off265 v1748) a + S1x128.size a ≤ S262144x128.size a) ∧
  (∀ a, (k0_off297 v1748) a + S1x128.size a ≤ S262144x128.size a)
instance k0_chk141.dec : ∀ (v1748 : BitVec 32), Decidable (k0_chk141 v1748) := fun v1748 => decidable_of_iff' _ (Iff.of_eq (k0_chk141.eq_1 v1748))
theorem k0_off265_inb : ∀ (v1748 : BitVec 32) (k0_hw141 : k0_chk141 v1748), ∀ a, (k0_off265 v1748) a + S1x128.size a ≤ S262144x128.size a := fun v1748 k0_hw141 => k0_hw141.1
theorem k0_off297_inb : ∀ (v1748 : BitVec 32) (k0_hw141 : k0_chk141 v1748), ∀ a, (k0_off297 v1748) a + S1x128.size a ≤ S262144x128.size a := fun v1748 k0_hw141 => k0_hw141.2

def k0_off298 (v1749 : BitVec 32) : Fin 2 → Nat :=
  let c0_i32_1207 : BitVec 32 := 0#32
  ![v1749.toNat, 0]

def k0_chk142 (v1749 : BitVec 32) : Prop :=
  (∀ a, (k0_off266 v1749) a + S1x128.size a ≤ S262144x128.size a) ∧
  (∀ a, (k0_off298 v1749) a + S1x128.size a ≤ S262144x128.size a)
instance k0_chk142.dec : ∀ (v1749 : BitVec 32), Decidable (k0_chk142 v1749) := fun v1749 => decidable_of_iff' _ (Iff.of_eq (k0_chk142.eq_1 v1749))
theorem k0_off266_inb : ∀ (v1749 : BitVec 32) (k0_hw142 : k0_chk142 v1749), ∀ a, (k0_off266 v1749) a + S1x128.size a ≤ S262144x128.size a := fun v1749 k0_hw142 => k0_hw142.1
theorem k0_off298_inb : ∀ (v1749 : BitVec 32) (k0_hw142 : k0_chk142 v1749), ∀ a, (k0_off298 v1749) a + S1x128.size a ≤ S262144x128.size a := fun v1749 k0_hw142 => k0_hw142.2

def k0_off299 (v1762 : BitVec 32) : Fin 2 → Nat :=
  let c0_i32_1211 : BitVec 32 := 0#32
  ![v1762.toNat, 0]

def k0_chk143 (v1762 : BitVec 32) : Prop :=
  (∀ a, (k0_off267 v1762) a + S1x128.size a ≤ S262144x128.size a) ∧
  (∀ a, (k0_off299 v1762) a + S1x128.size a ≤ S262144x128.size a)
instance k0_chk143.dec : ∀ (v1762 : BitVec 32), Decidable (k0_chk143 v1762) := fun v1762 => decidable_of_iff' _ (Iff.of_eq (k0_chk143.eq_1 v1762))
theorem k0_off267_inb : ∀ (v1762 : BitVec 32) (k0_hw143 : k0_chk143 v1762), ∀ a, (k0_off267 v1762) a + S1x128.size a ≤ S262144x128.size a := fun v1762 k0_hw143 => k0_hw143.1
theorem k0_off299_inb : ∀ (v1762 : BitVec 32) (k0_hw143 : k0_chk143 v1762), ∀ a, (k0_off299 v1762) a + S1x128.size a ≤ S262144x128.size a := fun v1762 k0_hw143 => k0_hw143.2

def k0_off300 (v1763 : BitVec 32) : Fin 2 → Nat :=
  let c0_i32_1215 : BitVec 32 := 0#32
  ![v1763.toNat, 0]

def k0_chk144 (v1763 : BitVec 32) : Prop :=
  (∀ a, (k0_off268 v1763) a + S1x128.size a ≤ S262144x128.size a) ∧
  (∀ a, (k0_off300 v1763) a + S1x128.size a ≤ S262144x128.size a)
instance k0_chk144.dec : ∀ (v1763 : BitVec 32), Decidable (k0_chk144 v1763) := fun v1763 => decidable_of_iff' _ (Iff.of_eq (k0_chk144.eq_1 v1763))
theorem k0_off268_inb : ∀ (v1763 : BitVec 32) (k0_hw144 : k0_chk144 v1763), ∀ a, (k0_off268 v1763) a + S1x128.size a ≤ S262144x128.size a := fun v1763 k0_hw144 => k0_hw144.1
theorem k0_off300_inb : ∀ (v1763 : BitVec 32) (k0_hw144 : k0_chk144 v1763), ∀ a, (k0_off300 v1763) a + S1x128.size a ≤ S262144x128.size a := fun v1763 k0_hw144 => k0_hw144.2

def k0_off301 (v1776 : BitVec 32) : Fin 2 → Nat :=
  let c0_i32_1219 : BitVec 32 := 0#32
  ![v1776.toNat, 0]

def k0_chk145 (v1776 : BitVec 32) : Prop :=
  (∀ a, (k0_off269 v1776) a + S1x128.size a ≤ S262144x128.size a) ∧
  (∀ a, (k0_off301 v1776) a + S1x128.size a ≤ S262144x128.size a)
instance k0_chk145.dec : ∀ (v1776 : BitVec 32), Decidable (k0_chk145 v1776) := fun v1776 => decidable_of_iff' _ (Iff.of_eq (k0_chk145.eq_1 v1776))
theorem k0_off269_inb : ∀ (v1776 : BitVec 32) (k0_hw145 : k0_chk145 v1776), ∀ a, (k0_off269 v1776) a + S1x128.size a ≤ S262144x128.size a := fun v1776 k0_hw145 => k0_hw145.1
theorem k0_off301_inb : ∀ (v1776 : BitVec 32) (k0_hw145 : k0_chk145 v1776), ∀ a, (k0_off301 v1776) a + S1x128.size a ≤ S262144x128.size a := fun v1776 k0_hw145 => k0_hw145.2

def k0_off302 (v1777 : BitVec 32) : Fin 2 → Nat :=
  let c0_i32_1223 : BitVec 32 := 0#32
  ![v1777.toNat, 0]

def k0_chk146 (v1777 : BitVec 32) : Prop :=
  (∀ a, (k0_off270 v1777) a + S1x128.size a ≤ S262144x128.size a) ∧
  (∀ a, (k0_off302 v1777) a + S1x128.size a ≤ S262144x128.size a)
instance k0_chk146.dec : ∀ (v1777 : BitVec 32), Decidable (k0_chk146 v1777) := fun v1777 => decidable_of_iff' _ (Iff.of_eq (k0_chk146.eq_1 v1777))
theorem k0_off270_inb : ∀ (v1777 : BitVec 32) (k0_hw146 : k0_chk146 v1777), ∀ a, (k0_off270 v1777) a + S1x128.size a ≤ S262144x128.size a := fun v1777 k0_hw146 => k0_hw146.1
theorem k0_off302_inb : ∀ (v1777 : BitVec 32) (k0_hw146 : k0_chk146 v1777), ∀ a, (k0_off302 v1777) a + S1x128.size a ≤ S262144x128.size a := fun v1777 k0_hw146 => k0_hw146.2

def k0_off303 (v1790 : BitVec 32) : Fin 2 → Nat :=
  let c0_i32_1227 : BitVec 32 := 0#32
  ![v1790.toNat, 0]

def k0_chk147 (v1790 : BitVec 32) : Prop :=
  (∀ a, (k0_off271 v1790) a + S1x128.size a ≤ S262144x128.size a) ∧
  (∀ a, (k0_off303 v1790) a + S1x128.size a ≤ S262144x128.size a)
instance k0_chk147.dec : ∀ (v1790 : BitVec 32), Decidable (k0_chk147 v1790) := fun v1790 => decidable_of_iff' _ (Iff.of_eq (k0_chk147.eq_1 v1790))
theorem k0_off271_inb : ∀ (v1790 : BitVec 32) (k0_hw147 : k0_chk147 v1790), ∀ a, (k0_off271 v1790) a + S1x128.size a ≤ S262144x128.size a := fun v1790 k0_hw147 => k0_hw147.1
theorem k0_off303_inb : ∀ (v1790 : BitVec 32) (k0_hw147 : k0_chk147 v1790), ∀ a, (k0_off303 v1790) a + S1x128.size a ≤ S262144x128.size a := fun v1790 k0_hw147 => k0_hw147.2

def k0_off304 (v1791 : BitVec 32) : Fin 2 → Nat :=
  let c0_i32_1231 : BitVec 32 := 0#32
  ![v1791.toNat, 0]

def k0_chk148 (v1791 : BitVec 32) : Prop :=
  (∀ a, (k0_off272 v1791) a + S1x128.size a ≤ S262144x128.size a) ∧
  (∀ a, (k0_off304 v1791) a + S1x128.size a ≤ S262144x128.size a)
instance k0_chk148.dec : ∀ (v1791 : BitVec 32), Decidable (k0_chk148 v1791) := fun v1791 => decidable_of_iff' _ (Iff.of_eq (k0_chk148.eq_1 v1791))
theorem k0_off272_inb : ∀ (v1791 : BitVec 32) (k0_hw148 : k0_chk148 v1791), ∀ a, (k0_off272 v1791) a + S1x128.size a ≤ S262144x128.size a := fun v1791 k0_hw148 => k0_hw148.1
theorem k0_off304_inb : ∀ (v1791 : BitVec 32) (k0_hw148 : k0_chk148 v1791), ∀ a, (k0_off304 v1791) a + S1x128.size a ≤ S262144x128.size a := fun v1791 k0_hw148 => k0_hw148.2

def k0_off305 (v1804 : BitVec 32) : Fin 2 → Nat :=
  let c0_i32_1235 : BitVec 32 := 0#32
  ![v1804.toNat, 0]

def k0_chk149 (v1804 : BitVec 32) : Prop :=
  (∀ a, (k0_off273 v1804) a + S1x128.size a ≤ S262144x128.size a) ∧
  (∀ a, (k0_off305 v1804) a + S1x128.size a ≤ S262144x128.size a)
instance k0_chk149.dec : ∀ (v1804 : BitVec 32), Decidable (k0_chk149 v1804) := fun v1804 => decidable_of_iff' _ (Iff.of_eq (k0_chk149.eq_1 v1804))
theorem k0_off273_inb : ∀ (v1804 : BitVec 32) (k0_hw149 : k0_chk149 v1804), ∀ a, (k0_off273 v1804) a + S1x128.size a ≤ S262144x128.size a := fun v1804 k0_hw149 => k0_hw149.1
theorem k0_off305_inb : ∀ (v1804 : BitVec 32) (k0_hw149 : k0_chk149 v1804), ∀ a, (k0_off305 v1804) a + S1x128.size a ≤ S262144x128.size a := fun v1804 k0_hw149 => k0_hw149.2

def k0_off306 (v1805 : BitVec 32) : Fin 2 → Nat :=
  let c0_i32_1239 : BitVec 32 := 0#32
  ![v1805.toNat, 0]

def k0_chk150 (v1805 : BitVec 32) : Prop :=
  (∀ a, (k0_off274 v1805) a + S1x128.size a ≤ S262144x128.size a) ∧
  (∀ a, (k0_off306 v1805) a + S1x128.size a ≤ S262144x128.size a)
instance k0_chk150.dec : ∀ (v1805 : BitVec 32), Decidable (k0_chk150 v1805) := fun v1805 => decidable_of_iff' _ (Iff.of_eq (k0_chk150.eq_1 v1805))
theorem k0_off274_inb : ∀ (v1805 : BitVec 32) (k0_hw150 : k0_chk150 v1805), ∀ a, (k0_off274 v1805) a + S1x128.size a ≤ S262144x128.size a := fun v1805 k0_hw150 => k0_hw150.1
theorem k0_off306_inb : ∀ (v1805 : BitVec 32) (k0_hw150 : k0_chk150 v1805), ∀ a, (k0_off306 v1805) a + S1x128.size a ≤ S262144x128.size a := fun v1805 k0_hw150 => k0_hw150.2

def k0_off307 (v1818 : BitVec 32) : Fin 2 → Nat :=
  let c0_i32_1243 : BitVec 32 := 0#32
  ![v1818.toNat, 0]

def k0_chk151 (v1818 : BitVec 32) : Prop :=
  (∀ a, (k0_off275 v1818) a + S1x128.size a ≤ S262144x128.size a) ∧
  (∀ a, (k0_off307 v1818) a + S1x128.size a ≤ S262144x128.size a)
instance k0_chk151.dec : ∀ (v1818 : BitVec 32), Decidable (k0_chk151 v1818) := fun v1818 => decidable_of_iff' _ (Iff.of_eq (k0_chk151.eq_1 v1818))
theorem k0_off275_inb : ∀ (v1818 : BitVec 32) (k0_hw151 : k0_chk151 v1818), ∀ a, (k0_off275 v1818) a + S1x128.size a ≤ S262144x128.size a := fun v1818 k0_hw151 => k0_hw151.1
theorem k0_off307_inb : ∀ (v1818 : BitVec 32) (k0_hw151 : k0_chk151 v1818), ∀ a, (k0_off307 v1818) a + S1x128.size a ≤ S262144x128.size a := fun v1818 k0_hw151 => k0_hw151.2

def k0_off308 (v1819 : BitVec 32) : Fin 2 → Nat :=
  let c0_i32_1247 : BitVec 32 := 0#32
  ![v1819.toNat, 0]

def k0_chk152 (v1819 : BitVec 32) : Prop :=
  (∀ a, (k0_off276 v1819) a + S1x128.size a ≤ S262144x128.size a) ∧
  (∀ a, (k0_off308 v1819) a + S1x128.size a ≤ S262144x128.size a)
instance k0_chk152.dec : ∀ (v1819 : BitVec 32), Decidable (k0_chk152 v1819) := fun v1819 => decidable_of_iff' _ (Iff.of_eq (k0_chk152.eq_1 v1819))
theorem k0_off276_inb : ∀ (v1819 : BitVec 32) (k0_hw152 : k0_chk152 v1819), ∀ a, (k0_off276 v1819) a + S1x128.size a ≤ S262144x128.size a := fun v1819 k0_hw152 => k0_hw152.1
theorem k0_off308_inb : ∀ (v1819 : BitVec 32) (k0_hw152 : k0_chk152 v1819), ∀ a, (k0_off308 v1819) a + S1x128.size a ≤ S262144x128.size a := fun v1819 k0_hw152 => k0_hw152.2

def k0_off309 (v1832 : BitVec 32) : Fin 2 → Nat :=
  let c0_i32_1251 : BitVec 32 := 0#32
  ![v1832.toNat, 0]

def k0_chk153 (v1832 : BitVec 32) : Prop :=
  (∀ a, (k0_off277 v1832) a + S1x128.size a ≤ S262144x128.size a) ∧
  (∀ a, (k0_off309 v1832) a + S1x128.size a ≤ S262144x128.size a)
instance k0_chk153.dec : ∀ (v1832 : BitVec 32), Decidable (k0_chk153 v1832) := fun v1832 => decidable_of_iff' _ (Iff.of_eq (k0_chk153.eq_1 v1832))
theorem k0_off277_inb : ∀ (v1832 : BitVec 32) (k0_hw153 : k0_chk153 v1832), ∀ a, (k0_off277 v1832) a + S1x128.size a ≤ S262144x128.size a := fun v1832 k0_hw153 => k0_hw153.1
theorem k0_off309_inb : ∀ (v1832 : BitVec 32) (k0_hw153 : k0_chk153 v1832), ∀ a, (k0_off309 v1832) a + S1x128.size a ≤ S262144x128.size a := fun v1832 k0_hw153 => k0_hw153.2

def k0_off310 (v1833 : BitVec 32) : Fin 2 → Nat :=
  let c0_i32_1255 : BitVec 32 := 0#32
  ![v1833.toNat, 0]

def k0_chk154 (v1833 : BitVec 32) : Prop :=
  (∀ a, (k0_off278 v1833) a + S1x128.size a ≤ S262144x128.size a) ∧
  (∀ a, (k0_off310 v1833) a + S1x128.size a ≤ S262144x128.size a)
instance k0_chk154.dec : ∀ (v1833 : BitVec 32), Decidable (k0_chk154 v1833) := fun v1833 => decidable_of_iff' _ (Iff.of_eq (k0_chk154.eq_1 v1833))
theorem k0_off278_inb : ∀ (v1833 : BitVec 32) (k0_hw154 : k0_chk154 v1833), ∀ a, (k0_off278 v1833) a + S1x128.size a ≤ S262144x128.size a := fun v1833 k0_hw154 => k0_hw154.1
theorem k0_off310_inb : ∀ (v1833 : BitVec 32) (k0_hw154 : k0_chk154 v1833), ∀ a, (k0_off310 v1833) a + S1x128.size a ≤ S262144x128.size a := fun v1833 k0_hw154 => k0_hw154.2

def k0_off311 (v1846 : BitVec 32) : Fin 2 → Nat :=
  let c0_i32_1259 : BitVec 32 := 0#32
  ![v1846.toNat, 0]

def k0_chk155 (v1846 : BitVec 32) : Prop :=
  (∀ a, (k0_off279 v1846) a + S1x128.size a ≤ S262144x128.size a) ∧
  (∀ a, (k0_off311 v1846) a + S1x128.size a ≤ S262144x128.size a)
instance k0_chk155.dec : ∀ (v1846 : BitVec 32), Decidable (k0_chk155 v1846) := fun v1846 => decidable_of_iff' _ (Iff.of_eq (k0_chk155.eq_1 v1846))
theorem k0_off279_inb : ∀ (v1846 : BitVec 32) (k0_hw155 : k0_chk155 v1846), ∀ a, (k0_off279 v1846) a + S1x128.size a ≤ S262144x128.size a := fun v1846 k0_hw155 => k0_hw155.1
theorem k0_off311_inb : ∀ (v1846 : BitVec 32) (k0_hw155 : k0_chk155 v1846), ∀ a, (k0_off311 v1846) a + S1x128.size a ≤ S262144x128.size a := fun v1846 k0_hw155 => k0_hw155.2

def k0_off312 (v1847 : BitVec 32) : Fin 2 → Nat :=
  let c0_i32_1263 : BitVec 32 := 0#32
  ![v1847.toNat, 0]

def k0_chk156 (v1847 : BitVec 32) : Prop :=
  (∀ a, (k0_off280 v1847) a + S1x128.size a ≤ S262144x128.size a) ∧
  (∀ a, (k0_off312 v1847) a + S1x128.size a ≤ S262144x128.size a)
instance k0_chk156.dec : ∀ (v1847 : BitVec 32), Decidable (k0_chk156 v1847) := fun v1847 => decidable_of_iff' _ (Iff.of_eq (k0_chk156.eq_1 v1847))
theorem k0_off280_inb : ∀ (v1847 : BitVec 32) (k0_hw156 : k0_chk156 v1847), ∀ a, (k0_off280 v1847) a + S1x128.size a ≤ S262144x128.size a := fun v1847 k0_hw156 => k0_hw156.1
theorem k0_off312_inb : ∀ (v1847 : BitVec 32) (k0_hw156 : k0_chk156 v1847), ∀ a, (k0_off312 v1847) a + S1x128.size a ≤ S262144x128.size a := fun v1847 k0_hw156 => k0_hw156.2

def k0_off313 (v1860 : BitVec 32) : Fin 2 → Nat :=
  let c0_i32_1267 : BitVec 32 := 0#32
  ![v1860.toNat, 0]

def k0_chk157 (v1860 : BitVec 32) : Prop :=
  (∀ a, (k0_off281 v1860) a + S1x128.size a ≤ S262144x128.size a) ∧
  (∀ a, (k0_off313 v1860) a + S1x128.size a ≤ S262144x128.size a)
instance k0_chk157.dec : ∀ (v1860 : BitVec 32), Decidable (k0_chk157 v1860) := fun v1860 => decidable_of_iff' _ (Iff.of_eq (k0_chk157.eq_1 v1860))
theorem k0_off281_inb : ∀ (v1860 : BitVec 32) (k0_hw157 : k0_chk157 v1860), ∀ a, (k0_off281 v1860) a + S1x128.size a ≤ S262144x128.size a := fun v1860 k0_hw157 => k0_hw157.1
theorem k0_off313_inb : ∀ (v1860 : BitVec 32) (k0_hw157 : k0_chk157 v1860), ∀ a, (k0_off313 v1860) a + S1x128.size a ≤ S262144x128.size a := fun v1860 k0_hw157 => k0_hw157.2

def k0_off314 (v1861 : BitVec 32) : Fin 2 → Nat :=
  let c0_i32_1271 : BitVec 32 := 0#32
  ![v1861.toNat, 0]

def k0_chk158 (v1861 : BitVec 32) : Prop :=
  (∀ a, (k0_off282 v1861) a + S1x128.size a ≤ S262144x128.size a) ∧
  (∀ a, (k0_off314 v1861) a + S1x128.size a ≤ S262144x128.size a)
instance k0_chk158.dec : ∀ (v1861 : BitVec 32), Decidable (k0_chk158 v1861) := fun v1861 => decidable_of_iff' _ (Iff.of_eq (k0_chk158.eq_1 v1861))
theorem k0_off282_inb : ∀ (v1861 : BitVec 32) (k0_hw158 : k0_chk158 v1861), ∀ a, (k0_off282 v1861) a + S1x128.size a ≤ S262144x128.size a := fun v1861 k0_hw158 => k0_hw158.1
theorem k0_off314_inb : ∀ (v1861 : BitVec 32) (k0_hw158 : k0_chk158 v1861), ∀ a, (k0_off314 v1861) a + S1x128.size a ≤ S262144x128.size a := fun v1861 k0_hw158 => k0_hw158.2

def k0_off315 (v1874 : BitVec 32) : Fin 2 → Nat :=
  let c0_i32_1275 : BitVec 32 := 0#32
  ![v1874.toNat, 0]

def k0_chk159 (v1874 : BitVec 32) : Prop :=
  (∀ a, (k0_off283 v1874) a + S1x128.size a ≤ S262144x128.size a) ∧
  (∀ a, (k0_off315 v1874) a + S1x128.size a ≤ S262144x128.size a)
instance k0_chk159.dec : ∀ (v1874 : BitVec 32), Decidable (k0_chk159 v1874) := fun v1874 => decidable_of_iff' _ (Iff.of_eq (k0_chk159.eq_1 v1874))
theorem k0_off283_inb : ∀ (v1874 : BitVec 32) (k0_hw159 : k0_chk159 v1874), ∀ a, (k0_off283 v1874) a + S1x128.size a ≤ S262144x128.size a := fun v1874 k0_hw159 => k0_hw159.1
theorem k0_off315_inb : ∀ (v1874 : BitVec 32) (k0_hw159 : k0_chk159 v1874), ∀ a, (k0_off315 v1874) a + S1x128.size a ≤ S262144x128.size a := fun v1874 k0_hw159 => k0_hw159.2

def k0_off316 (v2080 : BitVec 32) : Fin 2 → Nat :=
  let c0_i32_1283 : BitVec 32 := 0#32
  ![v2080.toNat, 0]

def k0_off317 (v2081 : BitVec 32) : Fin 2 → Nat :=
  let c0_i32_1287 : BitVec 32 := 0#32
  ![v2081.toNat, 0]

def k0_off318 (v2094 : BitVec 32) : Fin 2 → Nat :=
  let c0_i32_1291 : BitVec 32 := 0#32
  ![v2094.toNat, 0]

def k0_off319 (v2095 : BitVec 32) : Fin 2 → Nat :=
  let c0_i32_1295 : BitVec 32 := 0#32
  ![v2095.toNat, 0]

def k0_off320 (v2108 : BitVec 32) : Fin 2 → Nat :=
  let c0_i32_1299 : BitVec 32 := 0#32
  ![v2108.toNat, 0]

def k0_off321 (v2109 : BitVec 32) : Fin 2 → Nat :=
  let c0_i32_1303 : BitVec 32 := 0#32
  ![v2109.toNat, 0]

def k0_off322 (v2122 : BitVec 32) : Fin 2 → Nat :=
  let c0_i32_1307 : BitVec 32 := 0#32
  ![v2122.toNat, 0]

def k0_off323 (v2123 : BitVec 32) : Fin 2 → Nat :=
  let c0_i32_1311 : BitVec 32 := 0#32
  ![v2123.toNat, 0]

def k0_off324 (v2136 : BitVec 32) : Fin 2 → Nat :=
  let c0_i32_1315 : BitVec 32 := 0#32
  ![v2136.toNat, 0]

def k0_off325 (v2137 : BitVec 32) : Fin 2 → Nat :=
  let c0_i32_1319 : BitVec 32 := 0#32
  ![v2137.toNat, 0]

def k0_off326 (v2150 : BitVec 32) : Fin 2 → Nat :=
  let c0_i32_1323 : BitVec 32 := 0#32
  ![v2150.toNat, 0]

def k0_off327 (v2151 : BitVec 32) : Fin 2 → Nat :=
  let c0_i32_1327 : BitVec 32 := 0#32
  ![v2151.toNat, 0]

def k0_off328 (v2164 : BitVec 32) : Fin 2 → Nat :=
  let c0_i32_1331 : BitVec 32 := 0#32
  ![v2164.toNat, 0]

def k0_off329 (v2165 : BitVec 32) : Fin 2 → Nat :=
  let c0_i32_1335 : BitVec 32 := 0#32
  ![v2165.toNat, 0]

def k0_off330 (v2178 : BitVec 32) : Fin 2 → Nat :=
  let c0_i32_1339 : BitVec 32 := 0#32
  ![v2178.toNat, 0]

def k0_off331 (v2179 : BitVec 32) : Fin 2 → Nat :=
  let c0_i32_1343 : BitVec 32 := 0#32
  ![v2179.toNat, 0]

def k0_off332 (v2192 : BitVec 32) : Fin 2 → Nat :=
  let c0_i32_1347 : BitVec 32 := 0#32
  ![v2192.toNat, 0]

def k0_off333 (v2193 : BitVec 32) : Fin 2 → Nat :=
  let c0_i32_1351 : BitVec 32 := 0#32
  ![v2193.toNat, 0]

def k0_off334 (v2206 : BitVec 32) : Fin 2 → Nat :=
  let c0_i32_1355 : BitVec 32 := 0#32
  ![v2206.toNat, 0]

def k0_off335 (v2207 : BitVec 32) : Fin 2 → Nat :=
  let c0_i32_1359 : BitVec 32 := 0#32
  ![v2207.toNat, 0]

def k0_off336 (v2220 : BitVec 32) : Fin 2 → Nat :=
  let c0_i32_1363 : BitVec 32 := 0#32
  ![v2220.toNat, 0]

def k0_off337 (v2221 : BitVec 32) : Fin 2 → Nat :=
  let c0_i32_1367 : BitVec 32 := 0#32
  ![v2221.toNat, 0]

def k0_off338 (v2234 : BitVec 32) : Fin 2 → Nat :=
  let c0_i32_1371 : BitVec 32 := 0#32
  ![v2234.toNat, 0]

def k0_off339 (v2235 : BitVec 32) : Fin 2 → Nat :=
  let c0_i32_1375 : BitVec 32 := 0#32
  ![v2235.toNat, 0]

def k0_off340 (v2248 : BitVec 32) : Fin 2 → Nat :=
  let c0_i32_1379 : BitVec 32 := 0#32
  ![v2248.toNat, 0]

def k0_off341 (v2249 : BitVec 32) : Fin 2 → Nat :=
  let c0_i32_1383 : BitVec 32 := 0#32
  ![v2249.toNat, 0]

def k0_off342 (v2262 : BitVec 32) : Fin 2 → Nat :=
  let c0_i32_1387 : BitVec 32 := 0#32
  ![v2262.toNat, 0]

def k0_off343 (v2263 : BitVec 32) : Fin 2 → Nat :=
  let c0_i32_1391 : BitVec 32 := 0#32
  ![v2263.toNat, 0]

def k0_off344 (v2276 : BitVec 32) : Fin 2 → Nat :=
  let c0_i32_1395 : BitVec 32 := 0#32
  ![v2276.toNat, 0]

def k0_off345 (v2277 : BitVec 32) : Fin 2 → Nat :=
  let c0_i32_1399 : BitVec 32 := 0#32
  ![v2277.toNat, 0]

def k0_off346 (v2290 : BitVec 32) : Fin 2 → Nat :=
  let c0_i32_1403 : BitVec 32 := 0#32
  ![v2290.toNat, 0]

def k0_off347 (v2291 : BitVec 32) : Fin 2 → Nat :=
  let c0_i32_1407 : BitVec 32 := 0#32
  ![v2291.toNat, 0]

def k0_chk192 (v2291 : BitVec 32) : Prop :=
  (∀ a, (k0_off347 v2291) a + S1x128.size a ≤ S262144x128.size a)
instance k0_chk192.dec : ∀ (v2291 : BitVec 32), Decidable (k0_chk192 v2291) := fun v2291 => decidable_of_iff' _ (Iff.of_eq (k0_chk192.eq_1 v2291))
theorem k0_off347_inb : ∀ (v2291 : BitVec 32) (k0_hw192 : k0_chk192 v2291), ∀ a, (k0_off347 v2291) a + S1x128.size a ≤ S262144x128.size a := fun v2291 k0_hw192 => k0_hw192

def k0_off348 (v2080 : BitVec 32) : Fin 2 → Nat :=
  let c0_i32_1411 : BitVec 32 := 0#32
  ![v2080.toNat, 0]

def k0_chk161 (v2080 : BitVec 32) : Prop :=
  (∀ a, (k0_off316 v2080) a + S1x128.size a ≤ S262144x128.size a) ∧
  (∀ a, (k0_off348 v2080) a + S1x128.size a ≤ S262144x128.size a)
instance k0_chk161.dec : ∀ (v2080 : BitVec 32), Decidable (k0_chk161 v2080) := fun v2080 => decidable_of_iff' _ (Iff.of_eq (k0_chk161.eq_1 v2080))
theorem k0_off316_inb : ∀ (v2080 : BitVec 32) (k0_hw161 : k0_chk161 v2080), ∀ a, (k0_off316 v2080) a + S1x128.size a ≤ S262144x128.size a := fun v2080 k0_hw161 => k0_hw161.1
theorem k0_off348_inb : ∀ (v2080 : BitVec 32) (k0_hw161 : k0_chk161 v2080), ∀ a, (k0_off348 v2080) a + S1x128.size a ≤ S262144x128.size a := fun v2080 k0_hw161 => k0_hw161.2

def k0_off349 (v2081 : BitVec 32) : Fin 2 → Nat :=
  let c0_i32_1415 : BitVec 32 := 0#32
  ![v2081.toNat, 0]

def k0_chk162 (v2081 : BitVec 32) : Prop :=
  (∀ a, (k0_off317 v2081) a + S1x128.size a ≤ S262144x128.size a) ∧
  (∀ a, (k0_off349 v2081) a + S1x128.size a ≤ S262144x128.size a)
instance k0_chk162.dec : ∀ (v2081 : BitVec 32), Decidable (k0_chk162 v2081) := fun v2081 => decidable_of_iff' _ (Iff.of_eq (k0_chk162.eq_1 v2081))
theorem k0_off317_inb : ∀ (v2081 : BitVec 32) (k0_hw162 : k0_chk162 v2081), ∀ a, (k0_off317 v2081) a + S1x128.size a ≤ S262144x128.size a := fun v2081 k0_hw162 => k0_hw162.1
theorem k0_off349_inb : ∀ (v2081 : BitVec 32) (k0_hw162 : k0_chk162 v2081), ∀ a, (k0_off349 v2081) a + S1x128.size a ≤ S262144x128.size a := fun v2081 k0_hw162 => k0_hw162.2

def k0_off350 (v2094 : BitVec 32) : Fin 2 → Nat :=
  let c0_i32_1419 : BitVec 32 := 0#32
  ![v2094.toNat, 0]

def k0_chk163 (v2094 : BitVec 32) : Prop :=
  (∀ a, (k0_off318 v2094) a + S1x128.size a ≤ S262144x128.size a) ∧
  (∀ a, (k0_off350 v2094) a + S1x128.size a ≤ S262144x128.size a)
instance k0_chk163.dec : ∀ (v2094 : BitVec 32), Decidable (k0_chk163 v2094) := fun v2094 => decidable_of_iff' _ (Iff.of_eq (k0_chk163.eq_1 v2094))
theorem k0_off318_inb : ∀ (v2094 : BitVec 32) (k0_hw163 : k0_chk163 v2094), ∀ a, (k0_off318 v2094) a + S1x128.size a ≤ S262144x128.size a := fun v2094 k0_hw163 => k0_hw163.1
theorem k0_off350_inb : ∀ (v2094 : BitVec 32) (k0_hw163 : k0_chk163 v2094), ∀ a, (k0_off350 v2094) a + S1x128.size a ≤ S262144x128.size a := fun v2094 k0_hw163 => k0_hw163.2

def k0_off351 (v2095 : BitVec 32) : Fin 2 → Nat :=
  let c0_i32_1423 : BitVec 32 := 0#32
  ![v2095.toNat, 0]

def k0_chk164 (v2095 : BitVec 32) : Prop :=
  (∀ a, (k0_off319 v2095) a + S1x128.size a ≤ S262144x128.size a) ∧
  (∀ a, (k0_off351 v2095) a + S1x128.size a ≤ S262144x128.size a)
instance k0_chk164.dec : ∀ (v2095 : BitVec 32), Decidable (k0_chk164 v2095) := fun v2095 => decidable_of_iff' _ (Iff.of_eq (k0_chk164.eq_1 v2095))
theorem k0_off319_inb : ∀ (v2095 : BitVec 32) (k0_hw164 : k0_chk164 v2095), ∀ a, (k0_off319 v2095) a + S1x128.size a ≤ S262144x128.size a := fun v2095 k0_hw164 => k0_hw164.1
theorem k0_off351_inb : ∀ (v2095 : BitVec 32) (k0_hw164 : k0_chk164 v2095), ∀ a, (k0_off351 v2095) a + S1x128.size a ≤ S262144x128.size a := fun v2095 k0_hw164 => k0_hw164.2

def k0_off352 (v2108 : BitVec 32) : Fin 2 → Nat :=
  let c0_i32_1427 : BitVec 32 := 0#32
  ![v2108.toNat, 0]

def k0_chk165 (v2108 : BitVec 32) : Prop :=
  (∀ a, (k0_off320 v2108) a + S1x128.size a ≤ S262144x128.size a) ∧
  (∀ a, (k0_off352 v2108) a + S1x128.size a ≤ S262144x128.size a)
instance k0_chk165.dec : ∀ (v2108 : BitVec 32), Decidable (k0_chk165 v2108) := fun v2108 => decidable_of_iff' _ (Iff.of_eq (k0_chk165.eq_1 v2108))
theorem k0_off320_inb : ∀ (v2108 : BitVec 32) (k0_hw165 : k0_chk165 v2108), ∀ a, (k0_off320 v2108) a + S1x128.size a ≤ S262144x128.size a := fun v2108 k0_hw165 => k0_hw165.1
theorem k0_off352_inb : ∀ (v2108 : BitVec 32) (k0_hw165 : k0_chk165 v2108), ∀ a, (k0_off352 v2108) a + S1x128.size a ≤ S262144x128.size a := fun v2108 k0_hw165 => k0_hw165.2

def k0_off353 (v2109 : BitVec 32) : Fin 2 → Nat :=
  let c0_i32_1431 : BitVec 32 := 0#32
  ![v2109.toNat, 0]

def k0_chk166 (v2109 : BitVec 32) : Prop :=
  (∀ a, (k0_off321 v2109) a + S1x128.size a ≤ S262144x128.size a) ∧
  (∀ a, (k0_off353 v2109) a + S1x128.size a ≤ S262144x128.size a)
instance k0_chk166.dec : ∀ (v2109 : BitVec 32), Decidable (k0_chk166 v2109) := fun v2109 => decidable_of_iff' _ (Iff.of_eq (k0_chk166.eq_1 v2109))
theorem k0_off321_inb : ∀ (v2109 : BitVec 32) (k0_hw166 : k0_chk166 v2109), ∀ a, (k0_off321 v2109) a + S1x128.size a ≤ S262144x128.size a := fun v2109 k0_hw166 => k0_hw166.1
theorem k0_off353_inb : ∀ (v2109 : BitVec 32) (k0_hw166 : k0_chk166 v2109), ∀ a, (k0_off353 v2109) a + S1x128.size a ≤ S262144x128.size a := fun v2109 k0_hw166 => k0_hw166.2

def k0_off354 (v2122 : BitVec 32) : Fin 2 → Nat :=
  let c0_i32_1435 : BitVec 32 := 0#32
  ![v2122.toNat, 0]

def k0_chk167 (v2122 : BitVec 32) : Prop :=
  (∀ a, (k0_off322 v2122) a + S1x128.size a ≤ S262144x128.size a) ∧
  (∀ a, (k0_off354 v2122) a + S1x128.size a ≤ S262144x128.size a)
instance k0_chk167.dec : ∀ (v2122 : BitVec 32), Decidable (k0_chk167 v2122) := fun v2122 => decidable_of_iff' _ (Iff.of_eq (k0_chk167.eq_1 v2122))
theorem k0_off322_inb : ∀ (v2122 : BitVec 32) (k0_hw167 : k0_chk167 v2122), ∀ a, (k0_off322 v2122) a + S1x128.size a ≤ S262144x128.size a := fun v2122 k0_hw167 => k0_hw167.1
theorem k0_off354_inb : ∀ (v2122 : BitVec 32) (k0_hw167 : k0_chk167 v2122), ∀ a, (k0_off354 v2122) a + S1x128.size a ≤ S262144x128.size a := fun v2122 k0_hw167 => k0_hw167.2

def k0_off355 (v2123 : BitVec 32) : Fin 2 → Nat :=
  let c0_i32_1439 : BitVec 32 := 0#32
  ![v2123.toNat, 0]

def k0_chk168 (v2123 : BitVec 32) : Prop :=
  (∀ a, (k0_off323 v2123) a + S1x128.size a ≤ S262144x128.size a) ∧
  (∀ a, (k0_off355 v2123) a + S1x128.size a ≤ S262144x128.size a)
instance k0_chk168.dec : ∀ (v2123 : BitVec 32), Decidable (k0_chk168 v2123) := fun v2123 => decidable_of_iff' _ (Iff.of_eq (k0_chk168.eq_1 v2123))
theorem k0_off323_inb : ∀ (v2123 : BitVec 32) (k0_hw168 : k0_chk168 v2123), ∀ a, (k0_off323 v2123) a + S1x128.size a ≤ S262144x128.size a := fun v2123 k0_hw168 => k0_hw168.1
theorem k0_off355_inb : ∀ (v2123 : BitVec 32) (k0_hw168 : k0_chk168 v2123), ∀ a, (k0_off355 v2123) a + S1x128.size a ≤ S262144x128.size a := fun v2123 k0_hw168 => k0_hw168.2

def k0_off356 (v2136 : BitVec 32) : Fin 2 → Nat :=
  let c0_i32_1443 : BitVec 32 := 0#32
  ![v2136.toNat, 0]

def k0_chk169 (v2136 : BitVec 32) : Prop :=
  (∀ a, (k0_off324 v2136) a + S1x128.size a ≤ S262144x128.size a) ∧
  (∀ a, (k0_off356 v2136) a + S1x128.size a ≤ S262144x128.size a)
instance k0_chk169.dec : ∀ (v2136 : BitVec 32), Decidable (k0_chk169 v2136) := fun v2136 => decidable_of_iff' _ (Iff.of_eq (k0_chk169.eq_1 v2136))
theorem k0_off324_inb : ∀ (v2136 : BitVec 32) (k0_hw169 : k0_chk169 v2136), ∀ a, (k0_off324 v2136) a + S1x128.size a ≤ S262144x128.size a := fun v2136 k0_hw169 => k0_hw169.1
theorem k0_off356_inb : ∀ (v2136 : BitVec 32) (k0_hw169 : k0_chk169 v2136), ∀ a, (k0_off356 v2136) a + S1x128.size a ≤ S262144x128.size a := fun v2136 k0_hw169 => k0_hw169.2

def k0_off357 (v2137 : BitVec 32) : Fin 2 → Nat :=
  let c0_i32_1447 : BitVec 32 := 0#32
  ![v2137.toNat, 0]

def k0_chk170 (v2137 : BitVec 32) : Prop :=
  (∀ a, (k0_off325 v2137) a + S1x128.size a ≤ S262144x128.size a) ∧
  (∀ a, (k0_off357 v2137) a + S1x128.size a ≤ S262144x128.size a)
instance k0_chk170.dec : ∀ (v2137 : BitVec 32), Decidable (k0_chk170 v2137) := fun v2137 => decidable_of_iff' _ (Iff.of_eq (k0_chk170.eq_1 v2137))
theorem k0_off325_inb : ∀ (v2137 : BitVec 32) (k0_hw170 : k0_chk170 v2137), ∀ a, (k0_off325 v2137) a + S1x128.size a ≤ S262144x128.size a := fun v2137 k0_hw170 => k0_hw170.1
theorem k0_off357_inb : ∀ (v2137 : BitVec 32) (k0_hw170 : k0_chk170 v2137), ∀ a, (k0_off357 v2137) a + S1x128.size a ≤ S262144x128.size a := fun v2137 k0_hw170 => k0_hw170.2

def k0_off358 (v2150 : BitVec 32) : Fin 2 → Nat :=
  let c0_i32_1451 : BitVec 32 := 0#32
  ![v2150.toNat, 0]

def k0_chk171 (v2150 : BitVec 32) : Prop :=
  (∀ a, (k0_off326 v2150) a + S1x128.size a ≤ S262144x128.size a) ∧
  (∀ a, (k0_off358 v2150) a + S1x128.size a ≤ S262144x128.size a)
instance k0_chk171.dec : ∀ (v2150 : BitVec 32), Decidable (k0_chk171 v2150) := fun v2150 => decidable_of_iff' _ (Iff.of_eq (k0_chk171.eq_1 v2150))
theorem k0_off326_inb : ∀ (v2150 : BitVec 32) (k0_hw171 : k0_chk171 v2150), ∀ a, (k0_off326 v2150) a + S1x128.size a ≤ S262144x128.size a := fun v2150 k0_hw171 => k0_hw171.1
theorem k0_off358_inb : ∀ (v2150 : BitVec 32) (k0_hw171 : k0_chk171 v2150), ∀ a, (k0_off358 v2150) a + S1x128.size a ≤ S262144x128.size a := fun v2150 k0_hw171 => k0_hw171.2

def k0_off359 (v2151 : BitVec 32) : Fin 2 → Nat :=
  let c0_i32_1455 : BitVec 32 := 0#32
  ![v2151.toNat, 0]

def k0_chk172 (v2151 : BitVec 32) : Prop :=
  (∀ a, (k0_off327 v2151) a + S1x128.size a ≤ S262144x128.size a) ∧
  (∀ a, (k0_off359 v2151) a + S1x128.size a ≤ S262144x128.size a)
instance k0_chk172.dec : ∀ (v2151 : BitVec 32), Decidable (k0_chk172 v2151) := fun v2151 => decidable_of_iff' _ (Iff.of_eq (k0_chk172.eq_1 v2151))
theorem k0_off327_inb : ∀ (v2151 : BitVec 32) (k0_hw172 : k0_chk172 v2151), ∀ a, (k0_off327 v2151) a + S1x128.size a ≤ S262144x128.size a := fun v2151 k0_hw172 => k0_hw172.1
theorem k0_off359_inb : ∀ (v2151 : BitVec 32) (k0_hw172 : k0_chk172 v2151), ∀ a, (k0_off359 v2151) a + S1x128.size a ≤ S262144x128.size a := fun v2151 k0_hw172 => k0_hw172.2

def k0_off360 (v2164 : BitVec 32) : Fin 2 → Nat :=
  let c0_i32_1459 : BitVec 32 := 0#32
  ![v2164.toNat, 0]

def k0_chk173 (v2164 : BitVec 32) : Prop :=
  (∀ a, (k0_off328 v2164) a + S1x128.size a ≤ S262144x128.size a) ∧
  (∀ a, (k0_off360 v2164) a + S1x128.size a ≤ S262144x128.size a)
instance k0_chk173.dec : ∀ (v2164 : BitVec 32), Decidable (k0_chk173 v2164) := fun v2164 => decidable_of_iff' _ (Iff.of_eq (k0_chk173.eq_1 v2164))
theorem k0_off328_inb : ∀ (v2164 : BitVec 32) (k0_hw173 : k0_chk173 v2164), ∀ a, (k0_off328 v2164) a + S1x128.size a ≤ S262144x128.size a := fun v2164 k0_hw173 => k0_hw173.1
theorem k0_off360_inb : ∀ (v2164 : BitVec 32) (k0_hw173 : k0_chk173 v2164), ∀ a, (k0_off360 v2164) a + S1x128.size a ≤ S262144x128.size a := fun v2164 k0_hw173 => k0_hw173.2

def k0_off361 (v2165 : BitVec 32) : Fin 2 → Nat :=
  let c0_i32_1463 : BitVec 32 := 0#32
  ![v2165.toNat, 0]

def k0_chk174 (v2165 : BitVec 32) : Prop :=
  (∀ a, (k0_off329 v2165) a + S1x128.size a ≤ S262144x128.size a) ∧
  (∀ a, (k0_off361 v2165) a + S1x128.size a ≤ S262144x128.size a)
instance k0_chk174.dec : ∀ (v2165 : BitVec 32), Decidable (k0_chk174 v2165) := fun v2165 => decidable_of_iff' _ (Iff.of_eq (k0_chk174.eq_1 v2165))
theorem k0_off329_inb : ∀ (v2165 : BitVec 32) (k0_hw174 : k0_chk174 v2165), ∀ a, (k0_off329 v2165) a + S1x128.size a ≤ S262144x128.size a := fun v2165 k0_hw174 => k0_hw174.1
theorem k0_off361_inb : ∀ (v2165 : BitVec 32) (k0_hw174 : k0_chk174 v2165), ∀ a, (k0_off361 v2165) a + S1x128.size a ≤ S262144x128.size a := fun v2165 k0_hw174 => k0_hw174.2

def k0_off362 (v2178 : BitVec 32) : Fin 2 → Nat :=
  let c0_i32_1467 : BitVec 32 := 0#32
  ![v2178.toNat, 0]

def k0_chk175 (v2178 : BitVec 32) : Prop :=
  (∀ a, (k0_off330 v2178) a + S1x128.size a ≤ S262144x128.size a) ∧
  (∀ a, (k0_off362 v2178) a + S1x128.size a ≤ S262144x128.size a)
instance k0_chk175.dec : ∀ (v2178 : BitVec 32), Decidable (k0_chk175 v2178) := fun v2178 => decidable_of_iff' _ (Iff.of_eq (k0_chk175.eq_1 v2178))
theorem k0_off330_inb : ∀ (v2178 : BitVec 32) (k0_hw175 : k0_chk175 v2178), ∀ a, (k0_off330 v2178) a + S1x128.size a ≤ S262144x128.size a := fun v2178 k0_hw175 => k0_hw175.1
theorem k0_off362_inb : ∀ (v2178 : BitVec 32) (k0_hw175 : k0_chk175 v2178), ∀ a, (k0_off362 v2178) a + S1x128.size a ≤ S262144x128.size a := fun v2178 k0_hw175 => k0_hw175.2

def k0_off363 (v2179 : BitVec 32) : Fin 2 → Nat :=
  let c0_i32_1471 : BitVec 32 := 0#32
  ![v2179.toNat, 0]

def k0_chk176 (v2179 : BitVec 32) : Prop :=
  (∀ a, (k0_off331 v2179) a + S1x128.size a ≤ S262144x128.size a) ∧
  (∀ a, (k0_off363 v2179) a + S1x128.size a ≤ S262144x128.size a)
instance k0_chk176.dec : ∀ (v2179 : BitVec 32), Decidable (k0_chk176 v2179) := fun v2179 => decidable_of_iff' _ (Iff.of_eq (k0_chk176.eq_1 v2179))
theorem k0_off331_inb : ∀ (v2179 : BitVec 32) (k0_hw176 : k0_chk176 v2179), ∀ a, (k0_off331 v2179) a + S1x128.size a ≤ S262144x128.size a := fun v2179 k0_hw176 => k0_hw176.1
theorem k0_off363_inb : ∀ (v2179 : BitVec 32) (k0_hw176 : k0_chk176 v2179), ∀ a, (k0_off363 v2179) a + S1x128.size a ≤ S262144x128.size a := fun v2179 k0_hw176 => k0_hw176.2

def k0_off364 (v2192 : BitVec 32) : Fin 2 → Nat :=
  let c0_i32_1475 : BitVec 32 := 0#32
  ![v2192.toNat, 0]

def k0_chk177 (v2192 : BitVec 32) : Prop :=
  (∀ a, (k0_off332 v2192) a + S1x128.size a ≤ S262144x128.size a) ∧
  (∀ a, (k0_off364 v2192) a + S1x128.size a ≤ S262144x128.size a)
instance k0_chk177.dec : ∀ (v2192 : BitVec 32), Decidable (k0_chk177 v2192) := fun v2192 => decidable_of_iff' _ (Iff.of_eq (k0_chk177.eq_1 v2192))
theorem k0_off332_inb : ∀ (v2192 : BitVec 32) (k0_hw177 : k0_chk177 v2192), ∀ a, (k0_off332 v2192) a + S1x128.size a ≤ S262144x128.size a := fun v2192 k0_hw177 => k0_hw177.1
theorem k0_off364_inb : ∀ (v2192 : BitVec 32) (k0_hw177 : k0_chk177 v2192), ∀ a, (k0_off364 v2192) a + S1x128.size a ≤ S262144x128.size a := fun v2192 k0_hw177 => k0_hw177.2

def k0_off365 (v2193 : BitVec 32) : Fin 2 → Nat :=
  let c0_i32_1479 : BitVec 32 := 0#32
  ![v2193.toNat, 0]

def k0_chk178 (v2193 : BitVec 32) : Prop :=
  (∀ a, (k0_off333 v2193) a + S1x128.size a ≤ S262144x128.size a) ∧
  (∀ a, (k0_off365 v2193) a + S1x128.size a ≤ S262144x128.size a)
instance k0_chk178.dec : ∀ (v2193 : BitVec 32), Decidable (k0_chk178 v2193) := fun v2193 => decidable_of_iff' _ (Iff.of_eq (k0_chk178.eq_1 v2193))
theorem k0_off333_inb : ∀ (v2193 : BitVec 32) (k0_hw178 : k0_chk178 v2193), ∀ a, (k0_off333 v2193) a + S1x128.size a ≤ S262144x128.size a := fun v2193 k0_hw178 => k0_hw178.1
theorem k0_off365_inb : ∀ (v2193 : BitVec 32) (k0_hw178 : k0_chk178 v2193), ∀ a, (k0_off365 v2193) a + S1x128.size a ≤ S262144x128.size a := fun v2193 k0_hw178 => k0_hw178.2

def k0_off366 (v2206 : BitVec 32) : Fin 2 → Nat :=
  let c0_i32_1483 : BitVec 32 := 0#32
  ![v2206.toNat, 0]

def k0_chk179 (v2206 : BitVec 32) : Prop :=
  (∀ a, (k0_off334 v2206) a + S1x128.size a ≤ S262144x128.size a) ∧
  (∀ a, (k0_off366 v2206) a + S1x128.size a ≤ S262144x128.size a)
instance k0_chk179.dec : ∀ (v2206 : BitVec 32), Decidable (k0_chk179 v2206) := fun v2206 => decidable_of_iff' _ (Iff.of_eq (k0_chk179.eq_1 v2206))
theorem k0_off334_inb : ∀ (v2206 : BitVec 32) (k0_hw179 : k0_chk179 v2206), ∀ a, (k0_off334 v2206) a + S1x128.size a ≤ S262144x128.size a := fun v2206 k0_hw179 => k0_hw179.1
theorem k0_off366_inb : ∀ (v2206 : BitVec 32) (k0_hw179 : k0_chk179 v2206), ∀ a, (k0_off366 v2206) a + S1x128.size a ≤ S262144x128.size a := fun v2206 k0_hw179 => k0_hw179.2

def k0_off367 (v2207 : BitVec 32) : Fin 2 → Nat :=
  let c0_i32_1487 : BitVec 32 := 0#32
  ![v2207.toNat, 0]

def k0_chk180 (v2207 : BitVec 32) : Prop :=
  (∀ a, (k0_off335 v2207) a + S1x128.size a ≤ S262144x128.size a) ∧
  (∀ a, (k0_off367 v2207) a + S1x128.size a ≤ S262144x128.size a)
instance k0_chk180.dec : ∀ (v2207 : BitVec 32), Decidable (k0_chk180 v2207) := fun v2207 => decidable_of_iff' _ (Iff.of_eq (k0_chk180.eq_1 v2207))
theorem k0_off335_inb : ∀ (v2207 : BitVec 32) (k0_hw180 : k0_chk180 v2207), ∀ a, (k0_off335 v2207) a + S1x128.size a ≤ S262144x128.size a := fun v2207 k0_hw180 => k0_hw180.1
theorem k0_off367_inb : ∀ (v2207 : BitVec 32) (k0_hw180 : k0_chk180 v2207), ∀ a, (k0_off367 v2207) a + S1x128.size a ≤ S262144x128.size a := fun v2207 k0_hw180 => k0_hw180.2

def k0_off368 (v2220 : BitVec 32) : Fin 2 → Nat :=
  let c0_i32_1491 : BitVec 32 := 0#32
  ![v2220.toNat, 0]

def k0_chk181 (v2220 : BitVec 32) : Prop :=
  (∀ a, (k0_off336 v2220) a + S1x128.size a ≤ S262144x128.size a) ∧
  (∀ a, (k0_off368 v2220) a + S1x128.size a ≤ S262144x128.size a)
instance k0_chk181.dec : ∀ (v2220 : BitVec 32), Decidable (k0_chk181 v2220) := fun v2220 => decidable_of_iff' _ (Iff.of_eq (k0_chk181.eq_1 v2220))
theorem k0_off336_inb : ∀ (v2220 : BitVec 32) (k0_hw181 : k0_chk181 v2220), ∀ a, (k0_off336 v2220) a + S1x128.size a ≤ S262144x128.size a := fun v2220 k0_hw181 => k0_hw181.1
theorem k0_off368_inb : ∀ (v2220 : BitVec 32) (k0_hw181 : k0_chk181 v2220), ∀ a, (k0_off368 v2220) a + S1x128.size a ≤ S262144x128.size a := fun v2220 k0_hw181 => k0_hw181.2

def k0_off369 (v2221 : BitVec 32) : Fin 2 → Nat :=
  let c0_i32_1495 : BitVec 32 := 0#32
  ![v2221.toNat, 0]

def k0_chk182 (v2221 : BitVec 32) : Prop :=
  (∀ a, (k0_off337 v2221) a + S1x128.size a ≤ S262144x128.size a) ∧
  (∀ a, (k0_off369 v2221) a + S1x128.size a ≤ S262144x128.size a)
instance k0_chk182.dec : ∀ (v2221 : BitVec 32), Decidable (k0_chk182 v2221) := fun v2221 => decidable_of_iff' _ (Iff.of_eq (k0_chk182.eq_1 v2221))
theorem k0_off337_inb : ∀ (v2221 : BitVec 32) (k0_hw182 : k0_chk182 v2221), ∀ a, (k0_off337 v2221) a + S1x128.size a ≤ S262144x128.size a := fun v2221 k0_hw182 => k0_hw182.1
theorem k0_off369_inb : ∀ (v2221 : BitVec 32) (k0_hw182 : k0_chk182 v2221), ∀ a, (k0_off369 v2221) a + S1x128.size a ≤ S262144x128.size a := fun v2221 k0_hw182 => k0_hw182.2

def k0_off370 (v2234 : BitVec 32) : Fin 2 → Nat :=
  let c0_i32_1499 : BitVec 32 := 0#32
  ![v2234.toNat, 0]

def k0_chk183 (v2234 : BitVec 32) : Prop :=
  (∀ a, (k0_off338 v2234) a + S1x128.size a ≤ S262144x128.size a) ∧
  (∀ a, (k0_off370 v2234) a + S1x128.size a ≤ S262144x128.size a)
instance k0_chk183.dec : ∀ (v2234 : BitVec 32), Decidable (k0_chk183 v2234) := fun v2234 => decidable_of_iff' _ (Iff.of_eq (k0_chk183.eq_1 v2234))
theorem k0_off338_inb : ∀ (v2234 : BitVec 32) (k0_hw183 : k0_chk183 v2234), ∀ a, (k0_off338 v2234) a + S1x128.size a ≤ S262144x128.size a := fun v2234 k0_hw183 => k0_hw183.1
theorem k0_off370_inb : ∀ (v2234 : BitVec 32) (k0_hw183 : k0_chk183 v2234), ∀ a, (k0_off370 v2234) a + S1x128.size a ≤ S262144x128.size a := fun v2234 k0_hw183 => k0_hw183.2

def k0_off371 (v2235 : BitVec 32) : Fin 2 → Nat :=
  let c0_i32_1503 : BitVec 32 := 0#32
  ![v2235.toNat, 0]

def k0_chk184 (v2235 : BitVec 32) : Prop :=
  (∀ a, (k0_off339 v2235) a + S1x128.size a ≤ S262144x128.size a) ∧
  (∀ a, (k0_off371 v2235) a + S1x128.size a ≤ S262144x128.size a)
instance k0_chk184.dec : ∀ (v2235 : BitVec 32), Decidable (k0_chk184 v2235) := fun v2235 => decidable_of_iff' _ (Iff.of_eq (k0_chk184.eq_1 v2235))
theorem k0_off339_inb : ∀ (v2235 : BitVec 32) (k0_hw184 : k0_chk184 v2235), ∀ a, (k0_off339 v2235) a + S1x128.size a ≤ S262144x128.size a := fun v2235 k0_hw184 => k0_hw184.1
theorem k0_off371_inb : ∀ (v2235 : BitVec 32) (k0_hw184 : k0_chk184 v2235), ∀ a, (k0_off371 v2235) a + S1x128.size a ≤ S262144x128.size a := fun v2235 k0_hw184 => k0_hw184.2

def k0_off372 (v2248 : BitVec 32) : Fin 2 → Nat :=
  let c0_i32_1507 : BitVec 32 := 0#32
  ![v2248.toNat, 0]

def k0_chk185 (v2248 : BitVec 32) : Prop :=
  (∀ a, (k0_off340 v2248) a + S1x128.size a ≤ S262144x128.size a) ∧
  (∀ a, (k0_off372 v2248) a + S1x128.size a ≤ S262144x128.size a)
instance k0_chk185.dec : ∀ (v2248 : BitVec 32), Decidable (k0_chk185 v2248) := fun v2248 => decidable_of_iff' _ (Iff.of_eq (k0_chk185.eq_1 v2248))
theorem k0_off340_inb : ∀ (v2248 : BitVec 32) (k0_hw185 : k0_chk185 v2248), ∀ a, (k0_off340 v2248) a + S1x128.size a ≤ S262144x128.size a := fun v2248 k0_hw185 => k0_hw185.1
theorem k0_off372_inb : ∀ (v2248 : BitVec 32) (k0_hw185 : k0_chk185 v2248), ∀ a, (k0_off372 v2248) a + S1x128.size a ≤ S262144x128.size a := fun v2248 k0_hw185 => k0_hw185.2

def k0_off373 (v2249 : BitVec 32) : Fin 2 → Nat :=
  let c0_i32_1511 : BitVec 32 := 0#32
  ![v2249.toNat, 0]

def k0_chk186 (v2249 : BitVec 32) : Prop :=
  (∀ a, (k0_off341 v2249) a + S1x128.size a ≤ S262144x128.size a) ∧
  (∀ a, (k0_off373 v2249) a + S1x128.size a ≤ S262144x128.size a)
instance k0_chk186.dec : ∀ (v2249 : BitVec 32), Decidable (k0_chk186 v2249) := fun v2249 => decidable_of_iff' _ (Iff.of_eq (k0_chk186.eq_1 v2249))
theorem k0_off341_inb : ∀ (v2249 : BitVec 32) (k0_hw186 : k0_chk186 v2249), ∀ a, (k0_off341 v2249) a + S1x128.size a ≤ S262144x128.size a := fun v2249 k0_hw186 => k0_hw186.1
theorem k0_off373_inb : ∀ (v2249 : BitVec 32) (k0_hw186 : k0_chk186 v2249), ∀ a, (k0_off373 v2249) a + S1x128.size a ≤ S262144x128.size a := fun v2249 k0_hw186 => k0_hw186.2

def k0_off374 (v2262 : BitVec 32) : Fin 2 → Nat :=
  let c0_i32_1515 : BitVec 32 := 0#32
  ![v2262.toNat, 0]

def k0_chk187 (v2262 : BitVec 32) : Prop :=
  (∀ a, (k0_off342 v2262) a + S1x128.size a ≤ S262144x128.size a) ∧
  (∀ a, (k0_off374 v2262) a + S1x128.size a ≤ S262144x128.size a)
instance k0_chk187.dec : ∀ (v2262 : BitVec 32), Decidable (k0_chk187 v2262) := fun v2262 => decidable_of_iff' _ (Iff.of_eq (k0_chk187.eq_1 v2262))
theorem k0_off342_inb : ∀ (v2262 : BitVec 32) (k0_hw187 : k0_chk187 v2262), ∀ a, (k0_off342 v2262) a + S1x128.size a ≤ S262144x128.size a := fun v2262 k0_hw187 => k0_hw187.1
theorem k0_off374_inb : ∀ (v2262 : BitVec 32) (k0_hw187 : k0_chk187 v2262), ∀ a, (k0_off374 v2262) a + S1x128.size a ≤ S262144x128.size a := fun v2262 k0_hw187 => k0_hw187.2

def k0_off375 (v2263 : BitVec 32) : Fin 2 → Nat :=
  let c0_i32_1519 : BitVec 32 := 0#32
  ![v2263.toNat, 0]

def k0_chk188 (v2263 : BitVec 32) : Prop :=
  (∀ a, (k0_off343 v2263) a + S1x128.size a ≤ S262144x128.size a) ∧
  (∀ a, (k0_off375 v2263) a + S1x128.size a ≤ S262144x128.size a)
instance k0_chk188.dec : ∀ (v2263 : BitVec 32), Decidable (k0_chk188 v2263) := fun v2263 => decidable_of_iff' _ (Iff.of_eq (k0_chk188.eq_1 v2263))
theorem k0_off343_inb : ∀ (v2263 : BitVec 32) (k0_hw188 : k0_chk188 v2263), ∀ a, (k0_off343 v2263) a + S1x128.size a ≤ S262144x128.size a := fun v2263 k0_hw188 => k0_hw188.1
theorem k0_off375_inb : ∀ (v2263 : BitVec 32) (k0_hw188 : k0_chk188 v2263), ∀ a, (k0_off375 v2263) a + S1x128.size a ≤ S262144x128.size a := fun v2263 k0_hw188 => k0_hw188.2

def k0_off376 (v2276 : BitVec 32) : Fin 2 → Nat :=
  let c0_i32_1523 : BitVec 32 := 0#32
  ![v2276.toNat, 0]

def k0_chk189 (v2276 : BitVec 32) : Prop :=
  (∀ a, (k0_off344 v2276) a + S1x128.size a ≤ S262144x128.size a) ∧
  (∀ a, (k0_off376 v2276) a + S1x128.size a ≤ S262144x128.size a)
instance k0_chk189.dec : ∀ (v2276 : BitVec 32), Decidable (k0_chk189 v2276) := fun v2276 => decidable_of_iff' _ (Iff.of_eq (k0_chk189.eq_1 v2276))
theorem k0_off344_inb : ∀ (v2276 : BitVec 32) (k0_hw189 : k0_chk189 v2276), ∀ a, (k0_off344 v2276) a + S1x128.size a ≤ S262144x128.size a := fun v2276 k0_hw189 => k0_hw189.1
theorem k0_off376_inb : ∀ (v2276 : BitVec 32) (k0_hw189 : k0_chk189 v2276), ∀ a, (k0_off376 v2276) a + S1x128.size a ≤ S262144x128.size a := fun v2276 k0_hw189 => k0_hw189.2

def k0_off377 (v2277 : BitVec 32) : Fin 2 → Nat :=
  let c0_i32_1527 : BitVec 32 := 0#32
  ![v2277.toNat, 0]

def k0_chk190 (v2277 : BitVec 32) : Prop :=
  (∀ a, (k0_off345 v2277) a + S1x128.size a ≤ S262144x128.size a) ∧
  (∀ a, (k0_off377 v2277) a + S1x128.size a ≤ S262144x128.size a)
instance k0_chk190.dec : ∀ (v2277 : BitVec 32), Decidable (k0_chk190 v2277) := fun v2277 => decidable_of_iff' _ (Iff.of_eq (k0_chk190.eq_1 v2277))
theorem k0_off345_inb : ∀ (v2277 : BitVec 32) (k0_hw190 : k0_chk190 v2277), ∀ a, (k0_off345 v2277) a + S1x128.size a ≤ S262144x128.size a := fun v2277 k0_hw190 => k0_hw190.1
theorem k0_off377_inb : ∀ (v2277 : BitVec 32) (k0_hw190 : k0_chk190 v2277), ∀ a, (k0_off377 v2277) a + S1x128.size a ≤ S262144x128.size a := fun v2277 k0_hw190 => k0_hw190.2

def k0_off378 (v2290 : BitVec 32) : Fin 2 → Nat :=
  let c0_i32_1531 : BitVec 32 := 0#32
  ![v2290.toNat, 0]

def k0_chk191 (v2290 : BitVec 32) : Prop :=
  (∀ a, (k0_off346 v2290) a + S1x128.size a ≤ S262144x128.size a) ∧
  (∀ a, (k0_off378 v2290) a + S1x128.size a ≤ S262144x128.size a)
instance k0_chk191.dec : ∀ (v2290 : BitVec 32), Decidable (k0_chk191 v2290) := fun v2290 => decidable_of_iff' _ (Iff.of_eq (k0_chk191.eq_1 v2290))
theorem k0_off346_inb : ∀ (v2290 : BitVec 32) (k0_hw191 : k0_chk191 v2290), ∀ a, (k0_off346 v2290) a + S1x128.size a ≤ S262144x128.size a := fun v2290 k0_hw191 => k0_hw191.1
theorem k0_off378_inb : ∀ (v2290 : BitVec 32) (k0_hw191 : k0_chk191 v2290), ∀ a, (k0_off378 v2290) a + S1x128.size a ≤ S262144x128.size a := fun v2290 k0_hw191 => k0_hw191.2

def k0_off379 (v2496 : BitVec 32) : Fin 2 → Nat :=
  let c0_i32_1539 : BitVec 32 := 0#32
  ![v2496.toNat, 0]

def k0_off380 (v2497 : BitVec 32) : Fin 2 → Nat :=
  let c0_i32_1543 : BitVec 32 := 0#32
  ![v2497.toNat, 0]

def k0_off381 (v2510 : BitVec 32) : Fin 2 → Nat :=
  let c0_i32_1547 : BitVec 32 := 0#32
  ![v2510.toNat, 0]

def k0_off382 (v2511 : BitVec 32) : Fin 2 → Nat :=
  let c0_i32_1551 : BitVec 32 := 0#32
  ![v2511.toNat, 0]

def k0_off383 (v2524 : BitVec 32) : Fin 2 → Nat :=
  let c0_i32_1555 : BitVec 32 := 0#32
  ![v2524.toNat, 0]

def k0_off384 (v2525 : BitVec 32) : Fin 2 → Nat :=
  let c0_i32_1559 : BitVec 32 := 0#32
  ![v2525.toNat, 0]

def k0_off385 (v2538 : BitVec 32) : Fin 2 → Nat :=
  let c0_i32_1563 : BitVec 32 := 0#32
  ![v2538.toNat, 0]

def k0_off386 (v2539 : BitVec 32) : Fin 2 → Nat :=
  let c0_i32_1567 : BitVec 32 := 0#32
  ![v2539.toNat, 0]

def k0_off387 (v2552 : BitVec 32) : Fin 2 → Nat :=
  let c0_i32_1571 : BitVec 32 := 0#32
  ![v2552.toNat, 0]

def k0_off388 (v2553 : BitVec 32) : Fin 2 → Nat :=
  let c0_i32_1575 : BitVec 32 := 0#32
  ![v2553.toNat, 0]

def k0_off389 (v2566 : BitVec 32) : Fin 2 → Nat :=
  let c0_i32_1579 : BitVec 32 := 0#32
  ![v2566.toNat, 0]

def k0_off390 (v2567 : BitVec 32) : Fin 2 → Nat :=
  let c0_i32_1583 : BitVec 32 := 0#32
  ![v2567.toNat, 0]

def k0_off391 (v2580 : BitVec 32) : Fin 2 → Nat :=
  let c0_i32_1587 : BitVec 32 := 0#32
  ![v2580.toNat, 0]

def k0_off392 (v2581 : BitVec 32) : Fin 2 → Nat :=
  let c0_i32_1591 : BitVec 32 := 0#32
  ![v2581.toNat, 0]

def k0_off393 (v2594 : BitVec 32) : Fin 2 → Nat :=
  let c0_i32_1595 : BitVec 32 := 0#32
  ![v2594.toNat, 0]

def k0_off394 (v2595 : BitVec 32) : Fin 2 → Nat :=
  let c0_i32_1599 : BitVec 32 := 0#32
  ![v2595.toNat, 0]

def k0_off395 (v2608 : BitVec 32) : Fin 2 → Nat :=
  let c0_i32_1603 : BitVec 32 := 0#32
  ![v2608.toNat, 0]

def k0_off396 (v2609 : BitVec 32) : Fin 2 → Nat :=
  let c0_i32_1607 : BitVec 32 := 0#32
  ![v2609.toNat, 0]

def k0_off397 (v2622 : BitVec 32) : Fin 2 → Nat :=
  let c0_i32_1611 : BitVec 32 := 0#32
  ![v2622.toNat, 0]

def k0_off398 (v2623 : BitVec 32) : Fin 2 → Nat :=
  let c0_i32_1615 : BitVec 32 := 0#32
  ![v2623.toNat, 0]

def k0_off399 (v2636 : BitVec 32) : Fin 2 → Nat :=
  let c0_i32_1619 : BitVec 32 := 0#32
  ![v2636.toNat, 0]

def k0_off400 (v2637 : BitVec 32) : Fin 2 → Nat :=
  let c0_i32_1623 : BitVec 32 := 0#32
  ![v2637.toNat, 0]

def k0_off401 (v2650 : BitVec 32) : Fin 2 → Nat :=
  let c0_i32_1627 : BitVec 32 := 0#32
  ![v2650.toNat, 0]

def k0_off402 (v2651 : BitVec 32) : Fin 2 → Nat :=
  let c0_i32_1631 : BitVec 32 := 0#32
  ![v2651.toNat, 0]

def k0_off403 (v2664 : BitVec 32) : Fin 2 → Nat :=
  let c0_i32_1635 : BitVec 32 := 0#32
  ![v2664.toNat, 0]

def k0_off404 (v2665 : BitVec 32) : Fin 2 → Nat :=
  let c0_i32_1639 : BitVec 32 := 0#32
  ![v2665.toNat, 0]

def k0_off405 (v2678 : BitVec 32) : Fin 2 → Nat :=
  let c0_i32_1643 : BitVec 32 := 0#32
  ![v2678.toNat, 0]

def k0_off406 (v2679 : BitVec 32) : Fin 2 → Nat :=
  let c0_i32_1647 : BitVec 32 := 0#32
  ![v2679.toNat, 0]

def k0_off407 (v2692 : BitVec 32) : Fin 2 → Nat :=
  let c0_i32_1651 : BitVec 32 := 0#32
  ![v2692.toNat, 0]

def k0_off408 (v2693 : BitVec 32) : Fin 2 → Nat :=
  let c0_i32_1655 : BitVec 32 := 0#32
  ![v2693.toNat, 0]

def k0_off409 (v2706 : BitVec 32) : Fin 2 → Nat :=
  let c0_i32_1659 : BitVec 32 := 0#32
  ![v2706.toNat, 0]

def k0_off410 (v2707 : BitVec 32) : Fin 2 → Nat :=
  let c0_i32_1663 : BitVec 32 := 0#32
  ![v2707.toNat, 0]

def k0_chk224 (v2707 : BitVec 32) : Prop :=
  (∀ a, (k0_off410 v2707) a + S1x128.size a ≤ S262144x128.size a)
instance k0_chk224.dec : ∀ (v2707 : BitVec 32), Decidable (k0_chk224 v2707) := fun v2707 => decidable_of_iff' _ (Iff.of_eq (k0_chk224.eq_1 v2707))
theorem k0_off410_inb : ∀ (v2707 : BitVec 32) (k0_hw224 : k0_chk224 v2707), ∀ a, (k0_off410 v2707) a + S1x128.size a ≤ S262144x128.size a := fun v2707 k0_hw224 => k0_hw224

def k0_off411 (v2496 : BitVec 32) : Fin 2 → Nat :=
  let c0_i32_1667 : BitVec 32 := 0#32
  ![v2496.toNat, 0]

def k0_chk193 (v2496 : BitVec 32) : Prop :=
  (∀ a, (k0_off379 v2496) a + S1x128.size a ≤ S262144x128.size a) ∧
  (∀ a, (k0_off411 v2496) a + S1x128.size a ≤ S262144x128.size a)
instance k0_chk193.dec : ∀ (v2496 : BitVec 32), Decidable (k0_chk193 v2496) := fun v2496 => decidable_of_iff' _ (Iff.of_eq (k0_chk193.eq_1 v2496))
theorem k0_off379_inb : ∀ (v2496 : BitVec 32) (k0_hw193 : k0_chk193 v2496), ∀ a, (k0_off379 v2496) a + S1x128.size a ≤ S262144x128.size a := fun v2496 k0_hw193 => k0_hw193.1
theorem k0_off411_inb : ∀ (v2496 : BitVec 32) (k0_hw193 : k0_chk193 v2496), ∀ a, (k0_off411 v2496) a + S1x128.size a ≤ S262144x128.size a := fun v2496 k0_hw193 => k0_hw193.2

def k0_off412 (v2497 : BitVec 32) : Fin 2 → Nat :=
  let c0_i32_1671 : BitVec 32 := 0#32
  ![v2497.toNat, 0]

def k0_chk194 (v2497 : BitVec 32) : Prop :=
  (∀ a, (k0_off380 v2497) a + S1x128.size a ≤ S262144x128.size a) ∧
  (∀ a, (k0_off412 v2497) a + S1x128.size a ≤ S262144x128.size a)
instance k0_chk194.dec : ∀ (v2497 : BitVec 32), Decidable (k0_chk194 v2497) := fun v2497 => decidable_of_iff' _ (Iff.of_eq (k0_chk194.eq_1 v2497))
theorem k0_off380_inb : ∀ (v2497 : BitVec 32) (k0_hw194 : k0_chk194 v2497), ∀ a, (k0_off380 v2497) a + S1x128.size a ≤ S262144x128.size a := fun v2497 k0_hw194 => k0_hw194.1
theorem k0_off412_inb : ∀ (v2497 : BitVec 32) (k0_hw194 : k0_chk194 v2497), ∀ a, (k0_off412 v2497) a + S1x128.size a ≤ S262144x128.size a := fun v2497 k0_hw194 => k0_hw194.2

def k0_off413 (v2510 : BitVec 32) : Fin 2 → Nat :=
  let c0_i32_1675 : BitVec 32 := 0#32
  ![v2510.toNat, 0]

def k0_chk195 (v2510 : BitVec 32) : Prop :=
  (∀ a, (k0_off381 v2510) a + S1x128.size a ≤ S262144x128.size a) ∧
  (∀ a, (k0_off413 v2510) a + S1x128.size a ≤ S262144x128.size a)
instance k0_chk195.dec : ∀ (v2510 : BitVec 32), Decidable (k0_chk195 v2510) := fun v2510 => decidable_of_iff' _ (Iff.of_eq (k0_chk195.eq_1 v2510))
theorem k0_off381_inb : ∀ (v2510 : BitVec 32) (k0_hw195 : k0_chk195 v2510), ∀ a, (k0_off381 v2510) a + S1x128.size a ≤ S262144x128.size a := fun v2510 k0_hw195 => k0_hw195.1
theorem k0_off413_inb : ∀ (v2510 : BitVec 32) (k0_hw195 : k0_chk195 v2510), ∀ a, (k0_off413 v2510) a + S1x128.size a ≤ S262144x128.size a := fun v2510 k0_hw195 => k0_hw195.2

def k0_off414 (v2511 : BitVec 32) : Fin 2 → Nat :=
  let c0_i32_1679 : BitVec 32 := 0#32
  ![v2511.toNat, 0]

def k0_chk196 (v2511 : BitVec 32) : Prop :=
  (∀ a, (k0_off382 v2511) a + S1x128.size a ≤ S262144x128.size a) ∧
  (∀ a, (k0_off414 v2511) a + S1x128.size a ≤ S262144x128.size a)
instance k0_chk196.dec : ∀ (v2511 : BitVec 32), Decidable (k0_chk196 v2511) := fun v2511 => decidable_of_iff' _ (Iff.of_eq (k0_chk196.eq_1 v2511))
theorem k0_off382_inb : ∀ (v2511 : BitVec 32) (k0_hw196 : k0_chk196 v2511), ∀ a, (k0_off382 v2511) a + S1x128.size a ≤ S262144x128.size a := fun v2511 k0_hw196 => k0_hw196.1
theorem k0_off414_inb : ∀ (v2511 : BitVec 32) (k0_hw196 : k0_chk196 v2511), ∀ a, (k0_off414 v2511) a + S1x128.size a ≤ S262144x128.size a := fun v2511 k0_hw196 => k0_hw196.2

def k0_off415 (v2524 : BitVec 32) : Fin 2 → Nat :=
  let c0_i32_1683 : BitVec 32 := 0#32
  ![v2524.toNat, 0]

def k0_chk197 (v2524 : BitVec 32) : Prop :=
  (∀ a, (k0_off383 v2524) a + S1x128.size a ≤ S262144x128.size a) ∧
  (∀ a, (k0_off415 v2524) a + S1x128.size a ≤ S262144x128.size a)
instance k0_chk197.dec : ∀ (v2524 : BitVec 32), Decidable (k0_chk197 v2524) := fun v2524 => decidable_of_iff' _ (Iff.of_eq (k0_chk197.eq_1 v2524))
theorem k0_off383_inb : ∀ (v2524 : BitVec 32) (k0_hw197 : k0_chk197 v2524), ∀ a, (k0_off383 v2524) a + S1x128.size a ≤ S262144x128.size a := fun v2524 k0_hw197 => k0_hw197.1
theorem k0_off415_inb : ∀ (v2524 : BitVec 32) (k0_hw197 : k0_chk197 v2524), ∀ a, (k0_off415 v2524) a + S1x128.size a ≤ S262144x128.size a := fun v2524 k0_hw197 => k0_hw197.2

def k0_off416 (v2525 : BitVec 32) : Fin 2 → Nat :=
  let c0_i32_1687 : BitVec 32 := 0#32
  ![v2525.toNat, 0]

def k0_chk198 (v2525 : BitVec 32) : Prop :=
  (∀ a, (k0_off384 v2525) a + S1x128.size a ≤ S262144x128.size a) ∧
  (∀ a, (k0_off416 v2525) a + S1x128.size a ≤ S262144x128.size a)
instance k0_chk198.dec : ∀ (v2525 : BitVec 32), Decidable (k0_chk198 v2525) := fun v2525 => decidable_of_iff' _ (Iff.of_eq (k0_chk198.eq_1 v2525))
theorem k0_off384_inb : ∀ (v2525 : BitVec 32) (k0_hw198 : k0_chk198 v2525), ∀ a, (k0_off384 v2525) a + S1x128.size a ≤ S262144x128.size a := fun v2525 k0_hw198 => k0_hw198.1
theorem k0_off416_inb : ∀ (v2525 : BitVec 32) (k0_hw198 : k0_chk198 v2525), ∀ a, (k0_off416 v2525) a + S1x128.size a ≤ S262144x128.size a := fun v2525 k0_hw198 => k0_hw198.2

def k0_off417 (v2538 : BitVec 32) : Fin 2 → Nat :=
  let c0_i32_1691 : BitVec 32 := 0#32
  ![v2538.toNat, 0]

def k0_chk199 (v2538 : BitVec 32) : Prop :=
  (∀ a, (k0_off385 v2538) a + S1x128.size a ≤ S262144x128.size a) ∧
  (∀ a, (k0_off417 v2538) a + S1x128.size a ≤ S262144x128.size a)
instance k0_chk199.dec : ∀ (v2538 : BitVec 32), Decidable (k0_chk199 v2538) := fun v2538 => decidable_of_iff' _ (Iff.of_eq (k0_chk199.eq_1 v2538))
theorem k0_off385_inb : ∀ (v2538 : BitVec 32) (k0_hw199 : k0_chk199 v2538), ∀ a, (k0_off385 v2538) a + S1x128.size a ≤ S262144x128.size a := fun v2538 k0_hw199 => k0_hw199.1
theorem k0_off417_inb : ∀ (v2538 : BitVec 32) (k0_hw199 : k0_chk199 v2538), ∀ a, (k0_off417 v2538) a + S1x128.size a ≤ S262144x128.size a := fun v2538 k0_hw199 => k0_hw199.2

def k0_off418 (v2539 : BitVec 32) : Fin 2 → Nat :=
  let c0_i32_1695 : BitVec 32 := 0#32
  ![v2539.toNat, 0]

def k0_chk200 (v2539 : BitVec 32) : Prop :=
  (∀ a, (k0_off386 v2539) a + S1x128.size a ≤ S262144x128.size a) ∧
  (∀ a, (k0_off418 v2539) a + S1x128.size a ≤ S262144x128.size a)
instance k0_chk200.dec : ∀ (v2539 : BitVec 32), Decidable (k0_chk200 v2539) := fun v2539 => decidable_of_iff' _ (Iff.of_eq (k0_chk200.eq_1 v2539))
theorem k0_off386_inb : ∀ (v2539 : BitVec 32) (k0_hw200 : k0_chk200 v2539), ∀ a, (k0_off386 v2539) a + S1x128.size a ≤ S262144x128.size a := fun v2539 k0_hw200 => k0_hw200.1
theorem k0_off418_inb : ∀ (v2539 : BitVec 32) (k0_hw200 : k0_chk200 v2539), ∀ a, (k0_off418 v2539) a + S1x128.size a ≤ S262144x128.size a := fun v2539 k0_hw200 => k0_hw200.2

def k0_off419 (v2552 : BitVec 32) : Fin 2 → Nat :=
  let c0_i32_1699 : BitVec 32 := 0#32
  ![v2552.toNat, 0]

def k0_chk201 (v2552 : BitVec 32) : Prop :=
  (∀ a, (k0_off387 v2552) a + S1x128.size a ≤ S262144x128.size a) ∧
  (∀ a, (k0_off419 v2552) a + S1x128.size a ≤ S262144x128.size a)
instance k0_chk201.dec : ∀ (v2552 : BitVec 32), Decidable (k0_chk201 v2552) := fun v2552 => decidable_of_iff' _ (Iff.of_eq (k0_chk201.eq_1 v2552))
theorem k0_off387_inb : ∀ (v2552 : BitVec 32) (k0_hw201 : k0_chk201 v2552), ∀ a, (k0_off387 v2552) a + S1x128.size a ≤ S262144x128.size a := fun v2552 k0_hw201 => k0_hw201.1
theorem k0_off419_inb : ∀ (v2552 : BitVec 32) (k0_hw201 : k0_chk201 v2552), ∀ a, (k0_off419 v2552) a + S1x128.size a ≤ S262144x128.size a := fun v2552 k0_hw201 => k0_hw201.2

def k0_off420 (v2553 : BitVec 32) : Fin 2 → Nat :=
  let c0_i32_1703 : BitVec 32 := 0#32
  ![v2553.toNat, 0]

def k0_chk202 (v2553 : BitVec 32) : Prop :=
  (∀ a, (k0_off388 v2553) a + S1x128.size a ≤ S262144x128.size a) ∧
  (∀ a, (k0_off420 v2553) a + S1x128.size a ≤ S262144x128.size a)
instance k0_chk202.dec : ∀ (v2553 : BitVec 32), Decidable (k0_chk202 v2553) := fun v2553 => decidable_of_iff' _ (Iff.of_eq (k0_chk202.eq_1 v2553))
theorem k0_off388_inb : ∀ (v2553 : BitVec 32) (k0_hw202 : k0_chk202 v2553), ∀ a, (k0_off388 v2553) a + S1x128.size a ≤ S262144x128.size a := fun v2553 k0_hw202 => k0_hw202.1
theorem k0_off420_inb : ∀ (v2553 : BitVec 32) (k0_hw202 : k0_chk202 v2553), ∀ a, (k0_off420 v2553) a + S1x128.size a ≤ S262144x128.size a := fun v2553 k0_hw202 => k0_hw202.2

def k0_off421 (v2566 : BitVec 32) : Fin 2 → Nat :=
  let c0_i32_1707 : BitVec 32 := 0#32
  ![v2566.toNat, 0]

def k0_chk203 (v2566 : BitVec 32) : Prop :=
  (∀ a, (k0_off389 v2566) a + S1x128.size a ≤ S262144x128.size a) ∧
  (∀ a, (k0_off421 v2566) a + S1x128.size a ≤ S262144x128.size a)
instance k0_chk203.dec : ∀ (v2566 : BitVec 32), Decidable (k0_chk203 v2566) := fun v2566 => decidable_of_iff' _ (Iff.of_eq (k0_chk203.eq_1 v2566))
theorem k0_off389_inb : ∀ (v2566 : BitVec 32) (k0_hw203 : k0_chk203 v2566), ∀ a, (k0_off389 v2566) a + S1x128.size a ≤ S262144x128.size a := fun v2566 k0_hw203 => k0_hw203.1
theorem k0_off421_inb : ∀ (v2566 : BitVec 32) (k0_hw203 : k0_chk203 v2566), ∀ a, (k0_off421 v2566) a + S1x128.size a ≤ S262144x128.size a := fun v2566 k0_hw203 => k0_hw203.2

def k0_off422 (v2567 : BitVec 32) : Fin 2 → Nat :=
  let c0_i32_1711 : BitVec 32 := 0#32
  ![v2567.toNat, 0]

def k0_chk204 (v2567 : BitVec 32) : Prop :=
  (∀ a, (k0_off390 v2567) a + S1x128.size a ≤ S262144x128.size a) ∧
  (∀ a, (k0_off422 v2567) a + S1x128.size a ≤ S262144x128.size a)
instance k0_chk204.dec : ∀ (v2567 : BitVec 32), Decidable (k0_chk204 v2567) := fun v2567 => decidable_of_iff' _ (Iff.of_eq (k0_chk204.eq_1 v2567))
theorem k0_off390_inb : ∀ (v2567 : BitVec 32) (k0_hw204 : k0_chk204 v2567), ∀ a, (k0_off390 v2567) a + S1x128.size a ≤ S262144x128.size a := fun v2567 k0_hw204 => k0_hw204.1
theorem k0_off422_inb : ∀ (v2567 : BitVec 32) (k0_hw204 : k0_chk204 v2567), ∀ a, (k0_off422 v2567) a + S1x128.size a ≤ S262144x128.size a := fun v2567 k0_hw204 => k0_hw204.2

def k0_off423 (v2580 : BitVec 32) : Fin 2 → Nat :=
  let c0_i32_1715 : BitVec 32 := 0#32
  ![v2580.toNat, 0]

def k0_chk205 (v2580 : BitVec 32) : Prop :=
  (∀ a, (k0_off391 v2580) a + S1x128.size a ≤ S262144x128.size a) ∧
  (∀ a, (k0_off423 v2580) a + S1x128.size a ≤ S262144x128.size a)
instance k0_chk205.dec : ∀ (v2580 : BitVec 32), Decidable (k0_chk205 v2580) := fun v2580 => decidable_of_iff' _ (Iff.of_eq (k0_chk205.eq_1 v2580))
theorem k0_off391_inb : ∀ (v2580 : BitVec 32) (k0_hw205 : k0_chk205 v2580), ∀ a, (k0_off391 v2580) a + S1x128.size a ≤ S262144x128.size a := fun v2580 k0_hw205 => k0_hw205.1
theorem k0_off423_inb : ∀ (v2580 : BitVec 32) (k0_hw205 : k0_chk205 v2580), ∀ a, (k0_off423 v2580) a + S1x128.size a ≤ S262144x128.size a := fun v2580 k0_hw205 => k0_hw205.2

def k0_off424 (v2581 : BitVec 32) : Fin 2 → Nat :=
  let c0_i32_1719 : BitVec 32 := 0#32
  ![v2581.toNat, 0]

def k0_chk206 (v2581 : BitVec 32) : Prop :=
  (∀ a, (k0_off392 v2581) a + S1x128.size a ≤ S262144x128.size a) ∧
  (∀ a, (k0_off424 v2581) a + S1x128.size a ≤ S262144x128.size a)
instance k0_chk206.dec : ∀ (v2581 : BitVec 32), Decidable (k0_chk206 v2581) := fun v2581 => decidable_of_iff' _ (Iff.of_eq (k0_chk206.eq_1 v2581))
theorem k0_off392_inb : ∀ (v2581 : BitVec 32) (k0_hw206 : k0_chk206 v2581), ∀ a, (k0_off392 v2581) a + S1x128.size a ≤ S262144x128.size a := fun v2581 k0_hw206 => k0_hw206.1
theorem k0_off424_inb : ∀ (v2581 : BitVec 32) (k0_hw206 : k0_chk206 v2581), ∀ a, (k0_off424 v2581) a + S1x128.size a ≤ S262144x128.size a := fun v2581 k0_hw206 => k0_hw206.2

def k0_off425 (v2594 : BitVec 32) : Fin 2 → Nat :=
  let c0_i32_1723 : BitVec 32 := 0#32
  ![v2594.toNat, 0]

def k0_chk207 (v2594 : BitVec 32) : Prop :=
  (∀ a, (k0_off393 v2594) a + S1x128.size a ≤ S262144x128.size a) ∧
  (∀ a, (k0_off425 v2594) a + S1x128.size a ≤ S262144x128.size a)
instance k0_chk207.dec : ∀ (v2594 : BitVec 32), Decidable (k0_chk207 v2594) := fun v2594 => decidable_of_iff' _ (Iff.of_eq (k0_chk207.eq_1 v2594))
theorem k0_off393_inb : ∀ (v2594 : BitVec 32) (k0_hw207 : k0_chk207 v2594), ∀ a, (k0_off393 v2594) a + S1x128.size a ≤ S262144x128.size a := fun v2594 k0_hw207 => k0_hw207.1
theorem k0_off425_inb : ∀ (v2594 : BitVec 32) (k0_hw207 : k0_chk207 v2594), ∀ a, (k0_off425 v2594) a + S1x128.size a ≤ S262144x128.size a := fun v2594 k0_hw207 => k0_hw207.2

def k0_off426 (v2595 : BitVec 32) : Fin 2 → Nat :=
  let c0_i32_1727 : BitVec 32 := 0#32
  ![v2595.toNat, 0]

def k0_chk208 (v2595 : BitVec 32) : Prop :=
  (∀ a, (k0_off394 v2595) a + S1x128.size a ≤ S262144x128.size a) ∧
  (∀ a, (k0_off426 v2595) a + S1x128.size a ≤ S262144x128.size a)
instance k0_chk208.dec : ∀ (v2595 : BitVec 32), Decidable (k0_chk208 v2595) := fun v2595 => decidable_of_iff' _ (Iff.of_eq (k0_chk208.eq_1 v2595))
theorem k0_off394_inb : ∀ (v2595 : BitVec 32) (k0_hw208 : k0_chk208 v2595), ∀ a, (k0_off394 v2595) a + S1x128.size a ≤ S262144x128.size a := fun v2595 k0_hw208 => k0_hw208.1
theorem k0_off426_inb : ∀ (v2595 : BitVec 32) (k0_hw208 : k0_chk208 v2595), ∀ a, (k0_off426 v2595) a + S1x128.size a ≤ S262144x128.size a := fun v2595 k0_hw208 => k0_hw208.2

def k0_off427 (v2608 : BitVec 32) : Fin 2 → Nat :=
  let c0_i32_1731 : BitVec 32 := 0#32
  ![v2608.toNat, 0]

def k0_chk209 (v2608 : BitVec 32) : Prop :=
  (∀ a, (k0_off395 v2608) a + S1x128.size a ≤ S262144x128.size a) ∧
  (∀ a, (k0_off427 v2608) a + S1x128.size a ≤ S262144x128.size a)
instance k0_chk209.dec : ∀ (v2608 : BitVec 32), Decidable (k0_chk209 v2608) := fun v2608 => decidable_of_iff' _ (Iff.of_eq (k0_chk209.eq_1 v2608))
theorem k0_off395_inb : ∀ (v2608 : BitVec 32) (k0_hw209 : k0_chk209 v2608), ∀ a, (k0_off395 v2608) a + S1x128.size a ≤ S262144x128.size a := fun v2608 k0_hw209 => k0_hw209.1
theorem k0_off427_inb : ∀ (v2608 : BitVec 32) (k0_hw209 : k0_chk209 v2608), ∀ a, (k0_off427 v2608) a + S1x128.size a ≤ S262144x128.size a := fun v2608 k0_hw209 => k0_hw209.2

def k0_off428 (v2609 : BitVec 32) : Fin 2 → Nat :=
  let c0_i32_1735 : BitVec 32 := 0#32
  ![v2609.toNat, 0]

def k0_chk210 (v2609 : BitVec 32) : Prop :=
  (∀ a, (k0_off396 v2609) a + S1x128.size a ≤ S262144x128.size a) ∧
  (∀ a, (k0_off428 v2609) a + S1x128.size a ≤ S262144x128.size a)
instance k0_chk210.dec : ∀ (v2609 : BitVec 32), Decidable (k0_chk210 v2609) := fun v2609 => decidable_of_iff' _ (Iff.of_eq (k0_chk210.eq_1 v2609))
theorem k0_off396_inb : ∀ (v2609 : BitVec 32) (k0_hw210 : k0_chk210 v2609), ∀ a, (k0_off396 v2609) a + S1x128.size a ≤ S262144x128.size a := fun v2609 k0_hw210 => k0_hw210.1
theorem k0_off428_inb : ∀ (v2609 : BitVec 32) (k0_hw210 : k0_chk210 v2609), ∀ a, (k0_off428 v2609) a + S1x128.size a ≤ S262144x128.size a := fun v2609 k0_hw210 => k0_hw210.2

def k0_off429 (v2622 : BitVec 32) : Fin 2 → Nat :=
  let c0_i32_1739 : BitVec 32 := 0#32
  ![v2622.toNat, 0]

def k0_chk211 (v2622 : BitVec 32) : Prop :=
  (∀ a, (k0_off397 v2622) a + S1x128.size a ≤ S262144x128.size a) ∧
  (∀ a, (k0_off429 v2622) a + S1x128.size a ≤ S262144x128.size a)
instance k0_chk211.dec : ∀ (v2622 : BitVec 32), Decidable (k0_chk211 v2622) := fun v2622 => decidable_of_iff' _ (Iff.of_eq (k0_chk211.eq_1 v2622))
theorem k0_off397_inb : ∀ (v2622 : BitVec 32) (k0_hw211 : k0_chk211 v2622), ∀ a, (k0_off397 v2622) a + S1x128.size a ≤ S262144x128.size a := fun v2622 k0_hw211 => k0_hw211.1
theorem k0_off429_inb : ∀ (v2622 : BitVec 32) (k0_hw211 : k0_chk211 v2622), ∀ a, (k0_off429 v2622) a + S1x128.size a ≤ S262144x128.size a := fun v2622 k0_hw211 => k0_hw211.2

def k0_off430 (v2623 : BitVec 32) : Fin 2 → Nat :=
  let c0_i32_1743 : BitVec 32 := 0#32
  ![v2623.toNat, 0]

def k0_chk212 (v2623 : BitVec 32) : Prop :=
  (∀ a, (k0_off398 v2623) a + S1x128.size a ≤ S262144x128.size a) ∧
  (∀ a, (k0_off430 v2623) a + S1x128.size a ≤ S262144x128.size a)
instance k0_chk212.dec : ∀ (v2623 : BitVec 32), Decidable (k0_chk212 v2623) := fun v2623 => decidable_of_iff' _ (Iff.of_eq (k0_chk212.eq_1 v2623))
theorem k0_off398_inb : ∀ (v2623 : BitVec 32) (k0_hw212 : k0_chk212 v2623), ∀ a, (k0_off398 v2623) a + S1x128.size a ≤ S262144x128.size a := fun v2623 k0_hw212 => k0_hw212.1
theorem k0_off430_inb : ∀ (v2623 : BitVec 32) (k0_hw212 : k0_chk212 v2623), ∀ a, (k0_off430 v2623) a + S1x128.size a ≤ S262144x128.size a := fun v2623 k0_hw212 => k0_hw212.2

def k0_off431 (v2636 : BitVec 32) : Fin 2 → Nat :=
  let c0_i32_1747 : BitVec 32 := 0#32
  ![v2636.toNat, 0]

def k0_chk213 (v2636 : BitVec 32) : Prop :=
  (∀ a, (k0_off399 v2636) a + S1x128.size a ≤ S262144x128.size a) ∧
  (∀ a, (k0_off431 v2636) a + S1x128.size a ≤ S262144x128.size a)
instance k0_chk213.dec : ∀ (v2636 : BitVec 32), Decidable (k0_chk213 v2636) := fun v2636 => decidable_of_iff' _ (Iff.of_eq (k0_chk213.eq_1 v2636))
theorem k0_off399_inb : ∀ (v2636 : BitVec 32) (k0_hw213 : k0_chk213 v2636), ∀ a, (k0_off399 v2636) a + S1x128.size a ≤ S262144x128.size a := fun v2636 k0_hw213 => k0_hw213.1
theorem k0_off431_inb : ∀ (v2636 : BitVec 32) (k0_hw213 : k0_chk213 v2636), ∀ a, (k0_off431 v2636) a + S1x128.size a ≤ S262144x128.size a := fun v2636 k0_hw213 => k0_hw213.2

def k0_off432 (v2637 : BitVec 32) : Fin 2 → Nat :=
  let c0_i32_1751 : BitVec 32 := 0#32
  ![v2637.toNat, 0]

def k0_chk214 (v2637 : BitVec 32) : Prop :=
  (∀ a, (k0_off400 v2637) a + S1x128.size a ≤ S262144x128.size a) ∧
  (∀ a, (k0_off432 v2637) a + S1x128.size a ≤ S262144x128.size a)
instance k0_chk214.dec : ∀ (v2637 : BitVec 32), Decidable (k0_chk214 v2637) := fun v2637 => decidable_of_iff' _ (Iff.of_eq (k0_chk214.eq_1 v2637))
theorem k0_off400_inb : ∀ (v2637 : BitVec 32) (k0_hw214 : k0_chk214 v2637), ∀ a, (k0_off400 v2637) a + S1x128.size a ≤ S262144x128.size a := fun v2637 k0_hw214 => k0_hw214.1
theorem k0_off432_inb : ∀ (v2637 : BitVec 32) (k0_hw214 : k0_chk214 v2637), ∀ a, (k0_off432 v2637) a + S1x128.size a ≤ S262144x128.size a := fun v2637 k0_hw214 => k0_hw214.2

def k0_off433 (v2650 : BitVec 32) : Fin 2 → Nat :=
  let c0_i32_1755 : BitVec 32 := 0#32
  ![v2650.toNat, 0]

def k0_chk215 (v2650 : BitVec 32) : Prop :=
  (∀ a, (k0_off401 v2650) a + S1x128.size a ≤ S262144x128.size a) ∧
  (∀ a, (k0_off433 v2650) a + S1x128.size a ≤ S262144x128.size a)
instance k0_chk215.dec : ∀ (v2650 : BitVec 32), Decidable (k0_chk215 v2650) := fun v2650 => decidable_of_iff' _ (Iff.of_eq (k0_chk215.eq_1 v2650))
theorem k0_off401_inb : ∀ (v2650 : BitVec 32) (k0_hw215 : k0_chk215 v2650), ∀ a, (k0_off401 v2650) a + S1x128.size a ≤ S262144x128.size a := fun v2650 k0_hw215 => k0_hw215.1
theorem k0_off433_inb : ∀ (v2650 : BitVec 32) (k0_hw215 : k0_chk215 v2650), ∀ a, (k0_off433 v2650) a + S1x128.size a ≤ S262144x128.size a := fun v2650 k0_hw215 => k0_hw215.2

def k0_off434 (v2651 : BitVec 32) : Fin 2 → Nat :=
  let c0_i32_1759 : BitVec 32 := 0#32
  ![v2651.toNat, 0]

def k0_chk216 (v2651 : BitVec 32) : Prop :=
  (∀ a, (k0_off402 v2651) a + S1x128.size a ≤ S262144x128.size a) ∧
  (∀ a, (k0_off434 v2651) a + S1x128.size a ≤ S262144x128.size a)
instance k0_chk216.dec : ∀ (v2651 : BitVec 32), Decidable (k0_chk216 v2651) := fun v2651 => decidable_of_iff' _ (Iff.of_eq (k0_chk216.eq_1 v2651))
theorem k0_off402_inb : ∀ (v2651 : BitVec 32) (k0_hw216 : k0_chk216 v2651), ∀ a, (k0_off402 v2651) a + S1x128.size a ≤ S262144x128.size a := fun v2651 k0_hw216 => k0_hw216.1
theorem k0_off434_inb : ∀ (v2651 : BitVec 32) (k0_hw216 : k0_chk216 v2651), ∀ a, (k0_off434 v2651) a + S1x128.size a ≤ S262144x128.size a := fun v2651 k0_hw216 => k0_hw216.2

def k0_off435 (v2664 : BitVec 32) : Fin 2 → Nat :=
  let c0_i32_1763 : BitVec 32 := 0#32
  ![v2664.toNat, 0]

def k0_chk217 (v2664 : BitVec 32) : Prop :=
  (∀ a, (k0_off403 v2664) a + S1x128.size a ≤ S262144x128.size a) ∧
  (∀ a, (k0_off435 v2664) a + S1x128.size a ≤ S262144x128.size a)
instance k0_chk217.dec : ∀ (v2664 : BitVec 32), Decidable (k0_chk217 v2664) := fun v2664 => decidable_of_iff' _ (Iff.of_eq (k0_chk217.eq_1 v2664))
theorem k0_off403_inb : ∀ (v2664 : BitVec 32) (k0_hw217 : k0_chk217 v2664), ∀ a, (k0_off403 v2664) a + S1x128.size a ≤ S262144x128.size a := fun v2664 k0_hw217 => k0_hw217.1
theorem k0_off435_inb : ∀ (v2664 : BitVec 32) (k0_hw217 : k0_chk217 v2664), ∀ a, (k0_off435 v2664) a + S1x128.size a ≤ S262144x128.size a := fun v2664 k0_hw217 => k0_hw217.2

def k0_off436 (v2665 : BitVec 32) : Fin 2 → Nat :=
  let c0_i32_1767 : BitVec 32 := 0#32
  ![v2665.toNat, 0]

def k0_chk218 (v2665 : BitVec 32) : Prop :=
  (∀ a, (k0_off404 v2665) a + S1x128.size a ≤ S262144x128.size a) ∧
  (∀ a, (k0_off436 v2665) a + S1x128.size a ≤ S262144x128.size a)
instance k0_chk218.dec : ∀ (v2665 : BitVec 32), Decidable (k0_chk218 v2665) := fun v2665 => decidable_of_iff' _ (Iff.of_eq (k0_chk218.eq_1 v2665))
theorem k0_off404_inb : ∀ (v2665 : BitVec 32) (k0_hw218 : k0_chk218 v2665), ∀ a, (k0_off404 v2665) a + S1x128.size a ≤ S262144x128.size a := fun v2665 k0_hw218 => k0_hw218.1
theorem k0_off436_inb : ∀ (v2665 : BitVec 32) (k0_hw218 : k0_chk218 v2665), ∀ a, (k0_off436 v2665) a + S1x128.size a ≤ S262144x128.size a := fun v2665 k0_hw218 => k0_hw218.2

def k0_off437 (v2678 : BitVec 32) : Fin 2 → Nat :=
  let c0_i32_1771 : BitVec 32 := 0#32
  ![v2678.toNat, 0]

def k0_chk219 (v2678 : BitVec 32) : Prop :=
  (∀ a, (k0_off405 v2678) a + S1x128.size a ≤ S262144x128.size a) ∧
  (∀ a, (k0_off437 v2678) a + S1x128.size a ≤ S262144x128.size a)
instance k0_chk219.dec : ∀ (v2678 : BitVec 32), Decidable (k0_chk219 v2678) := fun v2678 => decidable_of_iff' _ (Iff.of_eq (k0_chk219.eq_1 v2678))
theorem k0_off405_inb : ∀ (v2678 : BitVec 32) (k0_hw219 : k0_chk219 v2678), ∀ a, (k0_off405 v2678) a + S1x128.size a ≤ S262144x128.size a := fun v2678 k0_hw219 => k0_hw219.1
theorem k0_off437_inb : ∀ (v2678 : BitVec 32) (k0_hw219 : k0_chk219 v2678), ∀ a, (k0_off437 v2678) a + S1x128.size a ≤ S262144x128.size a := fun v2678 k0_hw219 => k0_hw219.2

def k0_off438 (v2679 : BitVec 32) : Fin 2 → Nat :=
  let c0_i32_1775 : BitVec 32 := 0#32
  ![v2679.toNat, 0]

def k0_chk220 (v2679 : BitVec 32) : Prop :=
  (∀ a, (k0_off406 v2679) a + S1x128.size a ≤ S262144x128.size a) ∧
  (∀ a, (k0_off438 v2679) a + S1x128.size a ≤ S262144x128.size a)
instance k0_chk220.dec : ∀ (v2679 : BitVec 32), Decidable (k0_chk220 v2679) := fun v2679 => decidable_of_iff' _ (Iff.of_eq (k0_chk220.eq_1 v2679))
theorem k0_off406_inb : ∀ (v2679 : BitVec 32) (k0_hw220 : k0_chk220 v2679), ∀ a, (k0_off406 v2679) a + S1x128.size a ≤ S262144x128.size a := fun v2679 k0_hw220 => k0_hw220.1
theorem k0_off438_inb : ∀ (v2679 : BitVec 32) (k0_hw220 : k0_chk220 v2679), ∀ a, (k0_off438 v2679) a + S1x128.size a ≤ S262144x128.size a := fun v2679 k0_hw220 => k0_hw220.2

def k0_off439 (v2692 : BitVec 32) : Fin 2 → Nat :=
  let c0_i32_1779 : BitVec 32 := 0#32
  ![v2692.toNat, 0]

def k0_chk221 (v2692 : BitVec 32) : Prop :=
  (∀ a, (k0_off407 v2692) a + S1x128.size a ≤ S262144x128.size a) ∧
  (∀ a, (k0_off439 v2692) a + S1x128.size a ≤ S262144x128.size a)
instance k0_chk221.dec : ∀ (v2692 : BitVec 32), Decidable (k0_chk221 v2692) := fun v2692 => decidable_of_iff' _ (Iff.of_eq (k0_chk221.eq_1 v2692))
theorem k0_off407_inb : ∀ (v2692 : BitVec 32) (k0_hw221 : k0_chk221 v2692), ∀ a, (k0_off407 v2692) a + S1x128.size a ≤ S262144x128.size a := fun v2692 k0_hw221 => k0_hw221.1
theorem k0_off439_inb : ∀ (v2692 : BitVec 32) (k0_hw221 : k0_chk221 v2692), ∀ a, (k0_off439 v2692) a + S1x128.size a ≤ S262144x128.size a := fun v2692 k0_hw221 => k0_hw221.2

def k0_off440 (v2693 : BitVec 32) : Fin 2 → Nat :=
  let c0_i32_1783 : BitVec 32 := 0#32
  ![v2693.toNat, 0]

def k0_chk222 (v2693 : BitVec 32) : Prop :=
  (∀ a, (k0_off408 v2693) a + S1x128.size a ≤ S262144x128.size a) ∧
  (∀ a, (k0_off440 v2693) a + S1x128.size a ≤ S262144x128.size a)
instance k0_chk222.dec : ∀ (v2693 : BitVec 32), Decidable (k0_chk222 v2693) := fun v2693 => decidable_of_iff' _ (Iff.of_eq (k0_chk222.eq_1 v2693))
theorem k0_off408_inb : ∀ (v2693 : BitVec 32) (k0_hw222 : k0_chk222 v2693), ∀ a, (k0_off408 v2693) a + S1x128.size a ≤ S262144x128.size a := fun v2693 k0_hw222 => k0_hw222.1
theorem k0_off440_inb : ∀ (v2693 : BitVec 32) (k0_hw222 : k0_chk222 v2693), ∀ a, (k0_off440 v2693) a + S1x128.size a ≤ S262144x128.size a := fun v2693 k0_hw222 => k0_hw222.2

def k0_off441 (v2706 : BitVec 32) : Fin 2 → Nat :=
  let c0_i32_1787 : BitVec 32 := 0#32
  ![v2706.toNat, 0]

def k0_chk223 (v2706 : BitVec 32) : Prop :=
  (∀ a, (k0_off409 v2706) a + S1x128.size a ≤ S262144x128.size a) ∧
  (∀ a, (k0_off441 v2706) a + S1x128.size a ≤ S262144x128.size a)
instance k0_chk223.dec : ∀ (v2706 : BitVec 32), Decidable (k0_chk223 v2706) := fun v2706 => decidable_of_iff' _ (Iff.of_eq (k0_chk223.eq_1 v2706))
theorem k0_off409_inb : ∀ (v2706 : BitVec 32) (k0_hw223 : k0_chk223 v2706), ∀ a, (k0_off409 v2706) a + S1x128.size a ≤ S262144x128.size a := fun v2706 k0_hw223 => k0_hw223.1
theorem k0_off441_inb : ∀ (v2706 : BitVec 32) (k0_hw223 : k0_chk223 v2706), ∀ a, (k0_off441 v2706) a + S1x128.size a ≤ S262144x128.size a := fun v2706 k0_hw223 => k0_hw223.2

def k0_off442 (v2912 : BitVec 32) : Fin 2 → Nat :=
  let c0_i32_1795 : BitVec 32 := 0#32
  ![v2912.toNat, 0]

def k0_off443 (v2913 : BitVec 32) : Fin 2 → Nat :=
  let c0_i32_1799 : BitVec 32 := 0#32
  ![v2913.toNat, 0]

def k0_off444 (v2926 : BitVec 32) : Fin 2 → Nat :=
  let c0_i32_1803 : BitVec 32 := 0#32
  ![v2926.toNat, 0]

def k0_off445 (v2927 : BitVec 32) : Fin 2 → Nat :=
  let c0_i32_1807 : BitVec 32 := 0#32
  ![v2927.toNat, 0]

def k0_off446 (v2940 : BitVec 32) : Fin 2 → Nat :=
  let c0_i32_1811 : BitVec 32 := 0#32
  ![v2940.toNat, 0]

def k0_off447 (v2941 : BitVec 32) : Fin 2 → Nat :=
  let c0_i32_1815 : BitVec 32 := 0#32
  ![v2941.toNat, 0]

def k0_off448 (v2954 : BitVec 32) : Fin 2 → Nat :=
  let c0_i32_1819 : BitVec 32 := 0#32
  ![v2954.toNat, 0]

def k0_off449 (v2955 : BitVec 32) : Fin 2 → Nat :=
  let c0_i32_1823 : BitVec 32 := 0#32
  ![v2955.toNat, 0]

def k0_off450 (v2968 : BitVec 32) : Fin 2 → Nat :=
  let c0_i32_1827 : BitVec 32 := 0#32
  ![v2968.toNat, 0]

def k0_off451 (v2969 : BitVec 32) : Fin 2 → Nat :=
  let c0_i32_1831 : BitVec 32 := 0#32
  ![v2969.toNat, 0]

def k0_off452 (v2982 : BitVec 32) : Fin 2 → Nat :=
  let c0_i32_1835 : BitVec 32 := 0#32
  ![v2982.toNat, 0]

def k0_off453 (v2983 : BitVec 32) : Fin 2 → Nat :=
  let c0_i32_1839 : BitVec 32 := 0#32
  ![v2983.toNat, 0]

def k0_off454 (v2996 : BitVec 32) : Fin 2 → Nat :=
  let c0_i32_1843 : BitVec 32 := 0#32
  ![v2996.toNat, 0]

def k0_off455 (v2997 : BitVec 32) : Fin 2 → Nat :=
  let c0_i32_1847 : BitVec 32 := 0#32
  ![v2997.toNat, 0]

def k0_off456 (v3010 : BitVec 32) : Fin 2 → Nat :=
  let c0_i32_1851 : BitVec 32 := 0#32
  ![v3010.toNat, 0]

def k0_off457 (v3011 : BitVec 32) : Fin 2 → Nat :=
  let c0_i32_1855 : BitVec 32 := 0#32
  ![v3011.toNat, 0]

def k0_off458 (v3024 : BitVec 32) : Fin 2 → Nat :=
  let c0_i32_1859 : BitVec 32 := 0#32
  ![v3024.toNat, 0]

def k0_off459 (v3025 : BitVec 32) : Fin 2 → Nat :=
  let c0_i32_1863 : BitVec 32 := 0#32
  ![v3025.toNat, 0]

def k0_off460 (v3038 : BitVec 32) : Fin 2 → Nat :=
  let c0_i32_1867 : BitVec 32 := 0#32
  ![v3038.toNat, 0]

def k0_off461 (v3039 : BitVec 32) : Fin 2 → Nat :=
  let c0_i32_1871 : BitVec 32 := 0#32
  ![v3039.toNat, 0]

def k0_off462 (v3052 : BitVec 32) : Fin 2 → Nat :=
  let c0_i32_1875 : BitVec 32 := 0#32
  ![v3052.toNat, 0]

def k0_off463 (v3053 : BitVec 32) : Fin 2 → Nat :=
  let c0_i32_1879 : BitVec 32 := 0#32
  ![v3053.toNat, 0]

def k0_off464 (v3066 : BitVec 32) : Fin 2 → Nat :=
  let c0_i32_1883 : BitVec 32 := 0#32
  ![v3066.toNat, 0]

def k0_off465 (v3067 : BitVec 32) : Fin 2 → Nat :=
  let c0_i32_1887 : BitVec 32 := 0#32
  ![v3067.toNat, 0]

def k0_off466 (v3080 : BitVec 32) : Fin 2 → Nat :=
  let c0_i32_1891 : BitVec 32 := 0#32
  ![v3080.toNat, 0]

def k0_off467 (v3081 : BitVec 32) : Fin 2 → Nat :=
  let c0_i32_1895 : BitVec 32 := 0#32
  ![v3081.toNat, 0]

def k0_off468 (v3094 : BitVec 32) : Fin 2 → Nat :=
  let c0_i32_1899 : BitVec 32 := 0#32
  ![v3094.toNat, 0]

def k0_off469 (v3095 : BitVec 32) : Fin 2 → Nat :=
  let c0_i32_1903 : BitVec 32 := 0#32
  ![v3095.toNat, 0]

def k0_off470 (v3108 : BitVec 32) : Fin 2 → Nat :=
  let c0_i32_1907 : BitVec 32 := 0#32
  ![v3108.toNat, 0]

def k0_off471 (v3109 : BitVec 32) : Fin 2 → Nat :=
  let c0_i32_1911 : BitVec 32 := 0#32
  ![v3109.toNat, 0]

def k0_off472 (v3122 : BitVec 32) : Fin 2 → Nat :=
  let c0_i32_1915 : BitVec 32 := 0#32
  ![v3122.toNat, 0]

def k0_off473 (v3123 : BitVec 32) : Fin 2 → Nat :=
  let c0_i32_1919 : BitVec 32 := 0#32
  ![v3123.toNat, 0]

def k0_chk256 (v3123 : BitVec 32) : Prop :=
  (∀ a, (k0_off473 v3123) a + S1x128.size a ≤ S262144x128.size a)
instance k0_chk256.dec : ∀ (v3123 : BitVec 32), Decidable (k0_chk256 v3123) := fun v3123 => decidable_of_iff' _ (Iff.of_eq (k0_chk256.eq_1 v3123))
theorem k0_off473_inb : ∀ (v3123 : BitVec 32) (k0_hw256 : k0_chk256 v3123), ∀ a, (k0_off473 v3123) a + S1x128.size a ≤ S262144x128.size a := fun v3123 k0_hw256 => k0_hw256

def k0_off474 (v2912 : BitVec 32) : Fin 2 → Nat :=
  let c0_i32_1923 : BitVec 32 := 0#32
  ![v2912.toNat, 0]

def k0_chk225 (v2912 : BitVec 32) : Prop :=
  (∀ a, (k0_off442 v2912) a + S1x128.size a ≤ S262144x128.size a) ∧
  (∀ a, (k0_off474 v2912) a + S1x128.size a ≤ S262144x128.size a)
instance k0_chk225.dec : ∀ (v2912 : BitVec 32), Decidable (k0_chk225 v2912) := fun v2912 => decidable_of_iff' _ (Iff.of_eq (k0_chk225.eq_1 v2912))
theorem k0_off442_inb : ∀ (v2912 : BitVec 32) (k0_hw225 : k0_chk225 v2912), ∀ a, (k0_off442 v2912) a + S1x128.size a ≤ S262144x128.size a := fun v2912 k0_hw225 => k0_hw225.1
theorem k0_off474_inb : ∀ (v2912 : BitVec 32) (k0_hw225 : k0_chk225 v2912), ∀ a, (k0_off474 v2912) a + S1x128.size a ≤ S262144x128.size a := fun v2912 k0_hw225 => k0_hw225.2

def k0_off475 (v2913 : BitVec 32) : Fin 2 → Nat :=
  let c0_i32_1927 : BitVec 32 := 0#32
  ![v2913.toNat, 0]

def k0_chk226 (v2913 : BitVec 32) : Prop :=
  (∀ a, (k0_off443 v2913) a + S1x128.size a ≤ S262144x128.size a) ∧
  (∀ a, (k0_off475 v2913) a + S1x128.size a ≤ S262144x128.size a)
instance k0_chk226.dec : ∀ (v2913 : BitVec 32), Decidable (k0_chk226 v2913) := fun v2913 => decidable_of_iff' _ (Iff.of_eq (k0_chk226.eq_1 v2913))
theorem k0_off443_inb : ∀ (v2913 : BitVec 32) (k0_hw226 : k0_chk226 v2913), ∀ a, (k0_off443 v2913) a + S1x128.size a ≤ S262144x128.size a := fun v2913 k0_hw226 => k0_hw226.1
theorem k0_off475_inb : ∀ (v2913 : BitVec 32) (k0_hw226 : k0_chk226 v2913), ∀ a, (k0_off475 v2913) a + S1x128.size a ≤ S262144x128.size a := fun v2913 k0_hw226 => k0_hw226.2

def k0_off476 (v2926 : BitVec 32) : Fin 2 → Nat :=
  let c0_i32_1931 : BitVec 32 := 0#32
  ![v2926.toNat, 0]

def k0_chk227 (v2926 : BitVec 32) : Prop :=
  (∀ a, (k0_off444 v2926) a + S1x128.size a ≤ S262144x128.size a) ∧
  (∀ a, (k0_off476 v2926) a + S1x128.size a ≤ S262144x128.size a)
instance k0_chk227.dec : ∀ (v2926 : BitVec 32), Decidable (k0_chk227 v2926) := fun v2926 => decidable_of_iff' _ (Iff.of_eq (k0_chk227.eq_1 v2926))
theorem k0_off444_inb : ∀ (v2926 : BitVec 32) (k0_hw227 : k0_chk227 v2926), ∀ a, (k0_off444 v2926) a + S1x128.size a ≤ S262144x128.size a := fun v2926 k0_hw227 => k0_hw227.1
theorem k0_off476_inb : ∀ (v2926 : BitVec 32) (k0_hw227 : k0_chk227 v2926), ∀ a, (k0_off476 v2926) a + S1x128.size a ≤ S262144x128.size a := fun v2926 k0_hw227 => k0_hw227.2

def k0_off477 (v2927 : BitVec 32) : Fin 2 → Nat :=
  let c0_i32_1935 : BitVec 32 := 0#32
  ![v2927.toNat, 0]

def k0_chk228 (v2927 : BitVec 32) : Prop :=
  (∀ a, (k0_off445 v2927) a + S1x128.size a ≤ S262144x128.size a) ∧
  (∀ a, (k0_off477 v2927) a + S1x128.size a ≤ S262144x128.size a)
instance k0_chk228.dec : ∀ (v2927 : BitVec 32), Decidable (k0_chk228 v2927) := fun v2927 => decidable_of_iff' _ (Iff.of_eq (k0_chk228.eq_1 v2927))
theorem k0_off445_inb : ∀ (v2927 : BitVec 32) (k0_hw228 : k0_chk228 v2927), ∀ a, (k0_off445 v2927) a + S1x128.size a ≤ S262144x128.size a := fun v2927 k0_hw228 => k0_hw228.1
theorem k0_off477_inb : ∀ (v2927 : BitVec 32) (k0_hw228 : k0_chk228 v2927), ∀ a, (k0_off477 v2927) a + S1x128.size a ≤ S262144x128.size a := fun v2927 k0_hw228 => k0_hw228.2

def k0_off478 (v2940 : BitVec 32) : Fin 2 → Nat :=
  let c0_i32_1939 : BitVec 32 := 0#32
  ![v2940.toNat, 0]

def k0_chk229 (v2940 : BitVec 32) : Prop :=
  (∀ a, (k0_off446 v2940) a + S1x128.size a ≤ S262144x128.size a) ∧
  (∀ a, (k0_off478 v2940) a + S1x128.size a ≤ S262144x128.size a)
instance k0_chk229.dec : ∀ (v2940 : BitVec 32), Decidable (k0_chk229 v2940) := fun v2940 => decidable_of_iff' _ (Iff.of_eq (k0_chk229.eq_1 v2940))
theorem k0_off446_inb : ∀ (v2940 : BitVec 32) (k0_hw229 : k0_chk229 v2940), ∀ a, (k0_off446 v2940) a + S1x128.size a ≤ S262144x128.size a := fun v2940 k0_hw229 => k0_hw229.1
theorem k0_off478_inb : ∀ (v2940 : BitVec 32) (k0_hw229 : k0_chk229 v2940), ∀ a, (k0_off478 v2940) a + S1x128.size a ≤ S262144x128.size a := fun v2940 k0_hw229 => k0_hw229.2

def k0_off479 (v2941 : BitVec 32) : Fin 2 → Nat :=
  let c0_i32_1943 : BitVec 32 := 0#32
  ![v2941.toNat, 0]

def k0_chk230 (v2941 : BitVec 32) : Prop :=
  (∀ a, (k0_off447 v2941) a + S1x128.size a ≤ S262144x128.size a) ∧
  (∀ a, (k0_off479 v2941) a + S1x128.size a ≤ S262144x128.size a)
instance k0_chk230.dec : ∀ (v2941 : BitVec 32), Decidable (k0_chk230 v2941) := fun v2941 => decidable_of_iff' _ (Iff.of_eq (k0_chk230.eq_1 v2941))
theorem k0_off447_inb : ∀ (v2941 : BitVec 32) (k0_hw230 : k0_chk230 v2941), ∀ a, (k0_off447 v2941) a + S1x128.size a ≤ S262144x128.size a := fun v2941 k0_hw230 => k0_hw230.1
theorem k0_off479_inb : ∀ (v2941 : BitVec 32) (k0_hw230 : k0_chk230 v2941), ∀ a, (k0_off479 v2941) a + S1x128.size a ≤ S262144x128.size a := fun v2941 k0_hw230 => k0_hw230.2

def k0_off480 (v2954 : BitVec 32) : Fin 2 → Nat :=
  let c0_i32_1947 : BitVec 32 := 0#32
  ![v2954.toNat, 0]

def k0_chk231 (v2954 : BitVec 32) : Prop :=
  (∀ a, (k0_off448 v2954) a + S1x128.size a ≤ S262144x128.size a) ∧
  (∀ a, (k0_off480 v2954) a + S1x128.size a ≤ S262144x128.size a)
instance k0_chk231.dec : ∀ (v2954 : BitVec 32), Decidable (k0_chk231 v2954) := fun v2954 => decidable_of_iff' _ (Iff.of_eq (k0_chk231.eq_1 v2954))
theorem k0_off448_inb : ∀ (v2954 : BitVec 32) (k0_hw231 : k0_chk231 v2954), ∀ a, (k0_off448 v2954) a + S1x128.size a ≤ S262144x128.size a := fun v2954 k0_hw231 => k0_hw231.1
theorem k0_off480_inb : ∀ (v2954 : BitVec 32) (k0_hw231 : k0_chk231 v2954), ∀ a, (k0_off480 v2954) a + S1x128.size a ≤ S262144x128.size a := fun v2954 k0_hw231 => k0_hw231.2

def k0_off481 (v2955 : BitVec 32) : Fin 2 → Nat :=
  let c0_i32_1951 : BitVec 32 := 0#32
  ![v2955.toNat, 0]

def k0_chk232 (v2955 : BitVec 32) : Prop :=
  (∀ a, (k0_off449 v2955) a + S1x128.size a ≤ S262144x128.size a) ∧
  (∀ a, (k0_off481 v2955) a + S1x128.size a ≤ S262144x128.size a)
instance k0_chk232.dec : ∀ (v2955 : BitVec 32), Decidable (k0_chk232 v2955) := fun v2955 => decidable_of_iff' _ (Iff.of_eq (k0_chk232.eq_1 v2955))
theorem k0_off449_inb : ∀ (v2955 : BitVec 32) (k0_hw232 : k0_chk232 v2955), ∀ a, (k0_off449 v2955) a + S1x128.size a ≤ S262144x128.size a := fun v2955 k0_hw232 => k0_hw232.1
theorem k0_off481_inb : ∀ (v2955 : BitVec 32) (k0_hw232 : k0_chk232 v2955), ∀ a, (k0_off481 v2955) a + S1x128.size a ≤ S262144x128.size a := fun v2955 k0_hw232 => k0_hw232.2

def k0_off482 (v2968 : BitVec 32) : Fin 2 → Nat :=
  let c0_i32_1955 : BitVec 32 := 0#32
  ![v2968.toNat, 0]

def k0_chk233 (v2968 : BitVec 32) : Prop :=
  (∀ a, (k0_off450 v2968) a + S1x128.size a ≤ S262144x128.size a) ∧
  (∀ a, (k0_off482 v2968) a + S1x128.size a ≤ S262144x128.size a)
instance k0_chk233.dec : ∀ (v2968 : BitVec 32), Decidable (k0_chk233 v2968) := fun v2968 => decidable_of_iff' _ (Iff.of_eq (k0_chk233.eq_1 v2968))
theorem k0_off450_inb : ∀ (v2968 : BitVec 32) (k0_hw233 : k0_chk233 v2968), ∀ a, (k0_off450 v2968) a + S1x128.size a ≤ S262144x128.size a := fun v2968 k0_hw233 => k0_hw233.1
theorem k0_off482_inb : ∀ (v2968 : BitVec 32) (k0_hw233 : k0_chk233 v2968), ∀ a, (k0_off482 v2968) a + S1x128.size a ≤ S262144x128.size a := fun v2968 k0_hw233 => k0_hw233.2

def k0_off483 (v2969 : BitVec 32) : Fin 2 → Nat :=
  let c0_i32_1959 : BitVec 32 := 0#32
  ![v2969.toNat, 0]

def k0_chk234 (v2969 : BitVec 32) : Prop :=
  (∀ a, (k0_off451 v2969) a + S1x128.size a ≤ S262144x128.size a) ∧
  (∀ a, (k0_off483 v2969) a + S1x128.size a ≤ S262144x128.size a)
instance k0_chk234.dec : ∀ (v2969 : BitVec 32), Decidable (k0_chk234 v2969) := fun v2969 => decidable_of_iff' _ (Iff.of_eq (k0_chk234.eq_1 v2969))
theorem k0_off451_inb : ∀ (v2969 : BitVec 32) (k0_hw234 : k0_chk234 v2969), ∀ a, (k0_off451 v2969) a + S1x128.size a ≤ S262144x128.size a := fun v2969 k0_hw234 => k0_hw234.1
theorem k0_off483_inb : ∀ (v2969 : BitVec 32) (k0_hw234 : k0_chk234 v2969), ∀ a, (k0_off483 v2969) a + S1x128.size a ≤ S262144x128.size a := fun v2969 k0_hw234 => k0_hw234.2

def k0_off484 (v2982 : BitVec 32) : Fin 2 → Nat :=
  let c0_i32_1963 : BitVec 32 := 0#32
  ![v2982.toNat, 0]

def k0_chk235 (v2982 : BitVec 32) : Prop :=
  (∀ a, (k0_off452 v2982) a + S1x128.size a ≤ S262144x128.size a) ∧
  (∀ a, (k0_off484 v2982) a + S1x128.size a ≤ S262144x128.size a)
instance k0_chk235.dec : ∀ (v2982 : BitVec 32), Decidable (k0_chk235 v2982) := fun v2982 => decidable_of_iff' _ (Iff.of_eq (k0_chk235.eq_1 v2982))
theorem k0_off452_inb : ∀ (v2982 : BitVec 32) (k0_hw235 : k0_chk235 v2982), ∀ a, (k0_off452 v2982) a + S1x128.size a ≤ S262144x128.size a := fun v2982 k0_hw235 => k0_hw235.1
theorem k0_off484_inb : ∀ (v2982 : BitVec 32) (k0_hw235 : k0_chk235 v2982), ∀ a, (k0_off484 v2982) a + S1x128.size a ≤ S262144x128.size a := fun v2982 k0_hw235 => k0_hw235.2

def k0_off485 (v2983 : BitVec 32) : Fin 2 → Nat :=
  let c0_i32_1967 : BitVec 32 := 0#32
  ![v2983.toNat, 0]

def k0_chk236 (v2983 : BitVec 32) : Prop :=
  (∀ a, (k0_off453 v2983) a + S1x128.size a ≤ S262144x128.size a) ∧
  (∀ a, (k0_off485 v2983) a + S1x128.size a ≤ S262144x128.size a)
instance k0_chk236.dec : ∀ (v2983 : BitVec 32), Decidable (k0_chk236 v2983) := fun v2983 => decidable_of_iff' _ (Iff.of_eq (k0_chk236.eq_1 v2983))
theorem k0_off453_inb : ∀ (v2983 : BitVec 32) (k0_hw236 : k0_chk236 v2983), ∀ a, (k0_off453 v2983) a + S1x128.size a ≤ S262144x128.size a := fun v2983 k0_hw236 => k0_hw236.1
theorem k0_off485_inb : ∀ (v2983 : BitVec 32) (k0_hw236 : k0_chk236 v2983), ∀ a, (k0_off485 v2983) a + S1x128.size a ≤ S262144x128.size a := fun v2983 k0_hw236 => k0_hw236.2

def k0_off486 (v2996 : BitVec 32) : Fin 2 → Nat :=
  let c0_i32_1971 : BitVec 32 := 0#32
  ![v2996.toNat, 0]

def k0_chk237 (v2996 : BitVec 32) : Prop :=
  (∀ a, (k0_off454 v2996) a + S1x128.size a ≤ S262144x128.size a) ∧
  (∀ a, (k0_off486 v2996) a + S1x128.size a ≤ S262144x128.size a)
instance k0_chk237.dec : ∀ (v2996 : BitVec 32), Decidable (k0_chk237 v2996) := fun v2996 => decidable_of_iff' _ (Iff.of_eq (k0_chk237.eq_1 v2996))
theorem k0_off454_inb : ∀ (v2996 : BitVec 32) (k0_hw237 : k0_chk237 v2996), ∀ a, (k0_off454 v2996) a + S1x128.size a ≤ S262144x128.size a := fun v2996 k0_hw237 => k0_hw237.1
theorem k0_off486_inb : ∀ (v2996 : BitVec 32) (k0_hw237 : k0_chk237 v2996), ∀ a, (k0_off486 v2996) a + S1x128.size a ≤ S262144x128.size a := fun v2996 k0_hw237 => k0_hw237.2

def k0_off487 (v2997 : BitVec 32) : Fin 2 → Nat :=
  let c0_i32_1975 : BitVec 32 := 0#32
  ![v2997.toNat, 0]

def k0_chk238 (v2997 : BitVec 32) : Prop :=
  (∀ a, (k0_off455 v2997) a + S1x128.size a ≤ S262144x128.size a) ∧
  (∀ a, (k0_off487 v2997) a + S1x128.size a ≤ S262144x128.size a)
instance k0_chk238.dec : ∀ (v2997 : BitVec 32), Decidable (k0_chk238 v2997) := fun v2997 => decidable_of_iff' _ (Iff.of_eq (k0_chk238.eq_1 v2997))
theorem k0_off455_inb : ∀ (v2997 : BitVec 32) (k0_hw238 : k0_chk238 v2997), ∀ a, (k0_off455 v2997) a + S1x128.size a ≤ S262144x128.size a := fun v2997 k0_hw238 => k0_hw238.1
theorem k0_off487_inb : ∀ (v2997 : BitVec 32) (k0_hw238 : k0_chk238 v2997), ∀ a, (k0_off487 v2997) a + S1x128.size a ≤ S262144x128.size a := fun v2997 k0_hw238 => k0_hw238.2

def k0_off488 (v3010 : BitVec 32) : Fin 2 → Nat :=
  let c0_i32_1979 : BitVec 32 := 0#32
  ![v3010.toNat, 0]

def k0_chk239 (v3010 : BitVec 32) : Prop :=
  (∀ a, (k0_off456 v3010) a + S1x128.size a ≤ S262144x128.size a) ∧
  (∀ a, (k0_off488 v3010) a + S1x128.size a ≤ S262144x128.size a)
instance k0_chk239.dec : ∀ (v3010 : BitVec 32), Decidable (k0_chk239 v3010) := fun v3010 => decidable_of_iff' _ (Iff.of_eq (k0_chk239.eq_1 v3010))
theorem k0_off456_inb : ∀ (v3010 : BitVec 32) (k0_hw239 : k0_chk239 v3010), ∀ a, (k0_off456 v3010) a + S1x128.size a ≤ S262144x128.size a := fun v3010 k0_hw239 => k0_hw239.1
theorem k0_off488_inb : ∀ (v3010 : BitVec 32) (k0_hw239 : k0_chk239 v3010), ∀ a, (k0_off488 v3010) a + S1x128.size a ≤ S262144x128.size a := fun v3010 k0_hw239 => k0_hw239.2

def k0_off489 (v3011 : BitVec 32) : Fin 2 → Nat :=
  let c0_i32_1983 : BitVec 32 := 0#32
  ![v3011.toNat, 0]

def k0_chk240 (v3011 : BitVec 32) : Prop :=
  (∀ a, (k0_off457 v3011) a + S1x128.size a ≤ S262144x128.size a) ∧
  (∀ a, (k0_off489 v3011) a + S1x128.size a ≤ S262144x128.size a)
instance k0_chk240.dec : ∀ (v3011 : BitVec 32), Decidable (k0_chk240 v3011) := fun v3011 => decidable_of_iff' _ (Iff.of_eq (k0_chk240.eq_1 v3011))
theorem k0_off457_inb : ∀ (v3011 : BitVec 32) (k0_hw240 : k0_chk240 v3011), ∀ a, (k0_off457 v3011) a + S1x128.size a ≤ S262144x128.size a := fun v3011 k0_hw240 => k0_hw240.1
theorem k0_off489_inb : ∀ (v3011 : BitVec 32) (k0_hw240 : k0_chk240 v3011), ∀ a, (k0_off489 v3011) a + S1x128.size a ≤ S262144x128.size a := fun v3011 k0_hw240 => k0_hw240.2

def k0_off490 (v3024 : BitVec 32) : Fin 2 → Nat :=
  let c0_i32_1987 : BitVec 32 := 0#32
  ![v3024.toNat, 0]

def k0_chk241 (v3024 : BitVec 32) : Prop :=
  (∀ a, (k0_off458 v3024) a + S1x128.size a ≤ S262144x128.size a) ∧
  (∀ a, (k0_off490 v3024) a + S1x128.size a ≤ S262144x128.size a)
instance k0_chk241.dec : ∀ (v3024 : BitVec 32), Decidable (k0_chk241 v3024) := fun v3024 => decidable_of_iff' _ (Iff.of_eq (k0_chk241.eq_1 v3024))
theorem k0_off458_inb : ∀ (v3024 : BitVec 32) (k0_hw241 : k0_chk241 v3024), ∀ a, (k0_off458 v3024) a + S1x128.size a ≤ S262144x128.size a := fun v3024 k0_hw241 => k0_hw241.1
theorem k0_off490_inb : ∀ (v3024 : BitVec 32) (k0_hw241 : k0_chk241 v3024), ∀ a, (k0_off490 v3024) a + S1x128.size a ≤ S262144x128.size a := fun v3024 k0_hw241 => k0_hw241.2

def k0_off491 (v3025 : BitVec 32) : Fin 2 → Nat :=
  let c0_i32_1991 : BitVec 32 := 0#32
  ![v3025.toNat, 0]

def k0_chk242 (v3025 : BitVec 32) : Prop :=
  (∀ a, (k0_off459 v3025) a + S1x128.size a ≤ S262144x128.size a) ∧
  (∀ a, (k0_off491 v3025) a + S1x128.size a ≤ S262144x128.size a)
instance k0_chk242.dec : ∀ (v3025 : BitVec 32), Decidable (k0_chk242 v3025) := fun v3025 => decidable_of_iff' _ (Iff.of_eq (k0_chk242.eq_1 v3025))
theorem k0_off459_inb : ∀ (v3025 : BitVec 32) (k0_hw242 : k0_chk242 v3025), ∀ a, (k0_off459 v3025) a + S1x128.size a ≤ S262144x128.size a := fun v3025 k0_hw242 => k0_hw242.1
theorem k0_off491_inb : ∀ (v3025 : BitVec 32) (k0_hw242 : k0_chk242 v3025), ∀ a, (k0_off491 v3025) a + S1x128.size a ≤ S262144x128.size a := fun v3025 k0_hw242 => k0_hw242.2

def k0_off492 (v3038 : BitVec 32) : Fin 2 → Nat :=
  let c0_i32_1995 : BitVec 32 := 0#32
  ![v3038.toNat, 0]

def k0_chk243 (v3038 : BitVec 32) : Prop :=
  (∀ a, (k0_off460 v3038) a + S1x128.size a ≤ S262144x128.size a) ∧
  (∀ a, (k0_off492 v3038) a + S1x128.size a ≤ S262144x128.size a)
instance k0_chk243.dec : ∀ (v3038 : BitVec 32), Decidable (k0_chk243 v3038) := fun v3038 => decidable_of_iff' _ (Iff.of_eq (k0_chk243.eq_1 v3038))
theorem k0_off460_inb : ∀ (v3038 : BitVec 32) (k0_hw243 : k0_chk243 v3038), ∀ a, (k0_off460 v3038) a + S1x128.size a ≤ S262144x128.size a := fun v3038 k0_hw243 => k0_hw243.1
theorem k0_off492_inb : ∀ (v3038 : BitVec 32) (k0_hw243 : k0_chk243 v3038), ∀ a, (k0_off492 v3038) a + S1x128.size a ≤ S262144x128.size a := fun v3038 k0_hw243 => k0_hw243.2

def k0_off493 (v3039 : BitVec 32) : Fin 2 → Nat :=
  let c0_i32_1999 : BitVec 32 := 0#32
  ![v3039.toNat, 0]

def k0_chk244 (v3039 : BitVec 32) : Prop :=
  (∀ a, (k0_off461 v3039) a + S1x128.size a ≤ S262144x128.size a) ∧
  (∀ a, (k0_off493 v3039) a + S1x128.size a ≤ S262144x128.size a)
instance k0_chk244.dec : ∀ (v3039 : BitVec 32), Decidable (k0_chk244 v3039) := fun v3039 => decidable_of_iff' _ (Iff.of_eq (k0_chk244.eq_1 v3039))
theorem k0_off461_inb : ∀ (v3039 : BitVec 32) (k0_hw244 : k0_chk244 v3039), ∀ a, (k0_off461 v3039) a + S1x128.size a ≤ S262144x128.size a := fun v3039 k0_hw244 => k0_hw244.1
theorem k0_off493_inb : ∀ (v3039 : BitVec 32) (k0_hw244 : k0_chk244 v3039), ∀ a, (k0_off493 v3039) a + S1x128.size a ≤ S262144x128.size a := fun v3039 k0_hw244 => k0_hw244.2

def k0_off494 (v3052 : BitVec 32) : Fin 2 → Nat :=
  let c0_i32_2003 : BitVec 32 := 0#32
  ![v3052.toNat, 0]

def k0_chk245 (v3052 : BitVec 32) : Prop :=
  (∀ a, (k0_off462 v3052) a + S1x128.size a ≤ S262144x128.size a) ∧
  (∀ a, (k0_off494 v3052) a + S1x128.size a ≤ S262144x128.size a)
instance k0_chk245.dec : ∀ (v3052 : BitVec 32), Decidable (k0_chk245 v3052) := fun v3052 => decidable_of_iff' _ (Iff.of_eq (k0_chk245.eq_1 v3052))
theorem k0_off462_inb : ∀ (v3052 : BitVec 32) (k0_hw245 : k0_chk245 v3052), ∀ a, (k0_off462 v3052) a + S1x128.size a ≤ S262144x128.size a := fun v3052 k0_hw245 => k0_hw245.1
theorem k0_off494_inb : ∀ (v3052 : BitVec 32) (k0_hw245 : k0_chk245 v3052), ∀ a, (k0_off494 v3052) a + S1x128.size a ≤ S262144x128.size a := fun v3052 k0_hw245 => k0_hw245.2

def k0_off495 (v3053 : BitVec 32) : Fin 2 → Nat :=
  let c0_i32_2007 : BitVec 32 := 0#32
  ![v3053.toNat, 0]

def k0_chk246 (v3053 : BitVec 32) : Prop :=
  (∀ a, (k0_off463 v3053) a + S1x128.size a ≤ S262144x128.size a) ∧
  (∀ a, (k0_off495 v3053) a + S1x128.size a ≤ S262144x128.size a)
instance k0_chk246.dec : ∀ (v3053 : BitVec 32), Decidable (k0_chk246 v3053) := fun v3053 => decidable_of_iff' _ (Iff.of_eq (k0_chk246.eq_1 v3053))
theorem k0_off463_inb : ∀ (v3053 : BitVec 32) (k0_hw246 : k0_chk246 v3053), ∀ a, (k0_off463 v3053) a + S1x128.size a ≤ S262144x128.size a := fun v3053 k0_hw246 => k0_hw246.1
theorem k0_off495_inb : ∀ (v3053 : BitVec 32) (k0_hw246 : k0_chk246 v3053), ∀ a, (k0_off495 v3053) a + S1x128.size a ≤ S262144x128.size a := fun v3053 k0_hw246 => k0_hw246.2

def k0_off496 (v3066 : BitVec 32) : Fin 2 → Nat :=
  let c0_i32_2011 : BitVec 32 := 0#32
  ![v3066.toNat, 0]

def k0_chk247 (v3066 : BitVec 32) : Prop :=
  (∀ a, (k0_off464 v3066) a + S1x128.size a ≤ S262144x128.size a) ∧
  (∀ a, (k0_off496 v3066) a + S1x128.size a ≤ S262144x128.size a)
instance k0_chk247.dec : ∀ (v3066 : BitVec 32), Decidable (k0_chk247 v3066) := fun v3066 => decidable_of_iff' _ (Iff.of_eq (k0_chk247.eq_1 v3066))
theorem k0_off464_inb : ∀ (v3066 : BitVec 32) (k0_hw247 : k0_chk247 v3066), ∀ a, (k0_off464 v3066) a + S1x128.size a ≤ S262144x128.size a := fun v3066 k0_hw247 => k0_hw247.1
theorem k0_off496_inb : ∀ (v3066 : BitVec 32) (k0_hw247 : k0_chk247 v3066), ∀ a, (k0_off496 v3066) a + S1x128.size a ≤ S262144x128.size a := fun v3066 k0_hw247 => k0_hw247.2

def k0_off497 (v3067 : BitVec 32) : Fin 2 → Nat :=
  let c0_i32_2015 : BitVec 32 := 0#32
  ![v3067.toNat, 0]

def k0_chk248 (v3067 : BitVec 32) : Prop :=
  (∀ a, (k0_off465 v3067) a + S1x128.size a ≤ S262144x128.size a) ∧
  (∀ a, (k0_off497 v3067) a + S1x128.size a ≤ S262144x128.size a)
instance k0_chk248.dec : ∀ (v3067 : BitVec 32), Decidable (k0_chk248 v3067) := fun v3067 => decidable_of_iff' _ (Iff.of_eq (k0_chk248.eq_1 v3067))
theorem k0_off465_inb : ∀ (v3067 : BitVec 32) (k0_hw248 : k0_chk248 v3067), ∀ a, (k0_off465 v3067) a + S1x128.size a ≤ S262144x128.size a := fun v3067 k0_hw248 => k0_hw248.1
theorem k0_off497_inb : ∀ (v3067 : BitVec 32) (k0_hw248 : k0_chk248 v3067), ∀ a, (k0_off497 v3067) a + S1x128.size a ≤ S262144x128.size a := fun v3067 k0_hw248 => k0_hw248.2

def k0_off498 (v3080 : BitVec 32) : Fin 2 → Nat :=
  let c0_i32_2019 : BitVec 32 := 0#32
  ![v3080.toNat, 0]

def k0_chk249 (v3080 : BitVec 32) : Prop :=
  (∀ a, (k0_off466 v3080) a + S1x128.size a ≤ S262144x128.size a) ∧
  (∀ a, (k0_off498 v3080) a + S1x128.size a ≤ S262144x128.size a)
instance k0_chk249.dec : ∀ (v3080 : BitVec 32), Decidable (k0_chk249 v3080) := fun v3080 => decidable_of_iff' _ (Iff.of_eq (k0_chk249.eq_1 v3080))
theorem k0_off466_inb : ∀ (v3080 : BitVec 32) (k0_hw249 : k0_chk249 v3080), ∀ a, (k0_off466 v3080) a + S1x128.size a ≤ S262144x128.size a := fun v3080 k0_hw249 => k0_hw249.1
theorem k0_off498_inb : ∀ (v3080 : BitVec 32) (k0_hw249 : k0_chk249 v3080), ∀ a, (k0_off498 v3080) a + S1x128.size a ≤ S262144x128.size a := fun v3080 k0_hw249 => k0_hw249.2

def k0_off499 (v3081 : BitVec 32) : Fin 2 → Nat :=
  let c0_i32_2023 : BitVec 32 := 0#32
  ![v3081.toNat, 0]

def k0_chk250 (v3081 : BitVec 32) : Prop :=
  (∀ a, (k0_off467 v3081) a + S1x128.size a ≤ S262144x128.size a) ∧
  (∀ a, (k0_off499 v3081) a + S1x128.size a ≤ S262144x128.size a)
instance k0_chk250.dec : ∀ (v3081 : BitVec 32), Decidable (k0_chk250 v3081) := fun v3081 => decidable_of_iff' _ (Iff.of_eq (k0_chk250.eq_1 v3081))
theorem k0_off467_inb : ∀ (v3081 : BitVec 32) (k0_hw250 : k0_chk250 v3081), ∀ a, (k0_off467 v3081) a + S1x128.size a ≤ S262144x128.size a := fun v3081 k0_hw250 => k0_hw250.1
theorem k0_off499_inb : ∀ (v3081 : BitVec 32) (k0_hw250 : k0_chk250 v3081), ∀ a, (k0_off499 v3081) a + S1x128.size a ≤ S262144x128.size a := fun v3081 k0_hw250 => k0_hw250.2

def k0_off500 (v3094 : BitVec 32) : Fin 2 → Nat :=
  let c0_i32_2027 : BitVec 32 := 0#32
  ![v3094.toNat, 0]

def k0_chk251 (v3094 : BitVec 32) : Prop :=
  (∀ a, (k0_off468 v3094) a + S1x128.size a ≤ S262144x128.size a) ∧
  (∀ a, (k0_off500 v3094) a + S1x128.size a ≤ S262144x128.size a)
instance k0_chk251.dec : ∀ (v3094 : BitVec 32), Decidable (k0_chk251 v3094) := fun v3094 => decidable_of_iff' _ (Iff.of_eq (k0_chk251.eq_1 v3094))
theorem k0_off468_inb : ∀ (v3094 : BitVec 32) (k0_hw251 : k0_chk251 v3094), ∀ a, (k0_off468 v3094) a + S1x128.size a ≤ S262144x128.size a := fun v3094 k0_hw251 => k0_hw251.1
theorem k0_off500_inb : ∀ (v3094 : BitVec 32) (k0_hw251 : k0_chk251 v3094), ∀ a, (k0_off500 v3094) a + S1x128.size a ≤ S262144x128.size a := fun v3094 k0_hw251 => k0_hw251.2

def k0_off501 (v3095 : BitVec 32) : Fin 2 → Nat :=
  let c0_i32_2031 : BitVec 32 := 0#32
  ![v3095.toNat, 0]

def k0_chk252 (v3095 : BitVec 32) : Prop :=
  (∀ a, (k0_off469 v3095) a + S1x128.size a ≤ S262144x128.size a) ∧
  (∀ a, (k0_off501 v3095) a + S1x128.size a ≤ S262144x128.size a)
instance k0_chk252.dec : ∀ (v3095 : BitVec 32), Decidable (k0_chk252 v3095) := fun v3095 => decidable_of_iff' _ (Iff.of_eq (k0_chk252.eq_1 v3095))
theorem k0_off469_inb : ∀ (v3095 : BitVec 32) (k0_hw252 : k0_chk252 v3095), ∀ a, (k0_off469 v3095) a + S1x128.size a ≤ S262144x128.size a := fun v3095 k0_hw252 => k0_hw252.1
theorem k0_off501_inb : ∀ (v3095 : BitVec 32) (k0_hw252 : k0_chk252 v3095), ∀ a, (k0_off501 v3095) a + S1x128.size a ≤ S262144x128.size a := fun v3095 k0_hw252 => k0_hw252.2

def k0_off502 (v3108 : BitVec 32) : Fin 2 → Nat :=
  let c0_i32_2035 : BitVec 32 := 0#32
  ![v3108.toNat, 0]

def k0_chk253 (v3108 : BitVec 32) : Prop :=
  (∀ a, (k0_off470 v3108) a + S1x128.size a ≤ S262144x128.size a) ∧
  (∀ a, (k0_off502 v3108) a + S1x128.size a ≤ S262144x128.size a)
instance k0_chk253.dec : ∀ (v3108 : BitVec 32), Decidable (k0_chk253 v3108) := fun v3108 => decidable_of_iff' _ (Iff.of_eq (k0_chk253.eq_1 v3108))
theorem k0_off470_inb : ∀ (v3108 : BitVec 32) (k0_hw253 : k0_chk253 v3108), ∀ a, (k0_off470 v3108) a + S1x128.size a ≤ S262144x128.size a := fun v3108 k0_hw253 => k0_hw253.1
theorem k0_off502_inb : ∀ (v3108 : BitVec 32) (k0_hw253 : k0_chk253 v3108), ∀ a, (k0_off502 v3108) a + S1x128.size a ≤ S262144x128.size a := fun v3108 k0_hw253 => k0_hw253.2

def k0_off503 (v3109 : BitVec 32) : Fin 2 → Nat :=
  let c0_i32_2039 : BitVec 32 := 0#32
  ![v3109.toNat, 0]

def k0_chk254 (v3109 : BitVec 32) : Prop :=
  (∀ a, (k0_off471 v3109) a + S1x128.size a ≤ S262144x128.size a) ∧
  (∀ a, (k0_off503 v3109) a + S1x128.size a ≤ S262144x128.size a)
instance k0_chk254.dec : ∀ (v3109 : BitVec 32), Decidable (k0_chk254 v3109) := fun v3109 => decidable_of_iff' _ (Iff.of_eq (k0_chk254.eq_1 v3109))
theorem k0_off471_inb : ∀ (v3109 : BitVec 32) (k0_hw254 : k0_chk254 v3109), ∀ a, (k0_off471 v3109) a + S1x128.size a ≤ S262144x128.size a := fun v3109 k0_hw254 => k0_hw254.1
theorem k0_off503_inb : ∀ (v3109 : BitVec 32) (k0_hw254 : k0_chk254 v3109), ∀ a, (k0_off503 v3109) a + S1x128.size a ≤ S262144x128.size a := fun v3109 k0_hw254 => k0_hw254.2

def k0_off504 (v3122 : BitVec 32) : Fin 2 → Nat :=
  let c0_i32_2043 : BitVec 32 := 0#32
  ![v3122.toNat, 0]

def k0_chk255 (v3122 : BitVec 32) : Prop :=
  (∀ a, (k0_off472 v3122) a + S1x128.size a ≤ S262144x128.size a) ∧
  (∀ a, (k0_off504 v3122) a + S1x128.size a ≤ S262144x128.size a)
instance k0_chk255.dec : ∀ (v3122 : BitVec 32), Decidable (k0_chk255 v3122) := fun v3122 => decidable_of_iff' _ (Iff.of_eq (k0_chk255.eq_1 v3122))
theorem k0_off472_inb : ∀ (v3122 : BitVec 32) (k0_hw255 : k0_chk255 v3122), ∀ a, (k0_off472 v3122) a + S1x128.size a ≤ S262144x128.size a := fun v3122 k0_hw255 => k0_hw255.1
theorem k0_off504_inb : ∀ (v3122 : BitVec 32) (k0_hw255 : k0_chk255 v3122), ∀ a, (k0_off504 v3122) a + S1x128.size a ≤ S262144x128.size a := fun v3122 k0_hw255 => k0_hw255.2

def cc0_transform_0 (i : grid0.Coords) : Fin 1 → Nat :=
  let arg0 : BitVec 32 := BitVec.ofNat 32 (i 0).val
  let c0_i32 : BitVec 32 := 0#32
  ![arg0.toNat]

def cc0_transform_1 (i : grid0.Coords) : Fin 1 → Nat :=
  let arg0 : BitVec 32 := BitVec.ofNat 32 (i 0).val
  let c0_i32 : BitVec 32 := 0#32
  ![arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .smem S128 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .smem S128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  slices_S524288x2_S524288x1_0_0 : S524288x2.Slices ![0, 0] S524288x1
  shapeCasts_S524288x1_S524288 : S524288x1.ShapeCasts S524288
  slices_S524288x2_S524288x1_0_1 : S524288x2.Slices ![0, 1] S524288x1
  inb_S128_S1_0 : ∀ a, (![0] : Fin 1 → Nat) a + S1.size a ≤ S128.size a
  numel1_S1 : S1.numel = 1
  inb_S16_S1_0 : ∀ a, (![0] : Fin 1 → Nat) a + S1.size a ≤ S16.size a
  squeezes_S1_S_ : S1.Squeezes S_
  inb_S128x128_S1x128_0_0 : ∀ a, (![0, 0] : Fin 2 → Nat) a + S1x128.size a ≤ S128x128.size a
  squeezes_S1x128_S128 : S1x128.Squeezes S128
  inb_S128_S1_1 : ∀ a, (![1] : Fin 1 → Nat) a + S1.size a ≤ S128.size a
  inb_S16_S1_1 : ∀ a, (![1] : Fin 1 → Nat) a + S1.size a ≤ S16.size a
  inb_S128x128_S1x128_1_0 : ∀ a, (![1, 0] : Fin 2 → Nat) a + S1x128.size a ≤ S128x128.size a
  inb_S128_S1_2 : ∀ a, (![2] : Fin 1 → Nat) a + S1.size a ≤ S128.size a
  inb_S16_S1_2 : ∀ a, (![2] : Fin 1 → Nat) a + S1.size a ≤ S16.size a
  inb_S128x128_S1x128_2_0 : ∀ a, (![2, 0] : Fin 2 → Nat) a + S1x128.size a ≤ S128x128.size a
  inb_S128_S1_3 : ∀ a, (![3] : Fin 1 → Nat) a + S1.size a ≤ S128.size a
  inb_S16_S1_3 : ∀ a, (![3] : Fin 1 → Nat) a + S1.size a ≤ S16.size a
  inb_S128x128_S1x128_3_0 : ∀ a, (![3, 0] : Fin 2 → Nat) a + S1x128.size a ≤ S128x128.size a
  inb_S128_S1_4 : ∀ a, (![4] : Fin 1 → Nat) a + S1.size a ≤ S128.size a
  inb_S16_S1_4 : ∀ a, (![4] : Fin 1 → Nat) a + S1.size a ≤ S16.size a
  inb_S128x128_S1x128_4_0 : ∀ a, (![4, 0] : Fin 2 → Nat) a + S1x128.size a ≤ S128x128.size a
  inb_S128_S1_5 : ∀ a, (![5] : Fin 1 → Nat) a + S1.size a ≤ S128.size a
  inb_S16_S1_5 : ∀ a, (![5] : Fin 1 → Nat) a + S1.size a ≤ S16.size a
  inb_S128x128_S1x128_5_0 : ∀ a, (![5, 0] : Fin 2 → Nat) a + S1x128.size a ≤ S128x128.size a
  inb_S128_S1_6 : ∀ a, (![6] : Fin 1 → Nat) a + S1.size a ≤ S128.size a
  inb_S16_S1_6 : ∀ a, (![6] : Fin 1 → Nat) a + S1.size a ≤ S16.size a
  inb_S128x128_S1x128_6_0 : ∀ a, (![6, 0] : Fin 2 → Nat) a + S1x128.size a ≤ S128x128.size a
  inb_S128_S1_7 : ∀ a, (![7] : Fin 1 → Nat) a + S1.size a ≤ S128.size a
  inb_S16_S1_7 : ∀ a, (![7] : Fin 1 → Nat) a + S1.size a ≤ S16.size a
  inb_S128x128_S1x128_7_0 : ∀ a, (![7, 0] : Fin 2 → Nat) a + S1x128.size a ≤ S128x128.size a
  inb_S128_S1_8 : ∀ a, (![8] : Fin 1 → Nat) a + S1.size a ≤ S128.size a
  inb_S16_S1_8 : ∀ a, (![8] : Fin 1 → Nat) a + S1.size a ≤ S16.size a
  inb_S128x128_S1x128_8_0 : ∀ a, (![8, 0] : Fin 2 → Nat) a + S1x128.size a ≤ S128x128.size a
  inb_S128_S1_9 : ∀ a, (![9] : Fin 1 → Nat) a + S1.size a ≤ S128.size a
  inb_S16_S1_9 : ∀ a, (![9] : Fin 1 → Nat) a + S1.size a ≤ S16.size a
  inb_S128x128_S1x128_9_0 : ∀ a, (![9, 0] : Fin 2 → Nat) a + S1x128.size a ≤ S128x128.size a
  inb_S128_S1_10 : ∀ a, (![10] : Fin 1 → Nat) a + S1.size a ≤ S128.size a
  inb_S16_S1_10 : ∀ a, (![10] : Fin 1 → Nat) a + S1.size a ≤ S16.size a
  inb_S128x128_S1x128_10_0 : ∀ a, (![10, 0] : Fin 2 → Nat) a + S1x128.size a ≤ S128x128.size a
  inb_S128_S1_11 : ∀ a, (![11] : Fin 1 → Nat) a + S1.size a ≤ S128.size a
  inb_S16_S1_11 : ∀ a, (![11] : Fin 1 → Nat) a + S1.size a ≤ S16.size a
  inb_S128x128_S1x128_11_0 : ∀ a, (![11, 0] : Fin 2 → Nat) a + S1x128.size a ≤ S128x128.size a
  inb_S128_S1_12 : ∀ a, (![12] : Fin 1 → Nat) a + S1.size a ≤ S128.size a
  inb_S16_S1_12 : ∀ a, (![12] : Fin 1 → Nat) a + S1.size a ≤ S16.size a
  inb_S128x128_S1x128_12_0 : ∀ a, (![12, 0] : Fin 2 → Nat) a + S1x128.size a ≤ S128x128.size a
  inb_S128_S1_13 : ∀ a, (![13] : Fin 1 → Nat) a + S1.size a ≤ S128.size a
  inb_S16_S1_13 : ∀ a, (![13] : Fin 1 → Nat) a + S1.size a ≤ S16.size a
  inb_S128x128_S1x128_13_0 : ∀ a, (![13, 0] : Fin 2 → Nat) a + S1x128.size a ≤ S128x128.size a
  inb_S128_S1_14 : ∀ a, (![14] : Fin 1 → Nat) a + S1.size a ≤ S128.size a
  inb_S16_S1_14 : ∀ a, (![14] : Fin 1 → Nat) a + S1.size a ≤ S16.size a
  inb_S128x128_S1x128_14_0 : ∀ a, (![14, 0] : Fin 2 → Nat) a + S1x128.size a ≤ S128x128.size a
  inb_S128_S1_15 : ∀ a, (![15] : Fin 1 → Nat) a + S1.size a ≤ S128.size a
  inb_S16_S1_15 : ∀ a, (![15] : Fin 1 → Nat) a + S1.size a ≤ S16.size a
  inb_S128x128_S1x128_15_0 : ∀ a, (![15, 0] : Fin 2 → Nat) a + S1x128.size a ≤ S128x128.size a
  inb_S128_S1_16 : ∀ a, (![16] : Fin 1 → Nat) a + S1.size a ≤ S128.size a
  inb_S128x128_S1x128_16_0 : ∀ a, (![16, 0] : Fin 2 → Nat) a + S1x128.size a ≤ S128x128.size a
  inb_S128_S1_17 : ∀ a, (![17] : Fin 1 → Nat) a + S1.size a ≤ S128.size a
  inb_S128x128_S1x128_17_0 : ∀ a, (![17, 0] : Fin 2 → Nat) a + S1x128.size a ≤ S128x128.size a
  inb_S128_S1_18 : ∀ a, (![18] : Fin 1 → Nat) a + S1.size a ≤ S128.size a
  inb_S128x128_S1x128_18_0 : ∀ a, (![18, 0] : Fin 2 → Nat) a + S1x128.size a ≤ S128x128.size a
  inb_S128_S1_19 : ∀ a, (![19] : Fin 1 → Nat) a + S1.size a ≤ S128.size a
  inb_S128x128_S1x128_19_0 : ∀ a, (![19, 0] : Fin 2 → Nat) a + S1x128.size a ≤ S128x128.size a
  inb_S128_S1_20 : ∀ a, (![20] : Fin 1 → Nat) a + S1.size a ≤ S128.size a
  inb_S128x128_S1x128_20_0 : ∀ a, (![20, 0] : Fin 2 → Nat) a + S1x128.size a ≤ S128x128.size a
  inb_S128_S1_21 : ∀ a, (![21] : Fin 1 → Nat) a + S1.size a ≤ S128.size a
  inb_S128x128_S1x128_21_0 : ∀ a, (![21, 0] : Fin 2 → Nat) a + S1x128.size a ≤ S128x128.size a
  inb_S128_S1_22 : ∀ a, (![22] : Fin 1 → Nat) a + S1.size a ≤ S128.size a
  inb_S128x128_S1x128_22_0 : ∀ a, (![22, 0] : Fin 2 → Nat) a + S1x128.size a ≤ S128x128.size a
  inb_S128_S1_23 : ∀ a, (![23] : Fin 1 → Nat) a + S1.size a ≤ S128.size a
  inb_S128x128_S1x128_23_0 : ∀ a, (![23, 0] : Fin 2 → Nat) a + S1x128.size a ≤ S128x128.size a
  inb_S128_S1_24 : ∀ a, (![24] : Fin 1 → Nat) a + S1.size a ≤ S128.size a
  inb_S128x128_S1x128_24_0 : ∀ a, (![24, 0] : Fin 2 → Nat) a + S1x128.size a ≤ S128x128.size a
  inb_S128_S1_25 : ∀ a, (![25] : Fin 1 → Nat) a + S1.size a ≤ S128.size a
  inb_S128x128_S1x128_25_0 : ∀ a, (![25, 0] : Fin 2 → Nat) a + S1x128.size a ≤ S128x128.size a
  inb_S128_S1_26 : ∀ a, (![26] : Fin 1 → Nat) a + S1.size a ≤ S128.size a
  inb_S128x128_S1x128_26_0 : ∀ a, (![26, 0] : Fin 2 → Nat) a + S1x128.size a ≤ S128x128.size a
  inb_S128_S1_27 : ∀ a, (![27] : Fin 1 → Nat) a + S1.size a ≤ S128.size a
  inb_S128x128_S1x128_27_0 : ∀ a, (![27, 0] : Fin 2 → Nat) a + S1x128.size a ≤ S128x128.size a
  inb_S128_S1_28 : ∀ a, (![28] : Fin 1 → Nat) a + S1.size a ≤ S128.size a
  inb_S128x128_S1x128_28_0 : ∀ a, (![28, 0] : Fin 2 → Nat) a + S1x128.size a ≤ S128x128.size a
  inb_S128_S1_29 : ∀ a, (![29] : Fin 1 → Nat) a + S1.size a ≤ S128.size a
  inb_S128x128_S1x128_29_0 : ∀ a, (![29, 0] : Fin 2 → Nat) a + S1x128.size a ≤ S128x128.size a
  inb_S128_S1_30 : ∀ a, (![30] : Fin 1 → Nat) a + S1.size a ≤ S128.size a
  inb_S128x128_S1x128_30_0 : ∀ a, (![30, 0] : Fin 2 → Nat) a + S1x128.size a ≤ S128x128.size a
  inb_S128_S1_31 : ∀ a, (![31] : Fin 1 → Nat) a + S1.size a ≤ S128.size a
  inb_S128x128_S1x128_31_0 : ∀ a, (![31, 0] : Fin 2 → Nat) a + S1x128.size a ≤ S128x128.size a
  inb_S128_S1_32 : ∀ a, (![32] : Fin 1 → Nat) a + S1.size a ≤ S128.size a
  inb_S128x128_S1x128_32_0 : ∀ a, (![32, 0] : Fin 2 → Nat) a + S1x128.size a ≤ S128x128.size a
  inb_S128_S1_33 : ∀ a, (![33] : Fin 1 → Nat) a + S1.size a ≤ S128.size a
  inb_S128x128_S1x128_33_0 : ∀ a, (![33, 0] : Fin 2 → Nat) a + S1x128.size a ≤ S128x128.size a
  inb_S128_S1_34 : ∀ a, (![34] : Fin 1 → Nat) a + S1.size a ≤ S128.size a
  inb_S128x128_S1x128_34_0 : ∀ a, (![34, 0] : Fin 2 → Nat) a + S1x128.size a ≤ S128x128.size a
  inb_S128_S1_35 : ∀ a, (![35] : Fin 1 → Nat) a + S1.size a ≤ S128.size a
  inb_S128x128_S1x128_35_0 : ∀ a, (![35, 0] : Fin 2 → Nat) a + S1x128.size a ≤ S128x128.size a
  inb_S128_S1_36 : ∀ a, (![36] : Fin 1 → Nat) a + S1.size a ≤ S128.size a
  inb_S128x128_S1x128_36_0 : ∀ a, (![36, 0] : Fin 2 → Nat) a + S1x128.size a ≤ S128x128.size a
  inb_S128_S1_37 : ∀ a, (![37] : Fin 1 → Nat) a + S1.size a ≤ S128.size a
  inb_S128x128_S1x128_37_0 : ∀ a, (![37, 0] : Fin 2 → Nat) a + S1x128.size a ≤ S128x128.size a
  inb_S128_S1_38 : ∀ a, (![38] : Fin 1 → Nat) a + S1.size a ≤ S128.size a
  inb_S128x128_S1x128_38_0 : ∀ a, (![38, 0] : Fin 2 → Nat) a + S1x128.size a ≤ S128x128.size a
  inb_S128_S1_39 : ∀ a, (![39] : Fin 1 → Nat) a + S1.size a ≤ S128.size a
  inb_S128x128_S1x128_39_0 : ∀ a, (![39, 0] : Fin 2 → Nat) a + S1x128.size a ≤ S128x128.size a
  inb_S128_S1_40 : ∀ a, (![40] : Fin 1 → Nat) a + S1.size a ≤ S128.size a
  inb_S128x128_S1x128_40_0 : ∀ a, (![40, 0] : Fin 2 → Nat) a + S1x128.size a ≤ S128x128.size a
  inb_S128_S1_41 : ∀ a, (![41] : Fin 1 → Nat) a + S1.size a ≤ S128.size a
  inb_S128x128_S1x128_41_0 : ∀ a, (![41, 0] : Fin 2 → Nat) a + S1x128.size a ≤ S128x128.size a
  inb_S128_S1_42 : ∀ a, (![42] : Fin 1 → Nat) a + S1.size a ≤ S128.size a
  inb_S128x128_S1x128_42_0 : ∀ a, (![42, 0] : Fin 2 → Nat) a + S1x128.size a ≤ S128x128.size a
  inb_S128_S1_43 : ∀ a, (![43] : Fin 1 → Nat) a + S1.size a ≤ S128.size a
  inb_S128x128_S1x128_43_0 : ∀ a, (![43, 0] : Fin 2 → Nat) a + S1x128.size a ≤ S128x128.size a
  inb_S128_S1_44 : ∀ a, (![44] : Fin 1 → Nat) a + S1.size a ≤ S128.size a
  inb_S128x128_S1x128_44_0 : ∀ a, (![44, 0] : Fin 2 → Nat) a + S1x128.size a ≤ S128x128.size a
  inb_S128_S1_45 : ∀ a, (![45] : Fin 1 → Nat) a + S1.size a ≤ S128.size a
  inb_S128x128_S1x128_45_0 : ∀ a, (![45, 0] : Fin 2 → Nat) a + S1x128.size a ≤ S128x128.size a
  inb_S128_S1_46 : ∀ a, (![46] : Fin 1 → Nat) a + S1.size a ≤ S128.size a
  inb_S128x128_S1x128_46_0 : ∀ a, (![46, 0] : Fin 2 → Nat) a + S1x128.size a ≤ S128x128.size a
  inb_S128_S1_47 : ∀ a, (![47] : Fin 1 → Nat) a + S1.size a ≤ S128.size a
  inb_S128x128_S1x128_47_0 : ∀ a, (![47, 0] : Fin 2 → Nat) a + S1x128.size a ≤ S128x128.size a
  inb_S128_S1_48 : ∀ a, (![48] : Fin 1 → Nat) a + S1.size a ≤ S128.size a
  inb_S128x128_S1x128_48_0 : ∀ a, (![48, 0] : Fin 2 → Nat) a + S1x128.size a ≤ S128x128.size a
  inb_S128_S1_49 : ∀ a, (![49] : Fin 1 → Nat) a + S1.size a ≤ S128.size a
  inb_S128x128_S1x128_49_0 : ∀ a, (![49, 0] : Fin 2 → Nat) a + S1x128.size a ≤ S128x128.size a
  inb_S128_S1_50 : ∀ a, (![50] : Fin 1 → Nat) a + S1.size a ≤ S128.size a
  inb_S128x128_S1x128_50_0 : ∀ a, (![50, 0] : Fin 2 → Nat) a + S1x128.size a ≤ S128x128.size a
  inb_S128_S1_51 : ∀ a, (![51] : Fin 1 → Nat) a + S1.size a ≤ S128.size a
  inb_S128x128_S1x128_51_0 : ∀ a, (![51, 0] : Fin 2 → Nat) a + S1x128.size a ≤ S128x128.size a
  inb_S128_S1_52 : ∀ a, (![52] : Fin 1 → Nat) a + S1.size a ≤ S128.size a
  inb_S128x128_S1x128_52_0 : ∀ a, (![52, 0] : Fin 2 → Nat) a + S1x128.size a ≤ S128x128.size a
  inb_S128_S1_53 : ∀ a, (![53] : Fin 1 → Nat) a + S1.size a ≤ S128.size a
  inb_S128x128_S1x128_53_0 : ∀ a, (![53, 0] : Fin 2 → Nat) a + S1x128.size a ≤ S128x128.size a
  inb_S128_S1_54 : ∀ a, (![54] : Fin 1 → Nat) a + S1.size a ≤ S128.size a
  inb_S128x128_S1x128_54_0 : ∀ a, (![54, 0] : Fin 2 → Nat) a + S1x128.size a ≤ S128x128.size a
  inb_S128_S1_55 : ∀ a, (![55] : Fin 1 → Nat) a + S1.size a ≤ S128.size a
  inb_S128x128_S1x128_55_0 : ∀ a, (![55, 0] : Fin 2 → Nat) a + S1x128.size a ≤ S128x128.size a
  inb_S128_S1_56 : ∀ a, (![56] : Fin 1 → Nat) a + S1.size a ≤ S128.size a
  inb_S128x128_S1x128_56_0 : ∀ a, (![56, 0] : Fin 2 → Nat) a + S1x128.size a ≤ S128x128.size a
  inb_S128_S1_57 : ∀ a, (![57] : Fin 1 → Nat) a + S1.size a ≤ S128.size a
  inb_S128x128_S1x128_57_0 : ∀ a, (![57, 0] : Fin 2 → Nat) a + S1x128.size a ≤ S128x128.size a
  inb_S128_S1_58 : ∀ a, (![58] : Fin 1 → Nat) a + S1.size a ≤ S128.size a
  inb_S128x128_S1x128_58_0 : ∀ a, (![58, 0] : Fin 2 → Nat) a + S1x128.size a ≤ S128x128.size a
  inb_S128_S1_59 : ∀ a, (![59] : Fin 1 → Nat) a + S1.size a ≤ S128.size a
  inb_S128x128_S1x128_59_0 : ∀ a, (![59, 0] : Fin 2 → Nat) a + S1x128.size a ≤ S128x128.size a
  inb_S128_S1_60 : ∀ a, (![60] : Fin 1 → Nat) a + S1.size a ≤ S128.size a
  inb_S128x128_S1x128_60_0 : ∀ a, (![60, 0] : Fin 2 → Nat) a + S1x128.size a ≤ S128x128.size a
  inb_S128_S1_61 : ∀ a, (![61] : Fin 1 → Nat) a + S1.size a ≤ S128.size a
  inb_S128x128_S1x128_61_0 : ∀ a, (![61, 0] : Fin 2 → Nat) a + S1x128.size a ≤ S128x128.size a
  inb_S128_S1_62 : ∀ a, (![62] : Fin 1 → Nat) a + S1.size a ≤ S128.size a
  inb_S128x128_S1x128_62_0 : ∀ a, (![62, 0] : Fin 2 → Nat) a + S1x128.size a ≤ S128x128.size a
  inb_S128_S1_63 : ∀ a, (![63] : Fin 1 → Nat) a + S1.size a ≤ S128.size a
  inb_S128x128_S1x128_63_0 : ∀ a, (![63, 0] : Fin 2 → Nat) a + S1x128.size a ≤ S128x128.size a
  inb_S128_S1_64 : ∀ a, (![64] : Fin 1 → Nat) a + S1.size a ≤ S128.size a
  inb_S128x128_S1x128_64_0 : ∀ a, (![64, 0] : Fin 2 → Nat) a + S1x128.size a ≤ S128x128.size a
  inb_S128_S1_65 : ∀ a, (![65] : Fin 1 → Nat) a + S1.size a ≤ S128.size a
  inb_S128x128_S1x128_65_0 : ∀ a, (![65, 0] : Fin 2 → Nat) a + S1x128.size a ≤ S128x128.size a
  inb_S128_S1_66 : ∀ a, (![66] : Fin 1 → Nat) a + S1.size a ≤ S128.size a
  inb_S128x128_S1x128_66_0 : ∀ a, (![66, 0] : Fin 2 → Nat) a + S1x128.size a ≤ S128x128.size a
  inb_S128_S1_67 : ∀ a, (![67] : Fin 1 → Nat) a + S1.size a ≤ S128.size a
  inb_S128x128_S1x128_67_0 : ∀ a, (![67, 0] : Fin 2 → Nat) a + S1x128.size a ≤ S128x128.size a
  inb_S128_S1_68 : ∀ a, (![68] : Fin 1 → Nat) a + S1.size a ≤ S128.size a
  inb_S128x128_S1x128_68_0 : ∀ a, (![68, 0] : Fin 2 → Nat) a + S1x128.size a ≤ S128x128.size a
  inb_S128_S1_69 : ∀ a, (![69] : Fin 1 → Nat) a + S1.size a ≤ S128.size a
  inb_S128x128_S1x128_69_0 : ∀ a, (![69, 0] : Fin 2 → Nat) a + S1x128.size a ≤ S128x128.size a
  inb_S128_S1_70 : ∀ a, (![70] : Fin 1 → Nat) a + S1.size a ≤ S128.size a
  inb_S128x128_S1x128_70_0 : ∀ a, (![70, 0] : Fin 2 → Nat) a + S1x128.size a ≤ S128x128.size a
  inb_S128_S1_71 : ∀ a, (![71] : Fin 1 → Nat) a + S1.size a ≤ S128.size a
  inb_S128x128_S1x128_71_0 : ∀ a, (![71, 0] : Fin 2 → Nat) a + S1x128.size a ≤ S128x128.size a
  inb_S128_S1_72 : ∀ a, (![72] : Fin 1 → Nat) a + S1.size a ≤ S128.size a
  inb_S128x128_S1x128_72_0 : ∀ a, (![72, 0] : Fin 2 → Nat) a + S1x128.size a ≤ S128x128.size a
  inb_S128_S1_73 : ∀ a, (![73] : Fin 1 → Nat) a + S1.size a ≤ S128.size a
  inb_S128x128_S1x128_73_0 : ∀ a, (![73, 0] : Fin 2 → Nat) a + S1x128.size a ≤ S128x128.size a
  inb_S128_S1_74 : ∀ a, (![74] : Fin 1 → Nat) a + S1.size a ≤ S128.size a
  inb_S128x128_S1x128_74_0 : ∀ a, (![74, 0] : Fin 2 → Nat) a + S1x128.size a ≤ S128x128.size a
  inb_S128_S1_75 : ∀ a, (![75] : Fin 1 → Nat) a + S1.size a ≤ S128.size a
  inb_S128x128_S1x128_75_0 : ∀ a, (![75, 0] : Fin 2 → Nat) a + S1x128.size a ≤ S128x128.size a
  inb_S128_S1_76 : ∀ a, (![76] : Fin 1 → Nat) a + S1.size a ≤ S128.size a
  inb_S128x128_S1x128_76_0 : ∀ a, (![76, 0] : Fin 2 → Nat) a + S1x128.size a ≤ S128x128.size a
  inb_S128_S1_77 : ∀ a, (![77] : Fin 1 → Nat) a + S1.size a ≤ S128.size a
  inb_S128x128_S1x128_77_0 : ∀ a, (![77, 0] : Fin 2 → Nat) a + S1x128.size a ≤ S128x128.size a
  inb_S128_S1_78 : ∀ a, (![78] : Fin 1 → Nat) a + S1.size a ≤ S128.size a
  inb_S128x128_S1x128_78_0 : ∀ a, (![78, 0] : Fin 2 → Nat) a + S1x128.size a ≤ S128x128.size a
  inb_S128_S1_79 : ∀ a, (![79] : Fin 1 → Nat) a + S1.size a ≤ S128.size a
  inb_S128x128_S1x128_79_0 : ∀ a, (![79, 0] : Fin 2 → Nat) a + S1x128.size a ≤ S128x128.size a
  inb_S128_S1_80 : ∀ a, (![80] : Fin 1 → Nat) a + S1.size a ≤ S128.size a
  inb_S128x128_S1x128_80_0 : ∀ a, (![80, 0] : Fin 2 → Nat) a + S1x128.size a ≤ S128x128.size a
  inb_S128_S1_81 : ∀ a, (![81] : Fin 1 → Nat) a + S1.size a ≤ S128.size a
  inb_S128x128_S1x128_81_0 : ∀ a, (![81, 0] : Fin 2 → Nat) a + S1x128.size a ≤ S128x128.size a
  inb_S128_S1_82 : ∀ a, (![82] : Fin 1 → Nat) a + S1.size a ≤ S128.size a
  inb_S128x128_S1x128_82_0 : ∀ a, (![82, 0] : Fin 2 → Nat) a + S1x128.size a ≤ S128x128.size a
  inb_S128_S1_83 : ∀ a, (![83] : Fin 1 → Nat) a + S1.size a ≤ S128.size a
  inb_S128x128_S1x128_83_0 : ∀ a, (![83, 0] : Fin 2 → Nat) a + S1x128.size a ≤ S128x128.size a
  inb_S128_S1_84 : ∀ a, (![84] : Fin 1 → Nat) a + S1.size a ≤ S128.size a
  inb_S128x128_S1x128_84_0 : ∀ a, (![84, 0] : Fin 2 → Nat) a + S1x128.size a ≤ S128x128.size a
  inb_S128_S1_85 : ∀ a, (![85] : Fin 1 → Nat) a + S1.size a ≤ S128.size a
  inb_S128x128_S1x128_85_0 : ∀ a, (![85, 0] : Fin 2 → Nat) a + S1x128.size a ≤ S128x128.size a
  inb_S128_S1_86 : ∀ a, (![86] : Fin 1 → Nat) a + S1.size a ≤ S128.size a
  inb_S128x128_S1x128_86_0 : ∀ a, (![86, 0] : Fin 2 → Nat) a + S1x128.size a ≤ S128x128.size a
  inb_S128_S1_87 : ∀ a, (![87] : Fin 1 → Nat) a + S1.size a ≤ S128.size a
  inb_S128x128_S1x128_87_0 : ∀ a, (![87, 0] : Fin 2 → Nat) a + S1x128.size a ≤ S128x128.size a
  inb_S128_S1_88 : ∀ a, (![88] : Fin 1 → Nat) a + S1.size a ≤ S128.size a
  inb_S128x128_S1x128_88_0 : ∀ a, (![88, 0] : Fin 2 → Nat) a + S1x128.size a ≤ S128x128.size a
  inb_S128_S1_89 : ∀ a, (![89] : Fin 1 → Nat) a + S1.size a ≤ S128.size a
  inb_S128x128_S1x128_89_0 : ∀ a, (![89, 0] : Fin 2 → Nat) a + S1x128.size a ≤ S128x128.size a
  inb_S128_S1_90 : ∀ a, (![90] : Fin 1 → Nat) a + S1.size a ≤ S128.size a
  inb_S128x128_S1x128_90_0 : ∀ a, (![90, 0] : Fin 2 → Nat) a + S1x128.size a ≤ S128x128.size a
  inb_S128_S1_91 : ∀ a, (![91] : Fin 1 → Nat) a + S1.size a ≤ S128.size a
  inb_S128x128_S1x128_91_0 : ∀ a, (![91, 0] : Fin 2 → Nat) a + S1x128.size a ≤ S128x128.size a
  inb_S128_S1_92 : ∀ a, (![92] : Fin 1 → Nat) a + S1.size a ≤ S128.size a
  inb_S128x128_S1x128_92_0 : ∀ a, (![92, 0] : Fin 2 → Nat) a + S1x128.size a ≤ S128x128.size a
  inb_S128_S1_93 : ∀ a, (![93] : Fin 1 → Nat) a + S1.size a ≤ S128.size a
  inb_S128x128_S1x128_93_0 : ∀ a, (![93, 0] : Fin 2 → Nat) a + S1x128.size a ≤ S128x128.size a
  inb_S128_S1_94 : ∀ a, (![94] : Fin 1 → Nat) a + S1.size a ≤ S128.size a
  inb_S128x128_S1x128_94_0 : ∀ a, (![94, 0] : Fin 2 → Nat) a + S1x128.size a ≤ S128x128.size a
  inb_S128_S1_95 : ∀ a, (![95] : Fin 1 → Nat) a + S1.size a ≤ S128.size a
  inb_S128x128_S1x128_95_0 : ∀ a, (![95, 0] : Fin 2 → Nat) a + S1x128.size a ≤ S128x128.size a
  inb_S128_S1_96 : ∀ a, (![96] : Fin 1 → Nat) a + S1.size a ≤ S128.size a
  inb_S128x128_S1x128_96_0 : ∀ a, (![96, 0] : Fin 2 → Nat) a + S1x128.size a ≤ S128x128.size a
  inb_S128_S1_97 : ∀ a, (![97] : Fin 1 → Nat) a + S1.size a ≤ S128.size a
  inb_S128x128_S1x128_97_0 : ∀ a, (![97, 0] : Fin 2 → Nat) a + S1x128.size a ≤ S128x128.size a
  inb_S128_S1_98 : ∀ a, (![98] : Fin 1 → Nat) a + S1.size a ≤ S128.size a
  inb_S128x128_S1x128_98_0 : ∀ a, (![98, 0] : Fin 2 → Nat) a + S1x128.size a ≤ S128x128.size a
  inb_S128_S1_99 : ∀ a, (![99] : Fin 1 → Nat) a + S1.size a ≤ S128.size a
  inb_S128x128_S1x128_99_0 : ∀ a, (![99, 0] : Fin 2 → Nat) a + S1x128.size a ≤ S128x128.size a
  inb_S128_S1_100 : ∀ a, (![100] : Fin 1 → Nat) a + S1.size a ≤ S128.size a
  inb_S128x128_S1x128_100_0 : ∀ a, (![100, 0] : Fin 2 → Nat) a + S1x128.size a ≤ S128x128.size a
  inb_S128_S1_101 : ∀ a, (![101] : Fin 1 → Nat) a + S1.size a ≤ S128.size a
  inb_S128x128_S1x128_101_0 : ∀ a, (![101, 0] : Fin 2 → Nat) a + S1x128.size a ≤ S128x128.size a
  inb_S128_S1_102 : ∀ a, (![102] : Fin 1 → Nat) a + S1.size a ≤ S128.size a
  inb_S128x128_S1x128_102_0 : ∀ a, (![102, 0] : Fin 2 → Nat) a + S1x128.size a ≤ S128x128.size a
  inb_S128_S1_103 : ∀ a, (![103] : Fin 1 → Nat) a + S1.size a ≤ S128.size a
  inb_S128x128_S1x128_103_0 : ∀ a, (![103, 0] : Fin 2 → Nat) a + S1x128.size a ≤ S128x128.size a
  inb_S128_S1_104 : ∀ a, (![104] : Fin 1 → Nat) a + S1.size a ≤ S128.size a
  inb_S128x128_S1x128_104_0 : ∀ a, (![104, 0] : Fin 2 → Nat) a + S1x128.size a ≤ S128x128.size a
  inb_S128_S1_105 : ∀ a, (![105] : Fin 1 → Nat) a + S1.size a ≤ S128.size a
  inb_S128x128_S1x128_105_0 : ∀ a, (![105, 0] : Fin 2 → Nat) a + S1x128.size a ≤ S128x128.size a
  inb_S128_S1_106 : ∀ a, (![106] : Fin 1 → Nat) a + S1.size a ≤ S128.size a
  inb_S128x128_S1x128_106_0 : ∀ a, (![106, 0] : Fin 2 → Nat) a + S1x128.size a ≤ S128x128.size a
  inb_S128_S1_107 : ∀ a, (![107] : Fin 1 → Nat) a + S1.size a ≤ S128.size a
  inb_S128x128_S1x128_107_0 : ∀ a, (![107, 0] : Fin 2 → Nat) a + S1x128.size a ≤ S128x128.size a
  inb_S128_S1_108 : ∀ a, (![108] : Fin 1 → Nat) a + S1.size a ≤ S128.size a
  inb_S128x128_S1x128_108_0 : ∀ a, (![108, 0] : Fin 2 → Nat) a + S1x128.size a ≤ S128x128.size a
  inb_S128_S1_109 : ∀ a, (![109] : Fin 1 → Nat) a + S1.size a ≤ S128.size a
  inb_S128x128_S1x128_109_0 : ∀ a, (![109, 0] : Fin 2 → Nat) a + S1x128.size a ≤ S128x128.size a
  inb_S128_S1_110 : ∀ a, (![110] : Fin 1 → Nat) a + S1.size a ≤ S128.size a
  inb_S128x128_S1x128_110_0 : ∀ a, (![110, 0] : Fin 2 → Nat) a + S1x128.size a ≤ S128x128.size a
  inb_S128_S1_111 : ∀ a, (![111] : Fin 1 → Nat) a + S1.size a ≤ S128.size a
  inb_S128x128_S1x128_111_0 : ∀ a, (![111, 0] : Fin 2 → Nat) a + S1x128.size a ≤ S128x128.size a
  inb_S128_S1_112 : ∀ a, (![112] : Fin 1 → Nat) a + S1.size a ≤ S128.size a
  inb_S128x128_S1x128_112_0 : ∀ a, (![112, 0] : Fin 2 → Nat) a + S1x128.size a ≤ S128x128.size a
  inb_S128_S1_113 : ∀ a, (![113] : Fin 1 → Nat) a + S1.size a ≤ S128.size a
  inb_S128x128_S1x128_113_0 : ∀ a, (![113, 0] : Fin 2 → Nat) a + S1x128.size a ≤ S128x128.size a
  inb_S128_S1_114 : ∀ a, (![114] : Fin 1 → Nat) a + S1.size a ≤ S128.size a
  inb_S128x128_S1x128_114_0 : ∀ a, (![114, 0] : Fin 2 → Nat) a + S1x128.size a ≤ S128x128.size a
  inb_S128_S1_115 : ∀ a, (![115] : Fin 1 → Nat) a + S1.size a ≤ S128.size a
  inb_S128x128_S1x128_115_0 : ∀ a, (![115, 0] : Fin 2 → Nat) a + S1x128.size a ≤ S128x128.size a
  inb_S128_S1_116 : ∀ a, (![116] : Fin 1 → Nat) a + S1.size a ≤ S128.size a
  inb_S128x128_S1x128_116_0 : ∀ a, (![116, 0] : Fin 2 → Nat) a + S1x128.size a ≤ S128x128.size a
  inb_S128_S1_117 : ∀ a, (![117] : Fin 1 → Nat) a + S1.size a ≤ S128.size a
  inb_S128x128_S1x128_117_0 : ∀ a, (![117, 0] : Fin 2 → Nat) a + S1x128.size a ≤ S128x128.size a
  inb_S128_S1_118 : ∀ a, (![118] : Fin 1 → Nat) a + S1.size a ≤ S128.size a
  inb_S128x128_S1x128_118_0 : ∀ a, (![118, 0] : Fin 2 → Nat) a + S1x128.size a ≤ S128x128.size a
  inb_S128_S1_119 : ∀ a, (![119] : Fin 1 → Nat) a + S1.size a ≤ S128.size a
  inb_S128x128_S1x128_119_0 : ∀ a, (![119, 0] : Fin 2 → Nat) a + S1x128.size a ≤ S128x128.size a
  inb_S128_S1_120 : ∀ a, (![120] : Fin 1 → Nat) a + S1.size a ≤ S128.size a
  inb_S128x128_S1x128_120_0 : ∀ a, (![120, 0] : Fin 2 → Nat) a + S1x128.size a ≤ S128x128.size a
  inb_S128_S1_121 : ∀ a, (![121] : Fin 1 → Nat) a + S1.size a ≤ S128.size a
  inb_S128x128_S1x128_121_0 : ∀ a, (![121, 0] : Fin 2 → Nat) a + S1x128.size a ≤ S128x128.size a
  inb_S128_S1_122 : ∀ a, (![122] : Fin 1 → Nat) a + S1.size a ≤ S128.size a
  inb_S128x128_S1x128_122_0 : ∀ a, (![122, 0] : Fin 2 → Nat) a + S1x128.size a ≤ S128x128.size a
  inb_S128_S1_123 : ∀ a, (![123] : Fin 1 → Nat) a + S1.size a ≤ S128.size a
  inb_S128x128_S1x128_123_0 : ∀ a, (![123, 0] : Fin 2 → Nat) a + S1x128.size a ≤ S128x128.size a
  inb_S128_S1_124 : ∀ a, (![124] : Fin 1 → Nat) a + S1.size a ≤ S128.size a
  inb_S128x128_S1x128_124_0 : ∀ a, (![124, 0] : Fin 2 → Nat) a + S1x128.size a ≤ S128x128.size a
  inb_S128_S1_125 : ∀ a, (![125] : Fin 1 → Nat) a + S1.size a ≤ S128.size a
  inb_S128x128_S1x128_125_0 : ∀ a, (![125, 0] : Fin 2 → Nat) a + S1x128.size a ≤ S128x128.size a
  inb_S128_S1_126 : ∀ a, (![126] : Fin 1 → Nat) a + S1.size a ≤ S128.size a
  inb_S128x128_S1x128_126_0 : ∀ a, (![126, 0] : Fin 2 → Nat) a + S1x128.size a ≤ S128x128.size a
  inb_S128_S1_127 : ∀ a, (![127] : Fin 1 → Nat) a + S1.size a ≤ S128.size a
  inb_S128x128_S1x128_127_0 : ∀ a, (![127, 0] : Fin 2 → Nat) a + S1x128.size a ≤ S128x128.size a
  inb_S128x128_S128x128_0_0 : ∀ a, (![0, 0] : Fin 2 → Nat) a + S128x128.size a ≤ S128x128.size a
  h_S128x128 : 0 < S128x128.numel
  inb_S128x384_S128x128_0_0 : ∀ a, (![0, 0] : Fin 2 → Nat) a + S128x128.size a ≤ S128x384.size a
  inb_S128x384_S128x128_0_128 : ∀ a, (![0, 128] : Fin 2 → Nat) a + S128x128.size a ≤ S128x384.size a
  inb_S128x384_S128x128_0_256 : ∀ a, (![0, 256] : Fin 2 → Nat) a + S128x128.size a ≤ S128x384.size a
  hcc0_scratch2 : 8 + S16.numel ≤ 40
  hcc0_scratch3 : 24 + S16.numel ≤ 40
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128.size a ≤ S524288.size a
  hwx0_0 : ∀ i : grid0.Coords, EltTy.bits .i32 = 32 ∨ (Rect.block (s := S524288) S128.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128.size a ≤ S524288.size a
  hwx0_1 : ∀ i : grid0.Coords, EltTy.bits .i32 = 32 ∨ (Rect.block (s := S524288) S128.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S524288x128.size a
  hwx0_2 : ∀ i : grid0.Coords, EltTy.bits .f32 = 32 ∨ (Rect.block (s := S524288x128) S128x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_4 i = cc0_transform_4 i'
  hinb0_3 : ∀ (i : grid0.Coords) a, (cc0_transform_4 i a + 1) * S128x384.size a ≤ S524288x384.size a
  hwx0_3 : ∀ i : grid0.Coords, EltTy.bits .f32 = 32 ∨ (Rect.block (s := S524288x384) S128x384.size (cc0_transform_4 i) (hinb0_3 i)).WholeWords (EltTy.packing .f32)

variable [Facts₀]

abbrev cc0_scratch2 : DmaSems sig S16 := SemArray.consecutive 8 S16 hcc0_scratch2
abbrev cc0_scratch3 : DmaSems sig S16 := SemArray.consecutive 24 S16 hcc0_scratch3

abbrev win0_0 : Pipeline.Window sig grid0 :=
  Pipeline.Window.ofSpec (Memref.whole main_v1) S128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S128x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S128x384.size cc0_transform_4 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S262144x128 : Shape := ⟨2, ![262144, 128]⟩
abbrev S524288x128 : Shape := ⟨2, ![524288, 128]⟩
abbrev S524288x2 : Shape := ⟨2, ![524288, 2]⟩
abbrev S524288x1 : Shape := ⟨2, ![524288, 1]⟩
abbrev S524288 : Shape := ⟨1, ![524288]⟩
abbrev S_ : Shape := ⟨0, ![]⟩
abbrev S524288x384 : Shape := ⟨2, ![524288, 384]⟩

abbrev nBuf : Space → Nat
  | .hbm => 32
  | .vmem => 0
  | .smem => 0
  | _ => 0

abbrev bufTy : (tb : Table) → Fin (tcTables nBuf tb) → BufTy
  | .hbm, ⟨0, _⟩ => ⟨S262144x128, .f32⟩
  | .hbm, ⟨1, _⟩ => ⟨S524288x128, .f32⟩
  | .hbm, ⟨2, _⟩ => ⟨S524288x2, .i32⟩
  | .hbm, ⟨3, _⟩ => ⟨S524288x1, .i32⟩
  | .hbm, ⟨4, _⟩ => ⟨S524288, .i32⟩
  | .hbm, ⟨5, _⟩ => ⟨S_, .i32⟩
  | .hbm, ⟨6, _⟩ => ⟨S524288, .i32⟩
  | .hbm, ⟨7, _⟩ => ⟨S524288, .i1⟩
  | .hbm, ⟨8, _⟩ => ⟨S_, .i32⟩
  | .hbm, ⟨9, _⟩ => ⟨S524288, .i32⟩
  | .hbm, ⟨10, _⟩ => ⟨S524288, .i32⟩
  | .hbm, ⟨11, _⟩ => ⟨S524288, .i32⟩
  | .hbm, ⟨12, _⟩ => ⟨S524288x1, .i32⟩
  | .hbm, ⟨13, _⟩ => ⟨S524288x128, .f32⟩
  | .hbm, ⟨14, _⟩ => ⟨S524288x1, .i32⟩
  | .hbm, ⟨15, _⟩ => ⟨S524288, .i32⟩
  | .hbm, ⟨16, _⟩ => ⟨S_, .i32⟩
  | .hbm, ⟨17, _⟩ => ⟨S524288, .i32⟩
  | .hbm, ⟨18, _⟩ => ⟨S524288, .i1⟩
  | .hbm, ⟨19, _⟩ => ⟨S_, .i32⟩
  | .hbm, ⟨20, _⟩ => ⟨S524288, .i32⟩
  | .hbm, ⟨21, _⟩ => ⟨S524288, .i32⟩
  | .hbm, ⟨22, _⟩ => ⟨S524288, .i32⟩
  | .hbm, ⟨23, _⟩ => ⟨S524288x1, .i32⟩
  | .hbm, ⟨24, _⟩ => ⟨S524288x128, .f32⟩
  | .hbm, ⟨25, _⟩ => ⟨S524288x128, .f32⟩
  | .hbm, ⟨26, _⟩ => ⟨S_, .f32⟩
  | .hbm, ⟨27, _⟩ => ⟨S524288x128, .f32⟩
  | .hbm, ⟨28, _⟩ => ⟨S524288x128, .f32⟩
  | .hbm, ⟨29, _⟩ => ⟨S524288x128, .f32⟩
  | .hbm, ⟨30, _⟩ => ⟨S524288x128, .f32⟩
  | .hbm, ⟨31, _⟩ => ⟨S524288x384, .f32⟩
  | _, _ => ⟨S262144x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_c_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_c_1 : Ref sig .tc := ⟨.hbm, 16, rfl⟩
abbrev main_v11 : Ref sig .tc := ⟨.hbm, 17, rfl⟩
abbrev main_v12 : Ref sig .tc := ⟨.hbm, 18, rfl⟩
abbrev main_c_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩

abbrev nD : Nat := 1
abbrev τ : Topo := Topo.v7x

variable {F : FTy → Type} [FloatOps F]

class Facts₀ : Prop where
  slices_S524288x2_S524288x1_0_0 : S524288x2.Slices ![0, 0] S524288x1
  shapeCasts_S524288x1_S524288 : S524288x1.ShapeCasts S524288
  bcast_S_S524288 : S_.BroadcastsInDim S524288 (![] : Fin 0 → Fin S524288.rank)
  bcast_S524288_S524288x1_0 : S524288.BroadcastsInDim S524288x1 (![0] : Fin 1 → Fin S524288x1.rank)
  slices_S524288x2_S524288x1_0_1 : S524288x2.Slices ![0, 1] S524288x1
  bcast_S_S524288x128 : S_.BroadcastsInDim S524288x128 (![] : Fin 0 → Fin S524288x128.rank)
  concatenates_S524288x128_S524288x128_S524288x128_S524288x384_d1 : Shape.Concatenates [S524288x128, S524288x128, S524288x128] S524288x384 1
  gather_S262144x128_S524288x1_S524288x128_1_0_n_n_0_1_1128_wf : GatherDims.WF S262144x128 S524288x1 S524288x128 [1] [0] [] [0] [] 1 ![1, 128]

variable [Facts₀]

def gather_S262144x128_S524288x1_S524288x128_1_0_n_n_0_1_1128 : GatherDims S262144x128 S524288x1 S524288x128 where
  offsetDims := [1]
  collapsedSliceDims := [0]
  operandBatchingDims := []
  startIndicesBatchingDims := []
  startIndexMap := [0]
  indexVectorDim := 1
  sliceSizes := ![1, 128]
  wf := gather_S262144x128_S524288x1_S524288x128_1_0_n_n_0_1_1128_wf

class Facts : Prop extends Facts₀ where

variable [Facts]
-- ==== Proof.LibRows.lean ====
/-
  A two-dimensional buffer held row by row.
  A whole [R, C] buffer's elements are the disjoint union of its R rows, so a points-to on the whole buffer is the
  separating conjunction of R points-tos, one per row (`rows_split`), each stated over the buffer's own view and the
  row's rectangle. If each row is then overwritten whole through its own one-row slice with the unit axis squeezed away
  (what a row copy's delivery leaves: a write of a [C] payload through the squeezed slice), the rows join back into a
  points-to on the whole buffer whose contents read, at (j, k), payload j at k, whatever each row held before
  (`rows_join_written`): a row's write covers the row, so the earlier contents of the row no longer matter. The contents
  are given as the raw contents of a WHOLE memref that read that function (`Memref.IsWhole.unread`).
  General lemmas over any sizes; they import no program.
-/
import Idealize.ShloMosaic.Lib.Pipeline.Frame
import Idealize.ShloMosaic.Lib.ValueIdx

noncomputable section

namespace Idealize.ShloMosaic.RowsOf

open Idealize.SL
open Idealize.SL.BI (sProp bigSep)
open scoped Idealize.SL.BI
open Idealize.SL.BI.BIBase Idealize.SL.BI.Laws Idealize.SL.Sem Idealize.SL.ProofMode
open Idealize.SL.RA
open Idealize.ShloMosaic.ValueIdx

variable {nD : Nat} {τ : Topo} {sig : RefSig} {Val : EltTy → Type}
variable {Ix : Type} [DecidableEq Ix] {Name : Type} [DecidableEq Name] {U : Type} [URA U] {Lvl : Type}
local notation "𝕄" => MT nD τ sig Ix Val Name U Lvl

variable {sp : Space} {e : EltTy} {R C : ℕ}

/-- The shape [R, C]. -/
abbrev S2 (R C : ℕ) : Shape := ⟨2, ![R, C]⟩
/-- The shape [C]. -/
abbrev S1 (C : ℕ) : Shape := ⟨1, ![C]⟩

/-- Row j of an [R, C] shape is inside it. -/
theorem row_inb (R C j : ℕ) (hj : j < R) :
    ∀ a, (![j, 0] : Fin 2 → ℕ) a + (![1, C] : Fin 2 → ℕ) a ≤ (S2 R C).size a :=
  Rect.inb₂ (by show j + 1 ≤ R; omega) (by show 0 + C ≤ C; omega)

/-- Row j's rectangle: one row from row j, all C columns. -/
abbrev rowRect (R C : ℕ) (j : Fin R) : Rect (S2 R C) := Rect.unit ![j.val, 0] ![1, C] (row_inb R C j.val j.isLt)

/-- An index is in row j's rectangle exactly when its row is j. -/
theorem mem_rowRect {j : Fin R} {i : (S2 R C).Idx} : i ∈ (rowRect R C j).set ↔ (i 0).val = j.val := by
  rw [Rect.mem_set_unit]
  constructor
  · intro h
    have h0 : j.val ≤ (i 0).val ∧ (i 0).val < j.val + 1 := h 0
    omega
  · intro h a
    match a with
    | ⟨0, _⟩ => exact (show j.val ≤ (i 0).val ∧ (i 0).val < j.val + 1 by omega)
    | ⟨1, _⟩ => exact (show 0 ≤ (i 1).val ∧ (i 1).val < 0 + C from ⟨Nat.zero_le _, by have := idx2_lt1 i; omega⟩)

section Sets
variable (c : Thread nD τ) (v : View sig c.2.kind sp (S2 R C) e)

/-- Two different rows share no element. -/
theorem rows_disjoint {j j' : Fin R} (h : j ≠ j') :
    Disjoint (v.setOn (rowRect R C j).set) (v.setOn (rowRect R C j').set) := by
  unfold View.setOn
  rw [Finset.disjoint_map, Finset.disjoint_left]
  intro i hi hi'
  rw [mem_rowRect] at hi hi'
  exact h (Fin.ext (hi.symm.trans hi'))

/-- The rows together are the view's elements. -/
theorem rows_cover : (Finset.univ : Finset (Fin R)).biUnion (fun j => v.setOn (rowRect R C j).set) = v.set := by
  ext x
  simp only [Finset.mem_biUnion, Finset.mem_univ, true_and]
  constructor
  · rintro ⟨j, hj⟩; exact v.setOn_subset_set _ hj
  · intro hx
    obtain ⟨y, -, rfl⟩ := Finset.mem_map.mp hx
    exact ⟨⟨(y 0).val, idx2_lt0 y⟩, v.mem_setOn.mpr (mem_rowRect.mpr rfl)⟩

variable (q : PosShare TreeShare)

/-- A points-to on the whole view is its rows' points-tos, at the same contents. -/
theorem rows_split (f : Buf Val (v.loc c)) :
    (v.loc c ↦[v.set]{q} f : sProp 𝕄)
      = bigSep Finset.univ (fun j : Fin R => v.loc c ↦[v.setOn (rowRect R C j).set]{q} f) := by
  have h := pointsTo_biUnion (Ix := Ix) (Name := Name) (U := U) (Lvl := Lvl) (ℓ := v.loc c) (q := q) (f := f) Finset.univ
    (fun j : Fin R => v.setOn (rowRect R C j).set) (fun j _ j' _ h => rows_disjoint c v h)
  rw [rows_cover] at h
  exact h

/-- Rows held at contents that each agree with G on their own row join into the whole view at G. -/
theorem rows_join (fs : Fin R → Buf Val (v.loc c)) (G : Buf Val (v.loc c))
    (hG : ∀ (j : Fin R) (y : (S2 R C).Idx), (y 0).val = j.val → fs j (v.emb y) = G (v.emb y)) :
    bigSep Finset.univ (fun j : Fin R => (v.loc c ↦[v.setOn (rowRect R C j).set]{q} fs j : sProp 𝕄))
      ⊢ (v.loc c ↦[v.set]{q} G : sProp 𝕄) := by
  have e : (fun j : Fin R => (v.loc c ↦[v.setOn (rowRect R C j).set]{q} fs j : sProp 𝕄))
      = fun j => v.loc c ↦[v.setOn (rowRect R C j).set]{q} G := by
    funext j
    refine pointsTo_congr (fun i hi => ?_)
    obtain ⟨y, hy, rfl⟩ := Finset.mem_map.mp hi
    exact hG j y (mem_rowRect.mp hy)
  rw [e, ← rows_split]

end Sets

section Written
variable (c : Thread nD τ) (M : Memref sig c.2.kind sp (S2 R C) e)

/-- Lane k of row j, as an index of the row's [1, C] slice. -/
theorem squeezed_lane (j : Fin R) (hs : (rowRect R C j).shape.Squeezes (S1 C)) (k : Fin C) :
    Shape.reshapeEquiv hs.numel_eq (ix1 k) = (ix2 (0 : Fin 1) k : (⟨2, ![1, C]⟩ : Shape).Idx) := by
  refine Shape.reshapeEquiv_eq_of_rowMajor _ ?_
  have h2 := Shape.rowMajor_val_two (d := ![1, C]) (ix2 (0 : Fin 1) k)
  have h1 := Shape.rowMajor_val_one (d := ![C]) (ix1 k)
  show ((⟨2, ![1, C]⟩ : Shape).rowMajor (ix2 (0 : Fin 1) k)).val = ((⟨1, ![C]⟩ : Shape).rowMajor (ix1 k)).val
  rw [h2, h1]
  show 0 * C + k.val = k.val
  omega

/-- An index of row j is lane (its column) of row j's squeezed slice. -/
theorem row_emb (j : Fin R) (hs : (rowRect R C j).shape.Squeezes (S1 C)) (y : (S2 R C).Idx) (hy : (y 0).val = j.val) :
    (rowRect R C j).emb (Shape.reshapeEquiv hs.numel_eq (ix1 ⟨(y 1).val, idx2_lt1 y⟩)) = y := by
  rw [squeezed_lane j hs]
  funext a
  refine Fin.ext ?_
  rw [Rect.emb_apply]
  match a with
  | ⟨0, _⟩ => show j.val + 1 * 0 = (y 0).val; omega
  | ⟨1, _⟩ => show 0 + 1 * (y 1).val = (y 1).val; omega

/-- After a write of a [C] payload through row j's squeezed slice, the buffer read at an index of row j is the payload
    at the index's column, whatever was there before. -/
theorem read_row_written (j : Fin R) (hr : ∀ a, (rowRect R C j).stride a = 1)
    (hs : (rowRect R C j).shape.Squeezes (S1 C)) (base : M.view.ty.Contents Val) (pay : (S1 C).Idx → Val e)
    (y : (S2 R C).Idx) (hy : (y 0).val = j.val) :
    M.view.read Val (((M.slice (rowRect R C j) hr).squeeze (S1 C) hs).view.write Val base pay Finset.univ) y
      = pay (ix1 ⟨(y 1).val, idx2_lt1 y⟩) := by
  have key := congrFun (View.read_write_univ (v := ((M.slice (rowRect R C j) hr).squeeze (S1 C) hs).view) base pay)
    (ix1 ⟨(y 1).val, idx2_lt1 y⟩)
  rw [← key]
  conv_lhs => rw [← row_emb j hs y hy]
  rfl

/-- Two raw contents of a view's buffer that read alike at an index are alike at the element under it. -/
theorem eq_at_of_read_eq (g₁ g₂ : M.view.ty.Contents Val) (y : (S2 R C).Idx)
    (h : M.view.read Val g₁ y = M.view.read Val g₂ y) : g₁ (M.view.emb y) = g₂ (M.view.emb y) := by
  rw [View.read_apply, View.read_apply] at h
  exact (cast_inj _).1 h

variable (hM : M.IsWhole) (q : PosShare TreeShare)

/-- ROWS WRITTEN ONE BY ONE JOIN: each row held at some contents overwritten through the row's squeezed slice with its
    own payload; together they are the whole buffer at the contents reading, at (j, k), payload j at k. -/
theorem rows_join_written (hr : ∀ (j : Fin R) a, (rowRect R C j).stride a = 1)
    (hs : ∀ j : Fin R, (rowRect R C j).shape.Squeezes (S1 C))
    (bases : Fin R → M.view.ty.Contents Val) (pays : Fin R → (S1 C).Idx → Val e) :
    bigSep Finset.univ (fun j : Fin R => (M.view.loc c ↦[M.view.setOn (rowRect R C j).set]{q}
        ((M.slice (rowRect R C j) (hr j)).squeeze (S1 C) (hs j)).view.write Val (bases j) (pays j) Finset.univ : sProp 𝕄))
      ⊢ (M.view.loc c ↦[M.view.set]{q}
          hM.unread (fun y => pays ⟨(y 0).val, idx2_lt0 y⟩ (ix1 ⟨(y 1).val, idx2_lt1 y⟩)) : sProp 𝕄) := by
  refine rows_join c M.view q _ _ (fun j y hy => ?_)
  refine eq_at_of_read_eq c M _ _ y ?_
  rw [read_row_written c M j (hr j) (hs j) (bases j) (pays j) y hy, hM.read_unread]
  have ej : (⟨(y 0).val, idx2_lt0 y⟩ : Fin R) = j := Fin.ext hy
  rw [ej]

end Written

end Idealize.ShloMosaic.RowsOf

end
-- ==== Proof.Rows128.lean ====
/-
  A whole [128, 128] buffer as 128 row hypotheses, and back.
  `split128`: a points-to on the whole buffer is the chain of its 128 rows' points-tos at the same contents.
  `join128`: 128 rows, row j held at some contents overwritten through row j's squeezed slice with payload j, are a
  points-to on the whole buffer whose contents read payload j at k in place (j, k).
  Both are LibRows' `rows_split` / `rows_join_written` with the separating conjunction over the 128 rows written out.
-/
import proofs.«419661_j18640158064908_1_alg».proof.Proof.LibRows
import Idealize.ShloMosaic.Lib.Pipeline.Kit

set_option maxRecDepth 65536

noncomputable section

namespace Idealize.ShloMosaic.RowsOf

open Idealize.SL
open Idealize.SL.BI (sProp bigSep)
open scoped Idealize.SL.BI
open Idealize.SL.BI.BIBase Idealize.SL.BI.Laws Idealize.SL.Sem Idealize.SL.ProofMode
open Idealize.SL.RA
open Idealize.ShloMosaic.ValueIdx

variable {nD : Nat} {τ : Topo} {sig : RefSig} {Val : EltTy → Type}
variable {Ix : Type} [DecidableEq Ix] {Name : Type} [DecidableEq Name] {U : Type} [URA U] {Lvl : Type}
local notation "𝕄" => MT nD τ sig Ix Val Name U Lvl

variable {sp : Space} {e : EltTy}
variable (c : Thread nD τ) (M : Memref sig c.2.kind sp (S2 128 128) e) (q : PosShare TreeShare)

/-- A [1, 128] slice squeezes to [128]. -/
theorem sq128 : (⟨2, ![1, 128]⟩ : Shape).Squeezes (S1 128) := by decide

/-- Row j of the buffer held at contents f. -/
abbrev rowAt (j : ℕ) (hj : j < 128) (f : M.view.ty.Contents Val) : sProp 𝕄 :=
  M.view.loc c ↦[M.view.setOn (Rect.unit (s := S2 128 128) ![j, 0] ![1, 128] (row_inb 128 128 j hj)).set]{q} f

/-- Row j of the buffer held at contents b overwritten through row j's squeezed slice with the payload p. -/
abbrev rowWritten (j : ℕ) (hj : j < 128) (b : M.view.ty.Contents Val) (p : (S1 128).Idx → Val e) : sProp 𝕄 :=
  M.view.loc c ↦[M.view.setOn (Rect.unit (s := S2 128 128) ![j, 0] ![1, 128] (row_inb 128 128 j hj)).set]{q}
    ((M.slice (Rect.unit (s := S2 128 128) ![j, 0] ![1, 128] (row_inb 128 128 j hj)) (fun _ => rfl)).squeeze (S1 128) sq128).view.write
      Val b p Finset.univ

/-- The 128 rows, listed. -/
theorem univ128 : (Finset.univ : Finset (Fin 128)) = ([0, 1, 2, 3, 4, 5, 6, 7, 8, 9, 10, 11, 12, 13, 14, 15, 16, 17, 18, 19, 20, 21, 22, 23, 24, 25, 26, 27, 28, 29, 30, 31, 32, 33, 34, 35, 36, 37, 38, 39, 40, 41, 42, 43, 44, 45, 46, 47, 48, 49, 50, 51, 52, 53, 54, 55, 56, 57, 58, 59, 60, 61, 62, 63, 64, 65, 66, 67, 68, 69, 70, 71, 72, 73, 74, 75, 76, 77, 78, 79, 80, 81, 82, 83, 84, 85, 86, 87, 88, 89, 90, 91, 92, 93, 94, 95, 96, 97, 98, 99, 100, 101, 102, 103, 104, 105, 106, 107, 108, 109, 110, 111, 112, 113, 114, 115, 116, 117, 118, 119, 120, 121, 122, 123, 124, 125, 126, 127] : List (Fin 128)).toFinset := by decide
theorem nodup128 : ([0, 1, 2, 3, 4, 5, 6, 7, 8, 9, 10, 11, 12, 13, 14, 15, 16, 17, 18, 19, 20, 21, 22, 23, 24, 25, 26, 27, 28, 29, 30, 31, 32, 33, 34, 35, 36, 37, 38, 39, 40, 41, 42, 43, 44, 45, 46, 47, 48, 49, 50, 51, 52, 53, 54, 55, 56, 57, 58, 59, 60, 61, 62, 63, 64, 65, 66, 67, 68, 69, 70, 71, 72, 73, 74, 75, 76, 77, 78, 79, 80, 81, 82, 83, 84, 85, 86, 87, 88, 89, 90, 91, 92, 93, 94, 95, 96, 97, 98, 99, 100, 101, 102, 103, 104, 105, 106, 107, 108, 109, 110, 111, 112, 113, 114, 115, 116, 117, 118, 119, 120, 121, 122, 123, 124, 125, 126, 127] : List (Fin 128)).Nodup := by decide

/-- The whole buffer's points-to is its 128 rows' points-tos. -/
theorem split128 (f : M.view.ty.Contents Val) :
    (M.view.loc c ↦[M.view.set]{q} f : sProp 𝕄) ⊢ iprop(rowAt c M q 0 (by decide) f ∗ rowAt c M q 1 (by decide) f ∗ rowAt c M q 2 (by decide) f ∗ rowAt c M q 3 (by decide) f ∗ rowAt c M q 4 (by decide) f ∗ rowAt c M q 5 (by decide) f ∗ rowAt c M q 6 (by decide) f ∗ rowAt c M q 7 (by decide) f ∗ rowAt c M q 8 (by decide) f ∗ rowAt c M q 9 (by decide) f ∗ rowAt c M q 10 (by decide) f ∗ rowAt c M q 11 (by decide) f ∗ rowAt c M q 12 (by decide) f ∗ rowAt c M q 13 (by decide) f ∗ rowAt c M q 14 (by decide) f ∗ rowAt c M q 15 (by decide) f ∗ rowAt c M q 16 (by decide) f ∗ rowAt c M q 17 (by decide) f ∗ rowAt c M q 18 (by decide) f ∗ rowAt c M q 19 (by decide) f ∗ rowAt c M q 20 (by decide) f ∗ rowAt c M q 21 (by decide) f ∗ rowAt c M q 22 (by decide) f ∗ rowAt c M q 23 (by decide) f ∗ rowAt c M q 24 (by decide) f ∗ rowAt c M q 25 (by decide) f ∗ rowAt c M q 26 (by decide) f ∗ rowAt c M q 27 (by decide) f ∗ rowAt c M q 28 (by decide) f ∗ rowAt c M q 29 (by decide) f ∗ rowAt c M q 30 (by decide) f ∗ rowAt c M q 31 (by decide) f ∗ rowAt c M q 32 (by decide) f ∗ rowAt c M q 33 (by decide) f ∗ rowAt c M q 34 (by decide) f ∗ rowAt c M q 35 (by decide) f ∗ rowAt c M q 36 (by decide) f ∗ rowAt c M q 37 (by decide) f ∗ rowAt c M q 38 (by decide) f ∗ rowAt c M q 39 (by decide) f ∗ rowAt c M q 40 (by decide) f ∗ rowAt c M q 41 (by decide) f ∗ rowAt c M q 42 (by decide) f ∗ rowAt c M q 43 (by decide) f ∗ rowAt c M q 44 (by decide) f ∗ rowAt c M q 45 (by decide) f ∗ rowAt c M q 46 (by decide) f ∗ rowAt c M q 47 (by decide) f ∗ rowAt c M q 48 (by decide) f ∗ rowAt c M q 49 (by decide) f ∗ rowAt c M q 50 (by decide) f ∗ rowAt c M q 51 (by decide) f ∗ rowAt c M q 52 (by decide) f ∗ rowAt c M q 53 (by decide) f ∗ rowAt c M q 54 (by decide) f ∗ rowAt c M q 55 (by decide) f ∗ rowAt c M q 56 (by decide) f ∗ rowAt c M q 57 (by decide) f ∗ rowAt c M q 58 (by decide) f ∗ rowAt c M q 59 (by decide) f ∗ rowAt c M q 60 (by decide) f ∗ rowAt c M q 61 (by decide) f ∗ rowAt c M q 62 (by decide) f ∗ rowAt c M q 63 (by decide) f ∗ rowAt c M q 64 (by decide) f ∗ rowAt c M q 65 (by decide) f ∗ rowAt c M q 66 (by decide) f ∗ rowAt c M q 67 (by decide) f ∗ rowAt c M q 68 (by decide) f ∗ rowAt c M q 69 (by decide) f ∗ rowAt c M q 70 (by decide) f ∗ rowAt c M q 71 (by decide) f ∗ rowAt c M q 72 (by decide) f ∗ rowAt c M q 73 (by decide) f ∗ rowAt c M q 74 (by decide) f ∗ rowAt c M q 75 (by decide) f ∗ rowAt c M q 76 (by decide) f ∗ rowAt c M q 77 (by decide) f ∗ rowAt c M q 78 (by decide) f ∗ rowAt c M q 79 (by decide) f ∗ rowAt c M q 80 (by decide) f ∗ rowAt c M q 81 (by decide) f ∗ rowAt c M q 82 (by decide) f ∗ rowAt c M q 83 (by decide) f ∗ rowAt c M q 84 (by decide) f ∗ rowAt c M q 85 (by decide) f ∗ rowAt c M q 86 (by decide) f ∗ rowAt c M q 87 (by decide) f ∗ rowAt c M q 88 (by decide) f ∗ rowAt c M q 89 (by decide) f ∗ rowAt c M q 90 (by decide) f ∗ rowAt c M q 91 (by decide) f ∗ rowAt c M q 92 (by decide) f ∗ rowAt c M q 93 (by decide) f ∗ rowAt c M q 94 (by decide) f ∗ rowAt c M q 95 (by decide) f ∗ rowAt c M q 96 (by decide) f ∗ rowAt c M q 97 (by decide) f ∗ rowAt c M q 98 (by decide) f ∗ rowAt c M q 99 (by decide) f ∗ rowAt c M q 100 (by decide) f ∗ rowAt c M q 101 (by decide) f ∗ rowAt c M q 102 (by decide) f ∗ rowAt c M q 103 (by decide) f ∗ rowAt c M q 104 (by decide) f ∗ rowAt c M q 105 (by decide) f ∗ rowAt c M q 106 (by decide) f ∗ rowAt c M q 107 (by decide) f ∗ rowAt c M q 108 (by decide) f ∗ rowAt c M q 109 (by decide) f ∗ rowAt c M q 110 (by decide) f ∗ rowAt c M q 111 (by decide) f ∗ rowAt c M q 112 (by decide) f ∗ rowAt c M q 113 (by decide) f ∗ rowAt c M q 114 (by decide) f ∗ rowAt c M q 115 (by decide) f ∗ rowAt c M q 116 (by decide) f ∗ rowAt c M q 117 (by decide) f ∗ rowAt c M q 118 (by decide) f ∗ rowAt c M q 119 (by decide) f ∗ rowAt c M q 120 (by decide) f ∗ rowAt c M q 121 (by decide) f ∗ rowAt c M q 122 (by decide) f ∗ rowAt c M q 123 (by decide) f ∗ rowAt c M q 124 (by decide) f ∗ rowAt c M q 125 (by decide) f ∗ rowAt c M q 126 (by decide) f ∗ rowAt c M q 127 (by decide) f) :=
  (Entails.of_eq (rows_split c M.view q f)).trans
    (Entails.of_eq (by rw [BI.bigSep_eq_bigSepL_of_eq ([0, 1, 2, 3, 4, 5, 6, 7, 8, 9, 10, 11, 12, 13, 14, 15, 16, 17, 18, 19, 20, 21, 22, 23, 24, 25, 26, 27, 28, 29, 30, 31, 32, 33, 34, 35, 36, 37, 38, 39, 40, 41, 42, 43, 44, 45, 46, 47, 48, 49, 50, 51, 52, 53, 54, 55, 56, 57, 58, 59, 60, 61, 62, 63, 64, 65, 66, 67, 68, 69, 70, 71, 72, 73, 74, 75, 76, 77, 78, 79, 80, 81, 82, 83, 84, 85, 86, 87, 88, 89, 90, 91, 92, 93, 94, 95, 96, 97, 98, 99, 100, 101, 102, 103, 104, 105, 106, 107, 108, 109, 110, 111, 112, 113, 114, 115, 116, 117, 118, 119, 120, 121, 122, 123, 124, 125, 126, 127] : List (Fin 128)) univ128 nodup128]; rfl))

/-- The contents the joined buffer holds: payload j at k in place (j, k). -/
abbrev joined (hM : M.IsWhole) (pays : Fin 128 → (S1 128).Idx → Val e) : M.view.ty.Contents Val :=
  hM.unread (fun y => pays ⟨(y 0).val, idx2_lt0 y⟩ (ix1 ⟨(y 1).val, idx2_lt1 y⟩))

/-- 128 written rows are the whole buffer at the joined contents. -/
theorem join128 (hM : M.IsWhole) {b0 b1 b2 b3 b4 b5 b6 b7 b8 b9 b10 b11 b12 b13 b14 b15 b16 b17 b18 b19 b20 b21 b22 b23 b24 b25 b26 b27 b28 b29 b30 b31 b32 b33 b34 b35 b36 b37 b38 b39 b40 b41 b42 b43 b44 b45 b46 b47 b48 b49 b50 b51 b52 b53 b54 b55 b56 b57 b58 b59 b60 b61 b62 b63 b64 b65 b66 b67 b68 b69 b70 b71 b72 b73 b74 b75 b76 b77 b78 b79 b80 b81 b82 b83 b84 b85 b86 b87 b88 b89 b90 b91 b92 b93 b94 b95 b96 b97 b98 b99 b100 b101 b102 b103 b104 b105 b106 b107 b108 b109 b110 b111 b112 b113 b114 b115 b116 b117 b118 b119 b120 b121 b122 b123 b124 b125 b126 b127 : M.view.ty.Contents Val} {p0 p1 p2 p3 p4 p5 p6 p7 p8 p9 p10 p11 p12 p13 p14 p15 p16 p17 p18 p19 p20 p21 p22 p23 p24 p25 p26 p27 p28 p29 p30 p31 p32 p33 p34 p35 p36 p37 p38 p39 p40 p41 p42 p43 p44 p45 p46 p47 p48 p49 p50 p51 p52 p53 p54 p55 p56 p57 p58 p59 p60 p61 p62 p63 p64 p65 p66 p67 p68 p69 p70 p71 p72 p73 p74 p75 p76 p77 p78 p79 p80 p81 p82 p83 p84 p85 p86 p87 p88 p89 p90 p91 p92 p93 p94 p95 p96 p97 p98 p99 p100 p101 p102 p103 p104 p105 p106 p107 p108 p109 p110 p111 p112 p113 p114 p115 p116 p117 p118 p119 p120 p121 p122 p123 p124 p125 p126 p127 : (S1 128).Idx → Val e} :
    iprop(rowWritten c M q 0 (by decide) b0 p0 ∗ rowWritten c M q 1 (by decide) b1 p1 ∗ rowWritten c M q 2 (by decide) b2 p2 ∗ rowWritten c M q 3 (by decide) b3 p3 ∗ rowWritten c M q 4 (by decide) b4 p4 ∗ rowWritten c M q 5 (by decide) b5 p5 ∗ rowWritten c M q 6 (by decide) b6 p6 ∗ rowWritten c M q 7 (by decide) b7 p7 ∗ rowWritten c M q 8 (by decide) b8 p8 ∗ rowWritten c M q 9 (by decide) b9 p9 ∗ rowWritten c M q 10 (by decide) b10 p10 ∗ rowWritten c M q 11 (by decide) b11 p11 ∗ rowWritten c M q 12 (by decide) b12 p12 ∗ rowWritten c M q 13 (by decide) b13 p13 ∗ rowWritten c M q 14 (by decide) b14 p14 ∗ rowWritten c M q 15 (by decide) b15 p15 ∗ rowWritten c M q 16 (by decide) b16 p16 ∗ rowWritten c M q 17 (by decide) b17 p17 ∗ rowWritten c M q 18 (by decide) b18 p18 ∗ rowWritten c M q 19 (by decide) b19 p19 ∗ rowWritten c M q 20 (by decide) b20 p20 ∗ rowWritten c M q 21 (by decide) b21 p21 ∗ rowWritten c M q 22 (by decide) b22 p22 ∗ rowWritten c M q 23 (by decide) b23 p23 ∗ rowWritten c M q 24 (by decide) b24 p24 ∗ rowWritten c M q 25 (by decide) b25 p25 ∗ rowWritten c M q 26 (by decide) b26 p26 ∗ rowWritten c M q 27 (by decide) b27 p27 ∗ rowWritten c M q 28 (by decide) b28 p28 ∗ rowWritten c M q 29 (by decide) b29 p29 ∗ rowWritten c M q 30 (by decide) b30 p30 ∗ rowWritten c M q 31 (by decide) b31 p31 ∗ rowWritten c M q 32 (by decide) b32 p32 ∗ rowWritten c M q 33 (by decide) b33 p33 ∗ rowWritten c M q 34 (by decide) b34 p34 ∗ rowWritten c M q 35 (by decide) b35 p35 ∗ rowWritten c M q 36 (by decide) b36 p36 ∗ rowWritten c M q 37 (by decide) b37 p37 ∗ rowWritten c M q 38 (by decide) b38 p38 ∗ rowWritten c M q 39 (by decide) b39 p39 ∗ rowWritten c M q 40 (by decide) b40 p40 ∗ rowWritten c M q 41 (by decide) b41 p41 ∗ rowWritten c M q 42 (by decide) b42 p42 ∗ rowWritten c M q 43 (by decide) b43 p43 ∗ rowWritten c M q 44 (by decide) b44 p44 ∗ rowWritten c M q 45 (by decide) b45 p45 ∗ rowWritten c M q 46 (by decide) b46 p46 ∗ rowWritten c M q 47 (by decide) b47 p47 ∗ rowWritten c M q 48 (by decide) b48 p48 ∗ rowWritten c M q 49 (by decide) b49 p49 ∗ rowWritten c M q 50 (by decide) b50 p50 ∗ rowWritten c M q 51 (by decide) b51 p51 ∗ rowWritten c M q 52 (by decide) b52 p52 ∗ rowWritten c M q 53 (by decide) b53 p53 ∗ rowWritten c M q 54 (by decide) b54 p54 ∗ rowWritten c M q 55 (by decide) b55 p55 ∗ rowWritten c M q 56 (by decide) b56 p56 ∗ rowWritten c M q 57 (by decide) b57 p57 ∗ rowWritten c M q 58 (by decide) b58 p58 ∗ rowWritten c M q 59 (by decide) b59 p59 ∗ rowWritten c M q 60 (by decide) b60 p60 ∗ rowWritten c M q 61 (by decide) b61 p61 ∗ rowWritten c M q 62 (by decide) b62 p62 ∗ rowWritten c M q 63 (by decide) b63 p63 ∗ rowWritten c M q 64 (by decide) b64 p64 ∗ rowWritten c M q 65 (by decide) b65 p65 ∗ rowWritten c M q 66 (by decide) b66 p66 ∗ rowWritten c M q 67 (by decide) b67 p67 ∗ rowWritten c M q 68 (by decide) b68 p68 ∗ rowWritten c M q 69 (by decide) b69 p69 ∗ rowWritten c M q 70 (by decide) b70 p70 ∗ rowWritten c M q 71 (by decide) b71 p71 ∗ rowWritten c M q 72 (by decide) b72 p72 ∗ rowWritten c M q 73 (by decide) b73 p73 ∗ rowWritten c M q 74 (by decide) b74 p74 ∗ rowWritten c M q 75 (by decide) b75 p75 ∗ rowWritten c M q 76 (by decide) b76 p76 ∗ rowWritten c M q 77 (by decide) b77 p77 ∗ rowWritten c M q 78 (by decide) b78 p78 ∗ rowWritten c M q 79 (by decide) b79 p79 ∗ rowWritten c M q 80 (by decide) b80 p80 ∗ rowWritten c M q 81 (by decide) b81 p81 ∗ rowWritten c M q 82 (by decide) b82 p82 ∗ rowWritten c M q 83 (by decide) b83 p83 ∗ rowWritten c M q 84 (by decide) b84 p84 ∗ rowWritten c M q 85 (by decide) b85 p85 ∗ rowWritten c M q 86 (by decide) b86 p86 ∗ rowWritten c M q 87 (by decide) b87 p87 ∗ rowWritten c M q 88 (by decide) b88 p88 ∗ rowWritten c M q 89 (by decide) b89 p89 ∗ rowWritten c M q 90 (by decide) b90 p90 ∗ rowWritten c M q 91 (by decide) b91 p91 ∗ rowWritten c M q 92 (by decide) b92 p92 ∗ rowWritten c M q 93 (by decide) b93 p93 ∗ rowWritten c M q 94 (by decide) b94 p94 ∗ rowWritten c M q 95 (by decide) b95 p95 ∗ rowWritten c M q 96 (by decide) b96 p96 ∗ rowWritten c M q 97 (by decide) b97 p97 ∗ rowWritten c M q 98 (by decide) b98 p98 ∗ rowWritten c M q 99 (by decide) b99 p99 ∗ rowWritten c M q 100 (by decide) b100 p100 ∗ rowWritten c M q 101 (by decide) b101 p101 ∗ rowWritten c M q 102 (by decide) b102 p102 ∗ rowWritten c M q 103 (by decide) b103 p103 ∗ rowWritten c M q 104 (by decide) b104 p104 ∗ rowWritten c M q 105 (by decide) b105 p105 ∗ rowWritten c M q 106 (by decide) b106 p106 ∗ rowWritten c M q 107 (by decide) b107 p107 ∗ rowWritten c M q 108 (by decide) b108 p108 ∗ rowWritten c M q 109 (by decide) b109 p109 ∗ rowWritten c M q 110 (by decide) b110 p110 ∗ rowWritten c M q 111 (by decide) b111 p111 ∗ rowWritten c M q 112 (by decide) b112 p112 ∗ rowWritten c M q 113 (by decide) b113 p113 ∗ rowWritten c M q 114 (by decide) b114 p114 ∗ rowWritten c M q 115 (by decide) b115 p115 ∗ rowWritten c M q 116 (by decide) b116 p116 ∗ rowWritten c M q 117 (by decide) b117 p117 ∗ rowWritten c M q 118 (by decide) b118 p118 ∗ rowWritten c M q 119 (by decide) b119 p119 ∗ rowWritten c M q 120 (by decide) b120 p120 ∗ rowWritten c M q 121 (by decide) b121 p121 ∗ rowWritten c M q 122 (by decide) b122 p122 ∗ rowWritten c M q 123 (by decide) b123 p123 ∗ rowWritten c M q 124 (by decide) b124 p124 ∗ rowWritten c M q 125 (by decide) b125 p125 ∗ rowWritten c M q 126 (by decide) b126 p126 ∗ rowWritten c M q 127 (by decide) b127 p127)
      ⊢ (M.view.loc c ↦[M.view.set]{q} joined c M hM (![p0, p1, p2, p3, p4, p5, p6, p7, p8, p9, p10, p11, p12, p13, p14, p15, p16, p17, p18, p19, p20, p21, p22, p23, p24, p25, p26, p27, p28, p29, p30, p31, p32, p33, p34, p35, p36, p37, p38, p39, p40, p41, p42, p43, p44, p45, p46, p47, p48, p49, p50, p51, p52, p53, p54, p55, p56, p57, p58, p59, p60, p61, p62, p63, p64, p65, p66, p67, p68, p69, p70, p71, p72, p73, p74, p75, p76, p77, p78, p79, p80, p81, p82, p83, p84, p85, p86, p87, p88, p89, p90, p91, p92, p93, p94, p95, p96, p97, p98, p99, p100, p101, p102, p103, p104, p105, p106, p107, p108, p109, p110, p111, p112, p113, p114, p115, p116, p117, p118, p119, p120, p121, p122, p123, p124, p125, p126, p127] : Fin 128 → (S1 128).Idx → Val e) : sProp 𝕄) :=
  (Entails.of_eq (by rw [BI.bigSep_eq_bigSepL_of_eq ([0, 1, 2, 3, 4, 5, 6, 7, 8, 9, 10, 11, 12, 13, 14, 15, 16, 17, 18, 19, 20, 21, 22, 23, 24, 25, 26, 27, 28, 29, 30, 31, 32, 33, 34, 35, 36, 37, 38, 39, 40, 41, 42, 43, 44, 45, 46, 47, 48, 49, 50, 51, 52, 53, 54, 55, 56, 57, 58, 59, 60, 61, 62, 63, 64, 65, 66, 67, 68, 69, 70, 71, 72, 73, 74, 75, 76, 77, 78, 79, 80, 81, 82, 83, 84, 85, 86, 87, 88, 89, 90, 91, 92, 93, 94, 95, 96, 97, 98, 99, 100, 101, 102, 103, 104, 105, 106, 107, 108, 109, 110, 111, 112, 113, 114, 115, 116, 117, 118, 119, 120, 121, 122, 123, 124, 125, 126, 127] : List (Fin 128)) univ128 nodup128]; rfl)).trans
    (rows_join_written c M hM q (fun _ _ => rfl) (fun _ => sq128) (![b0, b1, b2, b3, b4, b5, b6, b7, b8, b9, b10, b11, b12, b13, b14, b15, b16, b17, b18, b19, b20, b21, b22, b23, b24, b25, b26, b27, b28, b29, b30, b31, b32, b33, b34, b35, b36, b37, b38, b39, b40, b41, b42, b43, b44, b45, b46, b47, b48, b49, b50, b51, b52, b53, b54, b55, b56, b57, b58, b59, b60, b61, b62, b63, b64, b65, b66, b67, b68, b69, b70, b71, b72, b73, b74, b75, b76, b77, b78, b79, b80, b81, b82, b83, b84, b85, b86, b87, b88, b89, b90, b91, b92, b93, b94, b95, b96, b97, b98, b99, b100, b101, b102, b103, b104, b105, b106, b107, b108, b109, b110, b111, b112, b113, b114, b115, b116, b117, b118, b119, b120, b121, b122, b123, b124, b125, b126, b127] : Fin 128 → M.view.ty.Contents Val) ![p0, p1, p2, p3, p4, p5, p6, p7, p8, p9, p10, p11, p12, p13, p14, p15, p16, p17, p18, p19, p20, p21, p22, p23, p24, p25, p26, p27, p28, p29, p30, p31, p32, p33, p34, p35, p36, p37, p38, p39, p40, p41, p42, p43, p44, p45, p46, p47, p48, p49, p50, p51, p52, p53, p54, p55, p56, p57, p58, p59, p60, p61, p62, p63, p64, p65, p66, p67, p68, p69, p70, p71, p72, p73, p74, p75, p76, p77, p78, p79, p80, p81, p82, p83, p84, p85, p86, p87, p88, p89, p90, p91, p92, p93, p94, p95, p96, p97, p98, p99, p100, p101, p102, p103, p104, p105, p106, p107, p108, p109, p110, p111, p112, p113, p114, p115, p116, p117, p118, p119, p120, p121, p122, p123, p124, p125, p126, p127])

end Idealize.ShloMosaic.RowsOf

end
-- ==== Proof.IndexRange.lean ====
/-
  The precondition read at one entry of the index array. `finite_inputs` ends in a conjunct
  `all((atom_idx ≥ 0) ∧ (atom_idx < 262144))`: a reduction by `and` over the whole [524288, 2] array of the two signed
  comparisons, joined by `and` to the two finiteness reductions. If the predicate is 1, the last conjunct is 1; a
  reduction by `and` that is 1 had a 1 at every index; and a 32-bit word that is ≥ 0 and < 262144 as a SIGNED number is
  below 262144 as an UNSIGNED one (a negative word would read ≥ 2³¹ unsigned, but it is excluded by the first comparison).
  So every entry of the index array, read as a natural number, names a row of the [262144, 128] feature array.
  Stated for any float instance: the index array is an integer array and the comparisons do not look at floats.
-/
import proofs.«419661_j18640158064908_1_alg».proof.Pre_finite_inputs
import Idealize.ShloMosaic.Lib.ReduceAll

namespace Cert.IndexRange

open Idealize.ShloMosaic Cert.Pre_finite_inputs

/-- A rank-0 array has one index. -/
instance : Subsingleton S_.Idx := ⟨fun a b => funext fun d => d.elim0⟩

/-- A word in [0, 262144) as a signed number is below 262144 as an unsigned one. -/
theorem toNat_lt_of_signed (w : BitVec 32) (h0 : (0#32).toInt ≤ w.toInt) (h1 : w.toInt < (262144#32).toInt) :
    w.toNat < 262144 := by
  have e0 : (0#32).toInt = 0 := by decide
  have e1 : (262144#32).toInt = 262144 := by decide
  rw [e0] at h0
  rw [e1] at h1
  have hlt := w.isLt
  rw [BitVec.toInt_eq_toNat_cond] at h0 h1
  split at h0 <;> split at h1 <;> omega

/-- Under the precondition every entry of the index array is below 262144 (unsigned). -/
theorem idx_lt {F : FTy → Type} [FloatOps F] [Facts] (a0 : FVec F S262144x128 .f32) (a1 : FVec F S524288x128 .f32)
    (a2 : IVec S524288x2 32) (h : fn (F := F) a0 a1 a2 = fun _ => 1#1) (i : S524288x2.Idx) : (a2 i).toNat < 262144 := by
  have e := congrFun h (fun d => d.elim0)
  dsimp only [fn] at e
  obtain ⟨-, e3⟩ := IntOp.andi_eq_one.1 e
  have e4 := Host.reduce_andi_all _ _ _ _ _ e3 i
  obtain ⟨hge, hlt⟩ := IntOp.andi_eq_one.1 e4
  exact toNat_lt_of_signed (a2 i) (IntOp.cmpi_sge.1 hge) (IntOp.cmpi_slt.1 hlt)

end Cert.IndexRange
-- ==== Proof.KernelHyps.lean ====
/-
  The side conditions the kernel body assumes, from the range of the index array.
  At grid point t the body reads 128 words of each index column through the column's current staging buffer (a whole
  buffer holding block t of the column: rows 128·t … 128·t + 127) and, for each word w, slices row w of the
  [262144, 128] feature array, once for the copy's issue and once for its wait; the slice is inside the array exactly
  when w, read as a natural number, is below 262144. Each column is the index array's column 0 or 1 laid flat (a
  strided slice then a reshape, both re-indexings), so every word the body reads is an entry of the index array, and the
  entries are below 262144 by hypothesis. Stated for any float instance: nothing here looks at a float.
-/
import proofs.«419661_j18640158064908_1_alg».proof.Proof.Gen.Kernel.Frame.Runs
import proofs.«419661_j18640158064908_1_alg».proof.Proof.IndexRange
import Idealize.ShloMosaic.Lib.StableHlo.Run

set_option maxRecDepth 16384

noncomputable section

namespace Cert.Kernel.HypsOfPre

open Cert.Kernel Cert.Kernel.Gen
open Idealize.ShloMosaic Idealize.ShloMosaic.TcCoe Idealize.SL.Sem

variable {F : FTy → Type} [FloatOps F]
variable (m : (ℓ : Loc nD τ sig) → Buf (Elt F) ℓ)

/-- Every entry of the index array, on every core, names a row of the feature array. -/
def InRange : Prop :=
  ∀ (c : Dev nD) (i : S524288x2.Idx), (m ((c : Thread nD τ).loc main_arg2) i : BitVec 32).toNat < 262144

/-- Column 0 laid flat holds entries of the index array. -/
theorem col0_lt (h : InRange m) (c : Dev nD) (k : S524288.Idx) :
    ((V m c main_v1 : S524288.Idx → BitVec 32) k).toNat < 262144 := by
  obtain ⟨i, hi⟩ : ∃ i : S524288x2.Idx, (V m c main_v1 : S524288.Idx → BitVec 32) k = m ((c : Thread nD τ).loc main_arg2) i := by
    dsimp only [V, hostOps0]; after_results; exact ⟨_, rfl⟩
  rw [hi]; exact h c i

/-- Column 1 laid flat holds entries of the index array. -/
theorem col1_lt (h : InRange m) (c : Dev nD) (k : S524288.Idx) :
    ((V m c main_v3 : S524288.Idx → BitVec 32) k).toNat < 262144 := by
  obtain ⟨i, hi⟩ : ∃ i : S524288x2.Idx, (V m c main_v3 : S524288.Idx → BitVec 32) k = m ((c : Thread nD τ).loc main_arg2) i := by
    dsimp only [V, hostOps0]; after_results; exact ⟨_, rfl⟩
  rw [hi]; exact h c i

/-- Block t of column 0: each of its words is below 262144. -/
theorem blk0_lt (h : InRange m) (c : Dev nD) (t : Fin cfg0.N) (y : S128.Idx) :
    ((iblk m c 0 t : S128.Idx → BitVec 32) y).toNat < 262144 :=
  col0_lt m h c _

/-- Block t of column 1: each of its words is below 262144. -/
theorem blk1_lt (h : InRange m) (c : Dev nD) (t : Fin cfg0.N) (y : S128.Idx) :
    ((iblk m c 1 t : S128.Idx → BitVec 32) y).toNat < 262144 :=
  col1_lt m h c _

/-- A word loaded through a whole staging buffer that holds X is an entry of X. -/
theorem word_lt (M : Memref sig .tc .smem S128 .i32) (hM : M.IsWhole) (X : S128.Idx → BitVec 32)
    (hX : ∀ y, (X y).toNat < 262144) (r : LoadRect S128) (x : r.shape.Idx) :
    (M.view.readAt (Elt F) r (hM.unread X) x : BitVec 32).toNat < 262144 := by
  rw [View.readAt_apply, hM.read_unread]; exact hX _

/-- Row w of the [262144, 128] array is inside it when w < 262144: what the body assumes of each word, for the
    issue's slice and for the wait's. -/
theorem row_inb (v : BitVec 32) (hv : v.toNat < 262144) :
    ∀ a, (![v.toNat, 0] : Fin 2 → ℕ) a + S1x128.size a ≤ S262144x128.size a := by
  intro a
  fin_cases a
  · show v.toNat + 1 ≤ 262144
    omega
  · show 0 + 128 ≤ 128
    omega

-- the two blocks are told apart by their window's number alone: there is no need to look inside them
attribute [local irreducible] iblk in
set_option maxHeartbeats 4000000 in
/-- All 256 side conditions (two slices each), at every core and grid point. -/
theorem hyps_of_inRange (h : InRange m) : Hyps m := by
  intro c t
  have h0 := blk0_lt m h c t
  have h1 := blk1_lt m h c t
  repeat' constructor
  all_goals refine row_inb _ (word_lt (F := F) _ _ _ ?_ _ _)
  all_goals first | exact h0 | exact h1

end Cert.Kernel.HypsOfPre

end
-- ==== Proof.KernelIdealHyps.lean ====
/-
  The side conditions the kernel body assumes, from the range of the index array.
  At grid point t the body reads 128 words of each index column through the column's current staging buffer (a whole
  buffer holding block t of the column: rows 128·t … 128·t + 127) and, for each word w, slices row w of the
  [262144, 128] feature array, once for the copy's issue and once for its wait; the slice is inside the array exactly
  when w, read as a natural number, is below 262144. Each column is the index array's column 0 or 1 laid flat (a
  strided slice then a reshape, both re-indexings), so every word the body reads is an entry of the index array, and the
  entries are below 262144 by hypothesis. Stated for any float instance: nothing here looks at a float.
-/
import proofs.«419661_j18640158064908_1_alg».proof.Proof.Gen.KernelIdeal.Frame.Runs
import proofs.«419661_j18640158064908_1_alg».proof.Proof.IndexRange
import Idealize.ShloMosaic.Lib.StableHlo.Run

set_option maxRecDepth 16384

noncomputable section

namespace Cert.KernelIdeal.HypsOfPre

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ)

/-- Every entry of the index array, on every core, names a row of the feature array. -/
def InRange : Prop :=
  ∀ (c : Dev nD) (i : S524288x2.Idx), (m ((c : Thread nD τ).loc main_arg2) i : BitVec 32).toNat < 262144

/-- Column 0 laid flat holds entries of the index array. -/
theorem col0_lt (h : InRange m) (c : Dev nD) (k : S524288.Idx) :
    ((V m c main_v1 : S524288.Idx → BitVec 32) k).toNat < 262144 := by
  obtain ⟨i, hi⟩ : ∃ i : S524288x2.Idx, (V m c main_v1 : S524288.Idx → BitVec 32) k = m ((c : Thread nD τ).loc main_arg2) i := by
    dsimp only [V, hostOps0]; after_results; exact ⟨_, rfl⟩
  rw [hi]; exact h c i

/-- Column 1 laid flat holds entries of the index array. -/
theorem col1_lt (h : InRange m) (c : Dev nD) (k : S524288.Idx) :
    ((V m c main_v3 : S524288.Idx → BitVec 32) k).toNat < 262144 := by
  obtain ⟨i, hi⟩ : ∃ i : S524288x2.Idx, (V m c main_v3 : S524288.Idx → BitVec 32) k = m ((c : Thread nD τ).loc main_arg2) i := by
    dsimp only [V, hostOps0]; after_results; exact ⟨_, rfl⟩
  rw [hi]; exact h c i

/-- Block t of column 0: each of its words is below 262144. -/
theorem blk0_lt (h : InRange m) (c : Dev nD) (t : Fin cfg0.N) (y : S128.Idx) :
    ((iblk m c 0 t : S128.Idx → BitVec 32) y).toNat < 262144 :=
  col0_lt m h c _

/-- Block t of column 1: each of its words is below 262144. -/
theorem blk1_lt (h : InRange m) (c : Dev nD) (t : Fin cfg0.N) (y : S128.Idx) :
    ((iblk m c 1 t : S128.Idx → BitVec 32) y).toNat < 262144 :=
  col1_lt m h c _

/-- A word loaded through a whole staging buffer that holds X is an entry of X. -/
theorem word_lt (M : Memref sig .tc .smem S128 .i32) (hM : M.IsWhole) (X : S128.Idx → BitVec 32)
    (hX : ∀ y, (X y).toNat < 262144) (r : LoadRect S128) (x : r.shape.Idx) :
    (M.view.readAt (Elt F) r (hM.unread X) x : BitVec 32).toNat < 262144 := by
  rw [View.readAt_apply, hM.read_unread]; exact hX _

/-- Row w of the [262144, 128] array is inside it when w < 262144: what the body assumes of each word, for the
    issue's slice and for the wait's. -/
theorem row_inb (v : BitVec 32) (hv : v.toNat < 262144) :
    ∀ a, (![v.toNat, 0] : Fin 2 → ℕ) a + S1x128.size a ≤ S262144x128.size a := by
  intro a
  fin_cases a
  · show v.toNat + 1 ≤ 262144
    omega
  · show 0 + 128 ≤ 128
    omega

-- the two blocks are told apart by their window's number alone: there is no need to look inside them
attribute [local irreducible] iblk in
set_option maxHeartbeats 4000000 in
/-- All 256 side conditions (two slices each), at every core and grid point. -/
theorem hyps_of_inRange (h : InRange m) : Hyps m := by
  intro c t
  have h0 := blk0_lt m h c t
  have h1 := blk1_lt m h c t
  repeat' constructor
  all_goals refine row_inb _ (word_lt (F := F) _ _ _ ?_ _ _)
  all_goals first | exact h0 | exact h1

end Cert.KernelIdeal.HypsOfPre

end
-- ==== Proof.KernelIdealBlocks.lean ====
/-
  Where a grid point's blocks sit in the arrays.
  The grid has 4096 points on one axis; at point t each index column's window stages its block t (rows 128·t … 128·t+127
  of the column), the bond-feature window its block (t, 0) (the same rows, all 128 columns) and the output window its
  block (t, 0) (the same rows, all 384 columns): the printed index maps are decided once over the 4096 points. An index
  column is the index array's column 0 or 1 laid flat, so entry r of a column is the index array's entry (r, 0) or
  (r, 1). Hence lane j of an index block at point t is the index array at row 128·t + j, entry (j, q) of the bond block
  is the bond array at (128·t + j, q), and place (j, q) of the output block is place (128·t + j, q) of the output array.
  Stated for any float instance.
-/
import proofs.«419661_j18640158064908_1_alg».proof.Proof.Gen.KernelIdeal.Frame.Runs
import Idealize.ShloMosaic.Lib.StableHlo.Run
import Idealize.ShloMosaic.Lib.Pipeline.Value
import Idealize.ShloMosaic.Lib.ValueIdx

set_option maxRecDepth 16384

noncomputable section

namespace Cert.KernelIdeal.Blocks

open Cert.KernelIdeal Cert.KernelIdeal.Gen
open Idealize.ShloMosaic Idealize.ShloMosaic.TcCoe Idealize.SL.Sem Idealize.ShloMosaic.ValueIdx

variable {F : FTy → Type} [FloatOps F]
variable (m : (ℓ : Loc nD τ sig) → Buf (Elt F) ℓ)

/-- The printed index maps, decided over the 4096 points: every window's block index on the row axis is the point's
    position, and on the column axis (where there is one) it is 0. -/
theorem idx_facts : ∀ t : Fin cfg0.N, win0_0.index t ⟨0, by decide⟩ = t.val ∧ win0_1.index t ⟨0, by decide⟩ = t.val
    ∧ win0_2.index t ⟨0, by decide⟩ = t.val ∧ win0_2.index t ⟨1, by decide⟩ = 0
    ∧ win0_3.index t ⟨0, by decide⟩ = t.val ∧ win0_3.index t ⟨1, by decide⟩ = 0 :=
  (by decide +kernel : ∀ t : Fin grid0.N, win0_0.index t ⟨0, by decide⟩ = t.val ∧ win0_1.index t ⟨0, by decide⟩ = t.val
    ∧ win0_2.index t ⟨0, by decide⟩ = t.val ∧ win0_2.index t ⟨1, by decide⟩ = 0
    ∧ win0_3.index t ⟨0, by decide⟩ = t.val ∧ win0_3.index t ⟨1, by decide⟩ = 0)

/-- A point's position is below 4096. -/
theorem pt_lt (t : Fin cfg0.N) : t.val < 4096 := t.isLt

/-- Row 128·t + j of the arrays. -/
abbrev rowOf (t : Fin cfg0.N) (j : Fin 128) : Fin 524288 := ⟨t.val * 128 + j.val, by have := pt_lt t; omega⟩

/-- Entry r of index column 0 is the index array's entry (r, 0). -/
theorem col0_at (c : Dev nD) (r : Fin 524288) :
    (V m c main_v1 : S524288.Idx → BitVec 32) (ix1 r)
      = (m ((c : Thread nD τ).loc main_arg2) : S524288x2.Idx → BitVec 32) (ix2 r (0 : Fin 2)) := by
  have e : (V m c main_v1 : S524288.Idx → BitVec 32)
      = shapeCast S524288 (extractStridedSlice S524288x1 ![0, 0] (m ((c : Thread nD τ).loc main_arg2))
          slices_S524288x2_S524288x1_0_0) shapeCasts_S524288x1_S524288 := by
    dsimp only [V, hostOps0]; after_results; rfl
  rw [e]
  refine (shapeCast_apply _ shapeCasts_S524288x1_S524288 (ix1 r) (ix2 r (0 : Fin 1)) ?_).trans ?_
  · rw [Shape.rowMajor_val_two, Shape.rowMajor_val_one]
    show r.val * 1 + 0 = r.val
    omega
  · refine extractStridedSlice_apply ![0, 0] _ slices_S524288x2_S524288x1_0_0 (ix2 r (0 : Fin 1)) (ix2 r (0 : Fin 2)) ?_
    intro a
    match a with
    | ⟨0, _⟩ => show r.val = 0 + r.val; omega
    | ⟨1, _⟩ => show 0 = 0 + 0; omega

/-- Entry r of index column 1 is the index array's entry (r, 1). -/
theorem col1_at (c : Dev nD) (r : Fin 524288) :
    (V m c main_v3 : S524288.Idx → BitVec 32) (ix1 r)
      = (m ((c : Thread nD τ).loc main_arg2) : S524288x2.Idx → BitVec 32) (ix2 r (1 : Fin 2)) := by
  have e : (V m c main_v3 : S524288.Idx → BitVec 32)
      = shapeCast S524288 (extractStridedSlice S524288x1 ![0, 1] (m ((c : Thread nD τ).loc main_arg2))
          slices_S524288x2_S524288x1_0_1) shapeCasts_S524288x1_S524288 := by
    dsimp only [V, hostOps0]; after_results; rfl
  rw [e]
  refine (shapeCast_apply _ shapeCasts_S524288x1_S524288 (ix1 r) (ix2 r (0 : Fin 1)) ?_).trans ?_
  · rw [Shape.rowMajor_val_two, Shape.rowMajor_val_one]
    show r.val * 1 + 0 = r.val
    omega
  · refine extractStridedSlice_apply ![0, 1] _ slices_S524288x2_S524288x1_0_1 (ix2 r (0 : Fin 1)) (ix2 r (1 : Fin 2)) ?_
    intro a
    match a with
    | ⟨0, _⟩ => show r.val = 0 + r.val; omega
    | ⟨1, _⟩ => show 1 = 1 + 0; omega

/-- Lane j of index block 0 at point t is the index array at (128·t + j, 0). -/
theorem word0 (c : Dev nD) (t : Fin cfg0.N) (j : Fin 128) :
    (iblk m c 0 t : S128.Idx → BitVec 32) (ix1 j)
      = (m ((c : Thread nD τ).loc main_arg2) : S524288x2.Idx → BitVec 32) (ix2 (rowOf t j) (0 : Fin 2)) := by
  obtain ⟨e0, -⟩ := idx_facts t
  rw [← col0_at m c (rowOf t j)]
  show (V m c main_v1 : S524288.Idx → BitVec 32) (((cfg0.win 0).blk t).view.emb (ix1 j)) = _
  congr 1
  funext a
  apply Fin.ext
  match a with
  | ⟨0, _⟩ => show win0_0.index t ⟨0, by decide⟩ * 128 + 1 * j.val = t.val * 128 + j.val; rw [e0]; omega

/-- Lane j of index block 1 at point t is the index array at (128·t + j, 1). -/
theorem word1 (c : Dev nD) (t : Fin cfg0.N) (j : Fin 128) :
    (iblk m c 1 t : S128.Idx → BitVec 32) (ix1 j)
      = (m ((c : Thread nD τ).loc main_arg2) : S524288x2.Idx → BitVec 32) (ix2 (rowOf t j) (1 : Fin 2)) := by
  obtain ⟨-, e1, -⟩ := idx_facts t
  rw [← col1_at m c (rowOf t j)]
  show (V m c main_v3 : S524288.Idx → BitVec 32) (((cfg0.win 1).blk t).view.emb (ix1 j)) = _
  congr 1
  funext a
  apply Fin.ext
  match a with
  | ⟨0, _⟩ => show win0_1.index t ⟨0, by decide⟩ * 128 + 1 * j.val = t.val * 128 + j.val; rw [e1]; omega

/-- Entry (j, q) of the bond block at point t is the bond array at (128·t + j, q). -/
theorem bond_at (c : Dev nD) (t : Fin cfg0.N) (j q : Fin 128) :
    (iblk m c 2 t : S128x128.Idx → Elt F .f32) (ix2 j q)
      = (m ((c : Thread nD τ).loc main_arg1) : S524288x128.Idx → Elt F .f32) (ix2 (rowOf t j) q) := by
  obtain ⟨-, -, e2, e3, -⟩ := idx_facts t
  rw [← V_main_arg1 m c]
  show (V m c main_arg1 : S524288x128.Idx → Elt F .f32) (((cfg0.win 2).blk t).view.emb (ix2 j q)) = _
  congr 1
  funext a
  apply Fin.ext
  match a with
  | ⟨0, _⟩ => show win0_2.index t ⟨0, by decide⟩ * 128 + 1 * j.val = t.val * 128 + j.val; rw [e2]; omega
  | ⟨1, _⟩ => show win0_2.index t ⟨1, by decide⟩ * 128 + 1 * q.val = q.val; rw [e3]; omega

/-- Place (j, q) of the output block at point t is place (128·t + j, q) of the output array. -/
theorem out_emb (t : Fin cfg0.N) (j : Fin 128) (q : Fin 384) :
    ((cfg0.win 3).blk t).view.emb (ix2 j q) = (ix2 (rowOf t j) q : S524288x384.Idx) := by
  obtain ⟨-, -, -, -, e4, e5⟩ := idx_facts t
  funext a
  apply Fin.ext
  match a with
  | ⟨0, _⟩ => show win0_3.index t ⟨0, by decide⟩ * 128 + 1 * j.val = t.val * 128 + j.val; rw [e4]; omega
  | ⟨1, _⟩ => show win0_3.index t ⟨1, by decide⟩ * 384 + 1 * q.val = q.val; rw [e5]; omega

end Cert.KernelIdeal.Blocks

end
-- ==== Proof.LibRowOps.lean ====
/-
  The host's accumulating scatter and its gather, read at an element, for the dimension numbers an indexed row
  update and an indexed row read lower to (one index word per row, the index vector on axis 1).

  Scatter, operand [N, W], indices [E, 1], updates [E, W] (or operand [N], updates [E]): update row e lands on the
  operand row its index word names, the word read signed and not clamped, so element (i, j) of the result is the
  operand's plus the sum over the rows e whose word is i of the update's (e, j); a row whose word is negative or
  at least N lands nowhere.

  Gather, operand [N, W], start indices [E, 1], result [E, W] (or operand [N], result [E]): result row e is the
  operand row its index word names, the word read signed and clamped into [0, N − 1].

  General lemmas over any sizes; they import no program.
-/
import Idealize.ShloMosaic.Lib.ValueIdx
import Idealize.ShloMosaic.Lib.ValueIdxRank1
import Idealize.ShloMosaic.PureOps.Ideal.Laws

noncomputable section

open scoped BigOperators

namespace Idealize.ShloMosaic.RowOps

open Idealize.ShloMosaic Idealize.ShloMosaic.ValueIdx

/-! ## The host's accumulating scatter at the extended reals -/

/-- The host's accumulating scatter at the extended reals is the exact sum, for any dimension numbers. -/
theorem hostScatterAdd_eq {s si u : Shape} {φ : FTy} {w : Nat} (d : ScatterDims s si u) (x : FVec Ideal s φ) (idx : IVec si w)
    (upd : FVec Ideal u φ) : Host.scatterAdd d x idx upd = Ideal.hostScatterAdd d x idx upd := rfl

/-! ## Where an update lands -/

/-- An update lands at operand index i exactly when, on every operand axis, its start plus its window coordinate is
    i's coordinate. -/
theorem resultIdx?_eq_some_iff {s si u : Shape} (d : ScatterDims s si u) {w : Nat} (j : u.Idx) (idx : IVec si w) (i : s.Idx) :
    d.resultIdx? j idx = some i ↔ ∀ a, d.start j idx a + (d.window j a : ℤ) = ((i a).val : ℤ) := by
  unfold ScatterDims.resultIdx?
  constructor
  · intro h
    split at h
    · rename_i hh
      intro a
      have h1 := congrArg Fin.val (congrFun (Option.some.inj h) a)
      simp only at h1
      have := hh a
      omega
    · exact absurd h (by simp)
  · intro h
    have hh : ∀ a, 0 ≤ d.start j idx a + d.window j a ∧ d.start j idx a + d.window j a < s.size a := by
      intro a; have := h a; have := (i a).isLt; omega
    rw [dif_pos hh]
    congr 1; funext a; apply Fin.ext; simp only; have := h a; omega

/-! ## A row scatter -/

/-- The row-scatter's dimension numbers over any well-formedness proof. -/
abbrev rowsScatter (N E W : Nat) (wf : ScatterDims.WF ⟨2, ![N, W]⟩ ⟨2, ![E, 1]⟩ ⟨2, ![E, W]⟩ [1] [0] [0] 1) :
    ScatterDims ⟨2, ![N, W]⟩ ⟨2, ![E, 1]⟩ ⟨2, ![E, W]⟩ where
  updateWindowDims := [1]
  insertedWindowDims := [0]
  scatterDimsToOperandDims := [0]
  indexVectorDim := 1
  wf := wf

section
variable {N E W : Nat} (wf : ScatterDims.WF ⟨2, ![N, W]⟩ ⟨2, ![E, 1]⟩ ⟨2, ![E, W]⟩ [1] [0] [0] 1)

/-- The start on the row axis is update row e's index word, read signed … -/
theorem rows_start_0 (idx : IVec ⟨2, ![E, 1]⟩ 32) (e : Fin E) (j : Fin W) :
    (rowsScatter N E W wf).start (ix2 e j) idx 0 = (idx (ix2 e 0)).toInt := by
  unfold ScatterDims.start
  rw [dif_pos (show (0 : Fin (⟨2, ![N, W]⟩ : Shape).rank) ∈ (rowsScatter N E W wf).scatterDimsToOperandDims from List.mem_singleton.mpr rfl)]
  congr 2
  funext b; refine Fin.ext ?_
  match b with
  | ⟨0, _⟩ => rfl
  | ⟨1, _⟩ => rfl

/-- … the start on the column axis is 0 … -/
theorem rows_start_1 (idx : IVec ⟨2, ![E, 1]⟩ 32) (e : Fin E) (j : Fin W) :
    (rowsScatter N E W wf).start (ix2 e j) idx 1 = 0 := by
  unfold ScatterDims.start
  rw [dif_neg (show ¬ (1 : Fin (⟨2, ![N, W]⟩ : Shape).rank) ∈ (rowsScatter N E W wf).scatterDimsToOperandDims from
    fun h => absurd (List.mem_singleton.mp h) (show (1 : Fin 2) ≠ 0 by decide))]

/-- … the window coordinate on the row axis is 0 … -/
theorem rows_window_0 (e : Fin E) (j : Fin W) : (rowsScatter N E W wf).window (ix2 e j) 0 = 0 := by
  unfold ScatterDims.window
  rw [dif_neg (by simp [ScatterDims.sKept, Shape.kept, List.mem_filter])]

/-- … and on the column axis it is the update's column. -/
theorem rows_window_1 (e : Fin E) (j : Fin W) : (rowsScatter N E W wf).window (ix2 e j) 1 = j.val := by
  unfold ScatterDims.window
  rw [dif_pos (by simp [ScatterDims.sKept, Shape.kept, List.mem_filter])]
  rfl

/-- An update element (e, j') of a row scatter lands at (i, j) exactly when row e's index word, read signed, is i and
    the columns agree. -/
theorem rows_lands (idx : IVec ⟨2, ![E, 1]⟩ 32) (e : Fin E) (j' : Fin W) (i : Fin N) (j : Fin W) :
    (rowsScatter N E W wf).resultIdx? (ix2 e j') idx = some (ix2 i j) ↔ (idx (ix2 e 0)).toInt = (i.val : ℤ) ∧ j' = j := by
  rw [resultIdx?_eq_some_iff]
  constructor
  · intro h
    have h0 := h 0
    have h1 := h 1
    rw [rows_start_0, rows_window_0] at h0
    rw [rows_start_1, rows_window_1] at h1
    change (idx (ix2 e 0)).toInt + ((0 : ℕ) : ℤ) = (i.val : ℤ) at h0
    change (0 : ℤ) + ((j'.val : ℕ) : ℤ) = (j.val : ℤ) at h1
    have h0' : (idx (ix2 e 0)).toInt = (i.val : ℤ) := by simpa using h0
    have h1' : j'.val = j.val := by omega
    exact ⟨h0', Fin.ext h1'⟩
  · rintro ⟨h0, rfl⟩ a
    match a with
    | ⟨0, _⟩ =>
      show (rowsScatter N E W wf).start (ix2 e j') idx 0 + ((rowsScatter N E W wf).window (ix2 e j') 0 : ℤ) = _
      rw [rows_start_0, rows_window_0]
      show (idx (ix2 e 0)).toInt + ((0 : ℕ) : ℤ) = (i.val : ℤ)
      simpa using h0
    | ⟨1, _⟩ =>
      show (rowsScatter N E W wf).start (ix2 e j') idx 1 + ((rowsScatter N E W wf).window (ix2 e j') 1 : ℤ) = _
      rw [rows_start_1, rows_window_1]
      show (0 : ℤ) + ((j'.val : ℕ) : ℤ) = (j'.val : ℤ)
      simp

/-- The sum of the updates landing at (i, j), re-indexed by the update's row. -/
theorem rows_sum (idx : IVec ⟨2, ![E, 1]⟩ 32) (upd : (⟨2, ![E, W]⟩ : Shape).Idx → EReal) (i : Fin N) (j : Fin W) :
    ∑ u ∈ Finset.univ.filter (fun u => (rowsScatter N E W wf).resultIdx? u idx = some (ix2 i j)), upd u
      = ∑ e : Fin E, (if (idx (ix2 e 0)).toInt = (i.val : ℤ) then upd (ix2 e j) else 0) := by
  rw [Finset.sum_filter, sum_idx2]
  refine Finset.sum_congr rfl fun e _ => ?_
  simp only [rows_lands]
  by_cases h : (idx (ix2 e 0)).toInt = (i.val : ℤ)
  · simp only [h, true_and, if_true, Finset.sum_ite_eq', Finset.mem_univ]
  · simp only [h, false_and, if_false, Finset.sum_const_zero]

/-- A row-scatter's dimension numbers: operand [N, W], indices [E, 1], updates [E, W]. Element (i, j) of the
    accumulating scatter is the operand's plus the sum, over the update rows e whose index word read signed is i,
    of the update's (e, j); a row whose word is negative or at least N lands nowhere. -/
theorem scatterAdd_rows_apply (d : ScatterDims ⟨2, ![N, W]⟩ ⟨2, ![E, 1]⟩ ⟨2, ![E, W]⟩) (h1 : d.updateWindowDims = [1])
    (h2 : d.insertedWindowDims = [0]) (h3 : d.scatterDimsToOperandDims = [0]) (h4 : d.indexVectorDim = 1)
    (x : (⟨2, ![N, W]⟩ : Shape).Idx → EReal) (idx : IVec ⟨2, ![E, 1]⟩ 32) (upd : (⟨2, ![E, W]⟩ : Shape).Idx → EReal)
    (i : Fin N) (j : Fin W) :
    Ideal.hostScatterAdd d x idx upd (ix2 i j)
      = x (ix2 i j) + ∑ e : Fin E, (if (idx (ix2 e 0)).toInt = (i.val : ℤ) then upd (ix2 e j) else 0) := by
  obtain ⟨uw, iw, sd, iv, wf'⟩ := d
  dsimp only at h1 h2 h3 h4
  subst h1 h2 h3 h4
  unfold Ideal.hostScatterAdd
  rw [← rows_sum wf' idx upd i j]

end

/-! ## A flat scatter -/

/-- The flat scatter's dimension numbers over any well-formedness proof. -/
abbrev vecScatter (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

section
variable {N E : Nat} (wf : ScatterDims.WF ⟨1, ![N]⟩ ⟨2, ![E, 1]⟩ ⟨1, ![E]⟩ [] [0] [0] 1)

/-- The start on the one operand axis is update e's index word, read signed … -/
theorem vec_start (idx : IVec ⟨2, ![E, 1]⟩ 32) (e : Fin E) :
    (vecScatter N E wf).start (ix1 e) idx 0 = (idx (ix2 e 0)).toInt := by
  unfold ScatterDims.start
  rw [dif_pos (show (0 : Fin (⟨1, ![N]⟩ : Shape).rank) ∈ (vecScatter N E wf).scatterDimsToOperandDims from List.mem_singleton.mpr rfl)]
  congr 2
  funext b; refine Fin.ext ?_
  match b with
  | ⟨0, _⟩ => rfl
  | ⟨1, _⟩ => rfl

/-- … and there is no window coordinate. -/
theorem vec_window (e : Fin E) : (vecScatter N E wf).window (ix1 e) 0 = 0 := by
  unfold ScatterDims.window
  rw [dif_neg (by simp [ScatterDims.sKept, Shape.kept, List.mem_filter])]

/-- Update e of a flat scatter lands at i exactly when its index word, read signed, is i. -/
theorem vec_lands (idx : IVec ⟨2, ![E, 1]⟩ 32) (e : Fin E) (i : Fin N) :
    (vecScatter N E wf).resultIdx? (ix1 e) idx = some (ix1 i) ↔ (idx (ix2 e 0)).toInt = (i.val : ℤ) := by
  rw [resultIdx?_eq_some_iff]
  constructor
  · intro h
    have h0 := h 0
    rw [vec_start, vec_window] at h0
    change (idx (ix2 e 0)).toInt + ((0 : ℕ) : ℤ) = (i.val : ℤ) at h0
    simpa using h0
  · intro h0 a
    obtain rfl : a = 0 := Subsingleton.elim _ _
    rw [vec_start, vec_window]
    show (idx (ix2 e 0)).toInt + ((0 : ℕ) : ℤ) = (i.val : ℤ)
    simpa using h0

/-- The sum of the updates landing at i, re-indexed by the update's position. -/
theorem vec_sum (idx : IVec ⟨2, ![E, 1]⟩ 32) (upd : (⟨1, ![E]⟩ : Shape).Idx → EReal) (i : Fin N) :
    ∑ u ∈ Finset.univ.filter (fun u => (vecScatter N E wf).resultIdx? u idx = some (ix1 i)), upd u
      = ∑ e : Fin E, (if (idx (ix2 e 0)).toInt = (i.val : ℤ) then upd (ix1 e) else 0) := by
  rw [Finset.sum_filter, ← Equiv.sum_comp (idxEquiv1 (n := E)).symm]
  refine Finset.sum_congr rfl fun e _ => ?_
  show (if (vecScatter N E wf).resultIdx? (ix1 e) idx = some (ix1 i) then upd (ix1 e) else 0) = _
  simp only [vec_lands]

/-- A flat scatter's dimension numbers: operand [N], indices [E, 1], updates [E]. Element i of the accumulating
    scatter is the operand's plus the sum of the updates e whose index word read signed is i; an update whose word
    is negative or at least N lands nowhere. -/
theorem scatterAdd_vec_apply (d : ScatterDims ⟨1, ![N]⟩ ⟨2, ![E, 1]⟩ ⟨1, ![E]⟩) (h1 : d.updateWindowDims = [])
    (h2 : d.insertedWindowDims = [0]) (h3 : d.scatterDimsToOperandDims = [0]) (h4 : d.indexVectorDim = 1)
    (x : (⟨1, ![N]⟩ : Shape).Idx → EReal) (idx : IVec ⟨2, ![E, 1]⟩ 32) (upd : (⟨1, ![E]⟩ : Shape).Idx → EReal) (i : Fin N) :
    Ideal.hostScatterAdd d x idx upd (ix1 i)
      = x (ix1 i) + ∑ e : Fin E, (if (idx (ix2 e 0)).toInt = (i.val : ℤ) then upd (ix1 e) else 0) := by
  obtain ⟨uw, iw, sd, iv, wf'⟩ := d
  dsimp only at h1 h2 h3 h4
  subst h1 h2 h3 h4
  unfold Ideal.hostScatterAdd
  rw [← vec_sum wf' idx upd i]

end

/-! ## A row gather and a flat gather -/

/-- The row an index word reads on an axis of extent N: the word read signed, clamped into [0, N − 1]. -/
def clampRow (N : Nat) (hN : 0 < N) (v : BitVec 32) : Fin N := ⟨min v.toInt.toNat (N - 1), by omega⟩

/-- The row-gather's dimension numbers over any well-formedness proof. -/
abbrev rowsGather (N E W : Nat)
    (wf : GatherDims.WF ⟨2, ![N, W]⟩ ⟨2, ![E, 1]⟩ ⟨2, ![E, W]⟩ [1] [0] [] [0] [] 1 ![1, W]) :
    GatherDims ⟨2, ![N, W]⟩ ⟨2, ![E, 1]⟩ ⟨2, ![E, W]⟩ where
  offsetDims := [1]
  collapsedSliceDims := [0]
  operandBatchingDims := []
  startIndicesBatchingDims := []
  startIndexMap := [0]
  indexVectorDim := 1
  sliceSizes := ![1, W]
  wf := wf

section
variable {N E W : Nat} (wf : GatherDims.WF ⟨2, ![N, W]⟩ ⟨2, ![E, 1]⟩ ⟨2, ![E, W]⟩ [1] [0] [] [0] [] 1 ![1, W])

/-- Result element (e, j) of a row gather reads the operand at (row e's index word clamped, j). -/
theorem rows_operandIdx (hN : 0 < N) (idx : IVec ⟨2, ![E, 1]⟩ 32) (e : Fin E) (j : Fin W) :
    (rowsGather N E W wf).operandIdx (ix2 e j) idx = ix2 (clampRow N hN (idx (ix2 e 0))) j := by
  funext a
  refine Fin.ext ?_
  match a with
  | ⟨0, _⟩ =>
    show (rowsGather N E W wf).start (ix2 e j) idx 0 + (rowsGather N E W wf).batchCoord (ix2 e j) 0
      + (rowsGather N E W wf).offCoord (ix2 e j) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin (⟨2, ![N, W]⟩ : Shape).rank) ∈ (rowsGather N E W wf).startIndexMap from List.mem_singleton.mpr rfl)]
    have hsi : (rowsGather N E W wf).siIdx (ix2 e j) ⟨List.idxOf (0 : Fin (⟨2, ![N, W]⟩ : Shape).rank) (rowsGather N E W wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (rowsGather N E W wf).start (ix2 e j) idx 1 + (rowsGather N E W wf).batchCoord (ix2 e j) 1
      + (rowsGather N E W wf).offCoord (ix2 e j) 1 = j.val
    rw [GatherDims.batchCoord_eq_zero _ _ _ List.not_mem_nil]
    unfold GatherDims.start
    rw [dif_neg (show ¬ (1 : Fin (⟨2, ![N, W]⟩ : Shape).rank) ∈ (rowsGather N E W wf).startIndexMap from
      fun h => absurd (List.mem_singleton.mp h) (show (1 : Fin 2) ≠ 0 by decide))]
    simp only [Nat.zero_add, Nat.add_zero]
    unfold GatherDims.offCoord
    rw [dif_pos ((GatherDims.mem_sKept _ _).mpr ⟨fun h => absurd (List.mem_singleton.mp h) (show (1 : Fin 2) ≠ 0 by decide),
      List.not_mem_nil⟩)]
    rfl

end

/-- A row-gather's dimension numbers: operand [N, W], start indices [E, 1], result [E, W]. Result element (e, j) is
    the operand's at (row e's index word read signed and clamped into [0, N − 1], j). -/
theorem gather_rows_apply {α : Type} {N E W : Nat} (hN : 0 < N) (d : GatherDims ⟨2, ![N, W]⟩ ⟨2, ![E, 1]⟩ ⟨2, ![E, W]⟩)
    (h : d.offsetDims = [1]) (h' : d.collapsedSliceDims = [0]) (hb : d.operandBatchingDims = [])
    (hb' : d.startIndicesBatchingDims = []) (hm : d.startIndexMap = [0]) (hv : d.indexVectorDim = 1)
    (hs : d.sliceSizes = ![1, W])
    (a : (⟨2, ![N, W]⟩ : Shape).Idx → α) (idx : IVec ⟨2, ![E, 1]⟩ 32) (e : Fin E) (j : Fin W) :
    Host.gather d a idx (ix2 e j) = a (ix2 (clampRow N hN (idx (ix2 e 0))) j) := by
  obtain ⟨od, cd, ob, sb, sm, iv, ss, wf'⟩ := d
  dsimp only at h h' hb hb' hm hv hs
  subst h h' hb hb' hm hv hs
  unfold Host.gather
  rw [← rows_operandIdx wf' hN idx e j]

/-- The flat gather's dimension numbers over any well-formedness proof. -/
abbrev vecGather (N E : Nat) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- Result element e of a flat gather reads the operand at e's index word clamped. -/
theorem vec_operandIdx {N E : Nat} (wf : GatherDims.WF ⟨1, ![N]⟩ ⟨2, ![E, 1]⟩ ⟨1, ![E]⟩ [] [0] [] [0] [] 1 ![1]) (hN : 0 < N)
    (idx : IVec ⟨2, ![E, 1]⟩ 32) (e : Fin E) :
    (vecGather N E wf).operandIdx (ix1 e) idx = ix1 (clampRow N hN (idx (ix2 e 0))) := by
  funext a
  obtain rfl : a = 0 := Subsingleton.elim _ _
  refine Fin.ext ?_
  show (vecGather N E wf).start (ix1 e) idx 0 + (vecGather N E wf).batchCoord (ix1 e) 0 + (vecGather N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin (⟨1, ![N]⟩ : Shape).rank) ∈ (vecGather N E wf).startIndexMap from List.mem_singleton.mpr rfl)]
  have hsi : (vecGather N E wf).siIdx (ix1 e) ⟨List.idxOf (0 : Fin (⟨1, ![N]⟩ : Shape).rank) (vecGather N E wf).startIndexMap,
      List.idxOf_lt_length_iff.2 (List.mem_singleton.mpr rfl)⟩ = ix2 e 0 := by
    funext b; refine Fin.ext ?_
    match b with
    | ⟨0, _⟩ => rfl
    | ⟨1, _⟩ => rfl
  rw [hsi]
  rfl

/-- A flat gather's dimension numbers: operand [N], start indices [E, 1], result [E]. Result element e is the
    operand's at e's index word read signed and clamped into [0, N − 1]. -/
theorem gather_vec_apply {α : Type} {N E : Nat} (hN : 0 < N) (d : GatherDims ⟨1, ![N]⟩ ⟨2, ![E, 1]⟩ ⟨1, ![E]⟩)
    (h : d.offsetDims = []) (h' : d.collapsedSliceDims = [0]) (hb : d.operandBatchingDims = [])
    (hb' : d.startIndicesBatchingDims = []) (hm : d.startIndexMap = [0]) (hv : d.indexVectorDim = 1)
    (hs : d.sliceSizes = ![1])
    (a : (⟨1, ![N]⟩ : Shape).Idx → α) (idx : IVec ⟨2, ![E, 1]⟩ 32) (e : Fin E) :
    Host.gather d a idx (ix1 e) = a (ix1 (clampRow N hN (idx (ix2 e 0)))) := by
  obtain ⟨od, cd, ob, sb, sm, iv, ss, wf'⟩ := d
  dsimp only at h h' hb hb' hm hv hs
  subst h h' hb hb' hm hv hs
  unfold Host.gather
  rw [← vec_operandIdx wf' hN idx e]

end Idealize.ShloMosaic.RowOps

end
-- ==== Proof.Spec.lean ====
/-
  The result, as one function of the three argument arrays.
  For bond r (a row of the [524288, 384] result) let u and v be the rows of the feature array its two index words name.
  The result row is three bands of 128 columns: the bond's own feature row; the mean of the two atom rows,
  ½ · (x[u] + x[v]); and the absolute value of their difference, |x[u] − x[v]|. The constant ½ is the f32 word
  0x3F000000 on both sides, so it is kept as that word and never evaluated. An index word names the row it reads as a
  signed number clamped into [0, 262143] (what the host's row gather reads); under the precondition the word is already in
  that range and the clamp does nothing.
-/
import proofs.«419661_j18640158064908_1_alg».proof.Proof.LibRowOps
import Idealize.ShloMosaic.Lib.ValueIdx

noncomputable section

namespace Cert.Spec

open Idealize.ShloMosaic Idealize.ShloMosaic.ValueIdx Idealize.ShloMosaic.RowOps

abbrev SAtoms : Shape := ⟨2, ![262144, 128]⟩
abbrev SBonds : Shape := ⟨2, ![524288, 128]⟩
abbrev SIdx : Shape := ⟨2, ![524288, 2]⟩
abbrev SOut : Shape := ⟨2, ![524288, 384]⟩

variable {F : FTy → Type} [FloatOps F]

/-- The feature-array row that endpoint j of bond r names. -/
def atomRow (idx : IVec SIdx 32) (r : Fin 524288) (j : Fin 2) : Fin 262144 :=
  clampRow 262144 (by decide) (idx (ix2 r j))

/-- ½ · (a + b), the half being the f32 word 0x3F000000. -/
def mean2 (a b : F .f32) : F .f32 := FloatOps.mulf (FloatOps.ofBits .f32 0x3F000000#32) (FloatOps.addf a b)

/-- |a − b|. -/
def absDiff (a b : F .f32) : F .f32 := FloatOps.absf (FloatOps.subf a b)

/-- Element (r, q) of the result. -/
def outAt (x : FVec F SAtoms .f32) (b : FVec F SBonds .f32) (idx : IVec SIdx 32) (r : Fin 524288) (q : Fin 384) : F .f32 :=
  if h1 : q.val < 128 then b (ix2 r ⟨q.val, h1⟩)
  else if h2 : q.val < 256 then
    mean2 (x (ix2 (atomRow idx r 0) ⟨q.val - 128, by omega⟩)) (x (ix2 (atomRow idx r 1) ⟨q.val - 128, by omega⟩))
  else
    absDiff (x (ix2 (atomRow idx r 0) ⟨q.val - 256, by have := q.isLt; omega⟩))
      (x (ix2 (atomRow idx r 1) ⟨q.val - 256, by have := q.isLt; omega⟩))

/-- The whole result array. -/
def out (x : FVec F SAtoms .f32) (b : FVec F SBonds .f32) (idx : IVec SIdx 32) : FVec F SOut .f32 :=
  fun i => outAt x b idx (i 0) (i 1)

theorem out_apply (x : FVec F SAtoms .f32) (b : FVec F SBonds .f32) (idx : IVec SIdx 32) (r : Fin 524288) (q : Fin 384) :
    out x b idx (ix2 r q) = outAt x b idx r q := rfl

/-- In the first band the result is the bond's own feature. -/
theorem outAt_band0 (x : FVec F SAtoms .f32) (b : FVec F SBonds .f32) (idx : IVec SIdx 32) (r : Fin 524288) (q : Fin 128) :
    outAt x b idx r ⟨q.val, by omega⟩ = b (ix2 r q) := by
  unfold outAt; rw [dif_pos q.isLt]

/-- In the second band it is the mean of the two atom rows. -/
theorem outAt_band1 (x : FVec F SAtoms .f32) (b : FVec F SBonds .f32) (idx : IVec SIdx 32) (r : Fin 524288) (q : Fin 128) :
    outAt x b idx r ⟨128 + q.val, by omega⟩ = mean2 (x (ix2 (atomRow idx r 0) q)) (x (ix2 (atomRow idx r 1) q)) := by
  unfold outAt
  rw [dif_neg (by show ¬ 128 + q.val < 128; omega), dif_pos (by show 128 + q.val < 256; omega)]
  have e : (⟨128 + q.val - 128, by omega⟩ : Fin 128) = q := Fin.ext (by show 128 + q.val - 128 = q.val; omega)
  simp only [e]

/-- In the third band it is the absolute value of their difference. -/
theorem outAt_band2 (x : FVec F SAtoms .f32) (b : FVec F SBonds .f32) (idx : IVec SIdx 32) (r : Fin 524288) (q : Fin 128) :
    outAt x b idx r ⟨256 + q.val, by omega⟩ = absDiff (x (ix2 (atomRow idx r 0) q)) (x (ix2 (atomRow idx r 1) q)) := by
  unfold outAt
  rw [dif_neg (by show ¬ 256 + q.val < 128; omega), dif_neg (by show ¬ 256 + q.val < 256; omega)]
  have e : (⟨256 + q.val - 256, by omega⟩ : Fin 128) = q := Fin.ext (by show 256 + q.val - 256 = q.val; omega)
  simp only [e]

/-- A word already in range names its own row: the clamp does nothing. -/
theorem clampRow_of_lt (w : BitVec 32) (h : w.toNat < 262144) : (clampRow 262144 (by decide) w).val = w.toNat := by
  unfold clampRow
  show min w.toInt.toNat (262144 - 1) = w.toNat
  have e : w.toInt = w.toNat := by
    rw [BitVec.toInt_eq_toNat_cond]; split <;> omega
  rw [e, Int.toNat_natCast]; omega

end Cert.Spec

end
-- ==== Proof.LibRowRead.lean ====
/-
  Reading one row of a two-dimensional buffer through the row's slice with its unit axis squeezed away.
  Lane k of the squeezed one-row slice at row n is the buffer's own element (n, k): the squeeze matches lane k with
  place (0, k) of the [1, C] slice (both are the k-th element in row-major order), and the slice at row n sends place
  (0, k) to place (n, k) of the buffer. So a read through the squeezed slice at k is a read through the buffer's own
  view at (n, k). A general lemma over any sizes; it imports no program.
-/
import proofs.«419661_j18640158064908_1_alg».proof.Proof.LibRows

noncomputable section

namespace Idealize.ShloMosaic.RowsOf

open Idealize.ShloMosaic.ValueIdx

variable {sig : RefSig} {κ : Kind} {sp : Space} {e : EltTy} {Val : EltTy → Type} {R C : ℕ}

/-- Lane k of a [C] index set is place (0, k) of [1, C], whatever evidence says the one squeezes to the other. -/
theorem squeezed_lane' (hs : (⟨2, ![1, C]⟩ : Shape).Squeezes (S1 C)) (k : Fin C) :
    Shape.reshapeEquiv hs.numel_eq (ix1 k) = (ix2 (0 : Fin 1) k : (⟨2, ![1, C]⟩ : Shape).Idx) := by
  refine Shape.reshapeEquiv_eq_of_rowMajor _ ?_
  have h2 := Shape.rowMajor_val_two (d := ![1, C]) (ix2 (0 : Fin 1) k)
  have h1 := Shape.rowMajor_val_one (d := ![C]) (ix1 k)
  show ((⟨2, ![1, C]⟩ : Shape).rowMajor (ix2 (0 : Fin 1) k)).val = ((⟨1, ![C]⟩ : Shape).rowMajor (ix1 k)).val
  rw [h2, h1]
  show 0 * C + k.val = k.val
  omega

/-- A read through the squeezed one-row slice at row n, at lane k, is a read through the buffer's view at (n, k). -/
theorem read_squeezed_row (M : Memref sig κ sp (S2 R C) e) (n : ℕ) (hn : n < R)
    (inb : ∀ a, (![n, 0] : Fin 2 → ℕ) a + (![1, C] : Fin 2 → ℕ) a ≤ (S2 R C).size a)
    (hr : ∀ a, (Rect.unit (s := S2 R C) ![n, 0] ![1, C] inb).stride a = 1)
    (hs : (⟨2, ![1, C]⟩ : Shape).Squeezes (S1 C)) (g : M.view.ty.Contents Val) (k : Fin C) :
    ((M.slice (Rect.unit (s := S2 R C) ![n, 0] ![1, C] inb) hr).squeeze (S1 C) hs).view.read Val g (ix1 k)
      = M.view.read Val g (ix2 (⟨n, hn⟩ : Fin R) k) := by
  have e : (Rect.unit (s := S2 R C) ![n, 0] ![1, C] inb).emb (Shape.reshapeEquiv hs.numel_eq (ix1 k))
      = ix2 (⟨n, hn⟩ : Fin R) k := by
    rw [squeezed_lane' hs k]
    funext a
    refine Fin.ext ?_
    rw [Rect.emb_apply]
    match a with
    | ⟨0, _⟩ => show n + 1 * 0 = n; omega
    | ⟨1, _⟩ => show 0 + 1 * k.val = k.val; omega
  rw [← e]
  rfl

end Idealize.ShloMosaic.RowsOf

end
-- ==== Proof.Vec128.lean ====
/-
  Every entry of an explicit vector of 128 entries has a property if each listed entry has it at its own position.
-/
import Idealize.ShloMosaic.Lib.ValueIdx

set_option maxRecDepth 65536

namespace Cert.Vec128

set_option maxHeartbeats 4000000 in
theorem vec128_all {α : Type} (P : Fin 128 → α → Prop) (p0 p1 p2 p3 p4 p5 p6 p7 p8 p9 p10 p11 p12 p13 p14 p15 p16 p17 p18 p19 p20 p21 p22 p23 p24 p25 p26 p27 p28 p29 p30 p31 p32 p33 p34 p35 p36 p37 p38 p39 p40 p41 p42 p43 p44 p45 p46 p47 p48 p49 p50 p51 p52 p53 p54 p55 p56 p57 p58 p59 p60 p61 p62 p63 p64 p65 p66 p67 p68 p69 p70 p71 p72 p73 p74 p75 p76 p77 p78 p79 p80 p81 p82 p83 p84 p85 p86 p87 p88 p89 p90 p91 p92 p93 p94 p95 p96 p97 p98 p99 p100 p101 p102 p103 p104 p105 p106 p107 p108 p109 p110 p111 p112 p113 p114 p115 p116 p117 p118 p119 p120 p121 p122 p123 p124 p125 p126 p127 : α)
    (h0 : P 0 p0) (h1 : P 1 p1) (h2 : P 2 p2) (h3 : P 3 p3) (h4 : P 4 p4) (h5 : P 5 p5) (h6 : P 6 p6) (h7 : P 7 p7) (h8 : P 8 p8) (h9 : P 9 p9) (h10 : P 10 p10) (h11 : P 11 p11) (h12 : P 12 p12) (h13 : P 13 p13) (h14 : P 14 p14) (h15 : P 15 p15) (h16 : P 16 p16) (h17 : P 17 p17) (h18 : P 18 p18) (h19 : P 19 p19) (h20 : P 20 p20) (h21 : P 21 p21) (h22 : P 22 p22) (h23 : P 23 p23) (h24 : P 24 p24) (h25 : P 25 p25) (h26 : P 26 p26) (h27 : P 27 p27) (h28 : P 28 p28) (h29 : P 29 p29) (h30 : P 30 p30) (h31 : P 31 p31) (h32 : P 32 p32) (h33 : P 33 p33) (h34 : P 34 p34) (h35 : P 35 p35) (h36 : P 36 p36) (h37 : P 37 p37) (h38 : P 38 p38) (h39 : P 39 p39) (h40 : P 40 p40) (h41 : P 41 p41) (h42 : P 42 p42) (h43 : P 43 p43) (h44 : P 44 p44) (h45 : P 45 p45) (h46 : P 46 p46) (h47 : P 47 p47) (h48 : P 48 p48) (h49 : P 49 p49) (h50 : P 50 p50) (h51 : P 51 p51) (h52 : P 52 p52) (h53 : P 53 p53) (h54 : P 54 p54) (h55 : P 55 p55) (h56 : P 56 p56) (h57 : P 57 p57) (h58 : P 58 p58) (h59 : P 59 p59) (h60 : P 60 p60) (h61 : P 61 p61) (h62 : P 62 p62) (h63 : P 63 p63) (h64 : P 64 p64) (h65 : P 65 p65) (h66 : P 66 p66) (h67 : P 67 p67) (h68 : P 68 p68) (h69 : P 69 p69) (h70 : P 70 p70) (h71 : P 71 p71) (h72 : P 72 p72) (h73 : P 73 p73) (h74 : P 74 p74) (h75 : P 75 p75) (h76 : P 76 p76) (h77 : P 77 p77) (h78 : P 78 p78) (h79 : P 79 p79) (h80 : P 80 p80) (h81 : P 81 p81) (h82 : P 82 p82) (h83 : P 83 p83) (h84 : P 84 p84) (h85 : P 85 p85) (h86 : P 86 p86) (h87 : P 87 p87) (h88 : P 88 p88) (h89 : P 89 p89) (h90 : P 90 p90) (h91 : P 91 p91) (h92 : P 92 p92) (h93 : P 93 p93) (h94 : P 94 p94) (h95 : P 95 p95) (h96 : P 96 p96) (h97 : P 97 p97) (h98 : P 98 p98) (h99 : P 99 p99) (h100 : P 100 p100) (h101 : P 101 p101) (h102 : P 102 p102) (h103 : P 103 p103) (h104 : P 104 p104) (h105 : P 105 p105) (h106 : P 106 p106) (h107 : P 107 p107) (h108 : P 108 p108) (h109 : P 109 p109) (h110 : P 110 p110) (h111 : P 111 p111) (h112 : P 112 p112) (h113 : P 113 p113) (h114 : P 114 p114) (h115 : P 115 p115) (h116 : P 116 p116) (h117 : P 117 p117) (h118 : P 118 p118) (h119 : P 119 p119) (h120 : P 120 p120) (h121 : P 121 p121) (h122 : P 122 p122) (h123 : P 123 p123) (h124 : P 124 p124) (h125 : P 125 p125) (h126 : P 126 p126) (h127 : P 127 p127) :
    ∀ a : Fin 128, P a ((![p0, p1, p2, p3, p4, p5, p6, p7, p8, p9, p10, p11, p12, p13, p14, p15, p16, p17, p18, p19, p20, p21, p22, p23, p24, p25, p26, p27, p28, p29, p30, p31, p32, p33, p34, p35, p36, p37, p38, p39, p40, p41, p42, p43, p44, p45, p46, p47, p48, p49, p50, p51, p52, p53, p54, p55, p56, p57, p58, p59, p60, p61, p62, p63, p64, p65, p66, p67, p68, p69, p70, p71, p72, p73, p74, p75, p76, p77, p78, p79, p80, p81, p82, p83, p84, p85, p86, p87, p88, p89, p90, p91, p92, p93, p94, p95, p96, p97, p98, p99, p100, p101, p102, p103, p104, p105, p106, p107, p108, p109, p110, p111, p112, p113, p114, p115, p116, p117, p118, p119, p120, p121, p122, p123, p124, p125, p126, p127] : Fin 128 → α) a) := by
  intro a
  fin_cases a
  · exact h0
  · exact h1
  · exact h2
  · exact h3
  · exact h4
  · exact h5
  · exact h6
  · exact h7
  · exact h8
  · exact h9
  · exact h10
  · exact h11
  · exact h12
  · exact h13
  · exact h14
  · exact h15
  · exact h16
  · exact h17
  · exact h18
  · exact h19
  · exact h20
  · exact h21
  · exact h22
  · exact h23
  · exact h24
  · exact h25
  · exact h26
  · exact h27
  · exact h28
  · exact h29
  · exact h30
  · exact h31
  · exact h32
  · exact h33
  · exact h34
  · exact h35
  · exact h36
  · exact h37
  · exact h38
  · exact h39
  · exact h40
  · exact h41
  · exact h42
  · exact h43
  · exact h44
  · exact h45
  · exact h46
  · exact h47
  · exact h48
  · exact h49
  · exact h50
  · exact h51
  · exact h52
  · exact h53
  · exact h54
  · exact h55
  · exact h56
  · exact h57
  · exact h58
  · exact h59
  · exact h60
  · exact h61
  · exact h62
  · exact h63
  · exact h64
  · exact h65
  · exact h66
  · exact h67
  · exact h68
  · exact h69
  · exact h70
  · exact h71
  · exact h72
  · exact h73
  · exact h74
  · exact h75
  · exact h76
  · exact h77
  · exact h78
  · exact h79
  · exact h80
  · exact h81
  · exact h82
  · exact h83
  · exact h84
  · exact h85
  · exact h86
  · exact h87
  · exact h88
  · exact h89
  · exact h90
  · exact h91
  · exact h92
  · exact h93
  · exact h94
  · exact h95
  · exact h96
  · exact h97
  · exact h98
  · exact h99
  · exact h100
  · exact h101
  · exact h102
  · exact h103
  · exact h104
  · exact h105
  · exact h106
  · exact h107
  · exact h108
  · exact h109
  · exact h110
  · exact h111
  · exact h112
  · exact h113
  · exact h114
  · exact h115
  · exact h116
  · exact h117
  · exact h118
  · exact h119
  · exact h120
  · exact h121
  · exact h122
  · exact h123
  · exact h124
  · exact h125
  · exact h126
  · exact h127

end Cert.Vec128
-- ==== Proof.KernelIdealBlock.lean ====
/-
  What a grid point writes back is its block of the specification.
  At point t the body copies, for each of the 128 bonds j of the block, row w₀(j) and row w₁(j) of the feature array
  into row j of its two scratch buffers (w₀, w₁ the block's index words), loads both scratch buffers and the bond block
  whole, and stores three 128-column bands into the output block: the bond block, ½ · (s₀ + s₁) and |s₀ − s₁|.
  After the copies scratch buffer k holds, in row j, row w_k(j) of the feature array: entry j of its contents is a read of
  the feature array through the one-row slice at w_k(j) with the unit axis squeezed away, which is the array's own
  element (w_k(j), ·); a word in range names its own row, so that row is the one the specification reads. The three
  stores tile the output block, so the block read back is the last store's payload in each band. Place (j, q) of the
  output block is place (128·t + j, q) of the output array, the bond block's row j is the bond array's row 128·t + j
  and lane j of an index block is the index array's row 128·t + j: band by band the block is the specification's.
  The signature of `named_eq` is the generated named term's own.
-/
import proofs.«419661_j18640158064908_1_alg».proof.Proof.KernelIdealValue
import proofs.«419661_j18640158064908_1_alg».proof.Proof.KernelIdealHyps
import proofs.«419661_j18640158064908_1_alg».proof.Proof.KernelIdealBlocks
import proofs.«419661_j18640158064908_1_alg».proof.Proof.Spec
import proofs.«419661_j18640158064908_1_alg».proof.Proof.LibRowRead
import proofs.«419661_j18640158064908_1_alg».proof.Proof.Vec128

set_option maxRecDepth 16384

noncomputable section

namespace Cert.KernelIdeal.Block

open Cert.KernelIdeal Cert.KernelIdeal.Gen Cert.KernelIdeal.GenP Cert.KernelIdeal.Blocks
open Idealize.ShloMosaic Idealize.ShloMosaic.TcCoe Idealize.SL.Sem Idealize.ShloMosaic.ValueIdx Idealize.ShloMosaic.Tactic
open Idealize.ShloMosaic.RowsOf Idealize.ShloMosaic.RowOps Cert.Spec

variable {F : FTy → Type} [FloatOps F]

theorem hz2 : (![0, 0] : Fin 2 → ℕ) = fun _ => 0 := funext fun a => by fin_cases a <;> rfl

/-- A [1, 128] slice squeezes to [128]. -/
theorem sq1x128 : S1x128.Squeezes S128 := by decide

/-- A column of the output block lies in exactly one band. -/
theorem band_cases (q : Fin 384) :
    (∃ b : Fin 128, q = ⟨b.val, by omega⟩) ∨ (∃ b : Fin 128, q = ⟨128 + b.val, by omega⟩) ∨
      (∃ b : Fin 128, q = ⟨256 + b.val, by omega⟩) := by
  have hq := q.isLt
  by_cases h1 : q.val < 128
  · exact Or.inl ⟨⟨q.val, h1⟩, rfl⟩
  · by_cases h2 : q.val < 256
    · exact Or.inr (Or.inl ⟨⟨q.val - 128, by omega⟩, Fin.ext (by show q.val = 128 + (q.val - 128); omega)⟩)
    · exact Or.inr (Or.inr ⟨⟨q.val - 256, by omega⟩, Fin.ext (by show q.val = 256 + (q.val - 256); omega)⟩)

/-! ## The words and the copied rows -/

/-- The word loaded at lane n of a whole index block holding X is X at n. -/
theorem word_eq (M : Memref sig .tc .smem S128 .i32) (hM : M.IsWhole) (X : S128.Idx → BitVec 32) (n : ℕ) (hn : n < 128)
    (inb : ∀ a, (![n] : Fin 1 → ℕ) a + S1.size a ≤ S128.size a) (h1 : 0 < S1.numel) :
    (M.view.readAt (Elt F) (Rect.unit (s := S128) ![n] S1.size inb).toLoadRect (hM.unread X) (Shape.Idx.first h1) : BitVec 32)
      = X (ix1 ⟨n, hn⟩) := by
  rw [View.readAt_apply, hM.read_unread]
  congr 1
  funext a
  apply Fin.ext
  match a with
  | ⟨0, _⟩ => show n + 1 * 0 = n; omega

/-- What a row copy delivers, at lane b: the feature array at (the row its word names, b). The word w is any word
    equal to lane k of the index block X, and in range. -/
theorem payload_at (A : S262144x128.Idx → Elt F .f32) (X : S128.Idx → BitVec 32) (k : Fin 128) (w : BitVec 32)
    (hw : w = X (ix1 k)) (hlt : (X (ix1 k)).toNat < 262144)
    (inb : ∀ a, (![w.toNat, 0] : Fin 2 → ℕ) a + S1x128.size a ≤ S262144x128.size a)
    (hr : ∀ a, (Rect.unit (s := S262144x128) ![w.toNat, 0] S1x128.size inb).stride a = 1)
    (hs : S1x128.Squeezes S128) (b : Fin 128) :
    ReadAs.same.apply (View.read (Elt F)
        (((Memref.whole main_arg0 : Memref sig .tc .hbm S262144x128 .f32).slice
          (Rect.unit (s := S262144x128) ![w.toNat, 0] S1x128.size inb) hr).squeeze S128 hs).view A) (ix1 b)
      = A (ix2 (clampRow 262144 (by decide) (X (ix1 k))) b) := by
  subst hw
  have e := read_squeezed_row (Val := Elt F) (Memref.whole main_arg0 : Memref sig .tc .hbm S262144x128 .f32)
    (X (ix1 k)).toNat hlt inb hr hs A b
  refine e.trans ?_
  show A (ix2 (⟨(X (ix1 k)).toNat, hlt⟩ : Fin 262144) b) = _
  congr 2
  exact Fin.ext (clampRow_of_lt _ hlt).symm

/-! ## The three stores read back -/

section Pieces
variable (U0 U1 U2 : S128x128.Idx → Elt F .f32)
variable (inb0 : ∀ a, (![0, 0] : Fin 2 → ℕ) a + (![128, 128] : Fin 2 → ℕ) a ≤ S128x384.size a)
  (inb1 : ∀ a, (![0, 128] : Fin 2 → ℕ) a + (![128, 128] : Fin 2 → ℕ) a ≤ S128x384.size a)
  (inb2 : ∀ a, (![0, 256] : Fin 2 → ℕ) a + (![128, 128] : Fin 2 → ℕ) a ≤ S128x384.size a)

/-- The body's three stores, last first: |s₀ − s₁| at columns 256…, ½(s₀ + s₁) at 128…, the bond block at 0…. -/
abbrev pieces : List (View.Piece (Elt F) S128x384 .f32) :=
  [⟨Rect.unit ![0, 256] ![128, 128] inb2, k0_pay2 U0 U1⟩, ⟨Rect.unit ![0, 128] ![128, 128] inb1, k0_pay1 U0 U1⟩,
    ⟨Rect.unit ![0, 0] ![128, 128] inb0, U2⟩]

theorem canon_band2 (j b : Fin 128) :
    View.canon (pieces U0 U1 U2 inb0 inb1 inb2) (ix2 j (⟨256 + b.val, by omega⟩ : Fin 384))
      = absDiff (U0 (ix2 j b)) (U1 (ix2 j b)) := by
  have e : (ix2 j (⟨256 + b.val, by omega⟩ : Fin 384) : S128x384.Idx)
      = (Rect.unit (s := S128x384) ![0, 256] ![128, 128] inb2).emb (ix2 j b) := by
    funext a
    apply Fin.ext
    match a with
    | ⟨0, _⟩ => show j.val = 0 + 1 * j.val; omega
    | ⟨1, _⟩ => show 256 + b.val = 256 + 1 * b.val; omega
  rw [e]
  exact (View.canon_cons_emb _ _ _ _).trans rfl

theorem canon_band1 (j b : Fin 128) :
    View.canon (pieces U0 U1 U2 inb0 inb1 inb2) (ix2 j (⟨128 + b.val, by omega⟩ : Fin 384))
      = mean2 (U0 (ix2 j b)) (U1 (ix2 j b)) := by
  have hn : (ix2 j (⟨128 + b.val, by omega⟩ : Fin 384) : S128x384.Idx)
      ∉ (Rect.unit (s := S128x384) ![0, 256] ![128, 128] inb2).set := by
    rw [Rect.mem_set_unit]
    intro h
    have h1 : (256 : ℕ) ≤ 128 + b.val := (h (1 : Fin 2)).1
    omega
  have e : (ix2 j (⟨128 + b.val, by omega⟩ : Fin 384) : S128x384.Idx)
      = (Rect.unit (s := S128x384) ![0, 128] ![128, 128] inb1).emb (ix2 j b) := by
    funext a
    apply Fin.ext
    match a with
    | ⟨0, _⟩ => show j.val = 0 + 1 * j.val; omega
    | ⟨1, _⟩ => show 128 + b.val = 128 + 1 * b.val; omega
  refine (View.canon_cons_of_not_mem (⟨Rect.unit (s := S128x384) ![0, 256] ![128, 128] inb2, k0_pay2 U0 U1⟩ : View.Piece (Elt F) S128x384 .f32) _ hn).trans ?_
  rw [e]
  exact (View.canon_cons_emb _ _ _ _).trans rfl

theorem canon_band0 (j b : Fin 128) :
    View.canon (pieces U0 U1 U2 inb0 inb1 inb2) (ix2 j (⟨b.val, by omega⟩ : Fin 384)) = U2 (ix2 j b) := by
  have hn2 : (ix2 j (⟨b.val, by omega⟩ : Fin 384) : S128x384.Idx)
      ∉ (Rect.unit (s := S128x384) ![0, 256] ![128, 128] inb2).set := by
    rw [Rect.mem_set_unit]
    intro h
    have h1 : (256 : ℕ) ≤ b.val := (h (1 : Fin 2)).1
    omega
  have hn1 : (ix2 j (⟨b.val, by omega⟩ : Fin 384) : S128x384.Idx)
      ∉ (Rect.unit (s := S128x384) ![0, 128] ![128, 128] inb1).set := by
    rw [Rect.mem_set_unit]
    intro h
    have h1 : (128 : ℕ) ≤ b.val := (h (1 : Fin 2)).1
    omega
  have e : (ix2 j (⟨b.val, by omega⟩ : Fin 384) : S128x384.Idx)
      = (Rect.unit (s := S128x384) ![0, 0] ![128, 128] inb0).emb (ix2 j b) := by
    funext a
    apply Fin.ext
    match a with
    | ⟨0, _⟩ => show j.val = 0 + 1 * j.val; omega
    | ⟨1, _⟩ => show b.val = 0 + 1 * b.val; omega
  refine (View.canon_cons_of_not_mem (⟨Rect.unit (s := S128x384) ![0, 256] ![128, 128] inb2, k0_pay2 U0 U1⟩ : View.Piece (Elt F) S128x384 .f32) _ hn2).trans ?_
  refine (View.canon_cons_of_not_mem (⟨Rect.unit (s := S128x384) ![0, 128] ![128, 128] inb1, k0_pay1 U0 U1⟩ : View.Piece (Elt F) S128x384 .f32) _ hn1).trans ?_
  rw [e]
  exact View.canon_cons_emb _ _ _ _

end Pieces

/-! ## The named term -/

set_option maxHeartbeats 4000000 in
/-- THE NAMED TERM: the output block the run leaves is the three stores read back, over two loaded blocks U₀, U₁ that
    hold in row a the feature-array row the a-th index word of each column names, and the bond block. -/
theorem named_eq (c : Dev nD) (i : grid0.Coords) (arg1 : Memref sig .tc .smem S128 .i32) (harg1 : arg1.IsWhole) (arg2 : Memref sig .tc .smem S128 .i32) (harg2 : arg2.IsWhole) (arg3 : Memref sig .tc .vmem S128x128 .f32) (harg3 : arg3.IsWhole) (arg5 : Memref sig .tc .vmem S128x384 .f32) (harg5 : arg5.IsWhole) (arg6 : Memref sig .tc .vmem S128x128 .f32) (harg6 : arg6.IsWhole) (arg7 : Memref sig .tc .vmem S128x128 .f32) (harg7 : arg7.IsWhole) (x0 : Vec F S128 .i32) (x1 : Vec F S128 .i32) (x2 : Vec F S128x128 .f32) (fh0 : HbBuf0 (F := F) c hbM0_0) (k0_hw1 : k0_chk1 (arg1.view.readAt (Elt F) (Rect.unit (s := S128) ![0] S1.size inb_S128_S1_0).toLoadRect (harg1.unread x0) (Shape.Idx.first (numel1_S1.symm ▸ Nat.one_pos)))) (k0_hw2 : k0_chk2 (arg2.view.readAt (Elt F) (Rect.unit (s := S128) ![0] S1.size inb_S128_S1_0).toLoadRect (harg2.unread x1) (Shape.Idx.first (numel1_S1.symm ▸ Nat.one_pos)))) (k0_hw3 : k0_chk3 (arg1.view.readAt (Elt F) (Rect.unit (s := S128) ![1] S1.size inb_S128_S1_1).toLoadRect (harg1.unread x0) (Shape.Idx.first (numel1_S1.symm ▸ Nat.one_pos)))) (k0_hw4 : k0_chk4 (arg2.view.readAt (Elt F) (Rect.unit (s := S128) ![1] S1.size inb_S128_S1_1).toLoadRect (harg2.unread x1) (Shape.Idx.first (numel1_S1.symm ▸ Nat.one_pos)))) (k0_hw5 : k0_chk5 (arg1.view.readAt (Elt F) (Rect.unit (s := S128) ![2] S1.size inb_S128_S1_2).toLoadRect (harg1.unread x0) (Shape.Idx.first (numel1_S1.symm ▸ Nat.one_pos)))) (k0_hw6 : k0_chk6 (arg2.view.readAt (Elt F) (Rect.unit (s := S128) ![2] S1.size inb_S128_S1_2).toLoadRect (harg2.unread x1) (Shape.Idx.first (numel1_S1.symm ▸ Nat.one_pos)))) (k0_hw7 : k0_chk7 (arg1.view.readAt (Elt F) (Rect.unit (s := S128) ![3] S1.size inb_S128_S1_3).toLoadRect (harg1.unread x0) (Shape.Idx.first (numel1_S1.symm ▸ Nat.one_pos)))) (k0_hw8 : k0_chk8 (arg2.view.readAt (Elt F) (Rect.unit (s := S128) ![3] S1.size inb_S128_S1_3).toLoadRect (harg2.unread x1) (Shape.Idx.first (numel1_S1.symm ▸ Nat.one_pos)))) (k0_hw9 : k0_chk9 (arg1.view.readAt (Elt F) (Rect.unit (s := S128) ![4] S1.size inb_S128_S1_4).toLoadRect (harg1.unread x0) (Shape.Idx.first (numel1_S1.symm ▸ Nat.one_pos)))) (k0_hw10 : k0_chk10 (arg2.view.readAt (Elt F) (Rect.unit (s := S128) ![4] S1.size inb_S128_S1_4).toLoadRect (harg2.unread x1) (Shape.Idx.first (numel1_S1.symm ▸ Nat.one_pos)))) (k0_hw11 : k0_chk11 (arg1.view.readAt (Elt F) (Rect.unit (s := S128) ![5] S1.size inb_S128_S1_5).toLoadRect (harg1.unread x0) (Shape.Idx.first (numel1_S1.symm ▸ Nat.one_pos)))) (k0_hw12 : k0_chk12 (arg2.view.readAt (Elt F) (Rect.unit (s := S128) ![5] S1.size inb_S128_S1_5).toLoadRect (harg2.unread x1) (Shape.Idx.first (numel1_S1.symm ▸ Nat.one_pos)))) (k0_hw13 : k0_chk13 (arg1.view.readAt (Elt F) (Rect.unit (s := S128) ![6] S1.size inb_S128_S1_6).toLoadRect (harg1.unread x0) (Shape.Idx.first (numel1_S1.symm ▸ Nat.one_pos)))) (k0_hw14 : k0_chk14 (arg2.view.readAt (Elt F) (Rect.unit (s := S128) ![6] S1.size inb_S128_S1_6).toLoadRect (harg2.unread x1) (Shape.Idx.first (numel1_S1.symm ▸ Nat.one_pos)))) (k0_hw15 : k0_chk15 (arg1.view.readAt (Elt F) (Rect.unit (s := S128) ![7] S1.size inb_S128_S1_7).toLoadRect (harg1.unread x0) (Shape.Idx.first (numel1_S1.symm ▸ Nat.one_pos)))) (k0_hw16 : k0_chk16 (arg2.view.readAt (Elt F) (Rect.unit (s := S128) ![7] S1.size inb_S128_S1_7).toLoadRect (harg2.unread x1) (Shape.Idx.first (numel1_S1.symm ▸ Nat.one_pos)))) (k0_hw17 : k0_chk17 (arg1.view.readAt (Elt F) (Rect.unit (s := S128) ![8] S1.size inb_S128_S1_8).toLoadRect (harg1.unread x0) (Shape.Idx.first (numel1_S1.symm ▸ Nat.one_pos)))) (k0_hw18 : k0_chk18 (arg2.view.readAt (Elt F) (Rect.unit (s := S128) ![8] S1.size inb_S128_S1_8).toLoadRect (harg2.unread x1) (Shape.Idx.first (numel1_S1.symm ▸ Nat.one_pos)))) (k0_hw19 : k0_chk19 (arg1.view.readAt (Elt F) (Rect.unit (s := S128) ![9] S1.size inb_S128_S1_9).toLoadRect (harg1.unread x0) (Shape.Idx.first (numel1_S1.symm ▸ Nat.one_pos)))) (k0_hw20 : k0_chk20 (arg2.view.readAt (Elt F) (Rect.unit (s := S128) ![9] S1.size inb_S128_S1_9).toLoadRect (harg2.unread x1) (Shape.Idx.first (numel1_S1.symm ▸ Nat.one_pos)))) (k0_hw21 : k0_chk21 (arg1.view.readAt (Elt F) (Rect.unit (s := S128) ![10] S1.size inb_S128_S1_10).toLoadRect (harg1.unread x0) (Shape.Idx.first (numel1_S1.symm ▸ Nat.one_pos)))) (k0_hw22 : k0_chk22 (arg2.view.readAt (Elt F) (Rect.unit (s := S128) ![10] S1.size inb_S128_S1_10).toLoadRect (harg2.unread x1) (Shape.Idx.first (numel1_S1.symm ▸ Nat.one_pos)))) (k0_hw23 : k0_chk23 (arg1.view.readAt (Elt F) (Rect.unit (s := S128) ![11] S1.size inb_S128_S1_11).toLoadRect (harg1.unread x0) (Shape.Idx.first (numel1_S1.symm ▸ Nat.one_pos)))) (k0_hw24 : k0_chk24 (arg2.view.readAt (Elt F) (Rect.unit (s := S128) ![11] S1.size inb_S128_S1_11).toLoadRect (harg2.unread x1) (Shape.Idx.first (numel1_S1.symm ▸ Nat.one_pos)))) (k0_hw25 : k0_chk25 (arg1.view.readAt (Elt F) (Rect.unit (s := S128) ![12] S1.size inb_S128_S1_12).toLoadRect (harg1.unread x0) (Shape.Idx.first (numel1_S1.symm ▸ Nat.one_pos)))) (k0_hw26 : k0_chk26 (arg2.view.readAt (Elt F) (Rect.unit (s := S128) ![12] S1.size inb_S128_S1_12).toLoadRect (harg2.unread x1) (Shape.Idx.first (numel1_S1.symm ▸ Nat.one_pos)))) (k0_hw27 : k0_chk27 (arg1.view.readAt (Elt F) (Rect.unit (s := S128) ![13] S1.size inb_S128_S1_13).toLoadRect (harg1.unread x0) (Shape.Idx.first (numel1_S1.symm ▸ Nat.one_pos)))) (k0_hw28 : k0_chk28 (arg2.view.readAt (Elt F) (Rect.unit (s := S128) ![13] S1.size inb_S128_S1_13).toLoadRect (harg2.unread x1) (Shape.Idx.first (numel1_S1.symm ▸ Nat.one_pos)))) (k0_hw29 : k0_chk29 (arg1.view.readAt (Elt F) (Rect.unit (s := S128) ![14] S1.size inb_S128_S1_14).toLoadRect (harg1.unread x0) (Shape.Idx.first (numel1_S1.symm ▸ Nat.one_pos)))) (k0_hw30 : k0_chk30 (arg2.view.readAt (Elt F) (Rect.unit (s := S128) ![14] S1.size inb_S128_S1_14).toLoadRect (harg2.unread x1) (Shape.Idx.first (numel1_S1.symm ▸ Nat.one_pos)))) (k0_hw31 : k0_chk31 (arg1.view.readAt (Elt F) (Rect.unit (s := S128) ![15] S1.size inb_S128_S1_15).toLoadRect (harg1.unread x0) (Shape.Idx.first (numel1_S1.symm ▸ Nat.one_pos)))) (k0_hw32 : k0_chk32 (arg2.view.readAt (Elt F) (Rect.unit (s := S128) ![15] S1.size inb_S128_S1_15).toLoadRect (harg2.unread x1) (Shape.Idx.first (numel1_S1.symm ▸ Nat.one_pos)))) (k0_hw33 : k0_chk33 (arg1.view.readAt (Elt F) (Rect.unit (s := S128) ![16] S1.size inb_S128_S1_16).toLoadRect (harg1.unread x0) (Shape.Idx.first (numel1_S1.symm ▸ Nat.one_pos)))) (k0_hw34 : k0_chk34 (arg2.view.readAt (Elt F) (Rect.unit (s := S128) ![16] S1.size inb_S128_S1_16).toLoadRect (harg2.unread x1) (Shape.Idx.first (numel1_S1.symm ▸ Nat.one_pos)))) (k0_hw35 : k0_chk35 (arg1.view.readAt (Elt F) (Rect.unit (s := S128) ![17] S1.size inb_S128_S1_17).toLoadRect (harg1.unread x0) (Shape.Idx.first (numel1_S1.symm ▸ Nat.one_pos)))) (k0_hw36 : k0_chk36 (arg2.view.readAt (Elt F) (Rect.unit (s := S128) ![17] S1.size inb_S128_S1_17).toLoadRect (harg2.unread x1) (Shape.Idx.first (numel1_S1.symm ▸ Nat.one_pos)))) (k0_hw37 : k0_chk37 (arg1.view.readAt (Elt F) (Rect.unit (s := S128) ![18] S1.size inb_S128_S1_18).toLoadRect (harg1.unread x0) (Shape.Idx.first (numel1_S1.symm ▸ Nat.one_pos)))) (k0_hw38 : k0_chk38 (arg2.view.readAt (Elt F) (Rect.unit (s := S128) ![18] S1.size inb_S128_S1_18).toLoadRect (harg2.unread x1) (Shape.Idx.first (numel1_S1.symm ▸ Nat.one_pos)))) (k0_hw39 : k0_chk39 (arg1.view.readAt (Elt F) (Rect.unit (s := S128) ![19] S1.size inb_S128_S1_19).toLoadRect (harg1.unread x0) (Shape.Idx.first (numel1_S1.symm ▸ Nat.one_pos)))) (k0_hw40 : k0_chk40 (arg2.view.readAt (Elt F) (Rect.unit (s := S128) ![19] S1.size inb_S128_S1_19).toLoadRect (harg2.unread x1) (Shape.Idx.first (numel1_S1.symm ▸ Nat.one_pos)))) (k0_hw41 : k0_chk41 (arg1.view.readAt (Elt F) (Rect.unit (s := S128) ![20] S1.size inb_S128_S1_20).toLoadRect (harg1.unread x0) (Shape.Idx.first (numel1_S1.symm ▸ Nat.one_pos)))) (k0_hw42 : k0_chk42 (arg2.view.readAt (Elt F) (Rect.unit (s := S128) ![20] S1.size inb_S128_S1_20).toLoadRect (harg2.unread x1) (Shape.Idx.first (numel1_S1.symm ▸ Nat.one_pos)))) (k0_hw43 : k0_chk43 (arg1.view.readAt (Elt F) (Rect.unit (s := S128) ![21] S1.size inb_S128_S1_21).toLoadRect (harg1.unread x0) (Shape.Idx.first (numel1_S1.symm ▸ Nat.one_pos)))) (k0_hw44 : k0_chk44 (arg2.view.readAt (Elt F) (Rect.unit (s := S128) ![21] S1.size inb_S128_S1_21).toLoadRect (harg2.unread x1) (Shape.Idx.first (numel1_S1.symm ▸ Nat.one_pos)))) (k0_hw45 : k0_chk45 (arg1.view.readAt (Elt F) (Rect.unit (s := S128) ![22] S1.size inb_S128_S1_22).toLoadRect (harg1.unread x0) (Shape.Idx.first (numel1_S1.symm ▸ Nat.one_pos)))) (k0_hw46 : k0_chk46 (arg2.view.readAt (Elt F) (Rect.unit (s := S128) ![22] S1.size inb_S128_S1_22).toLoadRect (harg2.unread x1) (Shape.Idx.first (numel1_S1.symm ▸ Nat.one_pos)))) (k0_hw47 : k0_chk47 (arg1.view.readAt (Elt F) (Rect.unit (s := S128) ![23] S1.size inb_S128_S1_23).toLoadRect (harg1.unread x0) (Shape.Idx.first (numel1_S1.symm ▸ Nat.one_pos)))) (k0_hw48 : k0_chk48 (arg2.view.readAt (Elt F) (Rect.unit (s := S128) ![23] S1.size inb_S128_S1_23).toLoadRect (harg2.unread x1) (Shape.Idx.first (numel1_S1.symm ▸ Nat.one_pos)))) (k0_hw49 : k0_chk49 (arg1.view.readAt (Elt F) (Rect.unit (s := S128) ![24] S1.size inb_S128_S1_24).toLoadRect (harg1.unread x0) (Shape.Idx.first (numel1_S1.symm ▸ Nat.one_pos)))) (k0_hw50 : k0_chk50 (arg2.view.readAt (Elt F) (Rect.unit (s := S128) ![24] S1.size inb_S128_S1_24).toLoadRect (harg2.unread x1) (Shape.Idx.first (numel1_S1.symm ▸ Nat.one_pos)))) (k0_hw51 : k0_chk51 (arg1.view.readAt (Elt F) (Rect.unit (s := S128) ![25] S1.size inb_S128_S1_25).toLoadRect (harg1.unread x0) (Shape.Idx.first (numel1_S1.symm ▸ Nat.one_pos)))) (k0_hw52 : k0_chk52 (arg2.view.readAt (Elt F) (Rect.unit (s := S128) ![25] S1.size inb_S128_S1_25).toLoadRect (harg2.unread x1) (Shape.Idx.first (numel1_S1.symm ▸ Nat.one_pos)))) (k0_hw53 : k0_chk53 (arg1.view.readAt (Elt F) (Rect.unit (s := S128) ![26] S1.size inb_S128_S1_26).toLoadRect (harg1.unread x0) (Shape.Idx.first (numel1_S1.symm ▸ Nat.one_pos)))) (k0_hw54 : k0_chk54 (arg2.view.readAt (Elt F) (Rect.unit (s := S128) ![26] S1.size inb_S128_S1_26).toLoadRect (harg2.unread x1) (Shape.Idx.first (numel1_S1.symm ▸ Nat.one_pos)))) (k0_hw55 : k0_chk55 (arg1.view.readAt (Elt F) (Rect.unit (s := S128) ![27] S1.size inb_S128_S1_27).toLoadRect (harg1.unread x0) (Shape.Idx.first (numel1_S1.symm ▸ Nat.one_pos)))) (k0_hw56 : k0_chk56 (arg2.view.readAt (Elt F) (Rect.unit (s := S128) ![27] S1.size inb_S128_S1_27).toLoadRect (harg2.unread x1) (Shape.Idx.first (numel1_S1.symm ▸ Nat.one_pos)))) (k0_hw57 : k0_chk57 (arg1.view.readAt (Elt F) (Rect.unit (s := S128) ![28] S1.size inb_S128_S1_28).toLoadRect (harg1.unread x0) (Shape.Idx.first (numel1_S1.symm ▸ Nat.one_pos)))) (k0_hw58 : k0_chk58 (arg2.view.readAt (Elt F) (Rect.unit (s := S128) ![28] S1.size inb_S128_S1_28).toLoadRect (harg2.unread x1) (Shape.Idx.first (numel1_S1.symm ▸ Nat.one_pos)))) (k0_hw59 : k0_chk59 (arg1.view.readAt (Elt F) (Rect.unit (s := S128) ![29] S1.size inb_S128_S1_29).toLoadRect (harg1.unread x0) (Shape.Idx.first (numel1_S1.symm ▸ Nat.one_pos)))) (k0_hw60 : k0_chk60 (arg2.view.readAt (Elt F) (Rect.unit (s := S128) ![29] S1.size inb_S128_S1_29).toLoadRect (harg2.unread x1) (Shape.Idx.first (numel1_S1.symm ▸ Nat.one_pos)))) (k0_hw61 : k0_chk61 (arg1.view.readAt (Elt F) (Rect.unit (s := S128) ![30] S1.size inb_S128_S1_30).toLoadRect (harg1.unread x0) (Shape.Idx.first (numel1_S1.symm ▸ Nat.one_pos)))) (k0_hw62 : k0_chk62 (arg2.view.readAt (Elt F) (Rect.unit (s := S128) ![30] S1.size inb_S128_S1_30).toLoadRect (harg2.unread x1) (Shape.Idx.first (numel1_S1.symm ▸ Nat.one_pos)))) (k0_hw63 : k0_chk63 (arg1.view.readAt (Elt F) (Rect.unit (s := S128) ![31] S1.size inb_S128_S1_31).toLoadRect (harg1.unread x0) (Shape.Idx.first (numel1_S1.symm ▸ Nat.one_pos)))) (k0_hw64 : k0_chk64 (arg2.view.readAt (Elt F) (Rect.unit (s := S128) ![31] S1.size inb_S128_S1_31).toLoadRect (harg2.unread x1) (Shape.Idx.first (numel1_S1.symm ▸ Nat.one_pos)))) (k0_hw65 : k0_chk65 (arg1.view.readAt (Elt F) (Rect.unit (s := S128) ![32] S1.size inb_S128_S1_32).toLoadRect (harg1.unread x0) (Shape.Idx.first (numel1_S1.symm ▸ Nat.one_pos)))) (k0_hw66 : k0_chk66 (arg2.view.readAt (Elt F) (Rect.unit (s := S128) ![32] S1.size inb_S128_S1_32).toLoadRect (harg2.unread x1) (Shape.Idx.first (numel1_S1.symm ▸ Nat.one_pos)))) (k0_hw67 : k0_chk67 (arg1.view.readAt (Elt F) (Rect.unit (s := S128) ![33] S1.size inb_S128_S1_33).toLoadRect (harg1.unread x0) (Shape.Idx.first (numel1_S1.symm ▸ Nat.one_pos)))) (k0_hw68 : k0_chk68 (arg2.view.readAt (Elt F) (Rect.unit (s := S128) ![33] S1.size inb_S128_S1_33).toLoadRect (harg2.unread x1) (Shape.Idx.first (numel1_S1.symm ▸ Nat.one_pos)))) (k0_hw69 : k0_chk69 (arg1.view.readAt (Elt F) (Rect.unit (s := S128) ![34] S1.size inb_S128_S1_34).toLoadRect (harg1.unread x0) (Shape.Idx.first (numel1_S1.symm ▸ Nat.one_pos)))) (k0_hw70 : k0_chk70 (arg2.view.readAt (Elt F) (Rect.unit (s := S128) ![34] S1.size inb_S128_S1_34).toLoadRect (harg2.unread x1) (Shape.Idx.first (numel1_S1.symm ▸ Nat.one_pos)))) (k0_hw71 : k0_chk71 (arg1.view.readAt (Elt F) (Rect.unit (s := S128) ![35] S1.size inb_S128_S1_35).toLoadRect (harg1.unread x0) (Shape.Idx.first (numel1_S1.symm ▸ Nat.one_pos)))) (k0_hw72 : k0_chk72 (arg2.view.readAt (Elt F) (Rect.unit (s := S128) ![35] S1.size inb_S128_S1_35).toLoadRect (harg2.unread x1) (Shape.Idx.first (numel1_S1.symm ▸ Nat.one_pos)))) (k0_hw73 : k0_chk73 (arg1.view.readAt (Elt F) (Rect.unit (s := S128) ![36] S1.size inb_S128_S1_36).toLoadRect (harg1.unread x0) (Shape.Idx.first (numel1_S1.symm ▸ Nat.one_pos)))) (k0_hw74 : k0_chk74 (arg2.view.readAt (Elt F) (Rect.unit (s := S128) ![36] S1.size inb_S128_S1_36).toLoadRect (harg2.unread x1) (Shape.Idx.first (numel1_S1.symm ▸ Nat.one_pos)))) (k0_hw75 : k0_chk75 (arg1.view.readAt (Elt F) (Rect.unit (s := S128) ![37] S1.size inb_S128_S1_37).toLoadRect (harg1.unread x0) (Shape.Idx.first (numel1_S1.symm ▸ Nat.one_pos)))) (k0_hw76 : k0_chk76 (arg2.view.readAt (Elt F) (Rect.unit (s := S128) ![37] S1.size inb_S128_S1_37).toLoadRect (harg2.unread x1) (Shape.Idx.first (numel1_S1.symm ▸ Nat.one_pos)))) (k0_hw77 : k0_chk77 (arg1.view.readAt (Elt F) (Rect.unit (s := S128) ![38] S1.size inb_S128_S1_38).toLoadRect (harg1.unread x0) (Shape.Idx.first (numel1_S1.symm ▸ Nat.one_pos)))) (k0_hw78 : k0_chk78 (arg2.view.readAt (Elt F) (Rect.unit (s := S128) ![38] S1.size inb_S128_S1_38).toLoadRect (harg2.unread x1) (Shape.Idx.first (numel1_S1.symm ▸ Nat.one_pos)))) (k0_hw79 : k0_chk79 (arg1.view.readAt (Elt F) (Rect.unit (s := S128) ![39] S1.size inb_S128_S1_39).toLoadRect (harg1.unread x0) (Shape.Idx.first (numel1_S1.symm ▸ Nat.one_pos)))) (k0_hw80 : k0_chk80 (arg2.view.readAt (Elt F) (Rect.unit (s := S128) ![39] S1.size inb_S128_S1_39).toLoadRect (harg2.unread x1) (Shape.Idx.first (numel1_S1.symm ▸ Nat.one_pos)))) (k0_hw81 : k0_chk81 (arg1.view.readAt (Elt F) (Rect.unit (s := S128) ![40] S1.size inb_S128_S1_40).toLoadRect (harg1.unread x0) (Shape.Idx.first (numel1_S1.symm ▸ Nat.one_pos)))) (k0_hw82 : k0_chk82 (arg2.view.readAt (Elt F) (Rect.unit (s := S128) ![40] S1.size inb_S128_S1_40).toLoadRect (harg2.unread x1) (Shape.Idx.first (numel1_S1.symm ▸ Nat.one_pos)))) (k0_hw83 : k0_chk83 (arg1.view.readAt (Elt F) (Rect.unit (s := S128) ![41] S1.size inb_S128_S1_41).toLoadRect (harg1.unread x0) (Shape.Idx.first (numel1_S1.symm ▸ Nat.one_pos)))) (k0_hw84 : k0_chk84 (arg2.view.readAt (Elt F) (Rect.unit (s := S128) ![41] S1.size inb_S128_S1_41).toLoadRect (harg2.unread x1) (Shape.Idx.first (numel1_S1.symm ▸ Nat.one_pos)))) (k0_hw85 : k0_chk85 (arg1.view.readAt (Elt F) (Rect.unit (s := S128) ![42] S1.size inb_S128_S1_42).toLoadRect (harg1.unread x0) (Shape.Idx.first (numel1_S1.symm ▸ Nat.one_pos)))) (k0_hw86 : k0_chk86 (arg2.view.readAt (Elt F) (Rect.unit (s := S128) ![42] S1.size inb_S128_S1_42).toLoadRect (harg2.unread x1) (Shape.Idx.first (numel1_S1.symm ▸ Nat.one_pos)))) (k0_hw87 : k0_chk87 (arg1.view.readAt (Elt F) (Rect.unit (s := S128) ![43] S1.size inb_S128_S1_43).toLoadRect (harg1.unread x0) (Shape.Idx.first (numel1_S1.symm ▸ Nat.one_pos)))) (k0_hw88 : k0_chk88 (arg2.view.readAt (Elt F) (Rect.unit (s := S128) ![43] S1.size inb_S128_S1_43).toLoadRect (harg2.unread x1) (Shape.Idx.first (numel1_S1.symm ▸ Nat.one_pos)))) (k0_hw89 : k0_chk89 (arg1.view.readAt (Elt F) (Rect.unit (s := S128) ![44] S1.size inb_S128_S1_44).toLoadRect (harg1.unread x0) (Shape.Idx.first (numel1_S1.symm ▸ Nat.one_pos)))) (k0_hw90 : k0_chk90 (arg2.view.readAt (Elt F) (Rect.unit (s := S128) ![44] S1.size inb_S128_S1_44).toLoadRect (harg2.unread x1) (Shape.Idx.first (numel1_S1.symm ▸ Nat.one_pos)))) (k0_hw91 : k0_chk91 (arg1.view.readAt (Elt F) (Rect.unit (s := S128) ![45] S1.size inb_S128_S1_45).toLoadRect (harg1.unread x0) (Shape.Idx.first (numel1_S1.symm ▸ Nat.one_pos)))) (k0_hw92 : k0_chk92 (arg2.view.readAt (Elt F) (Rect.unit (s := S128) ![45] S1.size inb_S128_S1_45).toLoadRect (harg2.unread x1) (Shape.Idx.first (numel1_S1.symm ▸ Nat.one_pos)))) (k0_hw93 : k0_chk93 (arg1.view.readAt (Elt F) (Rect.unit (s := S128) ![46] S1.size inb_S128_S1_46).toLoadRect (harg1.unread x0) (Shape.Idx.first (numel1_S1.symm ▸ Nat.one_pos)))) (k0_hw94 : k0_chk94 (arg2.view.readAt (Elt F) (Rect.unit (s := S128) ![46] S1.size inb_S128_S1_46).toLoadRect (harg2.unread x1) (Shape.Idx.first (numel1_S1.symm ▸ Nat.one_pos)))) (k0_hw95 : k0_chk95 (arg1.view.readAt (Elt F) (Rect.unit (s := S128) ![47] S1.size inb_S128_S1_47).toLoadRect (harg1.unread x0) (Shape.Idx.first (numel1_S1.symm ▸ Nat.one_pos)))) (k0_hw96 : k0_chk96 (arg2.view.readAt (Elt F) (Rect.unit (s := S128) ![47] S1.size inb_S128_S1_47).toLoadRect (harg2.unread x1) (Shape.Idx.first (numel1_S1.symm ▸ Nat.one_pos)))) (k0_hw97 : k0_chk97 (arg1.view.readAt (Elt F) (Rect.unit (s := S128) ![48] S1.size inb_S128_S1_48).toLoadRect (harg1.unread x0) (Shape.Idx.first (numel1_S1.symm ▸ Nat.one_pos)))) (k0_hw98 : k0_chk98 (arg2.view.readAt (Elt F) (Rect.unit (s := S128) ![48] S1.size inb_S128_S1_48).toLoadRect (harg2.unread x1) (Shape.Idx.first (numel1_S1.symm ▸ Nat.one_pos)))) (k0_hw99 : k0_chk99 (arg1.view.readAt (Elt F) (Rect.unit (s := S128) ![49] S1.size inb_S128_S1_49).toLoadRect (harg1.unread x0) (Shape.Idx.first (numel1_S1.symm ▸ Nat.one_pos)))) (k0_hw100 : k0_chk100 (arg2.view.readAt (Elt F) (Rect.unit (s := S128) ![49] S1.size inb_S128_S1_49).toLoadRect (harg2.unread x1) (Shape.Idx.first (numel1_S1.symm ▸ Nat.one_pos)))) (k0_hw101 : k0_chk101 (arg1.view.readAt (Elt F) (Rect.unit (s := S128) ![50] S1.size inb_S128_S1_50).toLoadRect (harg1.unread x0) (Shape.Idx.first (numel1_S1.symm ▸ Nat.one_pos)))) (k0_hw102 : k0_chk102 (arg2.view.readAt (Elt F) (Rect.unit (s := S128) ![50] S1.size inb_S128_S1_50).toLoadRect (harg2.unread x1) (Shape.Idx.first (numel1_S1.symm ▸ Nat.one_pos)))) (k0_hw103 : k0_chk103 (arg1.view.readAt (Elt F) (Rect.unit (s := S128) ![51] S1.size inb_S128_S1_51).toLoadRect (harg1.unread x0) (Shape.Idx.first (numel1_S1.symm ▸ Nat.one_pos)))) (k0_hw104 : k0_chk104 (arg2.view.readAt (Elt F) (Rect.unit (s := S128) ![51] S1.size inb_S128_S1_51).toLoadRect (harg2.unread x1) (Shape.Idx.first (numel1_S1.symm ▸ Nat.one_pos)))) (k0_hw105 : k0_chk105 (arg1.view.readAt (Elt F) (Rect.unit (s := S128) ![52] S1.size inb_S128_S1_52).toLoadRect (harg1.unread x0) (Shape.Idx.first (numel1_S1.symm ▸ Nat.one_pos)))) (k0_hw106 : k0_chk106 (arg2.view.readAt (Elt F) (Rect.unit (s := S128) ![52] S1.size inb_S128_S1_52).toLoadRect (harg2.unread x1) (Shape.Idx.first (numel1_S1.symm ▸ Nat.one_pos)))) (k0_hw107 : k0_chk107 (arg1.view.readAt (Elt F) (Rect.unit (s := S128) ![53] S1.size inb_S128_S1_53).toLoadRect (harg1.unread x0) (Shape.Idx.first (numel1_S1.symm ▸ Nat.one_pos)))) (k0_hw108 : k0_chk108 (arg2.view.readAt (Elt F) (Rect.unit (s := S128) ![53] S1.size inb_S128_S1_53).toLoadRect (harg2.unread x1) (Shape.Idx.first (numel1_S1.symm ▸ Nat.one_pos)))) (k0_hw109 : k0_chk109 (arg1.view.readAt (Elt F) (Rect.unit (s := S128) ![54] S1.size inb_S128_S1_54).toLoadRect (harg1.unread x0) (Shape.Idx.first (numel1_S1.symm ▸ Nat.one_pos)))) (k0_hw110 : k0_chk110 (arg2.view.readAt (Elt F) (Rect.unit (s := S128) ![54] S1.size inb_S128_S1_54).toLoadRect (harg2.unread x1) (Shape.Idx.first (numel1_S1.symm ▸ Nat.one_pos)))) (k0_hw111 : k0_chk111 (arg1.view.readAt (Elt F) (Rect.unit (s := S128) ![55] S1.size inb_S128_S1_55).toLoadRect (harg1.unread x0) (Shape.Idx.first (numel1_S1.symm ▸ Nat.one_pos)))) (k0_hw112 : k0_chk112 (arg2.view.readAt (Elt F) (Rect.unit (s := S128) ![55] S1.size inb_S128_S1_55).toLoadRect (harg2.unread x1) (Shape.Idx.first (numel1_S1.symm ▸ Nat.one_pos)))) (k0_hw113 : k0_chk113 (arg1.view.readAt (Elt F) (Rect.unit (s := S128) ![56] S1.size inb_S128_S1_56).toLoadRect (harg1.unread x0) (Shape.Idx.first (numel1_S1.symm ▸ Nat.one_pos)))) (k0_hw114 : k0_chk114 (arg2.view.readAt (Elt F) (Rect.unit (s := S128) ![56] S1.size inb_S128_S1_56).toLoadRect (harg2.unread x1) (Shape.Idx.first (numel1_S1.symm ▸ Nat.one_pos)))) (k0_hw115 : k0_chk115 (arg1.view.readAt (Elt F) (Rect.unit (s := S128) ![57] S1.size inb_S128_S1_57).toLoadRect (harg1.unread x0) (Shape.Idx.first (numel1_S1.symm ▸ Nat.one_pos)))) (k0_hw116 : k0_chk116 (arg2.view.readAt (Elt F) (Rect.unit (s := S128) ![57] S1.size inb_S128_S1_57).toLoadRect (harg2.unread x1) (Shape.Idx.first (numel1_S1.symm ▸ Nat.one_pos)))) (k0_hw117 : k0_chk117 (arg1.view.readAt (Elt F) (Rect.unit (s := S128) ![58] S1.size inb_S128_S1_58).toLoadRect (harg1.unread x0) (Shape.Idx.first (numel1_S1.symm ▸ Nat.one_pos)))) (k0_hw118 : k0_chk118 (arg2.view.readAt (Elt F) (Rect.unit (s := S128) ![58] S1.size inb_S128_S1_58).toLoadRect (harg2.unread x1) (Shape.Idx.first (numel1_S1.symm ▸ Nat.one_pos)))) (k0_hw119 : k0_chk119 (arg1.view.readAt (Elt F) (Rect.unit (s := S128) ![59] S1.size inb_S128_S1_59).toLoadRect (harg1.unread x0) (Shape.Idx.first (numel1_S1.symm ▸ Nat.one_pos)))) (k0_hw120 : k0_chk120 (arg2.view.readAt (Elt F) (Rect.unit (s := S128) ![59] S1.size inb_S128_S1_59).toLoadRect (harg2.unread x1) (Shape.Idx.first (numel1_S1.symm ▸ Nat.one_pos)))) (k0_hw121 : k0_chk121 (arg1.view.readAt (Elt F) (Rect.unit (s := S128) ![60] S1.size inb_S128_S1_60).toLoadRect (harg1.unread x0) (Shape.Idx.first (numel1_S1.symm ▸ Nat.one_pos)))) (k0_hw122 : k0_chk122 (arg2.view.readAt (Elt F) (Rect.unit (s := S128) ![60] S1.size inb_S128_S1_60).toLoadRect (harg2.unread x1) (Shape.Idx.first (numel1_S1.symm ▸ Nat.one_pos)))) (k0_hw123 : k0_chk123 (arg1.view.readAt (Elt F) (Rect.unit (s := S128) ![61] S1.size inb_S128_S1_61).toLoadRect (harg1.unread x0) (Shape.Idx.first (numel1_S1.symm ▸ Nat.one_pos)))) (k0_hw124 : k0_chk124 (arg2.view.readAt (Elt F) (Rect.unit (s := S128) ![61] S1.size inb_S128_S1_61).toLoadRect (harg2.unread x1) (Shape.Idx.first (numel1_S1.symm ▸ Nat.one_pos)))) (k0_hw125 : k0_chk125 (arg1.view.readAt (Elt F) (Rect.unit (s := S128) ![62] S1.size inb_S128_S1_62).toLoadRect (harg1.unread x0) (Shape.Idx.first (numel1_S1.symm ▸ Nat.one_pos)))) (k0_hw126 : k0_chk126 (arg2.view.readAt (Elt F) (Rect.unit (s := S128) ![62] S1.size inb_S128_S1_62).toLoadRect (harg2.unread x1) (Shape.Idx.first (numel1_S1.symm ▸ Nat.one_pos)))) (k0_hw127 : k0_chk127 (arg1.view.readAt (Elt F) (Rect.unit (s := S128) ![63] S1.size inb_S128_S1_63).toLoadRect (harg1.unread x0) (Shape.Idx.first (numel1_S1.symm ▸ Nat.one_pos)))) (k0_hw128 : k0_chk128 (arg2.view.readAt (Elt F) (Rect.unit (s := S128) ![63] S1.size inb_S128_S1_63).toLoadRect (harg2.unread x1) (Shape.Idx.first (numel1_S1.symm ▸ Nat.one_pos)))) (k0_hw129 : k0_chk129 (arg1.view.readAt (Elt F) (Rect.unit (s := S128) ![64] S1.size inb_S128_S1_64).toLoadRect (harg1.unread x0) (Shape.Idx.first (numel1_S1.symm ▸ Nat.one_pos)))) (k0_hw130 : k0_chk130 (arg2.view.readAt (Elt F) (Rect.unit (s := S128) ![64] S1.size inb_S128_S1_64).toLoadRect (harg2.unread x1) (Shape.Idx.first (numel1_S1.symm ▸ Nat.one_pos)))) (k0_hw131 : k0_chk131 (arg1.view.readAt (Elt F) (Rect.unit (s := S128) ![65] S1.size inb_S128_S1_65).toLoadRect (harg1.unread x0) (Shape.Idx.first (numel1_S1.symm ▸ Nat.one_pos)))) (k0_hw132 : k0_chk132 (arg2.view.readAt (Elt F) (Rect.unit (s := S128) ![65] S1.size inb_S128_S1_65).toLoadRect (harg2.unread x1) (Shape.Idx.first (numel1_S1.symm ▸ Nat.one_pos)))) (k0_hw133 : k0_chk133 (arg1.view.readAt (Elt F) (Rect.unit (s := S128) ![66] S1.size inb_S128_S1_66).toLoadRect (harg1.unread x0) (Shape.Idx.first (numel1_S1.symm ▸ Nat.one_pos)))) (k0_hw134 : k0_chk134 (arg2.view.readAt (Elt F) (Rect.unit (s := S128) ![66] S1.size inb_S128_S1_66).toLoadRect (harg2.unread x1) (Shape.Idx.first (numel1_S1.symm ▸ Nat.one_pos)))) (k0_hw135 : k0_chk135 (arg1.view.readAt (Elt F) (Rect.unit (s := S128) ![67] S1.size inb_S128_S1_67).toLoadRect (harg1.unread x0) (Shape.Idx.first (numel1_S1.symm ▸ Nat.one_pos)))) (k0_hw136 : k0_chk136 (arg2.view.readAt (Elt F) (Rect.unit (s := S128) ![67] S1.size inb_S128_S1_67).toLoadRect (harg2.unread x1) (Shape.Idx.first (numel1_S1.symm ▸ Nat.one_pos)))) (k0_hw137 : k0_chk137 (arg1.view.readAt (Elt F) (Rect.unit (s := S128) ![68] S1.size inb_S128_S1_68).toLoadRect (harg1.unread x0) (Shape.Idx.first (numel1_S1.symm ▸ Nat.one_pos)))) (k0_hw138 : k0_chk138 (arg2.view.readAt (Elt F) (Rect.unit (s := S128) ![68] S1.size inb_S128_S1_68).toLoadRect (harg2.unread x1) (Shape.Idx.first (numel1_S1.symm ▸ Nat.one_pos)))) (k0_hw139 : k0_chk139 (arg1.view.readAt (Elt F) (Rect.unit (s := S128) ![69] S1.size inb_S128_S1_69).toLoadRect (harg1.unread x0) (Shape.Idx.first (numel1_S1.symm ▸ Nat.one_pos)))) (k0_hw140 : k0_chk140 (arg2.view.readAt (Elt F) (Rect.unit (s := S128) ![69] S1.size inb_S128_S1_69).toLoadRect (harg2.unread x1) (Shape.Idx.first (numel1_S1.symm ▸ Nat.one_pos)))) (k0_hw141 : k0_chk141 (arg1.view.readAt (Elt F) (Rect.unit (s := S128) ![70] S1.size inb_S128_S1_70).toLoadRect (harg1.unread x0) (Shape.Idx.first (numel1_S1.symm ▸ Nat.one_pos)))) (k0_hw142 : k0_chk142 (arg2.view.readAt (Elt F) (Rect.unit (s := S128) ![70] S1.size inb_S128_S1_70).toLoadRect (harg2.unread x1) (Shape.Idx.first (numel1_S1.symm ▸ Nat.one_pos)))) (k0_hw143 : k0_chk143 (arg1.view.readAt (Elt F) (Rect.unit (s := S128) ![71] S1.size inb_S128_S1_71).toLoadRect (harg1.unread x0) (Shape.Idx.first (numel1_S1.symm ▸ Nat.one_pos)))) (k0_hw144 : k0_chk144 (arg2.view.readAt (Elt F) (Rect.unit (s := S128) ![71] S1.size inb_S128_S1_71).toLoadRect (harg2.unread x1) (Shape.Idx.first (numel1_S1.symm ▸ Nat.one_pos)))) (k0_hw145 : k0_chk145 (arg1.view.readAt (Elt F) (Rect.unit (s := S128) ![72] S1.size inb_S128_S1_72).toLoadRect (harg1.unread x0) (Shape.Idx.first (numel1_S1.symm ▸ Nat.one_pos)))) (k0_hw146 : k0_chk146 (arg2.view.readAt (Elt F) (Rect.unit (s := S128) ![72] S1.size inb_S128_S1_72).toLoadRect (harg2.unread x1) (Shape.Idx.first (numel1_S1.symm ▸ Nat.one_pos)))) (k0_hw147 : k0_chk147 (arg1.view.readAt (Elt F) (Rect.unit (s := S128) ![73] S1.size inb_S128_S1_73).toLoadRect (harg1.unread x0) (Shape.Idx.first (numel1_S1.symm ▸ Nat.one_pos)))) (k0_hw148 : k0_chk148 (arg2.view.readAt (Elt F) (Rect.unit (s := S128) ![73] S1.size inb_S128_S1_73).toLoadRect (harg2.unread x1) (Shape.Idx.first (numel1_S1.symm ▸ Nat.one_pos)))) (k0_hw149 : k0_chk149 (arg1.view.readAt (Elt F) (Rect.unit (s := S128) ![74] S1.size inb_S128_S1_74).toLoadRect (harg1.unread x0) (Shape.Idx.first (numel1_S1.symm ▸ Nat.one_pos)))) (k0_hw150 : k0_chk150 (arg2.view.readAt (Elt F) (Rect.unit (s := S128) ![74] S1.size inb_S128_S1_74).toLoadRect (harg2.unread x1) (Shape.Idx.first (numel1_S1.symm ▸ Nat.one_pos)))) (k0_hw151 : k0_chk151 (arg1.view.readAt (Elt F) (Rect.unit (s := S128) ![75] S1.size inb_S128_S1_75).toLoadRect (harg1.unread x0) (Shape.Idx.first (numel1_S1.symm ▸ Nat.one_pos)))) (k0_hw152 : k0_chk152 (arg2.view.readAt (Elt F) (Rect.unit (s := S128) ![75] S1.size inb_S128_S1_75).toLoadRect (harg2.unread x1) (Shape.Idx.first (numel1_S1.symm ▸ Nat.one_pos)))) (k0_hw153 : k0_chk153 (arg1.view.readAt (Elt F) (Rect.unit (s := S128) ![76] S1.size inb_S128_S1_76).toLoadRect (harg1.unread x0) (Shape.Idx.first (numel1_S1.symm ▸ Nat.one_pos)))) (k0_hw154 : k0_chk154 (arg2.view.readAt (Elt F) (Rect.unit (s := S128) ![76] S1.size inb_S128_S1_76).toLoadRect (harg2.unread x1) (Shape.Idx.first (numel1_S1.symm ▸ Nat.one_pos)))) (k0_hw155 : k0_chk155 (arg1.view.readAt (Elt F) (Rect.unit (s := S128) ![77] S1.size inb_S128_S1_77).toLoadRect (harg1.unread x0) (Shape.Idx.first (numel1_S1.symm ▸ Nat.one_pos)))) (k0_hw156 : k0_chk156 (arg2.view.readAt (Elt F) (Rect.unit (s := S128) ![77] S1.size inb_S128_S1_77).toLoadRect (harg2.unread x1) (Shape.Idx.first (numel1_S1.symm ▸ Nat.one_pos)))) (k0_hw157 : k0_chk157 (arg1.view.readAt (Elt F) (Rect.unit (s := S128) ![78] S1.size inb_S128_S1_78).toLoadRect (harg1.unread x0) (Shape.Idx.first (numel1_S1.symm ▸ Nat.one_pos)))) (k0_hw158 : k0_chk158 (arg2.view.readAt (Elt F) (Rect.unit (s := S128) ![78] S1.size inb_S128_S1_78).toLoadRect (harg2.unread x1) (Shape.Idx.first (numel1_S1.symm ▸ Nat.one_pos)))) (k0_hw159 : k0_chk159 (arg1.view.readAt (Elt F) (Rect.unit (s := S128) ![79] S1.size inb_S128_S1_79).toLoadRect (harg1.unread x0) (Shape.Idx.first (numel1_S1.symm ▸ Nat.one_pos)))) (k0_hw160 : k0_chk160 (arg2.view.readAt (Elt F) (Rect.unit (s := S128) ![79] S1.size inb_S128_S1_79).toLoadRect (harg2.unread x1) (Shape.Idx.first (numel1_S1.symm ▸ Nat.one_pos)))) (k0_hw161 : k0_chk161 (arg1.view.readAt (Elt F) (Rect.unit (s := S128) ![80] S1.size inb_S128_S1_80).toLoadRect (harg1.unread x0) (Shape.Idx.first (numel1_S1.symm ▸ Nat.one_pos)))) (k0_hw162 : k0_chk162 (arg2.view.readAt (Elt F) (Rect.unit (s := S128) ![80] S1.size inb_S128_S1_80).toLoadRect (harg2.unread x1) (Shape.Idx.first (numel1_S1.symm ▸ Nat.one_pos)))) (k0_hw163 : k0_chk163 (arg1.view.readAt (Elt F) (Rect.unit (s := S128) ![81] S1.size inb_S128_S1_81).toLoadRect (harg1.unread x0) (Shape.Idx.first (numel1_S1.symm ▸ Nat.one_pos)))) (k0_hw164 : k0_chk164 (arg2.view.readAt (Elt F) (Rect.unit (s := S128) ![81] S1.size inb_S128_S1_81).toLoadRect (harg2.unread x1) (Shape.Idx.first (numel1_S1.symm ▸ Nat.one_pos)))) (k0_hw165 : k0_chk165 (arg1.view.readAt (Elt F) (Rect.unit (s := S128) ![82] S1.size inb_S128_S1_82).toLoadRect (harg1.unread x0) (Shape.Idx.first (numel1_S1.symm ▸ Nat.one_pos)))) (k0_hw166 : k0_chk166 (arg2.view.readAt (Elt F) (Rect.unit (s := S128) ![82] S1.size inb_S128_S1_82).toLoadRect (harg2.unread x1) (Shape.Idx.first (numel1_S1.symm ▸ Nat.one_pos)))) (k0_hw167 : k0_chk167 (arg1.view.readAt (Elt F) (Rect.unit (s := S128) ![83] S1.size inb_S128_S1_83).toLoadRect (harg1.unread x0) (Shape.Idx.first (numel1_S1.symm ▸ Nat.one_pos)))) (k0_hw168 : k0_chk168 (arg2.view.readAt (Elt F) (Rect.unit (s := S128) ![83] S1.size inb_S128_S1_83).toLoadRect (harg2.unread x1) (Shape.Idx.first (numel1_S1.symm ▸ Nat.one_pos)))) (k0_hw169 : k0_chk169 (arg1.view.readAt (Elt F) (Rect.unit (s := S128) ![84] S1.size inb_S128_S1_84).toLoadRect (harg1.unread x0) (Shape.Idx.first (numel1_S1.symm ▸ Nat.one_pos)))) (k0_hw170 : k0_chk170 (arg2.view.readAt (Elt F) (Rect.unit (s := S128) ![84] S1.size inb_S128_S1_84).toLoadRect (harg2.unread x1) (Shape.Idx.first (numel1_S1.symm ▸ Nat.one_pos)))) (k0_hw171 : k0_chk171 (arg1.view.readAt (Elt F) (Rect.unit (s := S128) ![85] S1.size inb_S128_S1_85).toLoadRect (harg1.unread x0) (Shape.Idx.first (numel1_S1.symm ▸ Nat.one_pos)))) (k0_hw172 : k0_chk172 (arg2.view.readAt (Elt F) (Rect.unit (s := S128) ![85] S1.size inb_S128_S1_85).toLoadRect (harg2.unread x1) (Shape.Idx.first (numel1_S1.symm ▸ Nat.one_pos)))) (k0_hw173 : k0_chk173 (arg1.view.readAt (Elt F) (Rect.unit (s := S128) ![86] S1.size inb_S128_S1_86).toLoadRect (harg1.unread x0) (Shape.Idx.first (numel1_S1.symm ▸ Nat.one_pos)))) (k0_hw174 : k0_chk174 (arg2.view.readAt (Elt F) (Rect.unit (s := S128) ![86] S1.size inb_S128_S1_86).toLoadRect (harg2.unread x1) (Shape.Idx.first (numel1_S1.symm ▸ Nat.one_pos)))) (k0_hw175 : k0_chk175 (arg1.view.readAt (Elt F) (Rect.unit (s := S128) ![87] S1.size inb_S128_S1_87).toLoadRect (harg1.unread x0) (Shape.Idx.first (numel1_S1.symm ▸ Nat.one_pos)))) (k0_hw176 : k0_chk176 (arg2.view.readAt (Elt F) (Rect.unit (s := S128) ![87] S1.size inb_S128_S1_87).toLoadRect (harg2.unread x1) (Shape.Idx.first (numel1_S1.symm ▸ Nat.one_pos)))) (k0_hw177 : k0_chk177 (arg1.view.readAt (Elt F) (Rect.unit (s := S128) ![88] S1.size inb_S128_S1_88).toLoadRect (harg1.unread x0) (Shape.Idx.first (numel1_S1.symm ▸ Nat.one_pos)))) (k0_hw178 : k0_chk178 (arg2.view.readAt (Elt F) (Rect.unit (s := S128) ![88] S1.size inb_S128_S1_88).toLoadRect (harg2.unread x1) (Shape.Idx.first (numel1_S1.symm ▸ Nat.one_pos)))) (k0_hw179 : k0_chk179 (arg1.view.readAt (Elt F) (Rect.unit (s := S128) ![89] S1.size inb_S128_S1_89).toLoadRect (harg1.unread x0) (Shape.Idx.first (numel1_S1.symm ▸ Nat.one_pos)))) (k0_hw180 : k0_chk180 (arg2.view.readAt (Elt F) (Rect.unit (s := S128) ![89] S1.size inb_S128_S1_89).toLoadRect (harg2.unread x1) (Shape.Idx.first (numel1_S1.symm ▸ Nat.one_pos)))) (k0_hw181 : k0_chk181 (arg1.view.readAt (Elt F) (Rect.unit (s := S128) ![90] S1.size inb_S128_S1_90).toLoadRect (harg1.unread x0) (Shape.Idx.first (numel1_S1.symm ▸ Nat.one_pos)))) (k0_hw182 : k0_chk182 (arg2.view.readAt (Elt F) (Rect.unit (s := S128) ![90] S1.size inb_S128_S1_90).toLoadRect (harg2.unread x1) (Shape.Idx.first (numel1_S1.symm ▸ Nat.one_pos)))) (k0_hw183 : k0_chk183 (arg1.view.readAt (Elt F) (Rect.unit (s := S128) ![91] S1.size inb_S128_S1_91).toLoadRect (harg1.unread x0) (Shape.Idx.first (numel1_S1.symm ▸ Nat.one_pos)))) (k0_hw184 : k0_chk184 (arg2.view.readAt (Elt F) (Rect.unit (s := S128) ![91] S1.size inb_S128_S1_91).toLoadRect (harg2.unread x1) (Shape.Idx.first (numel1_S1.symm ▸ Nat.one_pos)))) (k0_hw185 : k0_chk185 (arg1.view.readAt (Elt F) (Rect.unit (s := S128) ![92] S1.size inb_S128_S1_92).toLoadRect (harg1.unread x0) (Shape.Idx.first (numel1_S1.symm ▸ Nat.one_pos)))) (k0_hw186 : k0_chk186 (arg2.view.readAt (Elt F) (Rect.unit (s := S128) ![92] S1.size inb_S128_S1_92).toLoadRect (harg2.unread x1) (Shape.Idx.first (numel1_S1.symm ▸ Nat.one_pos)))) (k0_hw187 : k0_chk187 (arg1.view.readAt (Elt F) (Rect.unit (s := S128) ![93] S1.size inb_S128_S1_93).toLoadRect (harg1.unread x0) (Shape.Idx.first (numel1_S1.symm ▸ Nat.one_pos)))) (k0_hw188 : k0_chk188 (arg2.view.readAt (Elt F) (Rect.unit (s := S128) ![93] S1.size inb_S128_S1_93).toLoadRect (harg2.unread x1) (Shape.Idx.first (numel1_S1.symm ▸ Nat.one_pos)))) (k0_hw189 : k0_chk189 (arg1.view.readAt (Elt F) (Rect.unit (s := S128) ![94] S1.size inb_S128_S1_94).toLoadRect (harg1.unread x0) (Shape.Idx.first (numel1_S1.symm ▸ Nat.one_pos)))) (k0_hw190 : k0_chk190 (arg2.view.readAt (Elt F) (Rect.unit (s := S128) ![94] S1.size inb_S128_S1_94).toLoadRect (harg2.unread x1) (Shape.Idx.first (numel1_S1.symm ▸ Nat.one_pos)))) (k0_hw191 : k0_chk191 (arg1.view.readAt (Elt F) (Rect.unit (s := S128) ![95] S1.size inb_S128_S1_95).toLoadRect (harg1.unread x0) (Shape.Idx.first (numel1_S1.symm ▸ Nat.one_pos)))) (k0_hw192 : k0_chk192 (arg2.view.readAt (Elt F) (Rect.unit (s := S128) ![95] S1.size inb_S128_S1_95).toLoadRect (harg2.unread x1) (Shape.Idx.first (numel1_S1.symm ▸ Nat.one_pos)))) (k0_hw193 : k0_chk193 (arg1.view.readAt (Elt F) (Rect.unit (s := S128) ![96] S1.size inb_S128_S1_96).toLoadRect (harg1.unread x0) (Shape.Idx.first (numel1_S1.symm ▸ Nat.one_pos)))) (k0_hw194 : k0_chk194 (arg2.view.readAt (Elt F) (Rect.unit (s := S128) ![96] S1.size inb_S128_S1_96).toLoadRect (harg2.unread x1) (Shape.Idx.first (numel1_S1.symm ▸ Nat.one_pos)))) (k0_hw195 : k0_chk195 (arg1.view.readAt (Elt F) (Rect.unit (s := S128) ![97] S1.size inb_S128_S1_97).toLoadRect (harg1.unread x0) (Shape.Idx.first (numel1_S1.symm ▸ Nat.one_pos)))) (k0_hw196 : k0_chk196 (arg2.view.readAt (Elt F) (Rect.unit (s := S128) ![97] S1.size inb_S128_S1_97).toLoadRect (harg2.unread x1) (Shape.Idx.first (numel1_S1.symm ▸ Nat.one_pos)))) (k0_hw197 : k0_chk197 (arg1.view.readAt (Elt F) (Rect.unit (s := S128) ![98] S1.size inb_S128_S1_98).toLoadRect (harg1.unread x0) (Shape.Idx.first (numel1_S1.symm ▸ Nat.one_pos)))) (k0_hw198 : k0_chk198 (arg2.view.readAt (Elt F) (Rect.unit (s := S128) ![98] S1.size inb_S128_S1_98).toLoadRect (harg2.unread x1) (Shape.Idx.first (numel1_S1.symm ▸ Nat.one_pos)))) (k0_hw199 : k0_chk199 (arg1.view.readAt (Elt F) (Rect.unit (s := S128) ![99] S1.size inb_S128_S1_99).toLoadRect (harg1.unread x0) (Shape.Idx.first (numel1_S1.symm ▸ Nat.one_pos)))) (k0_hw200 : k0_chk200 (arg2.view.readAt (Elt F) (Rect.unit (s := S128) ![99] S1.size inb_S128_S1_99).toLoadRect (harg2.unread x1) (Shape.Idx.first (numel1_S1.symm ▸ Nat.one_pos)))) (k0_hw201 : k0_chk201 (arg1.view.readAt (Elt F) (Rect.unit (s := S128) ![100] S1.size inb_S128_S1_100).toLoadRect (harg1.unread x0) (Shape.Idx.first (numel1_S1.symm ▸ Nat.one_pos)))) (k0_hw202 : k0_chk202 (arg2.view.readAt (Elt F) (Rect.unit (s := S128) ![100] S1.size inb_S128_S1_100).toLoadRect (harg2.unread x1) (Shape.Idx.first (numel1_S1.symm ▸ Nat.one_pos)))) (k0_hw203 : k0_chk203 (arg1.view.readAt (Elt F) (Rect.unit (s := S128) ![101] S1.size inb_S128_S1_101).toLoadRect (harg1.unread x0) (Shape.Idx.first (numel1_S1.symm ▸ Nat.one_pos)))) (k0_hw204 : k0_chk204 (arg2.view.readAt (Elt F) (Rect.unit (s := S128) ![101] S1.size inb_S128_S1_101).toLoadRect (harg2.unread x1) (Shape.Idx.first (numel1_S1.symm ▸ Nat.one_pos)))) (k0_hw205 : k0_chk205 (arg1.view.readAt (Elt F) (Rect.unit (s := S128) ![102] S1.size inb_S128_S1_102).toLoadRect (harg1.unread x0) (Shape.Idx.first (numel1_S1.symm ▸ Nat.one_pos)))) (k0_hw206 : k0_chk206 (arg2.view.readAt (Elt F) (Rect.unit (s := S128) ![102] S1.size inb_S128_S1_102).toLoadRect (harg2.unread x1) (Shape.Idx.first (numel1_S1.symm ▸ Nat.one_pos)))) (k0_hw207 : k0_chk207 (arg1.view.readAt (Elt F) (Rect.unit (s := S128) ![103] S1.size inb_S128_S1_103).toLoadRect (harg1.unread x0) (Shape.Idx.first (numel1_S1.symm ▸ Nat.one_pos)))) (k0_hw208 : k0_chk208 (arg2.view.readAt (Elt F) (Rect.unit (s := S128) ![103] S1.size inb_S128_S1_103).toLoadRect (harg2.unread x1) (Shape.Idx.first (numel1_S1.symm ▸ Nat.one_pos)))) (k0_hw209 : k0_chk209 (arg1.view.readAt (Elt F) (Rect.unit (s := S128) ![104] S1.size inb_S128_S1_104).toLoadRect (harg1.unread x0) (Shape.Idx.first (numel1_S1.symm ▸ Nat.one_pos)))) (k0_hw210 : k0_chk210 (arg2.view.readAt (Elt F) (Rect.unit (s := S128) ![104] S1.size inb_S128_S1_104).toLoadRect (harg2.unread x1) (Shape.Idx.first (numel1_S1.symm ▸ Nat.one_pos)))) (k0_hw211 : k0_chk211 (arg1.view.readAt (Elt F) (Rect.unit (s := S128) ![105] S1.size inb_S128_S1_105).toLoadRect (harg1.unread x0) (Shape.Idx.first (numel1_S1.symm ▸ Nat.one_pos)))) (k0_hw212 : k0_chk212 (arg2.view.readAt (Elt F) (Rect.unit (s := S128) ![105] S1.size inb_S128_S1_105).toLoadRect (harg2.unread x1) (Shape.Idx.first (numel1_S1.symm ▸ Nat.one_pos)))) (k0_hw213 : k0_chk213 (arg1.view.readAt (Elt F) (Rect.unit (s := S128) ![106] S1.size inb_S128_S1_106).toLoadRect (harg1.unread x0) (Shape.Idx.first (numel1_S1.symm ▸ Nat.one_pos)))) (k0_hw214 : k0_chk214 (arg2.view.readAt (Elt F) (Rect.unit (s := S128) ![106] S1.size inb_S128_S1_106).toLoadRect (harg2.unread x1) (Shape.Idx.first (numel1_S1.symm ▸ Nat.one_pos)))) (k0_hw215 : k0_chk215 (arg1.view.readAt (Elt F) (Rect.unit (s := S128) ![107] S1.size inb_S128_S1_107).toLoadRect (harg1.unread x0) (Shape.Idx.first (numel1_S1.symm ▸ Nat.one_pos)))) (k0_hw216 : k0_chk216 (arg2.view.readAt (Elt F) (Rect.unit (s := S128) ![107] S1.size inb_S128_S1_107).toLoadRect (harg2.unread x1) (Shape.Idx.first (numel1_S1.symm ▸ Nat.one_pos)))) (k0_hw217 : k0_chk217 (arg1.view.readAt (Elt F) (Rect.unit (s := S128) ![108] S1.size inb_S128_S1_108).toLoadRect (harg1.unread x0) (Shape.Idx.first (numel1_S1.symm ▸ Nat.one_pos)))) (k0_hw218 : k0_chk218 (arg2.view.readAt (Elt F) (Rect.unit (s := S128) ![108] S1.size inb_S128_S1_108).toLoadRect (harg2.unread x1) (Shape.Idx.first (numel1_S1.symm ▸ Nat.one_pos)))) (k0_hw219 : k0_chk219 (arg1.view.readAt (Elt F) (Rect.unit (s := S128) ![109] S1.size inb_S128_S1_109).toLoadRect (harg1.unread x0) (Shape.Idx.first (numel1_S1.symm ▸ Nat.one_pos)))) (k0_hw220 : k0_chk220 (arg2.view.readAt (Elt F) (Rect.unit (s := S128) ![109] S1.size inb_S128_S1_109).toLoadRect (harg2.unread x1) (Shape.Idx.first (numel1_S1.symm ▸ Nat.one_pos)))) (k0_hw221 : k0_chk221 (arg1.view.readAt (Elt F) (Rect.unit (s := S128) ![110] S1.size inb_S128_S1_110).toLoadRect (harg1.unread x0) (Shape.Idx.first (numel1_S1.symm ▸ Nat.one_pos)))) (k0_hw222 : k0_chk222 (arg2.view.readAt (Elt F) (Rect.unit (s := S128) ![110] S1.size inb_S128_S1_110).toLoadRect (harg2.unread x1) (Shape.Idx.first (numel1_S1.symm ▸ Nat.one_pos)))) (k0_hw223 : k0_chk223 (arg1.view.readAt (Elt F) (Rect.unit (s := S128) ![111] S1.size inb_S128_S1_111).toLoadRect (harg1.unread x0) (Shape.Idx.first (numel1_S1.symm ▸ Nat.one_pos)))) (k0_hw224 : k0_chk224 (arg2.view.readAt (Elt F) (Rect.unit (s := S128) ![111] S1.size inb_S128_S1_111).toLoadRect (harg2.unread x1) (Shape.Idx.first (numel1_S1.symm ▸ Nat.one_pos)))) (k0_hw225 : k0_chk225 (arg1.view.readAt (Elt F) (Rect.unit (s := S128) ![112] S1.size inb_S128_S1_112).toLoadRect (harg1.unread x0) (Shape.Idx.first (numel1_S1.symm ▸ Nat.one_pos)))) (k0_hw226 : k0_chk226 (arg2.view.readAt (Elt F) (Rect.unit (s := S128) ![112] S1.size inb_S128_S1_112).toLoadRect (harg2.unread x1) (Shape.Idx.first (numel1_S1.symm ▸ Nat.one_pos)))) (k0_hw227 : k0_chk227 (arg1.view.readAt (Elt F) (Rect.unit (s := S128) ![113] S1.size inb_S128_S1_113).toLoadRect (harg1.unread x0) (Shape.Idx.first (numel1_S1.symm ▸ Nat.one_pos)))) (k0_hw228 : k0_chk228 (arg2.view.readAt (Elt F) (Rect.unit (s := S128) ![113] S1.size inb_S128_S1_113).toLoadRect (harg2.unread x1) (Shape.Idx.first (numel1_S1.symm ▸ Nat.one_pos)))) (k0_hw229 : k0_chk229 (arg1.view.readAt (Elt F) (Rect.unit (s := S128) ![114] S1.size inb_S128_S1_114).toLoadRect (harg1.unread x0) (Shape.Idx.first (numel1_S1.symm ▸ Nat.one_pos)))) (k0_hw230 : k0_chk230 (arg2.view.readAt (Elt F) (Rect.unit (s := S128) ![114] S1.size inb_S128_S1_114).toLoadRect (harg2.unread x1) (Shape.Idx.first (numel1_S1.symm ▸ Nat.one_pos)))) (k0_hw231 : k0_chk231 (arg1.view.readAt (Elt F) (Rect.unit (s := S128) ![115] S1.size inb_S128_S1_115).toLoadRect (harg1.unread x0) (Shape.Idx.first (numel1_S1.symm ▸ Nat.one_pos)))) (k0_hw232 : k0_chk232 (arg2.view.readAt (Elt F) (Rect.unit (s := S128) ![115] S1.size inb_S128_S1_115).toLoadRect (harg2.unread x1) (Shape.Idx.first (numel1_S1.symm ▸ Nat.one_pos)))) (k0_hw233 : k0_chk233 (arg1.view.readAt (Elt F) (Rect.unit (s := S128) ![116] S1.size inb_S128_S1_116).toLoadRect (harg1.unread x0) (Shape.Idx.first (numel1_S1.symm ▸ Nat.one_pos)))) (k0_hw234 : k0_chk234 (arg2.view.readAt (Elt F) (Rect.unit (s := S128) ![116] S1.size inb_S128_S1_116).toLoadRect (harg2.unread x1) (Shape.Idx.first (numel1_S1.symm ▸ Nat.one_pos)))) (k0_hw235 : k0_chk235 (arg1.view.readAt (Elt F) (Rect.unit (s := S128) ![117] S1.size inb_S128_S1_117).toLoadRect (harg1.unread x0) (Shape.Idx.first (numel1_S1.symm ▸ Nat.one_pos)))) (k0_hw236 : k0_chk236 (arg2.view.readAt (Elt F) (Rect.unit (s := S128) ![117] S1.size inb_S128_S1_117).toLoadRect (harg2.unread x1) (Shape.Idx.first (numel1_S1.symm ▸ Nat.one_pos)))) (k0_hw237 : k0_chk237 (arg1.view.readAt (Elt F) (Rect.unit (s := S128) ![118] S1.size inb_S128_S1_118).toLoadRect (harg1.unread x0) (Shape.Idx.first (numel1_S1.symm ▸ Nat.one_pos)))) (k0_hw238 : k0_chk238 (arg2.view.readAt (Elt F) (Rect.unit (s := S128) ![118] S1.size inb_S128_S1_118).toLoadRect (harg2.unread x1) (Shape.Idx.first (numel1_S1.symm ▸ Nat.one_pos)))) (k0_hw239 : k0_chk239 (arg1.view.readAt (Elt F) (Rect.unit (s := S128) ![119] S1.size inb_S128_S1_119).toLoadRect (harg1.unread x0) (Shape.Idx.first (numel1_S1.symm ▸ Nat.one_pos)))) (k0_hw240 : k0_chk240 (arg2.view.readAt (Elt F) (Rect.unit (s := S128) ![119] S1.size inb_S128_S1_119).toLoadRect (harg2.unread x1) (Shape.Idx.first (numel1_S1.symm ▸ Nat.one_pos)))) (k0_hw241 : k0_chk241 (arg1.view.readAt (Elt F) (Rect.unit (s := S128) ![120] S1.size inb_S128_S1_120).toLoadRect (harg1.unread x0) (Shape.Idx.first (numel1_S1.symm ▸ Nat.one_pos)))) (k0_hw242 : k0_chk242 (arg2.view.readAt (Elt F) (Rect.unit (s := S128) ![120] S1.size inb_S128_S1_120).toLoadRect (harg2.unread x1) (Shape.Idx.first (numel1_S1.symm ▸ Nat.one_pos)))) (k0_hw243 : k0_chk243 (arg1.view.readAt (Elt F) (Rect.unit (s := S128) ![121] S1.size inb_S128_S1_121).toLoadRect (harg1.unread x0) (Shape.Idx.first (numel1_S1.symm ▸ Nat.one_pos)))) (k0_hw244 : k0_chk244 (arg2.view.readAt (Elt F) (Rect.unit (s := S128) ![121] S1.size inb_S128_S1_121).toLoadRect (harg2.unread x1) (Shape.Idx.first (numel1_S1.symm ▸ Nat.one_pos)))) (k0_hw245 : k0_chk245 (arg1.view.readAt (Elt F) (Rect.unit (s := S128) ![122] S1.size inb_S128_S1_122).toLoadRect (harg1.unread x0) (Shape.Idx.first (numel1_S1.symm ▸ Nat.one_pos)))) (k0_hw246 : k0_chk246 (arg2.view.readAt (Elt F) (Rect.unit (s := S128) ![122] S1.size inb_S128_S1_122).toLoadRect (harg2.unread x1) (Shape.Idx.first (numel1_S1.symm ▸ Nat.one_pos)))) (k0_hw247 : k0_chk247 (arg1.view.readAt (Elt F) (Rect.unit (s := S128) ![123] S1.size inb_S128_S1_123).toLoadRect (harg1.unread x0) (Shape.Idx.first (numel1_S1.symm ▸ Nat.one_pos)))) (k0_hw248 : k0_chk248 (arg2.view.readAt (Elt F) (Rect.unit (s := S128) ![123] S1.size inb_S128_S1_123).toLoadRect (harg2.unread x1) (Shape.Idx.first (numel1_S1.symm ▸ Nat.one_pos)))) (k0_hw249 : k0_chk249 (arg1.view.readAt (Elt F) (Rect.unit (s := S128) ![124] S1.size inb_S128_S1_124).toLoadRect (harg1.unread x0) (Shape.Idx.first (numel1_S1.symm ▸ Nat.one_pos)))) (k0_hw250 : k0_chk250 (arg2.view.readAt (Elt F) (Rect.unit (s := S128) ![124] S1.size inb_S128_S1_124).toLoadRect (harg2.unread x1) (Shape.Idx.first (numel1_S1.symm ▸ Nat.one_pos)))) (k0_hw251 : k0_chk251 (arg1.view.readAt (Elt F) (Rect.unit (s := S128) ![125] S1.size inb_S128_S1_125).toLoadRect (harg1.unread x0) (Shape.Idx.first (numel1_S1.symm ▸ Nat.one_pos)))) (k0_hw252 : k0_chk252 (arg2.view.readAt (Elt F) (Rect.unit (s := S128) ![125] S1.size inb_S128_S1_125).toLoadRect (harg2.unread x1) (Shape.Idx.first (numel1_S1.symm ▸ Nat.one_pos)))) (k0_hw253 : k0_chk253 (arg1.view.readAt (Elt F) (Rect.unit (s := S128) ![126] S1.size inb_S128_S1_126).toLoadRect (harg1.unread x0) (Shape.Idx.first (numel1_S1.symm ▸ Nat.one_pos)))) (k0_hw254 : k0_chk254 (arg2.view.readAt (Elt F) (Rect.unit (s := S128) ![126] S1.size inb_S128_S1_126).toLoadRect (harg2.unread x1) (Shape.Idx.first (numel1_S1.symm ▸ Nat.one_pos)))) (k0_hw255 : k0_chk255 (arg1.view.readAt (Elt F) (Rect.unit (s := S128) ![127] S1.size inb_S128_S1_127).toLoadRect (harg1.unread x0) (Shape.Idx.first (numel1_S1.symm ▸ Nat.one_pos)))) (k0_hw256 : k0_chk256 (arg2.view.readAt (Elt F) (Rect.unit (s := S128) ![127] S1.size inb_S128_S1_127).toLoadRect (harg2.unread x1) (Shape.Idx.first (numel1_S1.symm ▸ Nat.one_pos))))
    (h0 : ∀ y, (x0 y : BitVec 32).toNat < 262144) (h1 : ∀ y, (x1 y : BitVec 32).toNat < 262144) :
    ∃ U0 U1 : S128x128.Idx → Elt F .f32,
      (∀ a b : Fin 128, U0 (ix2 a b) = (fh0 : S262144x128.Idx → Elt F .f32) (ix2 (clampRow 262144 (by decide) (x0 (ix1 a))) b)) ∧
      (∀ a b : Fin 128, U1 (ix2 a b) = (fh0 : S262144x128.Idx → Elt F .f32) (ix2 (clampRow 262144 (by decide) (x1 (ix1 a))) b)) ∧
      out0_A_3 c i arg1 harg1 arg2 harg2 arg3 harg3 arg5 harg5 arg6 harg6 arg7 harg7 x0 x1 x2 fh0 k0_hw1 k0_hw2 k0_hw3 k0_hw4 k0_hw5 k0_hw6 k0_hw7 k0_hw8 k0_hw9 k0_hw10 k0_hw11 k0_hw12 k0_hw13 k0_hw14 k0_hw15 k0_hw16 k0_hw17 k0_hw18 k0_hw19 k0_hw20 k0_hw21 k0_hw22 k0_hw23 k0_hw24 k0_hw25 k0_hw26 k0_hw27 k0_hw28 k0_hw29 k0_hw30 k0_hw31 k0_hw32 k0_hw33 k0_hw34 k0_hw35 k0_hw36 k0_hw37 k0_hw38 k0_hw39 k0_hw40 k0_hw41 k0_hw42 k0_hw43 k0_hw44 k0_hw45 k0_hw46 k0_hw47 k0_hw48 k0_hw49 k0_hw50 k0_hw51 k0_hw52 k0_hw53 k0_hw54 k0_hw55 k0_hw56 k0_hw57 k0_hw58 k0_hw59 k0_hw60 k0_hw61 k0_hw62 k0_hw63 k0_hw64 k0_hw65 k0_hw66 k0_hw67 k0_hw68 k0_hw69 k0_hw70 k0_hw71 k0_hw72 k0_hw73 k0_hw74 k0_hw75 k0_hw76 k0_hw77 k0_hw78 k0_hw79 k0_hw80 k0_hw81 k0_hw82 k0_hw83 k0_hw84 k0_hw85 k0_hw86 k0_hw87 k0_hw88 k0_hw89 k0_hw90 k0_hw91 k0_hw92 k0_hw93 k0_hw94 k0_hw95 k0_hw96 k0_hw97 k0_hw98 k0_hw99 k0_hw100 k0_hw101 k0_hw102 k0_hw103 k0_hw104 k0_hw105 k0_hw106 k0_hw107 k0_hw108 k0_hw109 k0_hw110 k0_hw111 k0_hw112 k0_hw113 k0_hw114 k0_hw115 k0_hw116 k0_hw117 k0_hw118 k0_hw119 k0_hw120 k0_hw121 k0_hw122 k0_hw123 k0_hw124 k0_hw125 k0_hw126 k0_hw127 k0_hw128 k0_hw129 k0_hw130 k0_hw131 k0_hw132 k0_hw133 k0_hw134 k0_hw135 k0_hw136 k0_hw137 k0_hw138 k0_hw139 k0_hw140 k0_hw141 k0_hw142 k0_hw143 k0_hw144 k0_hw145 k0_hw146 k0_hw147 k0_hw148 k0_hw149 k0_hw150 k0_hw151 k0_hw152 k0_hw153 k0_hw154 k0_hw155 k0_hw156 k0_hw157 k0_hw158 k0_hw159 k0_hw160 k0_hw161 k0_hw162 k0_hw163 k0_hw164 k0_hw165 k0_hw166 k0_hw167 k0_hw168 k0_hw169 k0_hw170 k0_hw171 k0_hw172 k0_hw173 k0_hw174 k0_hw175 k0_hw176 k0_hw177 k0_hw178 k0_hw179 k0_hw180 k0_hw181 k0_hw182 k0_hw183 k0_hw184 k0_hw185 k0_hw186 k0_hw187 k0_hw188 k0_hw189 k0_hw190 k0_hw191 k0_hw192 k0_hw193 k0_hw194 k0_hw195 k0_hw196 k0_hw197 k0_hw198 k0_hw199 k0_hw200 k0_hw201 k0_hw202 k0_hw203 k0_hw204 k0_hw205 k0_hw206 k0_hw207 k0_hw208 k0_hw209 k0_hw210 k0_hw211 k0_hw212 k0_hw213 k0_hw214 k0_hw215 k0_hw216 k0_hw217 k0_hw218 k0_hw219 k0_hw220 k0_hw221 k0_hw222 k0_hw223 k0_hw224 k0_hw225 k0_hw226 k0_hw227 k0_hw228 k0_hw229 k0_hw230 k0_hw231 k0_hw232 k0_hw233 k0_hw234 k0_hw235 k0_hw236 k0_hw237 k0_hw238 k0_hw239 k0_hw240 k0_hw241 k0_hw242 k0_hw243 k0_hw244 k0_hw245 k0_hw246 k0_hw247 k0_hw248 k0_hw249 k0_hw250 k0_hw251 k0_hw252 k0_hw253 k0_hw254 k0_hw255 k0_hw256
        = View.canon (pieces U0 U1 x2 inb_S128x384_S128x128_0_0 inb_S128x384_S128x128_0_128 inb_S128x384_S128x128_0_256) := by
  refine ⟨?U0, ?U1, ?hU0, ?hU1, ?e⟩
  case e =>
    unfold out0_A_3
    rw [View.read_writes_eq_canon _ _ _ (cover0_A_3 c i arg1 harg1 arg2 harg2 arg3 harg3 arg5 harg5 arg6 harg6 arg7 harg7 x0 x1 x2 fh0 k0_hw1 k0_hw2 k0_hw3 k0_hw4 k0_hw5 k0_hw6 k0_hw7 k0_hw8 k0_hw9 k0_hw10 k0_hw11 k0_hw12 k0_hw13 k0_hw14 k0_hw15 k0_hw16 k0_hw17 k0_hw18 k0_hw19 k0_hw20 k0_hw21 k0_hw22 k0_hw23 k0_hw24 k0_hw25 k0_hw26 k0_hw27 k0_hw28 k0_hw29 k0_hw30 k0_hw31 k0_hw32 k0_hw33 k0_hw34 k0_hw35 k0_hw36 k0_hw37 k0_hw38 k0_hw39 k0_hw40 k0_hw41 k0_hw42 k0_hw43 k0_hw44 k0_hw45 k0_hw46 k0_hw47 k0_hw48 k0_hw49 k0_hw50 k0_hw51 k0_hw52 k0_hw53 k0_hw54 k0_hw55 k0_hw56 k0_hw57 k0_hw58 k0_hw59 k0_hw60 k0_hw61 k0_hw62 k0_hw63 k0_hw64 k0_hw65 k0_hw66 k0_hw67 k0_hw68 k0_hw69 k0_hw70 k0_hw71 k0_hw72 k0_hw73 k0_hw74 k0_hw75 k0_hw76 k0_hw77 k0_hw78 k0_hw79 k0_hw80 k0_hw81 k0_hw82 k0_hw83 k0_hw84 k0_hw85 k0_hw86 k0_hw87 k0_hw88 k0_hw89 k0_hw90 k0_hw91 k0_hw92 k0_hw93 k0_hw94 k0_hw95 k0_hw96 k0_hw97 k0_hw98 k0_hw99 k0_hw100 k0_hw101 k0_hw102 k0_hw103 k0_hw104 k0_hw105 k0_hw106 k0_hw107 k0_hw108 k0_hw109 k0_hw110 k0_hw111 k0_hw112 k0_hw113 k0_hw114 k0_hw115 k0_hw116 k0_hw117 k0_hw118 k0_hw119 k0_hw120 k0_hw121 k0_hw122 k0_hw123 k0_hw124 k0_hw125 k0_hw126 k0_hw127 k0_hw128 k0_hw129 k0_hw130 k0_hw131 k0_hw132 k0_hw133 k0_hw134 k0_hw135 k0_hw136 k0_hw137 k0_hw138 k0_hw139 k0_hw140 k0_hw141 k0_hw142 k0_hw143 k0_hw144 k0_hw145 k0_hw146 k0_hw147 k0_hw148 k0_hw149 k0_hw150 k0_hw151 k0_hw152 k0_hw153 k0_hw154 k0_hw155 k0_hw156 k0_hw157 k0_hw158 k0_hw159 k0_hw160 k0_hw161 k0_hw162 k0_hw163 k0_hw164 k0_hw165 k0_hw166 k0_hw167 k0_hw168 k0_hw169 k0_hw170 k0_hw171 k0_hw172 k0_hw173 k0_hw174 k0_hw175 k0_hw176 k0_hw177 k0_hw178 k0_hw179 k0_hw180 k0_hw181 k0_hw182 k0_hw183 k0_hw184 k0_hw185 k0_hw186 k0_hw187 k0_hw188 k0_hw189 k0_hw190 k0_hw191 k0_hw192 k0_hw193 k0_hw194 k0_hw195 k0_hw196 k0_hw197 k0_hw198 k0_hw199 k0_hw200 k0_hw201 k0_hw202 k0_hw203 k0_hw204 k0_hw205 k0_hw206 k0_hw207 k0_hw208 k0_hw209 k0_hw210 k0_hw211 k0_hw212 k0_hw213 k0_hw214 k0_hw215 k0_hw216 k0_hw217 k0_hw218 k0_hw219 k0_hw220 k0_hw221 k0_hw222 k0_hw223 k0_hw224 k0_hw225 k0_hw226 k0_hw227 k0_hw228 k0_hw229 k0_hw230 k0_hw231 k0_hw232 k0_hw233 k0_hw234 k0_hw235 k0_hw236 k0_hw237 k0_hw238 k0_hw239 k0_hw240 k0_hw241 k0_hw242 k0_hw243 k0_hw244 k0_hw245 k0_hw246 k0_hw247 k0_hw248 k0_hw249 k0_hw250 k0_hw251 k0_hw252 k0_hw253 k0_hw254 k0_hw255 k0_hw256)]
    unfold kernelRun0_A
    dsimp only
    sl_unfold_words
    have e3 : View.readAt (Elt F) arg3.view (Rect.unit (s := S128x128) ![0, 0] ![128, 128] inb_S128x128_S128x128_0_0).toLoadRect
        (harg3.unread x2) = x2 := by
      rw [View.readAt_eq_ld, harg3.read_unread, View.ld_unit_zero (S := S128x128) hz2]
    rw [e3]
  case hU0 =>
    intro a b
    simp only [View.readAt_eq_ld, harg6.read_unread, View.ld_unit_zero (S := S128x128) hz2]
    refine Cert.Vec128.vec128_all (α := S128.Idx → Elt F .f32)
      (fun a' (p : S128.Idx → Elt F .f32) => ∀ b' : Fin 128, p (ix1 b') = (fh0 : S262144x128.Idx → Elt F .f32) (ix2 (clampRow 262144 (by decide) (x0 (ix1 a'))) b'))
      _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _
      ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ a b
    all_goals (intro b'; exact payload_at _ x0 _ _ (word_eq _ _ _ _ _ _ _) (h0 _) _ (fun _ => rfl) sq1x128 b')
  case hU1 =>
    intro a b
    simp only [View.readAt_eq_ld, harg7.read_unread, View.ld_unit_zero (S := S128x128) hz2]
    refine Cert.Vec128.vec128_all (α := S128.Idx → Elt F .f32)
      (fun a' (p : S128.Idx → Elt F .f32) => ∀ b' : Fin 128, p (ix1 b') = (fh0 : S262144x128.Idx → Elt F .f32) (ix2 (clampRow 262144 (by decide) (x1 (ix1 a'))) b'))
      _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _
      ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ a b
    all_goals (intro b'; exact payload_at _ x1 _ _ (word_eq _ _ _ _ _ _ _) (h1 _) _ (fun _ => rfl) sq1x128 b')

/-! ## What point t writes back -/

variable (m : (ℓ : Loc nD τ sig) → Buf (Elt F) ℓ)

/-- The specification at the launch contents of the three argument arrays on core c. -/
abbrev spec (c : Dev nD) : S524288x384.Idx → Elt F .f32 :=
  Cert.Spec.out (F := F) (m ((c : Thread nD τ).loc main_arg0)) (m ((c : Thread nD τ).loc main_arg1))
    (m ((c : Thread nD τ).loc main_arg2))

set_option maxHeartbeats 4000000 in
theorem flushed3_eq (hH : Hyps m) (hR : Cert.KernelIdeal.HypsOfPre.InRange m) (c : Dev nD) (t : Fin cfg0.N) :
    (dats m hH 0 c).flushed 3 t = ((cfg0.win 3).blk t).view.read (Elt F) (spec m c) := by
  rw [Cert.KernelIdeal.ValueP.flushed3_A]
  obtain ⟨U0, U1, hU0, hU1, e⟩ := named_eq (F := F) c (grid0.coords t) (ms0_0 t) (hs0_0 t) (ms0_1 t) (hs0_1 t) (ms0_2 t) (hs0_2 t)
    (ms0_3 t) (hs0_3 t) scM0_0 (Memref.isWhole_whole _) scM0_1 (Memref.isWhole_whole _) (iblk m c 0 t) (iblk m c 1 t)
    (iblk m c 2 t) (V m c main_arg0) (Hyps.c0 hH c t) (Hyps.c1 hH c t) (Hyps.c2 hH c t) (Hyps.c3 hH c t) (Hyps.c4 hH c t) (Hyps.c5 hH c t) (Hyps.c6 hH c t) (Hyps.c7 hH c t) (Hyps.c8 hH c t) (Hyps.c9 hH c t) (Hyps.c10 hH c t) (Hyps.c11 hH c t) (Hyps.c12 hH c t) (Hyps.c13 hH c t) (Hyps.c14 hH c t) (Hyps.c15 hH c t) (Hyps.c16 hH c t) (Hyps.c17 hH c t) (Hyps.c18 hH c t) (Hyps.c19 hH c t) (Hyps.c20 hH c t) (Hyps.c21 hH c t) (Hyps.c22 hH c t) (Hyps.c23 hH c t) (Hyps.c24 hH c t) (Hyps.c25 hH c t) (Hyps.c26 hH c t) (Hyps.c27 hH c t) (Hyps.c28 hH c t) (Hyps.c29 hH c t) (Hyps.c30 hH c t) (Hyps.c31 hH c t) (Hyps.c32 hH c t) (Hyps.c33 hH c t) (Hyps.c34 hH c t) (Hyps.c35 hH c t) (Hyps.c36 hH c t) (Hyps.c37 hH c t) (Hyps.c38 hH c t) (Hyps.c39 hH c t) (Hyps.c40 hH c t) (Hyps.c41 hH c t) (Hyps.c42 hH c t) (Hyps.c43 hH c t) (Hyps.c44 hH c t) (Hyps.c45 hH c t) (Hyps.c46 hH c t) (Hyps.c47 hH c t) (Hyps.c48 hH c t) (Hyps.c49 hH c t) (Hyps.c50 hH c t) (Hyps.c51 hH c t) (Hyps.c52 hH c t) (Hyps.c53 hH c t) (Hyps.c54 hH c t) (Hyps.c55 hH c t) (Hyps.c56 hH c t) (Hyps.c57 hH c t) (Hyps.c58 hH c t) (Hyps.c59 hH c t) (Hyps.c60 hH c t) (Hyps.c61 hH c t) (Hyps.c62 hH c t) (Hyps.c63 hH c t) (Hyps.c64 hH c t) (Hyps.c65 hH c t) (Hyps.c66 hH c t) (Hyps.c67 hH c t) (Hyps.c68 hH c t) (Hyps.c69 hH c t) (Hyps.c70 hH c t) (Hyps.c71 hH c t) (Hyps.c72 hH c t) (Hyps.c73 hH c t) (Hyps.c74 hH c t) (Hyps.c75 hH c t) (Hyps.c76 hH c t) (Hyps.c77 hH c t) (Hyps.c78 hH c t) (Hyps.c79 hH c t) (Hyps.c80 hH c t) (Hyps.c81 hH c t) (Hyps.c82 hH c t) (Hyps.c83 hH c t) (Hyps.c84 hH c t) (Hyps.c85 hH c t) (Hyps.c86 hH c t) (Hyps.c87 hH c t) (Hyps.c88 hH c t) (Hyps.c89 hH c t) (Hyps.c90 hH c t) (Hyps.c91 hH c t) (Hyps.c92 hH c t) (Hyps.c93 hH c t) (Hyps.c94 hH c t) (Hyps.c95 hH c t) (Hyps.c96 hH c t) (Hyps.c97 hH c t) (Hyps.c98 hH c t) (Hyps.c99 hH c t) (Hyps.c100 hH c t) (Hyps.c101 hH c t) (Hyps.c102 hH c t) (Hyps.c103 hH c t) (Hyps.c104 hH c t) (Hyps.c105 hH c t) (Hyps.c106 hH c t) (Hyps.c107 hH c t) (Hyps.c108 hH c t) (Hyps.c109 hH c t) (Hyps.c110 hH c t) (Hyps.c111 hH c t) (Hyps.c112 hH c t) (Hyps.c113 hH c t) (Hyps.c114 hH c t) (Hyps.c115 hH c t) (Hyps.c116 hH c t) (Hyps.c117 hH c t) (Hyps.c118 hH c t) (Hyps.c119 hH c t) (Hyps.c120 hH c t) (Hyps.c121 hH c t) (Hyps.c122 hH c t) (Hyps.c123 hH c t) (Hyps.c124 hH c t) (Hyps.c125 hH c t) (Hyps.c126 hH c t) (Hyps.c127 hH c t) (Hyps.c128 hH c t) (Hyps.c129 hH c t) (Hyps.c130 hH c t) (Hyps.c131 hH c t) (Hyps.c132 hH c t) (Hyps.c133 hH c t) (Hyps.c134 hH c t) (Hyps.c135 hH c t) (Hyps.c136 hH c t) (Hyps.c137 hH c t) (Hyps.c138 hH c t) (Hyps.c139 hH c t) (Hyps.c140 hH c t) (Hyps.c141 hH c t) (Hyps.c142 hH c t) (Hyps.c143 hH c t) (Hyps.c144 hH c t) (Hyps.c145 hH c t) (Hyps.c146 hH c t) (Hyps.c147 hH c t) (Hyps.c148 hH c t) (Hyps.c149 hH c t) (Hyps.c150 hH c t) (Hyps.c151 hH c t) (Hyps.c152 hH c t) (Hyps.c153 hH c t) (Hyps.c154 hH c t) (Hyps.c155 hH c t) (Hyps.c156 hH c t) (Hyps.c157 hH c t) (Hyps.c158 hH c t) (Hyps.c159 hH c t) (Hyps.c160 hH c t) (Hyps.c161 hH c t) (Hyps.c162 hH c t) (Hyps.c163 hH c t) (Hyps.c164 hH c t) (Hyps.c165 hH c t) (Hyps.c166 hH c t) (Hyps.c167 hH c t) (Hyps.c168 hH c t) (Hyps.c169 hH c t) (Hyps.c170 hH c t) (Hyps.c171 hH c t) (Hyps.c172 hH c t) (Hyps.c173 hH c t) (Hyps.c174 hH c t) (Hyps.c175 hH c t) (Hyps.c176 hH c t) (Hyps.c177 hH c t) (Hyps.c178 hH c t) (Hyps.c179 hH c t) (Hyps.c180 hH c t) (Hyps.c181 hH c t) (Hyps.c182 hH c t) (Hyps.c183 hH c t) (Hyps.c184 hH c t) (Hyps.c185 hH c t) (Hyps.c186 hH c t) (Hyps.c187 hH c t) (Hyps.c188 hH c t) (Hyps.c189 hH c t) (Hyps.c190 hH c t) (Hyps.c191 hH c t) (Hyps.c192 hH c t) (Hyps.c193 hH c t) (Hyps.c194 hH c t) (Hyps.c195 hH c t) (Hyps.c196 hH c t) (Hyps.c197 hH c t) (Hyps.c198 hH c t) (Hyps.c199 hH c t) (Hyps.c200 hH c t) (Hyps.c201 hH c t) (Hyps.c202 hH c t) (Hyps.c203 hH c t) (Hyps.c204 hH c t) (Hyps.c205 hH c t) (Hyps.c206 hH c t) (Hyps.c207 hH c t) (Hyps.c208 hH c t) (Hyps.c209 hH c t) (Hyps.c210 hH c t) (Hyps.c211 hH c t) (Hyps.c212 hH c t) (Hyps.c213 hH c t) (Hyps.c214 hH c t) (Hyps.c215 hH c t) (Hyps.c216 hH c t) (Hyps.c217 hH c t) (Hyps.c218 hH c t) (Hyps.c219 hH c t) (Hyps.c220 hH c t) (Hyps.c221 hH c t) (Hyps.c222 hH c t) (Hyps.c223 hH c t) (Hyps.c224 hH c t) (Hyps.c225 hH c t) (Hyps.c226 hH c t) (Hyps.c227 hH c t) (Hyps.c228 hH c t) (Hyps.c229 hH c t) (Hyps.c230 hH c t) (Hyps.c231 hH c t) (Hyps.c232 hH c t) (Hyps.c233 hH c t) (Hyps.c234 hH c t) (Hyps.c235 hH c t) (Hyps.c236 hH c t) (Hyps.c237 hH c t) (Hyps.c238 hH c t) (Hyps.c239 hH c t) (Hyps.c240 hH c t) (Hyps.c241 hH c t) (Hyps.c242 hH c t) (Hyps.c243 hH c t) (Hyps.c244 hH c t) (Hyps.c245 hH c t) (Hyps.c246 hH c t) (Hyps.c247 hH c t) (Hyps.c248 hH c t) (Hyps.c249 hH c t) (Hyps.c250 hH c t) (Hyps.c251 hH c t) (Hyps.c252 hH c t) (Hyps.c253 hH c t) (Hyps.c254 hH c t) (Hyps.c255 hH c t)
    (Cert.KernelIdeal.HypsOfPre.blk0_lt m hR c t) (Cert.KernelIdeal.HypsOfPre.blk1_lt m hR c t)
  rw [e]
  funext y
  obtain ⟨j, q, rfl⟩ : ∃ (j : Fin 128) (q : Fin 384), y = ix2 j q := ⟨y 0, y 1, eq_ix2 y⟩
  show View.canon _ (ix2 j q) = spec m c (((cfg0.win 3).blk t).view.emb (ix2 j q))
  rw [out_emb]
  show _ = Cert.Spec.outAt (F := F) (m ((c : Thread nD τ).loc main_arg0))
    (m ((c : Thread nD τ).loc main_arg1)) (m ((c : Thread nD τ).loc main_arg2)) (rowOf t j) q
  have hA : (V m c main_arg0 : S262144x128.Idx → Elt F .f32) = m ((c : Thread nD τ).loc main_arg0) := V_main_arg0 m c
  have r0 : ∀ a : Fin 128, clampRow 262144 (by decide) ((iblk m c 0 t : S128.Idx → BitVec 32) (ix1 a))
      = atomRow (m ((c : Thread nD τ).loc main_arg2)) (rowOf t a) 0 := fun a => by rw [word0]; rfl
  have r1 : ∀ a : Fin 128, clampRow 262144 (by decide) ((iblk m c 1 t : S128.Idx → BitVec 32) (ix1 a))
      = atomRow (m ((c : Thread nD τ).loc main_arg2)) (rowOf t a) 1 := fun a => by rw [word1]; rfl
  rcases band_cases q with ⟨b, rfl⟩ | ⟨b, rfl⟩ | ⟨b, rfl⟩
  · rw [canon_band0, outAt_band0, bond_at]
  · rw [canon_band1, outAt_band1, hU0, hU1, r0, r1, hA]
  · rw [canon_band2, outAt_band2, hU0, hU1, r0, r1, hA]

end Cert.KernelIdeal.Block

end
-- ==== Proof.KernelIdealFinal.lean ====
/-
  The kernel's result array is the specification.
  Every place (r, q) of the [524288, 384] output lies in the block of exactly one grid point, t = r / 128 (the blocks
  are 128 rows by all 384 columns, one per point, and every point writes its block back), and what point t writes back
  is block t of the specification; so after the run the output array IS the specification of the launch contents of
  the three arguments, which the run leaves unchanged.
-/
import proofs.«419661_j18640158064908_1_alg».proof.Proof.KernelIdealBlock

set_option maxRecDepth 16384

noncomputable section

namespace Cert.KernelIdeal.Final

open Cert.KernelIdeal Cert.KernelIdeal.Gen Cert.KernelIdeal.GenP Cert.KernelIdeal.Blocks Cert.KernelIdeal.Block
open Idealize.ShloMosaic Idealize.ShloMosaic.TcCoe Idealize.SL.Sem Idealize.ShloMosaic.ValueIdx
open Idealize.ShloMosaic.Pipeline (Dat)

variable {F : FTy → Type} [FloatOps F]
variable (m : (ℓ : Loc nD τ sig) → Buf (Elt F) ℓ) (ρ : Dev nD → PrngReg)

/-- Every place of the output array is in the block of the point its row's quotient by 128 names. -/
theorem cover3 (i : S524288x384.Idx) :
    ∃ t : Fin cfg0.N, (cfg0.win 3).flush t = true ∧ i ∈ ((cfg0.win 3).blk t).view.set := by
  have hi0 : (i 0).val < 524288 := idx2_lt0 i
  have hi1 : (i 1).val < 384 := idx2_lt1 i
  let t : Fin cfg0.N := ⟨(i 0).val / 128, by show (i 0).val / 128 < 4096; omega⟩
  let j : Fin 128 := ⟨(i 0).val % 128, Nat.mod_lt _ (by decide)⟩
  refine ⟨t, flush0_3 t, ?_⟩
  have e : i = ((cfg0.win 3).blk t).view.emb (ix2 j (⟨(i 1).val, hi1⟩ : Fin 384)) := by
    rw [out_emb]
    funext a
    apply Fin.ext
    match a with
    | ⟨0, _⟩ => show (i 0).val = (i 0).val / 128 * 128 + (i 0).val % 128; omega
    | ⟨1, _⟩ => rfl
  rw [e]
  exact View.emb_mem_set _ _

/-- The output array after the run. -/
theorem final3 (hH : Hyps m) (hR : Cert.KernelIdeal.HypsOfPre.InRange m) (c : Dev nD) :
    (dats m hH 0 c).arrAt 3 cfg0.N = spec m c :=
  (dats m hH 0 c).arrAt_eq_of_cover 3 (spec m c) (fun t _ => flushed3_eq m hH hR c t) cover3

/-- The run: the result array at the specification, the arguments unchanged. -/
theorem run (hH : Hyps m) (hR : Cert.KernelIdeal.HypsOfPre.InRange m) :
    θ_run defs (onTc (τ := τ) (main (F := F))) ⟨m, fun _ => 0, ρ⟩ fun r => ∀ c : Dev nD,
      r.2.mem ((c : Thread nD τ).loc main_v4) = spec m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final3 m hH hR c), (h c).2⟩)
    (Cert.KernelIdeal.ValueP.run_blocks m ρ hH)

end Cert.KernelIdeal.Final

end
-- ==== Proof.RefValue.lean ====
/-
  The reference computes the specification.
  Read at (r, q), the reference's last stage is a concatenation along the columns of three [524288, 128] pieces: the bond
  features, ½ · (g₀ + g₁) and |g₀ − g₁|, where g_j is the row gather of the feature array at column j of the index
  array. Before each gather the reference replaces a negative index word w by w + 262144; a word in [0, 262144) is not
  negative, so the replacement does nothing, and the gather then reads the row that word names (its clamp into
  [0, 262143] does nothing either). Element (r, q') of g_j is therefore the feature array at (word (r, j), q'), which is
  what the specification reads. The host's absolute value and the kernel's are one function on the extended reals.
-/
import proofs.«419661_j18640158064908_1_alg».proof.Proof.Gen.ReferenceIdeal.Read
import proofs.«419661_j18640158064908_1_alg».proof.Proof.Spec
import Idealize.ShloMosaic.Lib.Pipeline.Value
import Idealize.ShloMosaic.Lib.Affine

noncomputable section

namespace Cert.ReferenceIdeal.RefValue

open Cert.ReferenceIdeal Cert.ReferenceIdeal.Gen Cert.ReferenceIdeal.Read
open Idealize.ShloMosaic Idealize.ShloMosaic.ValueIdx Idealize.ShloMosaic.RowOps Cert.Spec

variable {F : FTy → Type} [FloatOps F]

/-- A word below 262144 (unsigned) is not negative (signed): the comparison with 0 gives the bit 0. -/
theorem not_neg_of_lt (w : BitVec 32) (h : w.toNat < 262144) : IntOp.cmpi .slt w 0#32 = 0#1 := by
  refine eq_zero_of_ne_one (fun h1 => ?_)
  have h2 := IntOp.cmpi_slt.1 h1
  have e0 : (0#32 : BitVec 32).toInt = 0 := by decide
  rw [e0, BitVec.toInt_eq_toNat_cond] at h2
  split at h2 <;> omega

/-- The start index the first gather reads for bond r is column 0 of the index array at r. -/
theorem start0 (x2 : IVec S524288x2 32) (h : ∀ i, (x2 i).toNat < 262144) (r : Fin 524288) :
    val_main_v7 (F := F) x2 (ix2 r 0) = x2 (ix2 r 0) := by
  rw [val_main_v7_apply, val_main_v6_apply, val_main_v3_apply, val_main_v2_apply, val_main_c_apply, val_main_v1_apply,
    val_main_v0_apply]
  have e : idx_main_v0 (idx_main_v1 (idx_main_v7 (ix2 r (0 : Fin 1)))) = ix2 r (0 : Fin 2) := by
    funext a
    match a with
    | ⟨0, _⟩ => exact Fin.ext (by show r.val / 1 = r.val; omega)
    | ⟨1, _⟩ => rfl
  rw [e, not_neg_of_lt _ (h _), select_zero]

/-- The start index the second gather reads for bond r is column 1 of the index array at r. -/
theorem start1 (x2 : IVec S524288x2 32) (h : ∀ i, (x2 i).toNat < 262144) (r : Fin 524288) :
    val_main_v16 (F := F) x2 (ix2 r 0) = x2 (ix2 r 1) := by
  rw [val_main_v16_apply, val_main_v15_apply, val_main_v12_apply, val_main_v11_apply, val_main_c_1_apply, val_main_v10_apply,
    val_main_v9_apply]
  have e : idx_main_v9 (idx_main_v10 (idx_main_v16 (ix2 r (0 : Fin 1)))) = ix2 r (1 : Fin 2) := by
    funext a
    match a with
    | ⟨0, _⟩ => exact Fin.ext (by show r.val / 1 = r.val; omega)
    | ⟨1, _⟩ => rfl
  rw [e, not_neg_of_lt _ (h _), select_zero]

/-- Element (r, q) of the first gather: the feature array at the row endpoint 0 of bond r names. -/
theorem gather0 (x0 : FVec F S262144x128 .f32) (x2 : IVec S524288x2 32) (h : ∀ i, (x2 i).toNat < 262144)
    (r : Fin 524288) (q : Fin 128) : val_main_v8 (F := F) x0 x2 (ix2 r q) = x0 (ix2 (atomRow x2 r 0) q) := by
  unfold val_main_v8
  rw [gather_rows_apply (by decide) _ rfl rfl rfl rfl rfl rfl rfl, start0 x2 h r]
  rfl

/-- Element (r, q) of the second gather: the feature array at the row endpoint 1 of bond r names. -/
theorem gather1 (x0 : FVec F S262144x128 .f32) (x2 : IVec S524288x2 32) (h : ∀ i, (x2 i).toNat < 262144)
    (r : Fin 524288) (q : Fin 128) : val_main_v17 (F := F) x0 x2 (ix2 r q) = x0 (ix2 (atomRow x2 r 1) q) := by
  unfold val_main_v17
  rw [gather_rows_apply (by decide) _ rfl rfl rfl rfl rfl rfl rfl, start1 x2 h r]
  rfl

section Concat
variable {α : Type} (x y z : S524288x128.Idx → α)

/-- Three [524288, 128] pieces joined along the columns, read in the first band. -/
theorem concat_band0 (r : Fin 524288) (q : Fin 128) :
    concatenate S524288x384 1 [⟨S524288x128, x⟩, ⟨S524288x128, y⟩, ⟨S524288x128, z⟩]
      concatenates_S524288x128_S524288x128_S524288x128_S524288x384_d1 (ix2 r (⟨q.val, by omega⟩ : Fin 384)) = x (ix2 r q) :=
  by
    refine concatenate_apply_piece (t := S524288x384) 1 _ _ _ 0 ?_ S524288x128 x ?_ rfl 0 ?_ (ix2 r q) ?_ ?_
    · show (0 : ℕ) < 3; omega
    · rfl
    · rfl
    · intro b hb
      match b with
      | ⟨0, _⟩ => rfl
      | ⟨1, _⟩ => exact absurd rfl hb
    · show 0 + q.val = q.val; omega

/-- … in the second band. -/
theorem concat_band1 (r : Fin 524288) (q : Fin 128) :
    concatenate S524288x384 1 [⟨S524288x128, x⟩, ⟨S524288x128, y⟩, ⟨S524288x128, z⟩]
      concatenates_S524288x128_S524288x128_S524288x128_S524288x384_d1 (ix2 r (⟨128 + q.val, by omega⟩ : Fin 384)) = y (ix2 r q) :=
  by
    refine concatenate_apply_piece (t := S524288x384) 1 _ _ _ 1 ?_ S524288x128 y ?_ rfl 128 ?_ (ix2 r q) ?_ ?_
    · show (1 : ℕ) < 3; omega
    · rfl
    · rfl
    · intro b hb
      match b with
      | ⟨0, _⟩ => rfl
      | ⟨1, _⟩ => exact absurd rfl hb
    · rfl

/-- … in the third band. -/
theorem concat_band2 (r : Fin 524288) (q : Fin 128) :
    concatenate S524288x384 1 [⟨S524288x128, x⟩, ⟨S524288x128, y⟩, ⟨S524288x128, z⟩]
      concatenates_S524288x128_S524288x128_S524288x128_S524288x384_d1 (ix2 r (⟨256 + q.val, by omega⟩ : Fin 384)) = z (ix2 r q) :=
  by
    refine concatenate_apply_piece (t := S524288x384) 1 _ _ _ 2 ?_ S524288x128 z ?_ rfl 256 ?_ (ix2 r q) ?_ ?_
    · show (2 : ℕ) < 3; omega
    · rfl
    · rfl
    · intro b hb
      match b with
      | ⟨0, _⟩ => rfl
      | ⟨1, _⟩ => exact absurd rfl hb
    · rfl

end Concat

/-- A column of the result lies in exactly one band. -/
theorem band_cases (q : Fin 384) :
    (∃ q' : Fin 128, q = ⟨q'.val, by omega⟩) ∨ (∃ q' : Fin 128, q = ⟨128 + q'.val, by omega⟩) ∨
      (∃ q' : Fin 128, q = ⟨256 + q'.val, by omega⟩) := by
  have hq := q.isLt
  by_cases h1 : q.val < 128
  · exact Or.inl ⟨⟨q.val, h1⟩, rfl⟩
  · by_cases h2 : q.val < 256
    · exact Or.inr (Or.inl ⟨⟨q.val - 128, by omega⟩, Fin.ext (by show q.val = 128 + (q.val - 128); omega)⟩)
    · exact Or.inr (Or.inr ⟨⟨q.val - 256, by omega⟩, Fin.ext (by show q.val = 256 + (q.val - 256); omega)⟩)

/-- THE REFERENCE IS THE SPECIFICATION, at the extended reals, when every index word is in range. -/
theorem ref_eq_out (x0 : FVec Ideal S262144x128 .f32) (x1 : FVec Ideal S524288x128 .f32) (x2 : IVec S524288x2 32)
    (h : ∀ i, (x2 i).toNat < 262144) : val_main_v23 (F := Ideal) x0 x1 x2 = Cert.Spec.out (F := Ideal) x0 x1 x2 := by
  funext i
  obtain ⟨r, q, rfl⟩ : ∃ (r : Fin 524288) (q : Fin 384), i = ix2 r q := ⟨i 0, i 1, eq_ix2 i⟩
  rw [out_apply]
  unfold val_main_v23
  rcases band_cases q with ⟨q', rfl⟩ | ⟨q', rfl⟩ | ⟨q', rfl⟩
  · rw [concat_band0, outAt_band0]
  · rw [concat_band1, outAt_band1, val_main_v20_apply, val_main_v19_apply, val_main_cst_apply, val_main_v18_apply,
      gather0 x0 x2 h, gather1 x0 x2 h]
    rfl
  · rw [concat_band2, outAt_band2, val_main_v22_apply, val_main_v21_apply, gather0 x0 x2 h, gather1 x0 x2 h]
    rfl

end Cert.ReferenceIdeal.RefValue

end
-- ==== Proof.lean ====
/-
  The five claims.
  Under the precondition every index word names a row of the feature array (the added conjunct, read at an entry), so
  the side conditions the kernel body assumes hold and its generated frame applies, word-level and idealized alike;
  the reference's frame is its generated run with the result dropped; nothing was rewritten by the idealization, so
  `preserves` is `True`; and at the extended reals both programs end with the specification of the argument arrays —
  the bond's features, the mean of its two atoms' features and the absolute value of their difference, side by side —
  the kernel block by block, the reference operation by operation.
-/
import proofs.«419661_j18640158064908_1_alg».proof.Defs
import proofs.«419661_j18640158064908_1_alg».proof.Proof.Gen.Kernel
import proofs.«419661_j18640158064908_1_alg».proof.Proof.Gen.KernelIdeal
import proofs.«419661_j18640158064908_1_alg».proof.Proof.Gen.ReferenceIdeal
import proofs.«419661_j18640158064908_1_alg».proof.Proof.Gen.Pre_finite_inputs
import proofs.«419661_j18640158064908_1_alg».proof.Proof.KernelFrame
import proofs.«419661_j18640158064908_1_alg».proof.Proof.KernelHyps
import proofs.«419661_j18640158064908_1_alg».proof.Proof.KernelIdealFinal
import proofs.«419661_j18640158064908_1_alg».proof.Proof.RefValue
import Idealize.ShloMosaic.Adequacy
import Idealize.ShloMosaic.Init

noncomputable section

namespace Cert.Proof

open Idealize.ShloMosaic Idealize.SL.Sem

/-- Under the precondition every entry of the word-level kernel's index array is in range. -/
theorem inRange_Kernel (m : (ℓ : Loc Cert.Kernel.nD Cert.Kernel.τ Cert.Kernel.sig) → Buf (Elt Bits) ℓ)
    (h : Cert.Pre_Kernel (hPre_finite_inputs := Cert.Pre_finite_inputs.Gen.facts) m) : Cert.Kernel.HypsOfPre.InRange m :=
  fun c i => Cert.IndexRange.idx_lt (F := Bits) _ _ _ (h c) i

/-- Under the precondition every entry of the idealized kernel's index array is in range. -/
theorem inRange_KernelIdeal (m : (ℓ : Loc Cert.KernelIdeal.nD Cert.KernelIdeal.τ Cert.KernelIdeal.sig) → Buf (Elt Ideal) ℓ)
    (h : Cert.Pre_KernelIdeal (hPre_finite_inputs := Cert.Pre_finite_inputs.Gen.facts) m) : Cert.KernelIdeal.HypsOfPre.InRange m :=
  fun c i => Cert.IndexRange.idx_lt (F := Ideal) _ _ _ (h c) i

theorem frame_k : Cert.frame_Kernel (hKernel := Cert.Kernel.Gen.facts) (hPre_finite_inputs := Cert.Pre_finite_inputs.Gen.facts) :=
  fun m ρ h => Cert.Kernel.GenP.frame m ρ (Cert.Kernel.HypsOfPre.hyps_of_inRange m (inRange_Kernel m h))

theorem frame_ki : Cert.frame_KernelIdeal (hKernelIdeal := Cert.KernelIdeal.Gen.facts) (hPre_finite_inputs := Cert.Pre_finite_inputs.Gen.facts) :=
  fun m ρ h => Cert.KernelIdeal.GenP.frame m ρ (Cert.KernelIdeal.HypsOfPre.hyps_of_inRange m (inRange_KernelIdeal m h))

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Both idealized programs end with the specification of the argument arrays. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  have hR := inRange_KernelIdeal m hpre
  have hH := Cert.KernelIdeal.HypsOfPre.hyps_of_inRange m hR
  refine ⟨fun c => Cert.KernelIdeal.Block.spec m c, Cert.KernelIdeal.Final.run (F := Ideal) m ρ hH hR, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v23_eq, (hagree c).1, (hagree c).2.1, (hagree c).2.2]
  exact Cert.ReferenceIdeal.RefValue.ref_eq_out _ _ _ (fun i => hR c i)

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
